-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S4096x1 .f32 .bf16
  ∧ IdealRules.truncf_extf.Statement Cert.KernelIdeal.S512x1 .f32 .bf16
  ∧ IdealRules.truncf_extf.Statement Cert.KernelIdeal.S512x1 .f32 .bf16
  ∧ IdealRules.truncf_extf.Statement Cert.KernelIdeal.S512x1 .f32 .bf16
  ∧ IdealRules.truncf_extf.Statement Cert.KernelIdeal.S512x1 .f32 .bf16
  ∧ IdealRules.truncf_extf.Statement Cert.KernelIdeal.S512x1 .f32 .bf16
  ∧ IdealRules.truncf_extf.Statement Cert.KernelIdeal.S512x1 .f32 .bf16
  ∧ IdealRules.truncf_extf.Statement Cert.KernelIdeal.S512x1 .f32 .bf16
  ∧ IdealRules.truncf_extf.Statement Cert.KernelIdeal.S512x1 .f32 .bf16
  ∧ IdealRules.truncf_extf.Statement Cert.KernelIdeal.S512x1 .f32 .bf16
  ∧ IdealRules.truncf_extf.Statement Cert.KernelIdeal.S512x1 .f32 .bf16
  ∧ IdealRules.truncf_extf.Statement Cert.KernelIdeal.S512x1 .f32 .bf16
  ∧ IdealRules.truncf_extf.Statement Cert.KernelIdeal.S512x1 .f32 .bf16
  ∧ IdealRules.truncf_extf.Statement Cert.KernelIdeal.S512x1 .f32 .bf16
  ∧ IdealRules.truncf_extf.Statement Cert.KernelIdeal.S512x1 .f32 .bf16
  ∧ IdealRules.truncf_extf.Statement Cert.KernelIdeal.S512x1 .f32 .bf16
  ∧ IdealRules.truncf_extf.Statement Cert.KernelIdeal.S512x1 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : FVec F S8192x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  main_v8
-- ==== Kernel.lean ====
abbrev S8192x128 : Shape := ⟨2, ![8192, 128]⟩
abbrev S1x1 : Shape := ⟨2, ![1, 1]⟩
abbrev S_ : Shape := ⟨0, ![]⟩
abbrev S4096x256 : Shape := ⟨2, ![4096, 256]⟩
abbrev S8192x256 : Shape := ⟨2, ![8192, 256]⟩
abbrev S4096x128 : Shape := ⟨2, ![4096, 128]⟩
abbrev S1x8192 : Shape := ⟨2, ![1, 8192]⟩
abbrev S4096x124 : Shape := ⟨2, ![4096, 124]⟩
abbrev S4096 : Shape := ⟨1, ![4096]⟩
abbrev S4096x1 : Shape := ⟨2, ![4096, 1]⟩
abbrev S512x128 : Shape := ⟨2, ![512, 128]⟩
abbrev S512 : Shape := ⟨1, ![512]⟩
abbrev S512x1 : Shape := ⟨2, ![512, 1]⟩
abbrev S512x124 : Shape := ⟨2, ![512, 124]⟩
abbrev S512x256 : Shape := ⟨2, ![512, 256]⟩
abbrev S4096x512 : Shape := ⟨2, ![4096, 512]⟩
abbrev S1x512 : Shape := ⟨2, ![1, 512]⟩
abbrev S1x4096x1 : Shape := ⟨3, ![1, 4096, 1]⟩
abbrev S1 : Shape := ⟨1, ![1]⟩
abbrev S1x1x1 : Shape := ⟨3, ![1, 1, 1]⟩
abbrev S1x1x8192 : Shape := ⟨3, ![1, 1, 8192]⟩

abbrev nBuf : Space → Nat
  | .hbm => 4
  | .vmem => 8
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S1x1, .f32⟩
  | .hbm, ⟨3, _⟩ => ⟨S_, .f32⟩
  | .local _ .vmem, ⟨0, _⟩ => ⟨S8192x128, .f32⟩
  | .local _ .vmem, ⟨1, _⟩ => ⟨S8192x128, .f32⟩
  | .local _ .vmem, ⟨2, _⟩ => ⟨S1x1, .f32⟩
  | .local _ .vmem, ⟨3, _⟩ => ⟨S4096x256, .bf16⟩
  | .local _ .vmem, ⟨4, _⟩ => ⟨S8192x256, .bf16⟩
  | .local _ .vmem, ⟨5, _⟩ => ⟨S4096x128, .f32⟩
  | .local _ .vmem, ⟨6, _⟩ => ⟨S1x8192, .f32⟩
  | .local _ .vmem, ⟨7, _⟩ => ⟨S1x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![2, 1], ![false, false]⟩

def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_off1 (i : grid0.Coords) : Fin 2 → Nat :=
  let arg0 : BitVec 32 := BitVec.ofNat 32 (i 0).val
  let c4096_i32_142 : BitVec 32 := 4096#32
  let v459 : BitVec 32 := Scalar.muli arg0 c4096_i32_142
  let v460 : Index := Scalar.indexCast v459
  let c0_143 : Index := 0#32
  ![v460.toNat, 0]
def k0_cond3 (i : grid0.Coords) : BitVec 1 :=
  let arg0 : BitVec 32 := BitVec.ofNat 32 (i 0).val
  let c0_i32_5 : BitVec 32 := 0#32
  let v9 : BitVec 1 := Scalar.cmpi .eq arg0 c0_i32_5
  let v10 : BitVec 32 := Scalar.extui v9
  let c0_i32_6 : BitVec 32 := 0#32
  let v11 : BitVec 1 := Scalar.cmpi .ne v10 c0_i32_6
  v11

def k0_off2 (i : grid0.Coords) : Fin 2 → Nat :=
  let arg1 : BitVec 32 := BitVec.ofNat 32 (i 1).val
  let c8192_i32_142 : BitVec 32 := 8192#32
  let v459 : BitVec 32 := Scalar.muli arg1 c8192_i32_142
  let c0_i32_143 : BitVec 32 := 0#32
  let v460 : BitVec 32 := Scalar.addi v459 c0_i32_143
  let v461 : Index := Scalar.indexCast v460
  let c0_144 : Index := 0#32
  ![v461.toNat, 0]
def k0_off3 (i : grid0.Coords) : Fin 2 → Nat :=
  let arg1 : BitVec 32 := BitVec.ofNat 32 (i 1).val
  let c8192_i32_142 : BitVec 32 := 8192#32
  let v459 : BitVec 32 := Scalar.muli arg1 c8192_i32_142
  let c0_i32_143 : BitVec 32 := 0#32
  let v460 : BitVec 32 := Scalar.addi v459 c0_i32_143
  let v472 : Index := Scalar.indexCast v460
  let c0_147 : Index := 0#32
  ![v472.toNat, 0]
def k0_off4 (i : grid0.Coords) : Fin 2 → Nat :=
  let arg1 : BitVec 32 := BitVec.ofNat 32 (i 1).val
  let c8192_i32_142 : BitVec 32 := 8192#32
  let v459 : BitVec 32 := Scalar.muli arg1 c8192_i32_142
  let c0_i32_143 : BitVec 32 := 0#32
  let v460 : BitVec 32 := Scalar.addi v459 c0_i32_143
  let v476 : Index := Scalar.indexCast v460
  let c128 : Index := 128#32
  ![v476.toNat, 128]
def k0_off5 (i : grid0.Coords) : Fin 2 → Nat :=
  let arg1 : BitVec 32 := BitVec.ofNat 32 (i 1).val
  let c8192_i32_142 : BitVec 32 := 8192#32
  let v459 : BitVec 32 := Scalar.muli arg1 c8192_i32_142
  let c0_i32_143 : BitVec 32 := 0#32
  let v460 : BitVec 32 := Scalar.addi v459 c0_i32_143
  let v480 : Index := Scalar.indexCast v460
  let c129 : Index := 129#32
  ![v480.toNat, 129]
def k0_off6 (i : grid0.Coords) : Fin 2 → Nat :=
  let arg1 : BitVec 32 := BitVec.ofNat 32 (i 1).val
  let c8192_i32_142 : BitVec 32 := 8192#32
  let v459 : BitVec 32 := Scalar.muli arg1 c8192_i32_142
  let c0_i32_143 : BitVec 32 := 0#32
  let v460 : BitVec 32 := Scalar.addi v459 c0_i32_143
  let v484 : Index := Scalar.indexCast v460
  let c130 : Index := 130#32
  ![v484.toNat, 130]
def k0_off7 (i : grid0.Coords) : Fin 2 → Nat :=
  let arg1 : BitVec 32 := BitVec.ofNat 32 (i 1).val
  let c8192_i32_142 : BitVec 32 := 8192#32
  let v459 : BitVec 32 := Scalar.muli arg1 c8192_i32_142
  let c0_i32_143 : BitVec 32 := 0#32
  let v460 : BitVec 32 := Scalar.addi v459 c0_i32_143
  let v488 : Index := Scalar.indexCast v460
  let c131 : Index := 131#32
  ![v488.toNat, 131]
def k0_off8 (i : grid0.Coords) : Fin 2 → Nat :=
  let arg1 : BitVec 32 := BitVec.ofNat 32 (i 1).val
  let c8192_i32_142 : BitVec 32 := 8192#32
  let v459 : BitVec 32 := Scalar.muli arg1 c8192_i32_142
  let c0_i32_143 : BitVec 32 := 0#32
  let v460 : BitVec 32 := Scalar.addi v459 c0_i32_143
  let v493 : Index := Scalar.indexCast v460
  let c132 : Index := 132#32
  ![v493.toNat, 132]
def k0_cond4 (i : grid0.Coords) : BitVec 1 :=
  let arg0 : BitVec 32 := BitVec.ofNat 32 (i 0).val
  let c0_i32_7 : BitVec 32 := 0#32
  let v12 : BitVec 1 := Scalar.cmpi .eq arg0 c0_i32_7
  let v13 : BitVec 32 := Scalar.extui v12
  let c0_i32_8 : BitVec 32 := 0#32
  let v14 : BitVec 1 := Scalar.cmpi .ne v13 c0_i32_8
  v14

def k0_off9 (i : grid0.Coords) : Fin 2 → Nat :=
  let arg1 : BitVec 32 := BitVec.ofNat 32 (i 1).val
  let c8192_i32_142 : BitVec 32 := 8192#32
  let v459 : BitVec 32 := Scalar.muli arg1 c8192_i32_142
  let c512_i32_143 : BitVec 32 := 512#32
  let v460 : BitVec 32 := Scalar.addi v459 c512_i32_143
  let v461 : Index := Scalar.indexCast v460
  let c0_144 : Index := 0#32
  ![v461.toNat, 0]
def k0_off10 (i : grid0.Coords) : Fin 2 → Nat :=
  let arg1 : BitVec 32 := BitVec.ofNat 32 (i 1).val
  let c8192_i32_142 : BitVec 32 := 8192#32
  let v459 : BitVec 32 := Scalar.muli arg1 c8192_i32_142
  let c512_i32_143 : BitVec 32 := 512#32
  let v460 : BitVec 32 := Scalar.addi v459 c512_i32_143
  let v472 : Index := Scalar.indexCast v460
  let c0_147 : Index := 0#32
  ![v472.toNat, 0]
def k0_off11 (i : grid0.Coords) : Fin 2 → Nat :=
  let arg1 : BitVec 32 := BitVec.ofNat 32 (i 1).val
  let c8192_i32_142 : BitVec 32 := 8192#32
  let v459 : BitVec 32 := Scalar.muli arg1 c8192_i32_142
  let c512_i32_143 : BitVec 32 := 512#32
  let v460 : BitVec 32 := Scalar.addi v459 c512_i32_143
  let v476 : Index := Scalar.indexCast v460
  let c128 : Index := 128#32
  ![v476.toNat, 128]
def k0_off12 (i : grid0.Coords) : Fin 2 → Nat :=
  let arg1 : BitVec 32 := BitVec.ofNat 32 (i 1).val
  let c8192_i32_142 : BitVec 32 := 8192#32
  let v459 : BitVec 32 := Scalar.muli arg1 c8192_i32_142
  let c512_i32_143 : BitVec 32 := 512#32
  let v460 : BitVec 32 := Scalar.addi v459 c512_i32_143
  let v480 : Index := Scalar.indexCast v460
  let c129 : Index := 129#32
  ![v480.toNat, 129]
def k0_off13 (i : grid0.Coords) : Fin 2 → Nat :=
  let arg1 : BitVec 32 := BitVec.ofNat 32 (i 1).val
  let c8192_i32_142 : BitVec 32 := 8192#32
  let v459 : BitVec 32 := Scalar.muli arg1 c8192_i32_142
  let c512_i32_143 : BitVec 32 := 512#32
  let v460 : BitVec 32 := Scalar.addi v459 c512_i32_143
  let v484 : Index := Scalar.indexCast v460
  let c130 : Index := 130#32
  ![v484.toNat, 130]
def k0_off14 (i : grid0.Coords) : Fin 2 → Nat :=
  let arg1 : BitVec 32 := BitVec.ofNat 32 (i 1).val
  let c8192_i32_142 : BitVec 32 := 8192#32
  let v459 : BitVec 32 := Scalar.muli arg1 c8192_i32_142
  let c512_i32_143 : BitVec 32 := 512#32
  let v460 : BitVec 32 := Scalar.addi v459 c512_i32_143
  let v488 : Index := Scalar.indexCast v460
  let c131 : Index := 131#32
  ![v488.toNat, 131]
def k0_off15 (i : grid0.Coords) : Fin 2 → Nat :=
  let arg1 : BitVec 32 := BitVec.ofNat 32 (i 1).val
  let c8192_i32_142 : BitVec 32 := 8192#32
  let v459 : BitVec 32 := Scalar.muli arg1 c8192_i32_142
  let c512_i32_143 : BitVec 32 := 512#32
  let v460 : BitVec 32 := Scalar.addi v459 c512_i32_143
  let v493 : Index := Scalar.indexCast v460
  let c132 : Index := 132#32
  ![v493.toNat, 132]
def k0_off16 (i : grid0.Coords) (c0_i32_9 : BitVec 32) : Fin 2 → Nat :=
  let arg1 : BitVec 32 := BitVec.ofNat 32 (i 1).val
  let c8192_i32 : BitVec 32 := 8192#32
  let v15 : BitVec 32 := Scalar.muli arg1 c8192_i32
  let v16 : BitVec 32 := Scalar.addi v15 c0_i32_9
  let v17 : Index := Scalar.indexCast v16
  let c0_10 : Index := 0#32
  ![v17.toNat, 0]
def k0_cond5 (i : grid0.Coords) : BitVec 1 :=
  let arg0 : BitVec 32 := BitVec.ofNat 32 (i 0).val
  let c0_i32_11 : BitVec 32 := 0#32
  let v20 : BitVec 1 := Scalar.cmpi .eq arg0 c0_i32_11
  let v21 : BitVec 32 := Scalar.extui v20
  let c0_i32_12 : BitVec 32 := 0#32
  let v22 : BitVec 1 := Scalar.cmpi .ne v21 c0_i32_12
  v22

def k0_off17 (i : grid0.Coords) : Fin 2 → Nat :=
  let arg1 : BitVec 32 := BitVec.ofNat 32 (i 1).val
  let c8192_i32_142 : BitVec 32 := 8192#32
  let v459 : BitVec 32 := Scalar.muli arg1 c8192_i32_142
  let c1024_i32_143 : BitVec 32 := 1024#32
  let v460 : BitVec 32 := Scalar.addi v459 c1024_i32_143
  let v461 : Index := Scalar.indexCast v460
  let c0_144 : Index := 0#32
  ![v461.toNat, 0]
def k0_off18 (i : grid0.Coords) : Fin 2 → Nat :=
  let arg1 : BitVec 32 := BitVec.ofNat 32 (i 1).val
  let c8192_i32_142 : BitVec 32 := 8192#32
  let v459 : BitVec 32 := Scalar.muli arg1 c8192_i32_142
  let c1024_i32_143 : BitVec 32 := 1024#32
  let v460 : BitVec 32 := Scalar.addi v459 c1024_i32_143
  let v472 : Index := Scalar.indexCast v460
  let c0_147 : Index := 0#32
  ![v472.toNat, 0]
def k0_off19 (i : grid0.Coords) : Fin 2 → Nat :=
  let arg1 : BitVec 32 := BitVec.ofNat 32 (i 1).val
  let c8192_i32_142 : BitVec 32 := 8192#32
  let v459 : BitVec 32 := Scalar.muli arg1 c8192_i32_142
  let c1024_i32_143 : BitVec 32 := 1024#32
  let v460 : BitVec 32 := Scalar.addi v459 c1024_i32_143
  let v476 : Index := Scalar.indexCast v460
  let c128 : Index := 128#32
  ![v476.toNat, 128]
def k0_off20 (i : grid0.Coords) : Fin 2 → Nat :=
  let arg1 : BitVec 32 := BitVec.ofNat 32 (i 1).val
  let c8192_i32_142 : BitVec 32 := 8192#32
  let v459 : BitVec 32 := Scalar.muli arg1 c8192_i32_142
  let c1024_i32_143 : BitVec 32 := 1024#32
  let v460 : BitVec 32 := Scalar.addi v459 c1024_i32_143
  let v480 : Index := Scalar.indexCast v460
  let c129 : Index := 129#32
  ![v480.toNat, 129]
def k0_off21 (i : grid0.Coords) : Fin 2 → Nat :=
  let arg1 : BitVec 32 := BitVec.ofNat 32 (i 1).val
  let c8192_i32_142 : BitVec 32 := 8192#32
  let v459 : BitVec 32 := Scalar.muli arg1 c8192_i32_142
  let c1024_i32_143 : BitVec 32 := 1024#32
  let v460 : BitVec 32 := Scalar.addi v459 c1024_i32_143
  let v484 : Index := Scalar.indexCast v460
  let c130 : Index := 130#32
  ![v484.toNat, 130]
def k0_off22 (i : grid0.Coords) : Fin 2 → Nat :=
  let arg1 : BitVec 32 := BitVec.ofNat 32 (i 1).val
  let c8192_i32_142 : BitVec 32 := 8192#32
  let v459 : BitVec 32 := Scalar.muli arg1 c8192_i32_142
  let c1024_i32_143 : BitVec 32 := 1024#32
  let v460 : BitVec 32 := Scalar.addi v459 c1024_i32_143
  let v488 : Index := Scalar.indexCast v460
  let c131 : Index := 131#32
  ![v488.toNat, 131]
def k0_off23 (i : grid0.Coords) : Fin 2 → Nat :=
  let arg1 : BitVec 32 := BitVec.ofNat 32 (i 1).val
  let c8192_i32_142 : BitVec 32 := 8192#32
  let v459 : BitVec 32 := Scalar.muli arg1 c8192_i32_142
  let c1024_i32_143 : BitVec 32 := 1024#32
  let v460 : BitVec 32 := Scalar.addi v459 c1024_i32_143
  let v493 : Index := Scalar.indexCast v460
  let c132 : Index := 132#32
  ![v493.toNat, 132]
def k0_off24 (i : grid0.Coords) : Fin 2 → Nat :=
  let arg1 : BitVec 32 := BitVec.ofNat 32 (i 1).val
  let v37 : Index := Scalar.indexCast arg1
  let c0_17 : Index := 0#32
  ![v37.toNat, 0]
def k0_cond6 (i : grid0.Coords) : BitVec 1 :=
  let arg0 : BitVec 32 := BitVec.ofNat 32 (i 0).val
  let c0_i32_20 : BitVec 32 := 0#32
  let v46 : BitVec 1 := Scalar.cmpi .eq arg0 c0_i32_20
  let v47 : BitVec 32 := Scalar.extui v46
  let c0_i32_21 : BitVec 32 := 0#32
  let v48 : BitVec 1 := Scalar.cmpi .ne v47 c0_i32_21
  v48

def k0_off25 (i : grid0.Coords) : Fin 2 → Nat :=
  let arg1 : BitVec 32 := BitVec.ofNat 32 (i 1).val
  let c8192_i32_142 : BitVec 32 := 8192#32
  let v459 : BitVec 32 := Scalar.muli arg1 c8192_i32_142
  let c1536_i32_143 : BitVec 32 := 1536#32
  let v460 : BitVec 32 := Scalar.addi v459 c1536_i32_143
  let v461 : Index := Scalar.indexCast v460
  let c0_144 : Index := 0#32
  ![v461.toNat, 0]
def k0_off26 (i : grid0.Coords) : Fin 2 → Nat :=
  let arg1 : BitVec 32 := BitVec.ofNat 32 (i 1).val
  let c8192_i32_142 : BitVec 32 := 8192#32
  let v459 : BitVec 32 := Scalar.muli arg1 c8192_i32_142
  let c1536_i32_143 : BitVec 32 := 1536#32
  let v460 : BitVec 32 := Scalar.addi v459 c1536_i32_143
  let v472 : Index := Scalar.indexCast v460
  let c0_147 : Index := 0#32
  ![v472.toNat, 0]
def k0_off27 (i : grid0.Coords) : Fin 2 → Nat :=
  let arg1 : BitVec 32 := BitVec.ofNat 32 (i 1).val
  let c8192_i32_142 : BitVec 32 := 8192#32
  let v459 : BitVec 32 := Scalar.muli arg1 c8192_i32_142
  let c1536_i32_143 : BitVec 32 := 1536#32
  let v460 : BitVec 32 := Scalar.addi v459 c1536_i32_143
  let v476 : Index := Scalar.indexCast v460
  let c128 : Index := 128#32
  ![v476.toNat, 128]
def k0_off28 (i : grid0.Coords) : Fin 2 → Nat :=
  let arg1 : BitVec 32 := BitVec.ofNat 32 (i 1).val
  let c8192_i32_142 : BitVec 32 := 8192#32
  let v459 : BitVec 32 := Scalar.muli arg1 c8192_i32_142
  let c1536_i32_143 : BitVec 32 := 1536#32
  let v460 : BitVec 32 := Scalar.addi v459 c1536_i32_143
  let v480 : Index := Scalar.indexCast v460
  let c129 : Index := 129#32
  ![v480.toNat, 129]
def k0_off29 (i : grid0.Coords) : Fin 2 → Nat :=
  let arg1 : BitVec 32 := BitVec.ofNat 32 (i 1).val
  let c8192_i32_142 : BitVec 32 := 8192#32
  let v459 : BitVec 32 := Scalar.muli arg1 c8192_i32_142
  let c1536_i32_143 : BitVec 32 := 1536#32
  let v460 : BitVec 32 := Scalar.addi v459 c1536_i32_143
  let v484 : Index := Scalar.indexCast v460
  let c130 : Index := 130#32
  ![v484.toNat, 130]
def k0_off30 (i : grid0.Coords) : Fin 2 → Nat :=
  let arg1 : BitVec 32 := BitVec.ofNat 32 (i 1).val
  let c8192_i32_142 : BitVec 32 := 8192#32
  let v459 : BitVec 32 := Scalar.muli arg1 c8192_i32_142
  let c1536_i32_143 : BitVec 32 := 1536#32
  let v460 : BitVec 32 := Scalar.addi v459 c1536_i32_143
  let v488 : Index := Scalar.indexCast v460
  let c131 : Index := 131#32
  ![v488.toNat, 131]
def k0_off31 (i : grid0.Coords) : Fin 2 → Nat :=
  let arg1 : BitVec 32 := BitVec.ofNat 32 (i 1).val
  let c8192_i32_142 : BitVec 32 := 8192#32
  let v459 : BitVec 32 := Scalar.muli arg1 c8192_i32_142
  let c1536_i32_143 : BitVec 32 := 1536#32
  let v460 : BitVec 32 := Scalar.addi v459 c1536_i32_143
  let v493 : Index := Scalar.indexCast v460
  let c132 : Index := 132#32
  ![v493.toNat, 132]
def k0_off32 (i : grid0.Coords) : Fin 2 → Nat :=
  let arg1 : BitVec 32 := BitVec.ofNat 32 (i 1).val
  let v64 : Index := Scalar.indexCast arg1
  let c512 : Index := 512#32
  ![v64.toNat, 512]
def k0_cond7 (i : grid0.Coords) : BitVec 1 :=
  let arg0 : BitVec 32 := BitVec.ofNat 32 (i 0).val
  let c0_i32_28 : BitVec 32 := 0#32
  let v73 : BitVec 1 := Scalar.cmpi .eq arg0 c0_i32_28
  let v74 : BitVec 32 := Scalar.extui v73
  let c0_i32_29 : BitVec 32 := 0#32
  let v75 : BitVec 1 := Scalar.cmpi .ne v74 c0_i32_29
  v75

def k0_off33 (i : grid0.Coords) : Fin 2 → Nat :=
  let arg1 : BitVec 32 := BitVec.ofNat 32 (i 1).val
  let c8192_i32_142 : BitVec 32 := 8192#32
  let v459 : BitVec 32 := Scalar.muli arg1 c8192_i32_142
  let c2048_i32_143 : BitVec 32 := 2048#32
  let v460 : BitVec 32 := Scalar.addi v459 c2048_i32_143
  let v461 : Index := Scalar.indexCast v460
  let c0_144 : Index := 0#32
  ![v461.toNat, 0]
def k0_off34 (i : grid0.Coords) : Fin 2 → Nat :=
  let arg1 : BitVec 32 := BitVec.ofNat 32 (i 1).val
  let c8192_i32_142 : BitVec 32 := 8192#32
  let v459 : BitVec 32 := Scalar.muli arg1 c8192_i32_142
  let c2048_i32_143 : BitVec 32 := 2048#32
  let v460 : BitVec 32 := Scalar.addi v459 c2048_i32_143
  let v472 : Index := Scalar.indexCast v460
  let c0_147 : Index := 0#32
  ![v472.toNat, 0]
def k0_off35 (i : grid0.Coords) : Fin 2 → Nat :=
  let arg1 : BitVec 32 := BitVec.ofNat 32 (i 1).val
  let c8192_i32_142 : BitVec 32 := 8192#32
  let v459 : BitVec 32 := Scalar.muli arg1 c8192_i32_142
  let c2048_i32_143 : BitVec 32 := 2048#32
  let v460 : BitVec 32 := Scalar.addi v459 c2048_i32_143
  let v476 : Index := Scalar.indexCast v460
  let c128 : Index := 128#32
  ![v476.toNat, 128]
def k0_off36 (i : grid0.Coords) : Fin 2 → Nat :=
  let arg1 : BitVec 32 := BitVec.ofNat 32 (i 1).val
  let c8192_i32_142 : BitVec 32 := 8192#32
  let v459 : BitVec 32 := Scalar.muli arg1 c8192_i32_142
  let c2048_i32_143 : BitVec 32 := 2048#32
  let v460 : BitVec 32 := Scalar.addi v459 c2048_i32_143
  let v480 : Index := Scalar.indexCast v460
  let c129 : Index := 129#32
  ![v480.toNat, 129]
def k0_off37 (i : grid0.Coords) : Fin 2 → Nat :=
  let arg1 : BitVec 32 := BitVec.ofNat 32 (i 1).val
  let c8192_i32_142 : BitVec 32 := 8192#32
  let v459 : BitVec 32 := Scalar.muli arg1 c8192_i32_142
  let c2048_i32_143 : BitVec 32 := 2048#32
  let v460 : BitVec 32 := Scalar.addi v459 c2048_i32_143
  let v484 : Index := Scalar.indexCast v460
  let c130 : Index := 130#32
  ![v484.toNat, 130]
def k0_off38 (i : grid0.Coords) : Fin 2 → Nat :=
  let arg1 : BitVec 32 := BitVec.ofNat 32 (i 1).val
  let c8192_i32_142 : BitVec 32 := 8192#32
  let v459 : BitVec 32 := Scalar.muli arg1 c8192_i32_142
  let c2048_i32_143 : BitVec 32 := 2048#32
  let v460 : BitVec 32 := Scalar.addi v459 c2048_i32_143
  let v488 : Index := Scalar.indexCast v460
  let c131 : Index := 131#32
  ![v488.toNat, 131]
def k0_off39 (i : grid0.Coords) : Fin 2 → Nat :=
  let arg1 : BitVec 32 := BitVec.ofNat 32 (i 1).val
  let c8192_i32_142 : BitVec 32 := 8192#32
  let v459 : BitVec 32 := Scalar.muli arg1 c8192_i32_142
  let c2048_i32_143 : BitVec 32 := 2048#32
  let v460 : BitVec 32 := Scalar.addi v459 c2048_i32_143
  let v493 : Index := Scalar.indexCast v460
  let c132 : Index := 132#32
  ![v493.toNat, 132]
def k0_off40 (i : grid0.Coords) : Fin 2 → Nat :=
  let arg1 : BitVec 32 := BitVec.ofNat 32 (i 1).val
  let v91 : Index := Scalar.indexCast arg1
  let c1024 : Index := 1024#32
  ![v91.toNat, 1024]
def k0_cond8 (i : grid0.Coords) : BitVec 1 :=
  let arg0 : BitVec 32 := BitVec.ofNat 32 (i 0).val
  let c0_i32_36 : BitVec 32 := 0#32
  let v100 : BitVec 1 := Scalar.cmpi .eq arg0 c0_i32_36
  let v101 : BitVec 32 := Scalar.extui v100
  let c0_i32_37 : BitVec 32 := 0#32
  let v102 : BitVec 1 := Scalar.cmpi .ne v101 c0_i32_37
  v102

def k0_off41 (i : grid0.Coords) : Fin 2 → Nat :=
  let arg1 : BitVec 32 := BitVec.ofNat 32 (i 1).val
  let c8192_i32_142 : BitVec 32 := 8192#32
  let v459 : BitVec 32 := Scalar.muli arg1 c8192_i32_142
  let c2560_i32_143 : BitVec 32 := 2560#32
  let v460 : BitVec 32 := Scalar.addi v459 c2560_i32_143
  let v461 : Index := Scalar.indexCast v460
  let c0_144 : Index := 0#32
  ![v461.toNat, 0]
def k0_off42 (i : grid0.Coords) : Fin 2 → Nat :=
  let arg1 : BitVec 32 := BitVec.ofNat 32 (i 1).val
  let c8192_i32_142 : BitVec 32 := 8192#32
  let v459 : BitVec 32 := Scalar.muli arg1 c8192_i32_142
  let c2560_i32_143 : BitVec 32 := 2560#32
  let v460 : BitVec 32 := Scalar.addi v459 c2560_i32_143
  let v472 : Index := Scalar.indexCast v460
  let c0_147 : Index := 0#32
  ![v472.toNat, 0]
def k0_off43 (i : grid0.Coords) : Fin 2 → Nat :=
  let arg1 : BitVec 32 := BitVec.ofNat 32 (i 1).val
  let c8192_i32_142 : BitVec 32 := 8192#32
  let v459 : BitVec 32 := Scalar.muli arg1 c8192_i32_142
  let c2560_i32_143 : BitVec 32 := 2560#32
  let v460 : BitVec 32 := Scalar.addi v459 c2560_i32_143
  let v476 : Index := Scalar.indexCast v460
  let c128 : Index := 128#32
  ![v476.toNat, 128]
def k0_off44 (i : grid0.Coords) : Fin 2 → Nat :=
  let arg1 : BitVec 32 := BitVec.ofNat 32 (i 1).val
  let c8192_i32_142 : BitVec 32 := 8192#32
  let v459 : BitVec 32 := Scalar.muli arg1 c8192_i32_142
  let c2560_i32_143 : BitVec 32 := 2560#32
  let v460 : BitVec 32 := Scalar.addi v459 c2560_i32_143
  let v480 : Index := Scalar.indexCast v460
  let c129 : Index := 129#32
  ![v480.toNat, 129]
def k0_off45 (i : grid0.Coords) : Fin 2 → Nat :=
  let arg1 : BitVec 32 := BitVec.ofNat 32 (i 1).val
  let c8192_i32_142 : BitVec 32 := 8192#32
  let v459 : BitVec 32 := Scalar.muli arg1 c8192_i32_142
  let c2560_i32_143 : BitVec 32 := 2560#32
  let v460 : BitVec 32 := Scalar.addi v459 c2560_i32_143
  let v484 : Index := Scalar.indexCast v460
  let c130 : Index := 130#32
  ![v484.toNat, 130]
def k0_off46 (i : grid0.Coords) : Fin 2 → Nat :=
  let arg1 : BitVec 32 := BitVec.ofNat 32 (i 1).val
  let c8192_i32_142 : BitVec 32 := 8192#32
  let v459 : BitVec 32 := Scalar.muli arg1 c8192_i32_142
  let c2560_i32_143 : BitVec 32 := 2560#32
  let v460 : BitVec 32 := Scalar.addi v459 c2560_i32_143
  let v488 : Index := Scalar.indexCast v460
  let c131 : Index := 131#32
  ![v488.toNat, 131]
def k0_off47 (i : grid0.Coords) : Fin 2 → Nat :=
  let arg1 : BitVec 32 := BitVec.ofNat 32 (i 1).val
  let c8192_i32_142 : BitVec 32 := 8192#32
  let v459 : BitVec 32 := Scalar.muli arg1 c8192_i32_142
  let c2560_i32_143 : BitVec 32 := 2560#32
  let v460 : BitVec 32 := Scalar.addi v459 c2560_i32_143
  let v493 : Index := Scalar.indexCast v460
  let c132 : Index := 132#32
  ![v493.toNat, 132]
def k0_off48 (i : grid0.Coords) : Fin 2 → Nat :=
  let arg1 : BitVec 32 := BitVec.ofNat 32 (i 1).val
  let v118 : Index := Scalar.indexCast arg1
  let c1536 : Index := 1536#32
  ![v118.toNat, 1536]
def k0_cond9 (i : grid0.Coords) : BitVec 1 :=
  let arg0 : BitVec 32 := BitVec.ofNat 32 (i 0).val
  let c0_i32_44 : BitVec 32 := 0#32
  let v127 : BitVec 1 := Scalar.cmpi .eq arg0 c0_i32_44
  let v128 : BitVec 32 := Scalar.extui v127
  let c0_i32_45 : BitVec 32 := 0#32
  let v129 : BitVec 1 := Scalar.cmpi .ne v128 c0_i32_45
  v129

def k0_off49 (i : grid0.Coords) : Fin 2 → Nat :=
  let arg1 : BitVec 32 := BitVec.ofNat 32 (i 1).val
  let c8192_i32_142 : BitVec 32 := 8192#32
  let v459 : BitVec 32 := Scalar.muli arg1 c8192_i32_142
  let c3072_i32_143 : BitVec 32 := 3072#32
  let v460 : BitVec 32 := Scalar.addi v459 c3072_i32_143
  let v461 : Index := Scalar.indexCast v460
  let c0_144 : Index := 0#32
  ![v461.toNat, 0]
def k0_off50 (i : grid0.Coords) : Fin 2 → Nat :=
  let arg1 : BitVec 32 := BitVec.ofNat 32 (i 1).val
  let c8192_i32_142 : BitVec 32 := 8192#32
  let v459 : BitVec 32 := Scalar.muli arg1 c8192_i32_142
  let c3072_i32_143 : BitVec 32 := 3072#32
  let v460 : BitVec 32 := Scalar.addi v459 c3072_i32_143
  let v472 : Index := Scalar.indexCast v460
  let c0_147 : Index := 0#32
  ![v472.toNat, 0]
def k0_off51 (i : grid0.Coords) : Fin 2 → Nat :=
  let arg1 : BitVec 32 := BitVec.ofNat 32 (i 1).val
  let c8192_i32_142 : BitVec 32 := 8192#32
  let v459 : BitVec 32 := Scalar.muli arg1 c8192_i32_142
  let c3072_i32_143 : BitVec 32 := 3072#32
  let v460 : BitVec 32 := Scalar.addi v459 c3072_i32_143
  let v476 : Index := Scalar.indexCast v460
  let c128 : Index := 128#32
  ![v476.toNat, 128]
def k0_off52 (i : grid0.Coords) : Fin 2 → Nat :=
  let arg1 : BitVec 32 := BitVec.ofNat 32 (i 1).val
  let c8192_i32_142 : BitVec 32 := 8192#32
  let v459 : BitVec 32 := Scalar.muli arg1 c8192_i32_142
  let c3072_i32_143 : BitVec 32 := 3072#32
  let v460 : BitVec 32 := Scalar.addi v459 c3072_i32_143
  let v480 : Index := Scalar.indexCast v460
  let c129 : Index := 129#32
  ![v480.toNat, 129]
def k0_off53 (i : grid0.Coords) : Fin 2 → Nat :=
  let arg1 : BitVec 32 := BitVec.ofNat 32 (i 1).val
  let c8192_i32_142 : BitVec 32 := 8192#32
  let v459 : BitVec 32 := Scalar.muli arg1 c8192_i32_142
  let c3072_i32_143 : BitVec 32 := 3072#32
  let v460 : BitVec 32 := Scalar.addi v459 c3072_i32_143
  let v484 : Index := Scalar.indexCast v460
  let c130 : Index := 130#32
  ![v484.toNat, 130]
def k0_off54 (i : grid0.Coords) : Fin 2 → Nat :=
  let arg1 : BitVec 32 := BitVec.ofNat 32 (i 1).val
  let c8192_i32_142 : BitVec 32 := 8192#32
  let v459 : BitVec 32 := Scalar.muli arg1 c8192_i32_142
  let c3072_i32_143 : BitVec 32 := 3072#32
  let v460 : BitVec 32 := Scalar.addi v459 c3072_i32_143
  let v488 : Index := Scalar.indexCast v460
  let c131 : Index := 131#32
  ![v488.toNat, 131]
def k0_off55 (i : grid0.Coords) : Fin 2 → Nat :=
  let arg1 : BitVec 32 := BitVec.ofNat 32 (i 1).val
  let c8192_i32_142 : BitVec 32 := 8192#32
  let v459 : BitVec 32 := Scalar.muli arg1 c8192_i32_142
  let c3072_i32_143 : BitVec 32 := 3072#32
  let v460 : BitVec 32 := Scalar.addi v459 c3072_i32_143
  let v493 : Index := Scalar.indexCast v460
  let c132 : Index := 132#32
  ![v493.toNat, 132]
def k0_off56 (i : grid0.Coords) : Fin 2 → Nat :=
  let arg1 : BitVec 32 := BitVec.ofNat 32 (i 1).val
  let v145 : Index := Scalar.indexCast arg1
  let c2048 : Index := 2048#32
  ![v145.toNat, 2048]
def k0_cond10 (i : grid0.Coords) : BitVec 1 :=
  let arg0 : BitVec 32 := BitVec.ofNat 32 (i 0).val
  let c0_i32_52 : BitVec 32 := 0#32
  let v154 : BitVec 1 := Scalar.cmpi .eq arg0 c0_i32_52
  let v155 : BitVec 32 := Scalar.extui v154
  let c0_i32_53 : BitVec 32 := 0#32
  let v156 : BitVec 1 := Scalar.cmpi .ne v155 c0_i32_53
  v156

def k0_off57 (i : grid0.Coords) : Fin 2 → Nat :=
  let arg1 : BitVec 32 := BitVec.ofNat 32 (i 1).val
  let c8192_i32_142 : BitVec 32 := 8192#32
  let v459 : BitVec 32 := Scalar.muli arg1 c8192_i32_142
  let c3584_i32_143 : BitVec 32 := 3584#32
  let v460 : BitVec 32 := Scalar.addi v459 c3584_i32_143
  let v461 : Index := Scalar.indexCast v460
  let c0_144 : Index := 0#32
  ![v461.toNat, 0]
def k0_off58 (i : grid0.Coords) : Fin 2 → Nat :=
  let arg1 : BitVec 32 := BitVec.ofNat 32 (i 1).val
  let c8192_i32_142 : BitVec 32 := 8192#32
  let v459 : BitVec 32 := Scalar.muli arg1 c8192_i32_142
  let c3584_i32_143 : BitVec 32 := 3584#32
  let v460 : BitVec 32 := Scalar.addi v459 c3584_i32_143
  let v472 : Index := Scalar.indexCast v460
  let c0_147 : Index := 0#32
  ![v472.toNat, 0]
def k0_off59 (i : grid0.Coords) : Fin 2 → Nat :=
  let arg1 : BitVec 32 := BitVec.ofNat 32 (i 1).val
  let c8192_i32_142 : BitVec 32 := 8192#32
  let v459 : BitVec 32 := Scalar.muli arg1 c8192_i32_142
  let c3584_i32_143 : BitVec 32 := 3584#32
  let v460 : BitVec 32 := Scalar.addi v459 c3584_i32_143
  let v476 : Index := Scalar.indexCast v460
  let c128 : Index := 128#32
  ![v476.toNat, 128]
def k0_off60 (i : grid0.Coords) : Fin 2 → Nat :=
  let arg1 : BitVec 32 := BitVec.ofNat 32 (i 1).val
  let c8192_i32_142 : BitVec 32 := 8192#32
  let v459 : BitVec 32 := Scalar.muli arg1 c8192_i32_142
  let c3584_i32_143 : BitVec 32 := 3584#32
  let v460 : BitVec 32 := Scalar.addi v459 c3584_i32_143
  let v480 : Index := Scalar.indexCast v460
  let c129 : Index := 129#32
  ![v480.toNat, 129]
def k0_off61 (i : grid0.Coords) : Fin 2 → Nat :=
  let arg1 : BitVec 32 := BitVec.ofNat 32 (i 1).val
  let c8192_i32_142 : BitVec 32 := 8192#32
  let v459 : BitVec 32 := Scalar.muli arg1 c8192_i32_142
  let c3584_i32_143 : BitVec 32 := 3584#32
  let v460 : BitVec 32 := Scalar.addi v459 c3584_i32_143
  let v484 : Index := Scalar.indexCast v460
  let c130 : Index := 130#32
  ![v484.toNat, 130]
def k0_off62 (i : grid0.Coords) : Fin 2 → Nat :=
  let arg1 : BitVec 32 := BitVec.ofNat 32 (i 1).val
  let c8192_i32_142 : BitVec 32 := 8192#32
  let v459 : BitVec 32 := Scalar.muli arg1 c8192_i32_142
  let c3584_i32_143 : BitVec 32 := 3584#32
  let v460 : BitVec 32 := Scalar.addi v459 c3584_i32_143
  let v488 : Index := Scalar.indexCast v460
  let c131 : Index := 131#32
  ![v488.toNat, 131]
def k0_off63 (i : grid0.Coords) : Fin 2 → Nat :=
  let arg1 : BitVec 32 := BitVec.ofNat 32 (i 1).val
  let c8192_i32_142 : BitVec 32 := 8192#32
  let v459 : BitVec 32 := Scalar.muli arg1 c8192_i32_142
  let c3584_i32_143 : BitVec 32 := 3584#32
  let v460 : BitVec 32 := Scalar.addi v459 c3584_i32_143
  let v493 : Index := Scalar.indexCast v460
  let c132 : Index := 132#32
  ![v493.toNat, 132]
def k0_off64 (i : grid0.Coords) : Fin 2 → Nat :=
  let arg1 : BitVec 32 := BitVec.ofNat 32 (i 1).val
  let v172 : Index := Scalar.indexCast arg1
  let c2560 : Index := 2560#32
  ![v172.toNat, 2560]
def k0_cond11 (i : grid0.Coords) : BitVec 1 :=
  let arg0 : BitVec 32 := BitVec.ofNat 32 (i 0).val
  let c0_i32_60 : BitVec 32 := 0#32
  let v181 : BitVec 1 := Scalar.cmpi .eq arg0 c0_i32_60
  let v182 : BitVec 32 := Scalar.extui v181
  let c0_i32_61 : BitVec 32 := 0#32
  let v183 : BitVec 1 := Scalar.cmpi .ne v182 c0_i32_61
  v183

def k0_off65 (i : grid0.Coords) : Fin 2 → Nat :=
  let arg1 : BitVec 32 := BitVec.ofNat 32 (i 1).val
  let c8192_i32_142 : BitVec 32 := 8192#32
  let v459 : BitVec 32 := Scalar.muli arg1 c8192_i32_142
  let c4096_i32_143 : BitVec 32 := 4096#32
  let v460 : BitVec 32 := Scalar.addi v459 c4096_i32_143
  let v461 : Index := Scalar.indexCast v460
  let c0_144 : Index := 0#32
  ![v461.toNat, 0]
def k0_off66 (i : grid0.Coords) : Fin 2 → Nat :=
  let arg1 : BitVec 32 := BitVec.ofNat 32 (i 1).val
  let c8192_i32_142 : BitVec 32 := 8192#32
  let v459 : BitVec 32 := Scalar.muli arg1 c8192_i32_142
  let c4096_i32_143 : BitVec 32 := 4096#32
  let v460 : BitVec 32 := Scalar.addi v459 c4096_i32_143
  let v472 : Index := Scalar.indexCast v460
  let c0_147 : Index := 0#32
  ![v472.toNat, 0]
def k0_off67 (i : grid0.Coords) : Fin 2 → Nat :=
  let arg1 : BitVec 32 := BitVec.ofNat 32 (i 1).val
  let c8192_i32_142 : BitVec 32 := 8192#32
  let v459 : BitVec 32 := Scalar.muli arg1 c8192_i32_142
  let c4096_i32_143 : BitVec 32 := 4096#32
  let v460 : BitVec 32 := Scalar.addi v459 c4096_i32_143
  let v476 : Index := Scalar.indexCast v460
  let c128 : Index := 128#32
  ![v476.toNat, 128]
def k0_off68 (i : grid0.Coords) : Fin 2 → Nat :=
  let arg1 : BitVec 32 := BitVec.ofNat 32 (i 1).val
  let c8192_i32_142 : BitVec 32 := 8192#32
  let v459 : BitVec 32 := Scalar.muli arg1 c8192_i32_142
  let c4096_i32_143 : BitVec 32 := 4096#32
  let v460 : BitVec 32 := Scalar.addi v459 c4096_i32_143
  let v480 : Index := Scalar.indexCast v460
  let c129 : Index := 129#32
  ![v480.toNat, 129]
def k0_off69 (i : grid0.Coords) : Fin 2 → Nat :=
  let arg1 : BitVec 32 := BitVec.ofNat 32 (i 1).val
  let c8192_i32_142 : BitVec 32 := 8192#32
  let v459 : BitVec 32 := Scalar.muli arg1 c8192_i32_142
  let c4096_i32_143 : BitVec 32 := 4096#32
  let v460 : BitVec 32 := Scalar.addi v459 c4096_i32_143
  let v484 : Index := Scalar.indexCast v460
  let c130 : Index := 130#32
  ![v484.toNat, 130]
def k0_off70 (i : grid0.Coords) : Fin 2 → Nat :=
  let arg1 : BitVec 32 := BitVec.ofNat 32 (i 1).val
  let c8192_i32_142 : BitVec 32 := 8192#32
  let v459 : BitVec 32 := Scalar.muli arg1 c8192_i32_142
  let c4096_i32_143 : BitVec 32 := 4096#32
  let v460 : BitVec 32 := Scalar.addi v459 c4096_i32_143
  let v488 : Index := Scalar.indexCast v460
  let c131 : Index := 131#32
  ![v488.toNat, 131]
def k0_off71 (i : grid0.Coords) : Fin 2 → Nat :=
  let arg1 : BitVec 32 := BitVec.ofNat 32 (i 1).val
  let c8192_i32_142 : BitVec 32 := 8192#32
  let v459 : BitVec 32 := Scalar.muli arg1 c8192_i32_142
  let c4096_i32_143 : BitVec 32 := 4096#32
  let v460 : BitVec 32 := Scalar.addi v459 c4096_i32_143
  let v493 : Index := Scalar.indexCast v460
  let c132 : Index := 132#32
  ![v493.toNat, 132]
def k0_off72 (i : grid0.Coords) : Fin 2 → Nat :=
  let arg1 : BitVec 32 := BitVec.ofNat 32 (i 1).val
  let v199 : Index := Scalar.indexCast arg1
  let c3072 : Index := 3072#32
  ![v199.toNat, 3072]
def k0_cond12 (i : grid0.Coords) : BitVec 1 :=
  let arg0 : BitVec 32 := BitVec.ofNat 32 (i 0).val
  let c0_i32_68 : BitVec 32 := 0#32
  let v208 : BitVec 1 := Scalar.cmpi .eq arg0 c0_i32_68
  let v209 : BitVec 32 := Scalar.extui v208
  let c0_i32_69 : BitVec 32 := 0#32
  let v210 : BitVec 1 := Scalar.cmpi .ne v209 c0_i32_69
  v210

def k0_off73 (i : grid0.Coords) : Fin 2 → Nat :=
  let arg1 : BitVec 32 := BitVec.ofNat 32 (i 1).val
  let c8192_i32_142 : BitVec 32 := 8192#32
  let v459 : BitVec 32 := Scalar.muli arg1 c8192_i32_142
  let c4608_i32_143 : BitVec 32 := 4608#32
  let v460 : BitVec 32 := Scalar.addi v459 c4608_i32_143
  let v461 : Index := Scalar.indexCast v460
  let c0_144 : Index := 0#32
  ![v461.toNat, 0]
def k0_off74 (i : grid0.Coords) : Fin 2 → Nat :=
  let arg1 : BitVec 32 := BitVec.ofNat 32 (i 1).val
  let c8192_i32_142 : BitVec 32 := 8192#32
  let v459 : BitVec 32 := Scalar.muli arg1 c8192_i32_142
  let c4608_i32_143 : BitVec 32 := 4608#32
  let v460 : BitVec 32 := Scalar.addi v459 c4608_i32_143
  let v472 : Index := Scalar.indexCast v460
  let c0_147 : Index := 0#32
  ![v472.toNat, 0]
def k0_off75 (i : grid0.Coords) : Fin 2 → Nat :=
  let arg1 : BitVec 32 := BitVec.ofNat 32 (i 1).val
  let c8192_i32_142 : BitVec 32 := 8192#32
  let v459 : BitVec 32 := Scalar.muli arg1 c8192_i32_142
  let c4608_i32_143 : BitVec 32 := 4608#32
  let v460 : BitVec 32 := Scalar.addi v459 c4608_i32_143
  let v476 : Index := Scalar.indexCast v460
  let c128 : Index := 128#32
  ![v476.toNat, 128]
def k0_off76 (i : grid0.Coords) : Fin 2 → Nat :=
  let arg1 : BitVec 32 := BitVec.ofNat 32 (i 1).val
  let c8192_i32_142 : BitVec 32 := 8192#32
  let v459 : BitVec 32 := Scalar.muli arg1 c8192_i32_142
  let c4608_i32_143 : BitVec 32 := 4608#32
  let v460 : BitVec 32 := Scalar.addi v459 c4608_i32_143
  let v480 : Index := Scalar.indexCast v460
  let c129 : Index := 129#32
  ![v480.toNat, 129]
def k0_off77 (i : grid0.Coords) : Fin 2 → Nat :=
  let arg1 : BitVec 32 := BitVec.ofNat 32 (i 1).val
  let c8192_i32_142 : BitVec 32 := 8192#32
  let v459 : BitVec 32 := Scalar.muli arg1 c8192_i32_142
  let c4608_i32_143 : BitVec 32 := 4608#32
  let v460 : BitVec 32 := Scalar.addi v459 c4608_i32_143
  let v484 : Index := Scalar.indexCast v460
  let c130 : Index := 130#32
  ![v484.toNat, 130]
def k0_off78 (i : grid0.Coords) : Fin 2 → Nat :=
  let arg1 : BitVec 32 := BitVec.ofNat 32 (i 1).val
  let c8192_i32_142 : BitVec 32 := 8192#32
  let v459 : BitVec 32 := Scalar.muli arg1 c8192_i32_142
  let c4608_i32_143 : BitVec 32 := 4608#32
  let v460 : BitVec 32 := Scalar.addi v459 c4608_i32_143
  let v488 : Index := Scalar.indexCast v460
  let c131 : Index := 131#32
  ![v488.toNat, 131]
def k0_off79 (i : grid0.Coords) : Fin 2 → Nat :=
  let arg1 : BitVec 32 := BitVec.ofNat 32 (i 1).val
  let c8192_i32_142 : BitVec 32 := 8192#32
  let v459 : BitVec 32 := Scalar.muli arg1 c8192_i32_142
  let c4608_i32_143 : BitVec 32 := 4608#32
  let v460 : BitVec 32 := Scalar.addi v459 c4608_i32_143
  let v493 : Index := Scalar.indexCast v460
  let c132 : Index := 132#32
  ![v493.toNat, 132]
def k0_off80 (i : grid0.Coords) : Fin 2 → Nat :=
  let arg1 : BitVec 32 := BitVec.ofNat 32 (i 1).val
  let v226 : Index := Scalar.indexCast arg1
  let c3584 : Index := 3584#32
  ![v226.toNat, 3584]
def k0_cond13 (i : grid0.Coords) : BitVec 1 :=
  let arg0 : BitVec 32 := BitVec.ofNat 32 (i 0).val
  let c0_i32_76 : BitVec 32 := 0#32
  let v235 : BitVec 1 := Scalar.cmpi .eq arg0 c0_i32_76
  let v236 : BitVec 32 := Scalar.extui v235
  let c0_i32_77 : BitVec 32 := 0#32
  let v237 : BitVec 1 := Scalar.cmpi .ne v236 c0_i32_77
  v237

def k0_off81 (i : grid0.Coords) : Fin 2 → Nat :=
  let arg1 : BitVec 32 := BitVec.ofNat 32 (i 1).val
  let c8192_i32_142 : BitVec 32 := 8192#32
  let v459 : BitVec 32 := Scalar.muli arg1 c8192_i32_142
  let c5120_i32_143 : BitVec 32 := 5120#32
  let v460 : BitVec 32 := Scalar.addi v459 c5120_i32_143
  let v461 : Index := Scalar.indexCast v460
  let c0_144 : Index := 0#32
  ![v461.toNat, 0]
def k0_off82 (i : grid0.Coords) : Fin 2 → Nat :=
  let arg1 : BitVec 32 := BitVec.ofNat 32 (i 1).val
  let c8192_i32_142 : BitVec 32 := 8192#32
  let v459 : BitVec 32 := Scalar.muli arg1 c8192_i32_142
  let c5120_i32_143 : BitVec 32 := 5120#32
  let v460 : BitVec 32 := Scalar.addi v459 c5120_i32_143
  let v472 : Index := Scalar.indexCast v460
  let c0_147 : Index := 0#32
  ![v472.toNat, 0]
def k0_off83 (i : grid0.Coords) : Fin 2 → Nat :=
  let arg1 : BitVec 32 := BitVec.ofNat 32 (i 1).val
  let c8192_i32_142 : BitVec 32 := 8192#32
  let v459 : BitVec 32 := Scalar.muli arg1 c8192_i32_142
  let c5120_i32_143 : BitVec 32 := 5120#32
  let v460 : BitVec 32 := Scalar.addi v459 c5120_i32_143
  let v476 : Index := Scalar.indexCast v460
  let c128 : Index := 128#32
  ![v476.toNat, 128]
def k0_off84 (i : grid0.Coords) : Fin 2 → Nat :=
  let arg1 : BitVec 32 := BitVec.ofNat 32 (i 1).val
  let c8192_i32_142 : BitVec 32 := 8192#32
  let v459 : BitVec 32 := Scalar.muli arg1 c8192_i32_142
  let c5120_i32_143 : BitVec 32 := 5120#32
  let v460 : BitVec 32 := Scalar.addi v459 c5120_i32_143
  let v480 : Index := Scalar.indexCast v460
  let c129 : Index := 129#32
  ![v480.toNat, 129]
def k0_off85 (i : grid0.Coords) : Fin 2 → Nat :=
  let arg1 : BitVec 32 := BitVec.ofNat 32 (i 1).val
  let c8192_i32_142 : BitVec 32 := 8192#32
  let v459 : BitVec 32 := Scalar.muli arg1 c8192_i32_142
  let c5120_i32_143 : BitVec 32 := 5120#32
  let v460 : BitVec 32 := Scalar.addi v459 c5120_i32_143
  let v484 : Index := Scalar.indexCast v460
  let c130 : Index := 130#32
  ![v484.toNat, 130]
def k0_off86 (i : grid0.Coords) : Fin 2 → Nat :=
  let arg1 : BitVec 32 := BitVec.ofNat 32 (i 1).val
  let c8192_i32_142 : BitVec 32 := 8192#32
  let v459 : BitVec 32 := Scalar.muli arg1 c8192_i32_142
  let c5120_i32_143 : BitVec 32 := 5120#32
  let v460 : BitVec 32 := Scalar.addi v459 c5120_i32_143
  let v488 : Index := Scalar.indexCast v460
  let c131 : Index := 131#32
  ![v488.toNat, 131]
def k0_off87 (i : grid0.Coords) : Fin 2 → Nat :=
  let arg1 : BitVec 32 := BitVec.ofNat 32 (i 1).val
  let c8192_i32_142 : BitVec 32 := 8192#32
  let v459 : BitVec 32 := Scalar.muli arg1 c8192_i32_142
  let c5120_i32_143 : BitVec 32 := 5120#32
  let v460 : BitVec 32 := Scalar.addi v459 c5120_i32_143
  let v493 : Index := Scalar.indexCast v460
  let c132 : Index := 132#32
  ![v493.toNat, 132]
def k0_off88 (i : grid0.Coords) : Fin 2 → Nat :=
  let arg1 : BitVec 32 := BitVec.ofNat 32 (i 1).val
  let v253 : Index := Scalar.indexCast arg1
  let c4096 : Index := 4096#32
  ![v253.toNat, 4096]
def k0_cond14 (i : grid0.Coords) : BitVec 1 :=
  let arg0 : BitVec 32 := BitVec.ofNat 32 (i 0).val
  let c0_i32_84 : BitVec 32 := 0#32
  let v262 : BitVec 1 := Scalar.cmpi .eq arg0 c0_i32_84
  let v263 : BitVec 32 := Scalar.extui v262
  let c0_i32_85 : BitVec 32 := 0#32
  let v264 : BitVec 1 := Scalar.cmpi .ne v263 c0_i32_85
  v264

def k0_off89 (i : grid0.Coords) : Fin 2 → Nat :=
  let arg1 : BitVec 32 := BitVec.ofNat 32 (i 1).val
  let c8192_i32_142 : BitVec 32 := 8192#32
  let v459 : BitVec 32 := Scalar.muli arg1 c8192_i32_142
  let c5632_i32_143 : BitVec 32 := 5632#32
  let v460 : BitVec 32 := Scalar.addi v459 c5632_i32_143
  let v461 : Index := Scalar.indexCast v460
  let c0_144 : Index := 0#32
  ![v461.toNat, 0]
def k0_off90 (i : grid0.Coords) : Fin 2 → Nat :=
  let arg1 : BitVec 32 := BitVec.ofNat 32 (i 1).val
  let c8192_i32_142 : BitVec 32 := 8192#32
  let v459 : BitVec 32 := Scalar.muli arg1 c8192_i32_142
  let c5632_i32_143 : BitVec 32 := 5632#32
  let v460 : BitVec 32 := Scalar.addi v459 c5632_i32_143
  let v472 : Index := Scalar.indexCast v460
  let c0_147 : Index := 0#32
  ![v472.toNat, 0]
def k0_off91 (i : grid0.Coords) : Fin 2 → Nat :=
  let arg1 : BitVec 32 := BitVec.ofNat 32 (i 1).val
  let c8192_i32_142 : BitVec 32 := 8192#32
  let v459 : BitVec 32 := Scalar.muli arg1 c8192_i32_142
  let c5632_i32_143 : BitVec 32 := 5632#32
  let v460 : BitVec 32 := Scalar.addi v459 c5632_i32_143
  let v476 : Index := Scalar.indexCast v460
  let c128 : Index := 128#32
  ![v476.toNat, 128]
def k0_off92 (i : grid0.Coords) : Fin 2 → Nat :=
  let arg1 : BitVec 32 := BitVec.ofNat 32 (i 1).val
  let c8192_i32_142 : BitVec 32 := 8192#32
  let v459 : BitVec 32 := Scalar.muli arg1 c8192_i32_142
  let c5632_i32_143 : BitVec 32 := 5632#32
  let v460 : BitVec 32 := Scalar.addi v459 c5632_i32_143
  let v480 : Index := Scalar.indexCast v460
  let c129 : Index := 129#32
  ![v480.toNat, 129]
def k0_off93 (i : grid0.Coords) : Fin 2 → Nat :=
  let arg1 : BitVec 32 := BitVec.ofNat 32 (i 1).val
  let c8192_i32_142 : BitVec 32 := 8192#32
  let v459 : BitVec 32 := Scalar.muli arg1 c8192_i32_142
  let c5632_i32_143 : BitVec 32 := 5632#32
  let v460 : BitVec 32 := Scalar.addi v459 c5632_i32_143
  let v484 : Index := Scalar.indexCast v460
  let c130 : Index := 130#32
  ![v484.toNat, 130]
def k0_off94 (i : grid0.Coords) : Fin 2 → Nat :=
  let arg1 : BitVec 32 := BitVec.ofNat 32 (i 1).val
  let c8192_i32_142 : BitVec 32 := 8192#32
  let v459 : BitVec 32 := Scalar.muli arg1 c8192_i32_142
  let c5632_i32_143 : BitVec 32 := 5632#32
  let v460 : BitVec 32 := Scalar.addi v459 c5632_i32_143
  let v488 : Index := Scalar.indexCast v460
  let c131 : Index := 131#32
  ![v488.toNat, 131]
def k0_off95 (i : grid0.Coords) : Fin 2 → Nat :=
  let arg1 : BitVec 32 := BitVec.ofNat 32 (i 1).val
  let c8192_i32_142 : BitVec 32 := 8192#32
  let v459 : BitVec 32 := Scalar.muli arg1 c8192_i32_142
  let c5632_i32_143 : BitVec 32 := 5632#32
  let v460 : BitVec 32 := Scalar.addi v459 c5632_i32_143
  let v493 : Index := Scalar.indexCast v460
  let c132 : Index := 132#32
  ![v493.toNat, 132]
def k0_off96 (i : grid0.Coords) : Fin 2 → Nat :=
  let arg1 : BitVec 32 := BitVec.ofNat 32 (i 1).val
  let v280 : Index := Scalar.indexCast arg1
  let c4608 : Index := 4608#32
  ![v280.toNat, 4608]
def k0_cond15 (i : grid0.Coords) : BitVec 1 :=
  let arg0 : BitVec 32 := BitVec.ofNat 32 (i 0).val
  let c0_i32_92 : BitVec 32 := 0#32
  let v289 : BitVec 1 := Scalar.cmpi .eq arg0 c0_i32_92
  let v290 : BitVec 32 := Scalar.extui v289
  let c0_i32_93 : BitVec 32 := 0#32
  let v291 : BitVec 1 := Scalar.cmpi .ne v290 c0_i32_93
  v291

def k0_off97 (i : grid0.Coords) : Fin 2 → Nat :=
  let arg1 : BitVec 32 := BitVec.ofNat 32 (i 1).val
  let c8192_i32_142 : BitVec 32 := 8192#32
  let v459 : BitVec 32 := Scalar.muli arg1 c8192_i32_142
  let c6144_i32_143 : BitVec 32 := 6144#32
  let v460 : BitVec 32 := Scalar.addi v459 c6144_i32_143
  let v461 : Index := Scalar.indexCast v460
  let c0_144 : Index := 0#32
  ![v461.toNat, 0]
def k0_off98 (i : grid0.Coords) : Fin 2 → Nat :=
  let arg1 : BitVec 32 := BitVec.ofNat 32 (i 1).val
  let c8192_i32_142 : BitVec 32 := 8192#32
  let v459 : BitVec 32 := Scalar.muli arg1 c8192_i32_142
  let c6144_i32_143 : BitVec 32 := 6144#32
  let v460 : BitVec 32 := Scalar.addi v459 c6144_i32_143
  let v472 : Index := Scalar.indexCast v460
  let c0_147 : Index := 0#32
  ![v472.toNat, 0]
def k0_off99 (i : grid0.Coords) : Fin 2 → Nat :=
  let arg1 : BitVec 32 := BitVec.ofNat 32 (i 1).val
  let c8192_i32_142 : BitVec 32 := 8192#32
  let v459 : BitVec 32 := Scalar.muli arg1 c8192_i32_142
  let c6144_i32_143 : BitVec 32 := 6144#32
  let v460 : BitVec 32 := Scalar.addi v459 c6144_i32_143
  let v476 : Index := Scalar.indexCast v460
  let c128 : Index := 128#32
  ![v476.toNat, 128]
def k0_off100 (i : grid0.Coords) : Fin 2 → Nat :=
  let arg1 : BitVec 32 := BitVec.ofNat 32 (i 1).val
  let c8192_i32_142 : BitVec 32 := 8192#32
  let v459 : BitVec 32 := Scalar.muli arg1 c8192_i32_142
  let c6144_i32_143 : BitVec 32 := 6144#32
  let v460 : BitVec 32 := Scalar.addi v459 c6144_i32_143
  let v480 : Index := Scalar.indexCast v460
  let c129 : Index := 129#32
  ![v480.toNat, 129]
def k0_off101 (i : grid0.Coords) : Fin 2 → Nat :=
  let arg1 : BitVec 32 := BitVec.ofNat 32 (i 1).val
  let c8192_i32_142 : BitVec 32 := 8192#32
  let v459 : BitVec 32 := Scalar.muli arg1 c8192_i32_142
  let c6144_i32_143 : BitVec 32 := 6144#32
  let v460 : BitVec 32 := Scalar.addi v459 c6144_i32_143
  let v484 : Index := Scalar.indexCast v460
  let c130 : Index := 130#32
  ![v484.toNat, 130]
def k0_off102 (i : grid0.Coords) : Fin 2 → Nat :=
  let arg1 : BitVec 32 := BitVec.ofNat 32 (i 1).val
  let c8192_i32_142 : BitVec 32 := 8192#32
  let v459 : BitVec 32 := Scalar.muli arg1 c8192_i32_142
  let c6144_i32_143 : BitVec 32 := 6144#32
  let v460 : BitVec 32 := Scalar.addi v459 c6144_i32_143
  let v488 : Index := Scalar.indexCast v460
  let c131 : Index := 131#32
  ![v488.toNat, 131]
def k0_off103 (i : grid0.Coords) : Fin 2 → Nat :=
  let arg1 : BitVec 32 := BitVec.ofNat 32 (i 1).val
  let c8192_i32_142 : BitVec 32 := 8192#32
  let v459 : BitVec 32 := Scalar.muli arg1 c8192_i32_142
  let c6144_i32_143 : BitVec 32 := 6144#32
  let v460 : BitVec 32 := Scalar.addi v459 c6144_i32_143
  let v493 : Index := Scalar.indexCast v460
  let c132 : Index := 132#32
  ![v493.toNat, 132]
def k0_off104 (i : grid0.Coords) : Fin 2 → Nat :=
  let arg1 : BitVec 32 := BitVec.ofNat 32 (i 1).val
  let v307 : Index := Scalar.indexCast arg1
  let c5120 : Index := 5120#32
  ![v307.toNat, 5120]
def k0_cond16 (i : grid0.Coords) : BitVec 1 :=
  let arg0 : BitVec 32 := BitVec.ofNat 32 (i 0).val
  let c0_i32_100 : BitVec 32 := 0#32
  let v316 : BitVec 1 := Scalar.cmpi .eq arg0 c0_i32_100
  let v317 : BitVec 32 := Scalar.extui v316
  let c0_i32_101 : BitVec 32 := 0#32
  let v318 : BitVec 1 := Scalar.cmpi .ne v317 c0_i32_101
  v318

def k0_off105 (i : grid0.Coords) : Fin 2 → Nat :=
  let arg1 : BitVec 32 := BitVec.ofNat 32 (i 1).val
  let c8192_i32_142 : BitVec 32 := 8192#32
  let v459 : BitVec 32 := Scalar.muli arg1 c8192_i32_142
  let c6656_i32_143 : BitVec 32 := 6656#32
  let v460 : BitVec 32 := Scalar.addi v459 c6656_i32_143
  let v461 : Index := Scalar.indexCast v460
  let c0_144 : Index := 0#32
  ![v461.toNat, 0]
def k0_off106 (i : grid0.Coords) : Fin 2 → Nat :=
  let arg1 : BitVec 32 := BitVec.ofNat 32 (i 1).val
  let c8192_i32_142 : BitVec 32 := 8192#32
  let v459 : BitVec 32 := Scalar.muli arg1 c8192_i32_142
  let c6656_i32_143 : BitVec 32 := 6656#32
  let v460 : BitVec 32 := Scalar.addi v459 c6656_i32_143
  let v472 : Index := Scalar.indexCast v460
  let c0_147 : Index := 0#32
  ![v472.toNat, 0]
def k0_off107 (i : grid0.Coords) : Fin 2 → Nat :=
  let arg1 : BitVec 32 := BitVec.ofNat 32 (i 1).val
  let c8192_i32_142 : BitVec 32 := 8192#32
  let v459 : BitVec 32 := Scalar.muli arg1 c8192_i32_142
  let c6656_i32_143 : BitVec 32 := 6656#32
  let v460 : BitVec 32 := Scalar.addi v459 c6656_i32_143
  let v476 : Index := Scalar.indexCast v460
  let c128 : Index := 128#32
  ![v476.toNat, 128]
def k0_off108 (i : grid0.Coords) : Fin 2 → Nat :=
  let arg1 : BitVec 32 := BitVec.ofNat 32 (i 1).val
  let c8192_i32_142 : BitVec 32 := 8192#32
  let v459 : BitVec 32 := Scalar.muli arg1 c8192_i32_142
  let c6656_i32_143 : BitVec 32 := 6656#32
  let v460 : BitVec 32 := Scalar.addi v459 c6656_i32_143
  let v480 : Index := Scalar.indexCast v460
  let c129 : Index := 129#32
  ![v480.toNat, 129]
def k0_off109 (i : grid0.Coords) : Fin 2 → Nat :=
  let arg1 : BitVec 32 := BitVec.ofNat 32 (i 1).val
  let c8192_i32_142 : BitVec 32 := 8192#32
  let v459 : BitVec 32 := Scalar.muli arg1 c8192_i32_142
  let c6656_i32_143 : BitVec 32 := 6656#32
  let v460 : BitVec 32 := Scalar.addi v459 c6656_i32_143
  let v484 : Index := Scalar.indexCast v460
  let c130 : Index := 130#32
  ![v484.toNat, 130]
def k0_off110 (i : grid0.Coords) : Fin 2 → Nat :=
  let arg1 : BitVec 32 := BitVec.ofNat 32 (i 1).val
  let c8192_i32_142 : BitVec 32 := 8192#32
  let v459 : BitVec 32 := Scalar.muli arg1 c8192_i32_142
  let c6656_i32_143 : BitVec 32 := 6656#32
  let v460 : BitVec 32 := Scalar.addi v459 c6656_i32_143
  let v488 : Index := Scalar.indexCast v460
  let c131 : Index := 131#32
  ![v488.toNat, 131]
def k0_off111 (i : grid0.Coords) : Fin 2 → Nat :=
  let arg1 : BitVec 32 := BitVec.ofNat 32 (i 1).val
  let c8192_i32_142 : BitVec 32 := 8192#32
  let v459 : BitVec 32 := Scalar.muli arg1 c8192_i32_142
  let c6656_i32_143 : BitVec 32 := 6656#32
  let v460 : BitVec 32 := Scalar.addi v459 c6656_i32_143
  let v493 : Index := Scalar.indexCast v460
  let c132 : Index := 132#32
  ![v493.toNat, 132]
def k0_off112 (i : grid0.Coords) : Fin 2 → Nat :=
  let arg1 : BitVec 32 := BitVec.ofNat 32 (i 1).val
  let v334 : Index := Scalar.indexCast arg1
  let c5632 : Index := 5632#32
  ![v334.toNat, 5632]
def k0_cond17 (i : grid0.Coords) : BitVec 1 :=
  let arg0 : BitVec 32 := BitVec.ofNat 32 (i 0).val
  let c0_i32_108 : BitVec 32 := 0#32
  let v343 : BitVec 1 := Scalar.cmpi .eq arg0 c0_i32_108
  let v344 : BitVec 32 := Scalar.extui v343
  let c0_i32_109 : BitVec 32 := 0#32
  let v345 : BitVec 1 := Scalar.cmpi .ne v344 c0_i32_109
  v345

def k0_off113 (i : grid0.Coords) : Fin 2 → Nat :=
  let arg1 : BitVec 32 := BitVec.ofNat 32 (i 1).val
  let c8192_i32_142 : BitVec 32 := 8192#32
  let v459 : BitVec 32 := Scalar.muli arg1 c8192_i32_142
  let c7168_i32_143 : BitVec 32 := 7168#32
  let v460 : BitVec 32 := Scalar.addi v459 c7168_i32_143
  let v461 : Index := Scalar.indexCast v460
  let c0_144 : Index := 0#32
  ![v461.toNat, 0]
def k0_off114 (i : grid0.Coords) : Fin 2 → Nat :=
  let arg1 : BitVec 32 := BitVec.ofNat 32 (i 1).val
  let c8192_i32_142 : BitVec 32 := 8192#32
  let v459 : BitVec 32 := Scalar.muli arg1 c8192_i32_142
  let c7168_i32_143 : BitVec 32 := 7168#32
  let v460 : BitVec 32 := Scalar.addi v459 c7168_i32_143
  let v472 : Index := Scalar.indexCast v460
  let c0_147 : Index := 0#32
  ![v472.toNat, 0]
def k0_off115 (i : grid0.Coords) : Fin 2 → Nat :=
  let arg1 : BitVec 32 := BitVec.ofNat 32 (i 1).val
  let c8192_i32_142 : BitVec 32 := 8192#32
  let v459 : BitVec 32 := Scalar.muli arg1 c8192_i32_142
  let c7168_i32_143 : BitVec 32 := 7168#32
  let v460 : BitVec 32 := Scalar.addi v459 c7168_i32_143
  let v476 : Index := Scalar.indexCast v460
  let c128 : Index := 128#32
  ![v476.toNat, 128]
def k0_off116 (i : grid0.Coords) : Fin 2 → Nat :=
  let arg1 : BitVec 32 := BitVec.ofNat 32 (i 1).val
  let c8192_i32_142 : BitVec 32 := 8192#32
  let v459 : BitVec 32 := Scalar.muli arg1 c8192_i32_142
  let c7168_i32_143 : BitVec 32 := 7168#32
  let v460 : BitVec 32 := Scalar.addi v459 c7168_i32_143
  let v480 : Index := Scalar.indexCast v460
  let c129 : Index := 129#32
  ![v480.toNat, 129]
def k0_off117 (i : grid0.Coords) : Fin 2 → Nat :=
  let arg1 : BitVec 32 := BitVec.ofNat 32 (i 1).val
  let c8192_i32_142 : BitVec 32 := 8192#32
  let v459 : BitVec 32 := Scalar.muli arg1 c8192_i32_142
  let c7168_i32_143 : BitVec 32 := 7168#32
  let v460 : BitVec 32 := Scalar.addi v459 c7168_i32_143
  let v484 : Index := Scalar.indexCast v460
  let c130 : Index := 130#32
  ![v484.toNat, 130]
def k0_off118 (i : grid0.Coords) : Fin 2 → Nat :=
  let arg1 : BitVec 32 := BitVec.ofNat 32 (i 1).val
  let c8192_i32_142 : BitVec 32 := 8192#32
  let v459 : BitVec 32 := Scalar.muli arg1 c8192_i32_142
  let c7168_i32_143 : BitVec 32 := 7168#32
  let v460 : BitVec 32 := Scalar.addi v459 c7168_i32_143
  let v488 : Index := Scalar.indexCast v460
  let c131 : Index := 131#32
  ![v488.toNat, 131]
def k0_off119 (i : grid0.Coords) : Fin 2 → Nat :=
  let arg1 : BitVec 32 := BitVec.ofNat 32 (i 1).val
  let c8192_i32_142 : BitVec 32 := 8192#32
  let v459 : BitVec 32 := Scalar.muli arg1 c8192_i32_142
  let c7168_i32_143 : BitVec 32 := 7168#32
  let v460 : BitVec 32 := Scalar.addi v459 c7168_i32_143
  let v493 : Index := Scalar.indexCast v460
  let c132 : Index := 132#32
  ![v493.toNat, 132]
def k0_off120 (i : grid0.Coords) : Fin 2 → Nat :=
  let arg1 : BitVec 32 := BitVec.ofNat 32 (i 1).val
  let v361 : Index := Scalar.indexCast arg1
  let c6144 : Index := 6144#32
  ![v361.toNat, 6144]
def k0_cond18 (i : grid0.Coords) : BitVec 1 :=
  let arg0 : BitVec 32 := BitVec.ofNat 32 (i 0).val
  let c0_i32_116 : BitVec 32 := 0#32
  let v370 : BitVec 1 := Scalar.cmpi .eq arg0 c0_i32_116
  let v371 : BitVec 32 := Scalar.extui v370
  let c0_i32_117 : BitVec 32 := 0#32
  let v372 : BitVec 1 := Scalar.cmpi .ne v371 c0_i32_117
  v372

def k0_off121 (i : grid0.Coords) : Fin 2 → Nat :=
  let arg1 : BitVec 32 := BitVec.ofNat 32 (i 1).val
  let c8192_i32_142 : BitVec 32 := 8192#32
  let v459 : BitVec 32 := Scalar.muli arg1 c8192_i32_142
  let c7680_i32_143 : BitVec 32 := 7680#32
  let v460 : BitVec 32 := Scalar.addi v459 c7680_i32_143
  let v461 : Index := Scalar.indexCast v460
  let c0_144 : Index := 0#32
  ![v461.toNat, 0]
def k0_off122 (i : grid0.Coords) : Fin 2 → Nat :=
  let arg1 : BitVec 32 := BitVec.ofNat 32 (i 1).val
  let c8192_i32_142 : BitVec 32 := 8192#32
  let v459 : BitVec 32 := Scalar.muli arg1 c8192_i32_142
  let c7680_i32_143 : BitVec 32 := 7680#32
  let v460 : BitVec 32 := Scalar.addi v459 c7680_i32_143
  let v472 : Index := Scalar.indexCast v460
  let c0_147 : Index := 0#32
  ![v472.toNat, 0]
def k0_off123 (i : grid0.Coords) : Fin 2 → Nat :=
  let arg1 : BitVec 32 := BitVec.ofNat 32 (i 1).val
  let c8192_i32_142 : BitVec 32 := 8192#32
  let v459 : BitVec 32 := Scalar.muli arg1 c8192_i32_142
  let c7680_i32_143 : BitVec 32 := 7680#32
  let v460 : BitVec 32 := Scalar.addi v459 c7680_i32_143
  let v476 : Index := Scalar.indexCast v460
  let c128 : Index := 128#32
  ![v476.toNat, 128]
def k0_off124 (i : grid0.Coords) : Fin 2 → Nat :=
  let arg1 : BitVec 32 := BitVec.ofNat 32 (i 1).val
  let c8192_i32_142 : BitVec 32 := 8192#32
  let v459 : BitVec 32 := Scalar.muli arg1 c8192_i32_142
  let c7680_i32_143 : BitVec 32 := 7680#32
  let v460 : BitVec 32 := Scalar.addi v459 c7680_i32_143
  let v480 : Index := Scalar.indexCast v460
  let c129 : Index := 129#32
  ![v480.toNat, 129]
def k0_off125 (i : grid0.Coords) : Fin 2 → Nat :=
  let arg1 : BitVec 32 := BitVec.ofNat 32 (i 1).val
  let c8192_i32_142 : BitVec 32 := 8192#32
  let v459 : BitVec 32 := Scalar.muli arg1 c8192_i32_142
  let c7680_i32_143 : BitVec 32 := 7680#32
  let v460 : BitVec 32 := Scalar.addi v459 c7680_i32_143
  let v484 : Index := Scalar.indexCast v460
  let c130 : Index := 130#32
  ![v484.toNat, 130]
def k0_off126 (i : grid0.Coords) : Fin 2 → Nat :=
  let arg1 : BitVec 32 := BitVec.ofNat 32 (i 1).val
  let c8192_i32_142 : BitVec 32 := 8192#32
  let v459 : BitVec 32 := Scalar.muli arg1 c8192_i32_142
  let c7680_i32_143 : BitVec 32 := 7680#32
  let v460 : BitVec 32 := Scalar.addi v459 c7680_i32_143
  let v488 : Index := Scalar.indexCast v460
  let c131 : Index := 131#32
  ![v488.toNat, 131]
def k0_off127 (i : grid0.Coords) : Fin 2 → Nat :=
  let arg1 : BitVec 32 := BitVec.ofNat 32 (i 1).val
  let c8192_i32_142 : BitVec 32 := 8192#32
  let v459 : BitVec 32 := Scalar.muli arg1 c8192_i32_142
  let c7680_i32_143 : BitVec 32 := 7680#32
  let v460 : BitVec 32 := Scalar.addi v459 c7680_i32_143
  let v493 : Index := Scalar.indexCast v460
  let c132 : Index := 132#32
  ![v493.toNat, 132]
def k0_off128 (i : grid0.Coords) : Fin 2 → Nat :=
  let arg1 : BitVec 32 := BitVec.ofNat 32 (i 1).val
  let v388 : Index := Scalar.indexCast arg1
  let c6656 : Index := 6656#32
  ![v388.toNat, 6656]
def k0_off129 (i : grid0.Coords) : Fin 2 → Nat :=
  let arg1 : BitVec 32 := BitVec.ofNat 32 (i 1).val
  let v412 : Index := Scalar.indexCast arg1
  let c7168 : Index := 7168#32
  ![v412.toNat, 7168]
def k0_off130 (i : grid0.Coords) : Fin 2 → Nat :=
  let arg1 : BitVec 32 := BitVec.ofNat 32 (i 1).val
  let v431 : Index := Scalar.indexCast arg1
  let c7680 : Index := 7680#32
  ![v431.toNat, 7680]
def k0_cond19 (i : grid0.Coords) : BitVec 1 :=
  let arg0 : BitVec 32 := BitVec.ofNat 32 (i 0).val
  let c1_i32 : BitVec 32 := 1#32
  let v454 : BitVec 1 := Scalar.cmpi .eq arg0 c1_i32
  let arg1 : BitVec 32 := BitVec.ofNat 32 (i 1).val
  let c0_i32_140 : BitVec 32 := 0#32
  let v455 : BitVec 1 := Scalar.cmpi .eq arg1 c0_i32_140
  let v456 : BitVec 1 := Scalar.andi v454 v455
  let v457 : BitVec 32 := Scalar.extui v456
  let c0_i32_141 : BitVec 32 := 0#32
  let v458 : BitVec 1 := Scalar.cmpi .ne v457 c0_i32_141
  v458

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8192x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S8192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

class Facts₀ : Prop where
  shapeCasts_S1x1_S_ : S1x1.ShapeCasts S_
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S4096x256_S4096x124_0_132 : ∀ a, (![0, 132] : Fin 2 → Nat) a + S4096x124.size a ≤ S4096x256.size a
  h_S4096x124 : 0 < S4096x124.numel
  shapeCasts_S4096x124_S4096x124 : S4096x124.ShapeCasts S4096x124
  packedbf16_S4096x256_S4096x124_0_132 : (Rect.unit (s := S4096x256) ![0, 132] S4096x124.size inb_S4096x256_S4096x124_0_132).PackedRows (EltTy.packing .bf16)
  h_S4096x128 : 0 < S4096x128.numel
  reduces_S4096x128_S4096 : S4096x128.Reduces [1] S4096
  shapeCasts_S4096_S4096x1 : S4096.ShapeCasts S4096x1
  bitsLt_bf16_f32 : FTy.bits .bf16 < FTy.bits .f32
  inb_S4096x256_S4096x128_0_0 : ∀ a, (![0, 0] : Fin 2 → Nat) a + S4096x128.size a ≤ S4096x256.size a
  shapeCasts_S4096x128_S4096x128 : S4096x128.ShapeCasts S4096x128
  packedbf16_S4096x256_S4096x128_0_0 : (Rect.unit (s := S4096x256) ![0, 0] S4096x128.size inb_S4096x256_S4096x128_0_0).PackedRows (EltTy.packing .bf16)
  inb_S4096x256_S4096x1_0_128 : ∀ a, (![0, 128] : Fin 2 → Nat) a + S4096x1.size a ≤ S4096x256.size a
  h_S4096x1 : 0 < S4096x1.numel
  shapeCasts_S4096x1_S4096x1 : S4096x1.ShapeCasts S4096x1
  packedbf16_S4096x256_S4096x1_0_128 : (Rect.unit (s := S4096x256) ![0, 128] S4096x1.size inb_S4096x256_S4096x1_0_128).PackedRows (EltTy.packing .bf16)
  inb_S4096x256_S4096x1_0_129 : ∀ a, (![0, 129] : Fin 2 → Nat) a + S4096x1.size a ≤ S4096x256.size a
  packedbf16_S4096x256_S4096x1_0_129 : (Rect.unit (s := S4096x256) ![0, 129] S4096x1.size inb_S4096x256_S4096x1_0_129).PackedRows (EltTy.packing .bf16)
  inb_S4096x256_S4096x1_0_130 : ∀ a, (![0, 130] : Fin 2 → Nat) a + S4096x1.size a ≤ S4096x256.size a
  packedbf16_S4096x256_S4096x1_0_130 : (Rect.unit (s := S4096x256) ![0, 130] S4096x1.size inb_S4096x256_S4096x1_0_130).PackedRows (EltTy.packing .bf16)
  inb_S4096x256_S4096x1_0_131 : ∀ a, (![0, 131] : Fin 2 → Nat) a + S4096x1.size a ≤ S4096x256.size a
  packedbf16_S4096x256_S4096x1_0_131 : (Rect.unit (s := S4096x256) ![0, 131] S4096x1.size inb_S4096x256_S4096x1_0_131).PackedRows (EltTy.packing .bf16)
  inb_S4096x256_S4096x256_0_0 : ∀ a, (![0, 0] : Fin 2 → Nat) a + S4096x256.size a ≤ S4096x256.size a
  h_S4096x256 : 0 < S4096x256.numel
  h_S512x128 : 0 < S512x128.numel
  reduces_S512x128_S512 : S512x128.Reduces [1] S512
  shapeCasts_S512_S512x1 : S512.ShapeCasts S512x1
  shapeCasts_S512x128_S512x128 : S512x128.ShapeCasts S512x128
  h_S512x1 : 0 < S512x1.numel
  shapeCasts_S512x1_S512x1 : S512x1.ShapeCasts S512x1
  h_S512x124 : 0 < S512x124.numel
  shapeCasts_S512x124_S512x124 : S512x124.ShapeCasts S512x124
  h_S512x256 : 0 < S512x256.numel
  slices_S4096x512_o0_0_S4096x128 : S4096x512.Slices ![0, 0] S4096x128
  slices_S4096x512_o0_128_S4096x128 : S4096x512.Slices ![0, 128] S4096x128
  slices_S4096x512_o0_256_S4096x128 : S4096x512.Slices ![0, 256] S4096x128
  slices_S4096x512_o0_384_S4096x128 : S4096x512.Slices ![0, 384] S4096x128
  reduces_S4096x512_S512 : S4096x512.Reduces [0] S512
  shapeCasts_S512_S1x512 : S512.ShapeCasts S1x512
  h_S1x512 : 0 < S1x512.numel
  shapeCasts_S1x512_S1x512 : S1x512.ShapeCasts S1x512
  shapeCasts_S4096x1_S1x4096x1 : S4096x1.ShapeCasts S1x4096x1
  reduces_S1x4096x1_S1 : S1x4096x1.Reduces [1, 2] S1
  shapeCasts_S1_S1x1x1 : S1.ShapeCasts S1x1x1
  inpos_S1x1x1_p0_0_0 : ∀ a, (![0, 0, 0] : Fin 3 → Nat) a < S1x1x1.size a
  inb_S1x8192_S1x8192_0_0 : ∀ a, (![0, 0] : Fin 2 → Nat) a + S1x8192.size a ≤ S1x8192.size a
  h_S1x8192 : 0 < S1x8192.numel
  shapeCasts_S1x8192_S1x1x8192 : S1x8192.ShapeCasts S1x1x8192
  reduces_S1x1x8192_S1 : S1x1x8192.Reduces [1, 2] S1
  dot_S4096x256_S512x256_S4096x512_1_1_0_0_n_n_wf : DotDims.WF S4096x256 S512x256 S4096x512 [1] [1] [0] [0] [] []
  hrank0 : 0 < grid0.rank
  k0_off1_inb : ∀ i : grid0.Coords, ∀ (k0_h2 : k0_cond2 i = 1#1), ∀ a, (k0_off1 i) a + S4096x128.size a ≤ S8192x128.size a
  k0_off2_inb : ∀ i : grid0.Coords, ∀ (k0_h3 : k0_cond3 i = 1#1), ∀ a, (k0_off2 i) a + S512x128.size a ≤ S8192x128.size a
  k0_off3_inb : ∀ i : grid0.Coords, ∀ (k0_h3 : k0_cond3 i = 1#1), ∀ a, (k0_off3 i) a + S512x128.size a ≤ S8192x256.size a
  k0_off3_packedbf16 : ∀ i : grid0.Coords, ∀ (k0_h3 : k0_cond3 i = 1#1), (Rect.unit (s := S8192x256) (k0_off3 i) S512x128.size (k0_off3_inb i k0_h3)).PackedRows (EltTy.packing .bf16)
  k0_off4_inb : ∀ i : grid0.Coords, ∀ (k0_h3 : k0_cond3 i = 1#1), ∀ a, (k0_off4 i) a + S512x1.size a ≤ S8192x256.size a
  k0_off4_packedbf16 : ∀ i : grid0.Coords, ∀ (k0_h3 : k0_cond3 i = 1#1), (Rect.unit (s := S8192x256) (k0_off4 i) S512x1.size (k0_off4_inb i k0_h3)).PackedRows (EltTy.packing .bf16)
  k0_off5_inb : ∀ i : grid0.Coords, ∀ (k0_h3 : k0_cond3 i = 1#1), ∀ a, (k0_off5 i) a + S512x1.size a ≤ S8192x256.size a
  k0_off5_packedbf16 : ∀ i : grid0.Coords, ∀ (k0_h3 : k0_cond3 i = 1#1), (Rect.unit (s := S8192x256) (k0_off5 i) S512x1.size (k0_off5_inb i k0_h3)).PackedRows (EltTy.packing .bf16)
  k0_off6_inb : ∀ i : grid0.Coords, ∀ (k0_h3 : k0_cond3 i = 1#1), ∀ a, (k0_off6 i) a + S512x1.size a ≤ S8192x256.size a
  k0_off6_packedbf16 : ∀ i : grid0.Coords, ∀ (k0_h3 : k0_cond3 i = 1#1), (Rect.unit (s := S8192x256) (k0_off6 i) S512x1.size (k0_off6_inb i k0_h3)).PackedRows (EltTy.packing .bf16)
  k0_off7_inb : ∀ i : grid0.Coords, ∀ (k0_h3 : k0_cond3 i = 1#1), ∀ a, (k0_off7 i) a + S512x1.size a ≤ S8192x256.size a
  k0_off7_packedbf16 : ∀ i : grid0.Coords, ∀ (k0_h3 : k0_cond3 i = 1#1), (Rect.unit (s := S8192x256) (k0_off7 i) S512x1.size (k0_off7_inb i k0_h3)).PackedRows (EltTy.packing .bf16)
  k0_off8_inb : ∀ i : grid0.Coords, ∀ (k0_h3 : k0_cond3 i = 1#1), ∀ a, (k0_off8 i) a + S512x124.size a ≤ S8192x256.size a
  k0_off8_packedbf16 : ∀ i : grid0.Coords, ∀ (k0_h3 : k0_cond3 i = 1#1), (Rect.unit (s := S8192x256) (k0_off8 i) S512x124.size (k0_off8_inb i k0_h3)).PackedRows (EltTy.packing .bf16)
  k0_off9_inb : ∀ i : grid0.Coords, ∀ (k0_h4 : k0_cond4 i = 1#1), ∀ a, (k0_off9 i) a + S512x128.size a ≤ S8192x128.size a
  k0_off10_inb : ∀ i : grid0.Coords, ∀ (k0_h4 : k0_cond4 i = 1#1), ∀ a, (k0_off10 i) a + S512x128.size a ≤ S8192x256.size a
  k0_off10_packedbf16 : ∀ i : grid0.Coords, ∀ (k0_h4 : k0_cond4 i = 1#1), (Rect.unit (s := S8192x256) (k0_off10 i) S512x128.size (k0_off10_inb i k0_h4)).PackedRows (EltTy.packing .bf16)
  k0_off11_inb : ∀ i : grid0.Coords, ∀ (k0_h4 : k0_cond4 i = 1#1), ∀ a, (k0_off11 i) a + S512x1.size a ≤ S8192x256.size a
  k0_off11_packedbf16 : ∀ i : grid0.Coords, ∀ (k0_h4 : k0_cond4 i = 1#1), (Rect.unit (s := S8192x256) (k0_off11 i) S512x1.size (k0_off11_inb i k0_h4)).PackedRows (EltTy.packing .bf16)
  k0_off12_inb : ∀ i : grid0.Coords, ∀ (k0_h4 : k0_cond4 i = 1#1), ∀ a, (k0_off12 i) a + S512x1.size a ≤ S8192x256.size a
  k0_off12_packedbf16 : ∀ i : grid0.Coords, ∀ (k0_h4 : k0_cond4 i = 1#1), (Rect.unit (s := S8192x256) (k0_off12 i) S512x1.size (k0_off12_inb i k0_h4)).PackedRows (EltTy.packing .bf16)
  k0_off13_inb : ∀ i : grid0.Coords, ∀ (k0_h4 : k0_cond4 i = 1#1), ∀ a, (k0_off13 i) a + S512x1.size a ≤ S8192x256.size a
  k0_off13_packedbf16 : ∀ i : grid0.Coords, ∀ (k0_h4 : k0_cond4 i = 1#1), (Rect.unit (s := S8192x256) (k0_off13 i) S512x1.size (k0_off13_inb i k0_h4)).PackedRows (EltTy.packing .bf16)
  k0_off14_inb : ∀ i : grid0.Coords, ∀ (k0_h4 : k0_cond4 i = 1#1), ∀ a, (k0_off14 i) a + S512x1.size a ≤ S8192x256.size a
  k0_off14_packedbf16 : ∀ i : grid0.Coords, ∀ (k0_h4 : k0_cond4 i = 1#1), (Rect.unit (s := S8192x256) (k0_off14 i) S512x1.size (k0_off14_inb i k0_h4)).PackedRows (EltTy.packing .bf16)
  k0_off15_inb : ∀ i : grid0.Coords, ∀ (k0_h4 : k0_cond4 i = 1#1), ∀ a, (k0_off15 i) a + S512x124.size a ≤ S8192x256.size a
  k0_off15_packedbf16 : ∀ i : grid0.Coords, ∀ (k0_h4 : k0_cond4 i = 1#1), (Rect.unit (s := S8192x256) (k0_off15 i) S512x124.size (k0_off15_inb i k0_h4)).PackedRows (EltTy.packing .bf16)
  k0_off16_inb : ∀ i : grid0.Coords, ∀ (r : Fin 16), ∀ a, (k0_off16 i (BitVec.ofNat 32 (512 * r.val))) a + S512x256.size a ≤ S8192x256.size a
  k0_off17_inb : ∀ i : grid0.Coords, ∀ (k0_h5 : k0_cond5 i = 1#1), ∀ a, (k0_off17 i) a + S512x128.size a ≤ S8192x128.size a
  k0_off18_inb : ∀ i : grid0.Coords, ∀ (k0_h5 : k0_cond5 i = 1#1), ∀ a, (k0_off18 i) a + S512x128.size a ≤ S8192x256.size a
  k0_off18_packedbf16 : ∀ i : grid0.Coords, ∀ (k0_h5 : k0_cond5 i = 1#1), (Rect.unit (s := S8192x256) (k0_off18 i) S512x128.size (k0_off18_inb i k0_h5)).PackedRows (EltTy.packing .bf16)
  k0_off19_inb : ∀ i : grid0.Coords, ∀ (k0_h5 : k0_cond5 i = 1#1), ∀ a, (k0_off19 i) a + S512x1.size a ≤ S8192x256.size a
  k0_off19_packedbf16 : ∀ i : grid0.Coords, ∀ (k0_h5 : k0_cond5 i = 1#1), (Rect.unit (s := S8192x256) (k0_off19 i) S512x1.size (k0_off19_inb i k0_h5)).PackedRows (EltTy.packing .bf16)
  k0_off20_inb : ∀ i : grid0.Coords, ∀ (k0_h5 : k0_cond5 i = 1#1), ∀ a, (k0_off20 i) a + S512x1.size a ≤ S8192x256.size a
  k0_off20_packedbf16 : ∀ i : grid0.Coords, ∀ (k0_h5 : k0_cond5 i = 1#1), (Rect.unit (s := S8192x256) (k0_off20 i) S512x1.size (k0_off20_inb i k0_h5)).PackedRows (EltTy.packing .bf16)
  k0_off21_inb : ∀ i : grid0.Coords, ∀ (k0_h5 : k0_cond5 i = 1#1), ∀ a, (k0_off21 i) a + S512x1.size a ≤ S8192x256.size a
  k0_off21_packedbf16 : ∀ i : grid0.Coords, ∀ (k0_h5 : k0_cond5 i = 1#1), (Rect.unit (s := S8192x256) (k0_off21 i) S512x1.size (k0_off21_inb i k0_h5)).PackedRows (EltTy.packing .bf16)
  k0_off22_inb : ∀ i : grid0.Coords, ∀ (k0_h5 : k0_cond5 i = 1#1), ∀ a, (k0_off22 i) a + S512x1.size a ≤ S8192x256.size a
  k0_off22_packedbf16 : ∀ i : grid0.Coords, ∀ (k0_h5 : k0_cond5 i = 1#1), (Rect.unit (s := S8192x256) (k0_off22 i) S512x1.size (k0_off22_inb i k0_h5)).PackedRows (EltTy.packing .bf16)
  k0_off23_inb : ∀ i : grid0.Coords, ∀ (k0_h5 : k0_cond5 i = 1#1), ∀ a, (k0_off23 i) a + S512x124.size a ≤ S8192x256.size a
  k0_off23_packedbf16 : ∀ i : grid0.Coords, ∀ (k0_h5 : k0_cond5 i = 1#1), (Rect.unit (s := S8192x256) (k0_off23 i) S512x124.size (k0_off23_inb i k0_h5)).PackedRows (EltTy.packing .bf16)
  k0_off24_inb : ∀ i : grid0.Coords, ∀ a, (k0_off24 i) a + S1x512.size a ≤ S1x8192.size a
  k0_off25_inb : ∀ i : grid0.Coords, ∀ (k0_h6 : k0_cond6 i = 1#1), ∀ a, (k0_off25 i) a + S512x128.size a ≤ S8192x128.size a
  k0_off26_inb : ∀ i : grid0.Coords, ∀ (k0_h6 : k0_cond6 i = 1#1), ∀ a, (k0_off26 i) a + S512x128.size a ≤ S8192x256.size a
  k0_off26_packedbf16 : ∀ i : grid0.Coords, ∀ (k0_h6 : k0_cond6 i = 1#1), (Rect.unit (s := S8192x256) (k0_off26 i) S512x128.size (k0_off26_inb i k0_h6)).PackedRows (EltTy.packing .bf16)
  k0_off27_inb : ∀ i : grid0.Coords, ∀ (k0_h6 : k0_cond6 i = 1#1), ∀ a, (k0_off27 i) a + S512x1.size a ≤ S8192x256.size a
  k0_off27_packedbf16 : ∀ i : grid0.Coords, ∀ (k0_h6 : k0_cond6 i = 1#1), (Rect.unit (s := S8192x256) (k0_off27 i) S512x1.size (k0_off27_inb i k0_h6)).PackedRows (EltTy.packing .bf16)
  k0_off28_inb : ∀ i : grid0.Coords, ∀ (k0_h6 : k0_cond6 i = 1#1), ∀ a, (k0_off28 i) a + S512x1.size a ≤ S8192x256.size a
  k0_off28_packedbf16 : ∀ i : grid0.Coords, ∀ (k0_h6 : k0_cond6 i = 1#1), (Rect.unit (s := S8192x256) (k0_off28 i) S512x1.size (k0_off28_inb i k0_h6)).PackedRows (EltTy.packing .bf16)
  k0_off29_inb : ∀ i : grid0.Coords, ∀ (k0_h6 : k0_cond6 i = 1#1), ∀ a, (k0_off29 i) a + S512x1.size a ≤ S8192x256.size a
  k0_off29_packedbf16 : ∀ i : grid0.Coords, ∀ (k0_h6 : k0_cond6 i = 1#1), (Rect.unit (s := S8192x256) (k0_off29 i) S512x1.size (k0_off29_inb i k0_h6)).PackedRows (EltTy.packing .bf16)
  k0_off30_inb : ∀ i : grid0.Coords, ∀ (k0_h6 : k0_cond6 i = 1#1), ∀ a, (k0_off30 i) a + S512x1.size a ≤ S8192x256.size a
  k0_off30_packedbf16 : ∀ i : grid0.Coords, ∀ (k0_h6 : k0_cond6 i = 1#1), (Rect.unit (s := S8192x256) (k0_off30 i) S512x1.size (k0_off30_inb i k0_h6)).PackedRows (EltTy.packing .bf16)
  k0_off31_inb : ∀ i : grid0.Coords, ∀ (k0_h6 : k0_cond6 i = 1#1), ∀ a, (k0_off31 i) a + S512x124.size a ≤ S8192x256.size a
  k0_off31_packedbf16 : ∀ i : grid0.Coords, ∀ (k0_h6 : k0_cond6 i = 1#1), (Rect.unit (s := S8192x256) (k0_off31 i) S512x124.size (k0_off31_inb i k0_h6)).PackedRows (EltTy.packing .bf16)
  k0_off32_inb : ∀ i : grid0.Coords, ∀ a, (k0_off32 i) a + S1x512.size a ≤ S1x8192.size a
  k0_off33_inb : ∀ i : grid0.Coords, ∀ (k0_h7 : k0_cond7 i = 1#1), ∀ a, (k0_off33 i) a + S512x128.size a ≤ S8192x128.size a
  k0_off34_inb : ∀ i : grid0.Coords, ∀ (k0_h7 : k0_cond7 i = 1#1), ∀ a, (k0_off34 i) a + S512x128.size a ≤ S8192x256.size a
  k0_off34_packedbf16 : ∀ i : grid0.Coords, ∀ (k0_h7 : k0_cond7 i = 1#1), (Rect.unit (s := S8192x256) (k0_off34 i) S512x128.size (k0_off34_inb i k0_h7)).PackedRows (EltTy.packing .bf16)
  k0_off35_inb : ∀ i : grid0.Coords, ∀ (k0_h7 : k0_cond7 i = 1#1), ∀ a, (k0_off35 i) a + S512x1.size a ≤ S8192x256.size a
  k0_off35_packedbf16 : ∀ i : grid0.Coords, ∀ (k0_h7 : k0_cond7 i = 1#1), (Rect.unit (s := S8192x256) (k0_off35 i) S512x1.size (k0_off35_inb i k0_h7)).PackedRows (EltTy.packing .bf16)
  k0_off36_inb : ∀ i : grid0.Coords, ∀ (k0_h7 : k0_cond7 i = 1#1), ∀ a, (k0_off36 i) a + S512x1.size a ≤ S8192x256.size a
  k0_off36_packedbf16 : ∀ i : grid0.Coords, ∀ (k0_h7 : k0_cond7 i = 1#1), (Rect.unit (s := S8192x256) (k0_off36 i) S512x1.size (k0_off36_inb i k0_h7)).PackedRows (EltTy.packing .bf16)
  k0_off37_inb : ∀ i : grid0.Coords, ∀ (k0_h7 : k0_cond7 i = 1#1), ∀ a, (k0_off37 i) a + S512x1.size a ≤ S8192x256.size a
  k0_off37_packedbf16 : ∀ i : grid0.Coords, ∀ (k0_h7 : k0_cond7 i = 1#1), (Rect.unit (s := S8192x256) (k0_off37 i) S512x1.size (k0_off37_inb i k0_h7)).PackedRows (EltTy.packing .bf16)
  k0_off38_inb : ∀ i : grid0.Coords, ∀ (k0_h7 : k0_cond7 i = 1#1), ∀ a, (k0_off38 i) a + S512x1.size a ≤ S8192x256.size a
  k0_off38_packedbf16 : ∀ i : grid0.Coords, ∀ (k0_h7 : k0_cond7 i = 1#1), (Rect.unit (s := S8192x256) (k0_off38 i) S512x1.size (k0_off38_inb i k0_h7)).PackedRows (EltTy.packing .bf16)
  k0_off39_inb : ∀ i : grid0.Coords, ∀ (k0_h7 : k0_cond7 i = 1#1), ∀ a, (k0_off39 i) a + S512x124.size a ≤ S8192x256.size a
  k0_off39_packedbf16 : ∀ i : grid0.Coords, ∀ (k0_h7 : k0_cond7 i = 1#1), (Rect.unit (s := S8192x256) (k0_off39 i) S512x124.size (k0_off39_inb i k0_h7)).PackedRows (EltTy.packing .bf16)
  k0_off40_inb : ∀ i : grid0.Coords, ∀ a, (k0_off40 i) a + S1x512.size a ≤ S1x8192.size a
  k0_off41_inb : ∀ i : grid0.Coords, ∀ (k0_h8 : k0_cond8 i = 1#1), ∀ a, (k0_off41 i) a + S512x128.size a ≤ S8192x128.size a
  k0_off42_inb : ∀ i : grid0.Coords, ∀ (k0_h8 : k0_cond8 i = 1#1), ∀ a, (k0_off42 i) a + S512x128.size a ≤ S8192x256.size a
  k0_off42_packedbf16 : ∀ i : grid0.Coords, ∀ (k0_h8 : k0_cond8 i = 1#1), (Rect.unit (s := S8192x256) (k0_off42 i) S512x128.size (k0_off42_inb i k0_h8)).PackedRows (EltTy.packing .bf16)
  k0_off43_inb : ∀ i : grid0.Coords, ∀ (k0_h8 : k0_cond8 i = 1#1), ∀ a, (k0_off43 i) a + S512x1.size a ≤ S8192x256.size a
  k0_off43_packedbf16 : ∀ i : grid0.Coords, ∀ (k0_h8 : k0_cond8 i = 1#1), (Rect.unit (s := S8192x256) (k0_off43 i) S512x1.size (k0_off43_inb i k0_h8)).PackedRows (EltTy.packing .bf16)
  k0_off44_inb : ∀ i : grid0.Coords, ∀ (k0_h8 : k0_cond8 i = 1#1), ∀ a, (k0_off44 i) a + S512x1.size a ≤ S8192x256.size a
  k0_off44_packedbf16 : ∀ i : grid0.Coords, ∀ (k0_h8 : k0_cond8 i = 1#1), (Rect.unit (s := S8192x256) (k0_off44 i) S512x1.size (k0_off44_inb i k0_h8)).PackedRows (EltTy.packing .bf16)
  k0_off45_inb : ∀ i : grid0.Coords, ∀ (k0_h8 : k0_cond8 i = 1#1), ∀ a, (k0_off45 i) a + S512x1.size a ≤ S8192x256.size a
  k0_off45_packedbf16 : ∀ i : grid0.Coords, ∀ (k0_h8 : k0_cond8 i = 1#1), (Rect.unit (s := S8192x256) (k0_off45 i) S512x1.size (k0_off45_inb i k0_h8)).PackedRows (EltTy.packing .bf16)
  k0_off46_inb : ∀ i : grid0.Coords, ∀ (k0_h8 : k0_cond8 i = 1#1), ∀ a, (k0_off46 i) a + S512x1.size a ≤ S8192x256.size a
  k0_off46_packedbf16 : ∀ i : grid0.Coords, ∀ (k0_h8 : k0_cond8 i = 1#1), (Rect.unit (s := S8192x256) (k0_off46 i) S512x1.size (k0_off46_inb i k0_h8)).PackedRows (EltTy.packing .bf16)
  k0_off47_inb : ∀ i : grid0.Coords, ∀ (k0_h8 : k0_cond8 i = 1#1), ∀ a, (k0_off47 i) a + S512x124.size a ≤ S8192x256.size a
  k0_off47_packedbf16 : ∀ i : grid0.Coords, ∀ (k0_h8 : k0_cond8 i = 1#1), (Rect.unit (s := S8192x256) (k0_off47 i) S512x124.size (k0_off47_inb i k0_h8)).PackedRows (EltTy.packing .bf16)
  k0_off48_inb : ∀ i : grid0.Coords, ∀ a, (k0_off48 i) a + S1x512.size a ≤ S1x8192.size a
  k0_off49_inb : ∀ i : grid0.Coords, ∀ (k0_h9 : k0_cond9 i = 1#1), ∀ a, (k0_off49 i) a + S512x128.size a ≤ S8192x128.size a
  k0_off50_inb : ∀ i : grid0.Coords, ∀ (k0_h9 : k0_cond9 i = 1#1), ∀ a, (k0_off50 i) a + S512x128.size a ≤ S8192x256.size a
  k0_off50_packedbf16 : ∀ i : grid0.Coords, ∀ (k0_h9 : k0_cond9 i = 1#1), (Rect.unit (s := S8192x256) (k0_off50 i) S512x128.size (k0_off50_inb i k0_h9)).PackedRows (EltTy.packing .bf16)
  k0_off51_inb : ∀ i : grid0.Coords, ∀ (k0_h9 : k0_cond9 i = 1#1), ∀ a, (k0_off51 i) a + S512x1.size a ≤ S8192x256.size a
  k0_off51_packedbf16 : ∀ i : grid0.Coords, ∀ (k0_h9 : k0_cond9 i = 1#1), (Rect.unit (s := S8192x256) (k0_off51 i) S512x1.size (k0_off51_inb i k0_h9)).PackedRows (EltTy.packing .bf16)
  k0_off52_inb : ∀ i : grid0.Coords, ∀ (k0_h9 : k0_cond9 i = 1#1), ∀ a, (k0_off52 i) a + S512x1.size a ≤ S8192x256.size a
  k0_off52_packedbf16 : ∀ i : grid0.Coords, ∀ (k0_h9 : k0_cond9 i = 1#1), (Rect.unit (s := S8192x256) (k0_off52 i) S512x1.size (k0_off52_inb i k0_h9)).PackedRows (EltTy.packing .bf16)
  k0_off53_inb : ∀ i : grid0.Coords, ∀ (k0_h9 : k0_cond9 i = 1#1), ∀ a, (k0_off53 i) a + S512x1.size a ≤ S8192x256.size a
  k0_off53_packedbf16 : ∀ i : grid0.Coords, ∀ (k0_h9 : k0_cond9 i = 1#1), (Rect.unit (s := S8192x256) (k0_off53 i) S512x1.size (k0_off53_inb i k0_h9)).PackedRows (EltTy.packing .bf16)
  k0_off54_inb : ∀ i : grid0.Coords, ∀ (k0_h9 : k0_cond9 i = 1#1), ∀ a, (k0_off54 i) a + S512x1.size a ≤ S8192x256.size a
  k0_off54_packedbf16 : ∀ i : grid0.Coords, ∀ (k0_h9 : k0_cond9 i = 1#1), (Rect.unit (s := S8192x256) (k0_off54 i) S512x1.size (k0_off54_inb i k0_h9)).PackedRows (EltTy.packing .bf16)
  k0_off55_inb : ∀ i : grid0.Coords, ∀ (k0_h9 : k0_cond9 i = 1#1), ∀ a, (k0_off55 i) a + S512x124.size a ≤ S8192x256.size a
  k0_off55_packedbf16 : ∀ i : grid0.Coords, ∀ (k0_h9 : k0_cond9 i = 1#1), (Rect.unit (s := S8192x256) (k0_off55 i) S512x124.size (k0_off55_inb i k0_h9)).PackedRows (EltTy.packing .bf16)
  k0_off56_inb : ∀ i : grid0.Coords, ∀ a, (k0_off56 i) a + S1x512.size a ≤ S1x8192.size a
  k0_off57_inb : ∀ i : grid0.Coords, ∀ (k0_h10 : k0_cond10 i = 1#1), ∀ a, (k0_off57 i) a + S512x128.size a ≤ S8192x128.size a
  k0_off58_inb : ∀ i : grid0.Coords, ∀ (k0_h10 : k0_cond10 i = 1#1), ∀ a, (k0_off58 i) a + S512x128.size a ≤ S8192x256.size a
  k0_off58_packedbf16 : ∀ i : grid0.Coords, ∀ (k0_h10 : k0_cond10 i = 1#1), (Rect.unit (s := S8192x256) (k0_off58 i) S512x128.size (k0_off58_inb i k0_h10)).PackedRows (EltTy.packing .bf16)
  k0_off59_inb : ∀ i : grid0.Coords, ∀ (k0_h10 : k0_cond10 i = 1#1), ∀ a, (k0_off59 i) a + S512x1.size a ≤ S8192x256.size a
  k0_off59_packedbf16 : ∀ i : grid0.Coords, ∀ (k0_h10 : k0_cond10 i = 1#1), (Rect.unit (s := S8192x256) (k0_off59 i) S512x1.size (k0_off59_inb i k0_h10)).PackedRows (EltTy.packing .bf16)
  k0_off60_inb : ∀ i : grid0.Coords, ∀ (k0_h10 : k0_cond10 i = 1#1), ∀ a, (k0_off60 i) a + S512x1.size a ≤ S8192x256.size a
  k0_off60_packedbf16 : ∀ i : grid0.Coords, ∀ (k0_h10 : k0_cond10 i = 1#1), (Rect.unit (s := S8192x256) (k0_off60 i) S512x1.size (k0_off60_inb i k0_h10)).PackedRows (EltTy.packing .bf16)
  k0_off61_inb : ∀ i : grid0.Coords, ∀ (k0_h10 : k0_cond10 i = 1#1), ∀ a, (k0_off61 i) a + S512x1.size a ≤ S8192x256.size a
  k0_off61_packedbf16 : ∀ i : grid0.Coords, ∀ (k0_h10 : k0_cond10 i = 1#1), (Rect.unit (s := S8192x256) (k0_off61 i) S512x1.size (k0_off61_inb i k0_h10)).PackedRows (EltTy.packing .bf16)
  k0_off62_inb : ∀ i : grid0.Coords, ∀ (k0_h10 : k0_cond10 i = 1#1), ∀ a, (k0_off62 i) a + S512x1.size a ≤ S8192x256.size a
  k0_off62_packedbf16 : ∀ i : grid0.Coords, ∀ (k0_h10 : k0_cond10 i = 1#1), (Rect.unit (s := S8192x256) (k0_off62 i) S512x1.size (k0_off62_inb i k0_h10)).PackedRows (EltTy.packing .bf16)
  k0_off63_inb : ∀ i : grid0.Coords, ∀ (k0_h10 : k0_cond10 i = 1#1), ∀ a, (k0_off63 i) a + S512x124.size a ≤ S8192x256.size a
  k0_off63_packedbf16 : ∀ i : grid0.Coords, ∀ (k0_h10 : k0_cond10 i = 1#1), (Rect.unit (s := S8192x256) (k0_off63 i) S512x124.size (k0_off63_inb i k0_h10)).PackedRows (EltTy.packing .bf16)
  k0_off64_inb : ∀ i : grid0.Coords, ∀ a, (k0_off64 i) a + S1x512.size a ≤ S1x8192.size a
  k0_off65_inb : ∀ i : grid0.Coords, ∀ (k0_h11 : k0_cond11 i = 1#1), ∀ a, (k0_off65 i) a + S512x128.size a ≤ S8192x128.size a
  k0_off66_inb : ∀ i : grid0.Coords, ∀ (k0_h11 : k0_cond11 i = 1#1), ∀ a, (k0_off66 i) a + S512x128.size a ≤ S8192x256.size a
  k0_off66_packedbf16 : ∀ i : grid0.Coords, ∀ (k0_h11 : k0_cond11 i = 1#1), (Rect.unit (s := S8192x256) (k0_off66 i) S512x128.size (k0_off66_inb i k0_h11)).PackedRows (EltTy.packing .bf16)
  k0_off67_inb : ∀ i : grid0.Coords, ∀ (k0_h11 : k0_cond11 i = 1#1), ∀ a, (k0_off67 i) a + S512x1.size a ≤ S8192x256.size a
  k0_off67_packedbf16 : ∀ i : grid0.Coords, ∀ (k0_h11 : k0_cond11 i = 1#1), (Rect.unit (s := S8192x256) (k0_off67 i) S512x1.size (k0_off67_inb i k0_h11)).PackedRows (EltTy.packing .bf16)
  k0_off68_inb : ∀ i : grid0.Coords, ∀ (k0_h11 : k0_cond11 i = 1#1), ∀ a, (k0_off68 i) a + S512x1.size a ≤ S8192x256.size a
  k0_off68_packedbf16 : ∀ i : grid0.Coords, ∀ (k0_h11 : k0_cond11 i = 1#1), (Rect.unit (s := S8192x256) (k0_off68 i) S512x1.size (k0_off68_inb i k0_h11)).PackedRows (EltTy.packing .bf16)
  k0_off69_inb : ∀ i : grid0.Coords, ∀ (k0_h11 : k0_cond11 i = 1#1), ∀ a, (k0_off69 i) a + S512x1.size a ≤ S8192x256.size a
  k0_off69_packedbf16 : ∀ i : grid0.Coords, ∀ (k0_h11 : k0_cond11 i = 1#1), (Rect.unit (s := S8192x256) (k0_off69 i) S512x1.size (k0_off69_inb i k0_h11)).PackedRows (EltTy.packing .bf16)
  k0_off70_inb : ∀ i : grid0.Coords, ∀ (k0_h11 : k0_cond11 i = 1#1), ∀ a, (k0_off70 i) a + S512x1.size a ≤ S8192x256.size a
  k0_off70_packedbf16 : ∀ i : grid0.Coords, ∀ (k0_h11 : k0_cond11 i = 1#1), (Rect.unit (s := S8192x256) (k0_off70 i) S512x1.size (k0_off70_inb i k0_h11)).PackedRows (EltTy.packing .bf16)
  k0_off71_inb : ∀ i : grid0.Coords, ∀ (k0_h11 : k0_cond11 i = 1#1), ∀ a, (k0_off71 i) a + S512x124.size a ≤ S8192x256.size a
  k0_off71_packedbf16 : ∀ i : grid0.Coords, ∀ (k0_h11 : k0_cond11 i = 1#1), (Rect.unit (s := S8192x256) (k0_off71 i) S512x124.size (k0_off71_inb i k0_h11)).PackedRows (EltTy.packing .bf16)
  k0_off72_inb : ∀ i : grid0.Coords, ∀ a, (k0_off72 i) a + S1x512.size a ≤ S1x8192.size a
  k0_off73_inb : ∀ i : grid0.Coords, ∀ (k0_h12 : k0_cond12 i = 1#1), ∀ a, (k0_off73 i) a + S512x128.size a ≤ S8192x128.size a
  k0_off74_inb : ∀ i : grid0.Coords, ∀ (k0_h12 : k0_cond12 i = 1#1), ∀ a, (k0_off74 i) a + S512x128.size a ≤ S8192x256.size a
  k0_off74_packedbf16 : ∀ i : grid0.Coords, ∀ (k0_h12 : k0_cond12 i = 1#1), (Rect.unit (s := S8192x256) (k0_off74 i) S512x128.size (k0_off74_inb i k0_h12)).PackedRows (EltTy.packing .bf16)
  k0_off75_inb : ∀ i : grid0.Coords, ∀ (k0_h12 : k0_cond12 i = 1#1), ∀ a, (k0_off75 i) a + S512x1.size a ≤ S8192x256.size a
  k0_off75_packedbf16 : ∀ i : grid0.Coords, ∀ (k0_h12 : k0_cond12 i = 1#1), (Rect.unit (s := S8192x256) (k0_off75 i) S512x1.size (k0_off75_inb i k0_h12)).PackedRows (EltTy.packing .bf16)
  k0_off76_inb : ∀ i : grid0.Coords, ∀ (k0_h12 : k0_cond12 i = 1#1), ∀ a, (k0_off76 i) a + S512x1.size a ≤ S8192x256.size a
  k0_off76_packedbf16 : ∀ i : grid0.Coords, ∀ (k0_h12 : k0_cond12 i = 1#1), (Rect.unit (s := S8192x256) (k0_off76 i) S512x1.size (k0_off76_inb i k0_h12)).PackedRows (EltTy.packing .bf16)
  k0_off77_inb : ∀ i : grid0.Coords, ∀ (k0_h12 : k0_cond12 i = 1#1), ∀ a, (k0_off77 i) a + S512x1.size a ≤ S8192x256.size a
  k0_off77_packedbf16 : ∀ i : grid0.Coords, ∀ (k0_h12 : k0_cond12 i = 1#1), (Rect.unit (s := S8192x256) (k0_off77 i) S512x1.size (k0_off77_inb i k0_h12)).PackedRows (EltTy.packing .bf16)
  k0_off78_inb : ∀ i : grid0.Coords, ∀ (k0_h12 : k0_cond12 i = 1#1), ∀ a, (k0_off78 i) a + S512x1.size a ≤ S8192x256.size a
  k0_off78_packedbf16 : ∀ i : grid0.Coords, ∀ (k0_h12 : k0_cond12 i = 1#1), (Rect.unit (s := S8192x256) (k0_off78 i) S512x1.size (k0_off78_inb i k0_h12)).PackedRows (EltTy.packing .bf16)
  k0_off79_inb : ∀ i : grid0.Coords, ∀ (k0_h12 : k0_cond12 i = 1#1), ∀ a, (k0_off79 i) a + S512x124.size a ≤ S8192x256.size a
  k0_off79_packedbf16 : ∀ i : grid0.Coords, ∀ (k0_h12 : k0_cond12 i = 1#1), (Rect.unit (s := S8192x256) (k0_off79 i) S512x124.size (k0_off79_inb i k0_h12)).PackedRows (EltTy.packing .bf16)
  k0_off80_inb : ∀ i : grid0.Coords, ∀ a, (k0_off80 i) a + S1x512.size a ≤ S1x8192.size a
  k0_off81_inb : ∀ i : grid0.Coords, ∀ (k0_h13 : k0_cond13 i = 1#1), ∀ a, (k0_off81 i) a + S512x128.size a ≤ S8192x128.size a
  k0_off82_inb : ∀ i : grid0.Coords, ∀ (k0_h13 : k0_cond13 i = 1#1), ∀ a, (k0_off82 i) a + S512x128.size a ≤ S8192x256.size a
  k0_off82_packedbf16 : ∀ i : grid0.Coords, ∀ (k0_h13 : k0_cond13 i = 1#1), (Rect.unit (s := S8192x256) (k0_off82 i) S512x128.size (k0_off82_inb i k0_h13)).PackedRows (EltTy.packing .bf16)
  k0_off83_inb : ∀ i : grid0.Coords, ∀ (k0_h13 : k0_cond13 i = 1#1), ∀ a, (k0_off83 i) a + S512x1.size a ≤ S8192x256.size a
  k0_off83_packedbf16 : ∀ i : grid0.Coords, ∀ (k0_h13 : k0_cond13 i = 1#1), (Rect.unit (s := S8192x256) (k0_off83 i) S512x1.size (k0_off83_inb i k0_h13)).PackedRows (EltTy.packing .bf16)
  k0_off84_inb : ∀ i : grid0.Coords, ∀ (k0_h13 : k0_cond13 i = 1#1), ∀ a, (k0_off84 i) a + S512x1.size a ≤ S8192x256.size a
  k0_off84_packedbf16 : ∀ i : grid0.Coords, ∀ (k0_h13 : k0_cond13 i = 1#1), (Rect.unit (s := S8192x256) (k0_off84 i) S512x1.size (k0_off84_inb i k0_h13)).PackedRows (EltTy.packing .bf16)
  k0_off85_inb : ∀ i : grid0.Coords, ∀ (k0_h13 : k0_cond13 i = 1#1), ∀ a, (k0_off85 i) a + S512x1.size a ≤ S8192x256.size a
  k0_off85_packedbf16 : ∀ i : grid0.Coords, ∀ (k0_h13 : k0_cond13 i = 1#1), (Rect.unit (s := S8192x256) (k0_off85 i) S512x1.size (k0_off85_inb i k0_h13)).PackedRows (EltTy.packing .bf16)
  k0_off86_inb : ∀ i : grid0.Coords, ∀ (k0_h13 : k0_cond13 i = 1#1), ∀ a, (k0_off86 i) a + S512x1.size a ≤ S8192x256.size a
  k0_off86_packedbf16 : ∀ i : grid0.Coords, ∀ (k0_h13 : k0_cond13 i = 1#1), (Rect.unit (s := S8192x256) (k0_off86 i) S512x1.size (k0_off86_inb i k0_h13)).PackedRows (EltTy.packing .bf16)
  k0_off87_inb : ∀ i : grid0.Coords, ∀ (k0_h13 : k0_cond13 i = 1#1), ∀ a, (k0_off87 i) a + S512x124.size a ≤ S8192x256.size a
  k0_off87_packedbf16 : ∀ i : grid0.Coords, ∀ (k0_h13 : k0_cond13 i = 1#1), (Rect.unit (s := S8192x256) (k0_off87 i) S512x124.size (k0_off87_inb i k0_h13)).PackedRows (EltTy.packing .bf16)
  k0_off88_inb : ∀ i : grid0.Coords, ∀ a, (k0_off88 i) a + S1x512.size a ≤ S1x8192.size a
  k0_off89_inb : ∀ i : grid0.Coords, ∀ (k0_h14 : k0_cond14 i = 1#1), ∀ a, (k0_off89 i) a + S512x128.size a ≤ S8192x128.size a
  k0_off90_inb : ∀ i : grid0.Coords, ∀ (k0_h14 : k0_cond14 i = 1#1), ∀ a, (k0_off90 i) a + S512x128.size a ≤ S8192x256.size a
  k0_off90_packedbf16 : ∀ i : grid0.Coords, ∀ (k0_h14 : k0_cond14 i = 1#1), (Rect.unit (s := S8192x256) (k0_off90 i) S512x128.size (k0_off90_inb i k0_h14)).PackedRows (EltTy.packing .bf16)
  k0_off91_inb : ∀ i : grid0.Coords, ∀ (k0_h14 : k0_cond14 i = 1#1), ∀ a, (k0_off91 i) a + S512x1.size a ≤ S8192x256.size a
  k0_off91_packedbf16 : ∀ i : grid0.Coords, ∀ (k0_h14 : k0_cond14 i = 1#1), (Rect.unit (s := S8192x256) (k0_off91 i) S512x1.size (k0_off91_inb i k0_h14)).PackedRows (EltTy.packing .bf16)
  k0_off92_inb : ∀ i : grid0.Coords, ∀ (k0_h14 : k0_cond14 i = 1#1), ∀ a, (k0_off92 i) a + S512x1.size a ≤ S8192x256.size a
  k0_off92_packedbf16 : ∀ i : grid0.Coords, ∀ (k0_h14 : k0_cond14 i = 1#1), (Rect.unit (s := S8192x256) (k0_off92 i) S512x1.size (k0_off92_inb i k0_h14)).PackedRows (EltTy.packing .bf16)
  k0_off93_inb : ∀ i : grid0.Coords, ∀ (k0_h14 : k0_cond14 i = 1#1), ∀ a, (k0_off93 i) a + S512x1.size a ≤ S8192x256.size a
  k0_off93_packedbf16 : ∀ i : grid0.Coords, ∀ (k0_h14 : k0_cond14 i = 1#1), (Rect.unit (s := S8192x256) (k0_off93 i) S512x1.size (k0_off93_inb i k0_h14)).PackedRows (EltTy.packing .bf16)
  k0_off94_inb : ∀ i : grid0.Coords, ∀ (k0_h14 : k0_cond14 i = 1#1), ∀ a, (k0_off94 i) a + S512x1.size a ≤ S8192x256.size a
  k0_off94_packedbf16 : ∀ i : grid0.Coords, ∀ (k0_h14 : k0_cond14 i = 1#1), (Rect.unit (s := S8192x256) (k0_off94 i) S512x1.size (k0_off94_inb i k0_h14)).PackedRows (EltTy.packing .bf16)
  k0_off95_inb : ∀ i : grid0.Coords, ∀ (k0_h14 : k0_cond14 i = 1#1), ∀ a, (k0_off95 i) a + S512x124.size a ≤ S8192x256.size a
  k0_off95_packedbf16 : ∀ i : grid0.Coords, ∀ (k0_h14 : k0_cond14 i = 1#1), (Rect.unit (s := S8192x256) (k0_off95 i) S512x124.size (k0_off95_inb i k0_h14)).PackedRows (EltTy.packing .bf16)
  k0_off96_inb : ∀ i : grid0.Coords, ∀ a, (k0_off96 i) a + S1x512.size a ≤ S1x8192.size a
  k0_off97_inb : ∀ i : grid0.Coords, ∀ (k0_h15 : k0_cond15 i = 1#1), ∀ a, (k0_off97 i) a + S512x128.size a ≤ S8192x128.size a
  k0_off98_inb : ∀ i : grid0.Coords, ∀ (k0_h15 : k0_cond15 i = 1#1), ∀ a, (k0_off98 i) a + S512x128.size a ≤ S8192x256.size a
  k0_off98_packedbf16 : ∀ i : grid0.Coords, ∀ (k0_h15 : k0_cond15 i = 1#1), (Rect.unit (s := S8192x256) (k0_off98 i) S512x128.size (k0_off98_inb i k0_h15)).PackedRows (EltTy.packing .bf16)
  k0_off99_inb : ∀ i : grid0.Coords, ∀ (k0_h15 : k0_cond15 i = 1#1), ∀ a, (k0_off99 i) a + S512x1.size a ≤ S8192x256.size a
  k0_off99_packedbf16 : ∀ i : grid0.Coords, ∀ (k0_h15 : k0_cond15 i = 1#1), (Rect.unit (s := S8192x256) (k0_off99 i) S512x1.size (k0_off99_inb i k0_h15)).PackedRows (EltTy.packing .bf16)
  k0_off100_inb : ∀ i : grid0.Coords, ∀ (k0_h15 : k0_cond15 i = 1#1), ∀ a, (k0_off100 i) a + S512x1.size a ≤ S8192x256.size a
  k0_off100_packedbf16 : ∀ i : grid0.Coords, ∀ (k0_h15 : k0_cond15 i = 1#1), (Rect.unit (s := S8192x256) (k0_off100 i) S512x1.size (k0_off100_inb i k0_h15)).PackedRows (EltTy.packing .bf16)
  k0_off101_inb : ∀ i : grid0.Coords, ∀ (k0_h15 : k0_cond15 i = 1#1), ∀ a, (k0_off101 i) a + S512x1.size a ≤ S8192x256.size a
  k0_off101_packedbf16 : ∀ i : grid0.Coords, ∀ (k0_h15 : k0_cond15 i = 1#1), (Rect.unit (s := S8192x256) (k0_off101 i) S512x1.size (k0_off101_inb i k0_h15)).PackedRows (EltTy.packing .bf16)
  k0_off102_inb : ∀ i : grid0.Coords, ∀ (k0_h15 : k0_cond15 i = 1#1), ∀ a, (k0_off102 i) a + S512x1.size a ≤ S8192x256.size a
  k0_off102_packedbf16 : ∀ i : grid0.Coords, ∀ (k0_h15 : k0_cond15 i = 1#1), (Rect.unit (s := S8192x256) (k0_off102 i) S512x1.size (k0_off102_inb i k0_h15)).PackedRows (EltTy.packing .bf16)
  k0_off103_inb : ∀ i : grid0.Coords, ∀ (k0_h15 : k0_cond15 i = 1#1), ∀ a, (k0_off103 i) a + S512x124.size a ≤ S8192x256.size a
  k0_off103_packedbf16 : ∀ i : grid0.Coords, ∀ (k0_h15 : k0_cond15 i = 1#1), (Rect.unit (s := S8192x256) (k0_off103 i) S512x124.size (k0_off103_inb i k0_h15)).PackedRows (EltTy.packing .bf16)
  k0_off104_inb : ∀ i : grid0.Coords, ∀ a, (k0_off104 i) a + S1x512.size a ≤ S1x8192.size a
  k0_off105_inb : ∀ i : grid0.Coords, ∀ (k0_h16 : k0_cond16 i = 1#1), ∀ a, (k0_off105 i) a + S512x128.size a ≤ S8192x128.size a
  k0_off106_inb : ∀ i : grid0.Coords, ∀ (k0_h16 : k0_cond16 i = 1#1), ∀ a, (k0_off106 i) a + S512x128.size a ≤ S8192x256.size a
  k0_off106_packedbf16 : ∀ i : grid0.Coords, ∀ (k0_h16 : k0_cond16 i = 1#1), (Rect.unit (s := S8192x256) (k0_off106 i) S512x128.size (k0_off106_inb i k0_h16)).PackedRows (EltTy.packing .bf16)
  k0_off107_inb : ∀ i : grid0.Coords, ∀ (k0_h16 : k0_cond16 i = 1#1), ∀ a, (k0_off107 i) a + S512x1.size a ≤ S8192x256.size a
  k0_off107_packedbf16 : ∀ i : grid0.Coords, ∀ (k0_h16 : k0_cond16 i = 1#1), (Rect.unit (s := S8192x256) (k0_off107 i) S512x1.size (k0_off107_inb i k0_h16)).PackedRows (EltTy.packing .bf16)
  k0_off108_inb : ∀ i : grid0.Coords, ∀ (k0_h16 : k0_cond16 i = 1#1), ∀ a, (k0_off108 i) a + S512x1.size a ≤ S8192x256.size a
  k0_off108_packedbf16 : ∀ i : grid0.Coords, ∀ (k0_h16 : k0_cond16 i = 1#1), (Rect.unit (s := S8192x256) (k0_off108 i) S512x1.size (k0_off108_inb i k0_h16)).PackedRows (EltTy.packing .bf16)
  k0_off109_inb : ∀ i : grid0.Coords, ∀ (k0_h16 : k0_cond16 i = 1#1), ∀ a, (k0_off109 i) a + S512x1.size a ≤ S8192x256.size a
  k0_off109_packedbf16 : ∀ i : grid0.Coords, ∀ (k0_h16 : k0_cond16 i = 1#1), (Rect.unit (s := S8192x256) (k0_off109 i) S512x1.size (k0_off109_inb i k0_h16)).PackedRows (EltTy.packing .bf16)
  k0_off110_inb : ∀ i : grid0.Coords, ∀ (k0_h16 : k0_cond16 i = 1#1), ∀ a, (k0_off110 i) a + S512x1.size a ≤ S8192x256.size a
  k0_off110_packedbf16 : ∀ i : grid0.Coords, ∀ (k0_h16 : k0_cond16 i = 1#1), (Rect.unit (s := S8192x256) (k0_off110 i) S512x1.size (k0_off110_inb i k0_h16)).PackedRows (EltTy.packing .bf16)
  k0_off111_inb : ∀ i : grid0.Coords, ∀ (k0_h16 : k0_cond16 i = 1#1), ∀ a, (k0_off111 i) a + S512x124.size a ≤ S8192x256.size a
  k0_off111_packedbf16 : ∀ i : grid0.Coords, ∀ (k0_h16 : k0_cond16 i = 1#1), (Rect.unit (s := S8192x256) (k0_off111 i) S512x124.size (k0_off111_inb i k0_h16)).PackedRows (EltTy.packing .bf16)
  k0_off112_inb : ∀ i : grid0.Coords, ∀ a, (k0_off112 i) a + S1x512.size a ≤ S1x8192.size a
  k0_off113_inb : ∀ i : grid0.Coords, ∀ (k0_h17 : k0_cond17 i = 1#1), ∀ a, (k0_off113 i) a + S512x128.size a ≤ S8192x128.size a
  k0_off114_inb : ∀ i : grid0.Coords, ∀ (k0_h17 : k0_cond17 i = 1#1), ∀ a, (k0_off114 i) a + S512x128.size a ≤ S8192x256.size a
  k0_off114_packedbf16 : ∀ i : grid0.Coords, ∀ (k0_h17 : k0_cond17 i = 1#1), (Rect.unit (s := S8192x256) (k0_off114 i) S512x128.size (k0_off114_inb i k0_h17)).PackedRows (EltTy.packing .bf16)
  k0_off115_inb : ∀ i : grid0.Coords, ∀ (k0_h17 : k0_cond17 i = 1#1), ∀ a, (k0_off115 i) a + S512x1.size a ≤ S8192x256.size a
  k0_off115_packedbf16 : ∀ i : grid0.Coords, ∀ (k0_h17 : k0_cond17 i = 1#1), (Rect.unit (s := S8192x256) (k0_off115 i) S512x1.size (k0_off115_inb i k0_h17)).PackedRows (EltTy.packing .bf16)
  k0_off116_inb : ∀ i : grid0.Coords, ∀ (k0_h17 : k0_cond17 i = 1#1), ∀ a, (k0_off116 i) a + S512x1.size a ≤ S8192x256.size a
  k0_off116_packedbf16 : ∀ i : grid0.Coords, ∀ (k0_h17 : k0_cond17 i = 1#1), (Rect.unit (s := S8192x256) (k0_off116 i) S512x1.size (k0_off116_inb i k0_h17)).PackedRows (EltTy.packing .bf16)
  k0_off117_inb : ∀ i : grid0.Coords, ∀ (k0_h17 : k0_cond17 i = 1#1), ∀ a, (k0_off117 i) a + S512x1.size a ≤ S8192x256.size a
  k0_off117_packedbf16 : ∀ i : grid0.Coords, ∀ (k0_h17 : k0_cond17 i = 1#1), (Rect.unit (s := S8192x256) (k0_off117 i) S512x1.size (k0_off117_inb i k0_h17)).PackedRows (EltTy.packing .bf16)
  k0_off118_inb : ∀ i : grid0.Coords, ∀ (k0_h17 : k0_cond17 i = 1#1), ∀ a, (k0_off118 i) a + S512x1.size a ≤ S8192x256.size a
  k0_off118_packedbf16 : ∀ i : grid0.Coords, ∀ (k0_h17 : k0_cond17 i = 1#1), (Rect.unit (s := S8192x256) (k0_off118 i) S512x1.size (k0_off118_inb i k0_h17)).PackedRows (EltTy.packing .bf16)
  k0_off119_inb : ∀ i : grid0.Coords, ∀ (k0_h17 : k0_cond17 i = 1#1), ∀ a, (k0_off119 i) a + S512x124.size a ≤ S8192x256.size a
  k0_off119_packedbf16 : ∀ i : grid0.Coords, ∀ (k0_h17 : k0_cond17 i = 1#1), (Rect.unit (s := S8192x256) (k0_off119 i) S512x124.size (k0_off119_inb i k0_h17)).PackedRows (EltTy.packing .bf16)
  k0_off120_inb : ∀ i : grid0.Coords, ∀ a, (k0_off120 i) a + S1x512.size a ≤ S1x8192.size a
  k0_off121_inb : ∀ i : grid0.Coords, ∀ (k0_h18 : k0_cond18 i = 1#1), ∀ a, (k0_off121 i) a + S512x128.size a ≤ S8192x128.size a
  k0_off122_inb : ∀ i : grid0.Coords, ∀ (k0_h18 : k0_cond18 i = 1#1), ∀ a, (k0_off122 i) a + S512x128.size a ≤ S8192x256.size a
  k0_off122_packedbf16 : ∀ i : grid0.Coords, ∀ (k0_h18 : k0_cond18 i = 1#1), (Rect.unit (s := S8192x256) (k0_off122 i) S512x128.size (k0_off122_inb i k0_h18)).PackedRows (EltTy.packing .bf16)
  k0_off123_inb : ∀ i : grid0.Coords, ∀ (k0_h18 : k0_cond18 i = 1#1), ∀ a, (k0_off123 i) a + S512x1.size a ≤ S8192x256.size a
  k0_off123_packedbf16 : ∀ i : grid0.Coords, ∀ (k0_h18 : k0_cond18 i = 1#1), (Rect.unit (s := S8192x256) (k0_off123 i) S512x1.size (k0_off123_inb i k0_h18)).PackedRows (EltTy.packing .bf16)
  k0_off124_inb : ∀ i : grid0.Coords, ∀ (k0_h18 : k0_cond18 i = 1#1), ∀ a, (k0_off124 i) a + S512x1.size a ≤ S8192x256.size a
  k0_off124_packedbf16 : ∀ i : grid0.Coords, ∀ (k0_h18 : k0_cond18 i = 1#1), (Rect.unit (s := S8192x256) (k0_off124 i) S512x1.size (k0_off124_inb i k0_h18)).PackedRows (EltTy.packing .bf16)
  k0_off125_inb : ∀ i : grid0.Coords, ∀ (k0_h18 : k0_cond18 i = 1#1), ∀ a, (k0_off125 i) a + S512x1.size a ≤ S8192x256.size a
  k0_off125_packedbf16 : ∀ i : grid0.Coords, ∀ (k0_h18 : k0_cond18 i = 1#1), (Rect.unit (s := S8192x256) (k0_off125 i) S512x1.size (k0_off125_inb i k0_h18)).PackedRows (EltTy.packing .bf16)
  k0_off126_inb : ∀ i : grid0.Coords, ∀ (k0_h18 : k0_cond18 i = 1#1), ∀ a, (k0_off126 i) a + S512x1.size a ≤ S8192x256.size a
  k0_off126_packedbf16 : ∀ i : grid0.Coords, ∀ (k0_h18 : k0_cond18 i = 1#1), (Rect.unit (s := S8192x256) (k0_off126 i) S512x1.size (k0_off126_inb i k0_h18)).PackedRows (EltTy.packing .bf16)
  k0_off127_inb : ∀ i : grid0.Coords, ∀ (k0_h18 : k0_cond18 i = 1#1), ∀ a, (k0_off127 i) a + S512x124.size a ≤ S8192x256.size a
  k0_off127_packedbf16 : ∀ i : grid0.Coords, ∀ (k0_h18 : k0_cond18 i = 1#1), (Rect.unit (s := S8192x256) (k0_off127 i) S512x124.size (k0_off127_inb i k0_h18)).PackedRows (EltTy.packing .bf16)
  k0_off128_inb : ∀ i : grid0.Coords, ∀ a, (k0_off128 i) a + S1x512.size a ≤ S1x8192.size a
  k0_off129_inb : ∀ i : grid0.Coords, ∀ a, (k0_off129 i) a + S1x512.size a ≤ S1x8192.size a
  k0_off130_inb : ∀ i : grid0.Coords, ∀ a, (k0_off130 i) a + S1x512.size a ≤ S1x8192.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S8192x128.size a
  hwx0_0 : ∀ i : grid0.Coords, EltTy.bits .f32 = 32 ∨ (Rect.block (s := S8192x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x128.size a
  hwx0_1 : ∀ i : grid0.Coords, EltTy.bits .f32 = 32 ∨ (Rect.block (s := S8192x128) S8192x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

def dot_S4096x256_S512x256_S4096x512_1_1_0_0_n_n : DotDims S4096x256 S512x256 S4096x512 where
  lhsContracting := [1]
  rhsContracting := [1]
  lhsNonContracting := [0]
  rhsNonContracting := [0]
  lhsBatch := []
  rhsBatch := []
  wf := dot_S4096x256_S512x256_S4096x512_1_1_0_0_n_n_wf

abbrev win0_0 : Pipeline.Window sig grid0 :=
  Pipeline.Window.ofSpec (Memref.whole main_arg0) S8192x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond19 i == 1#1) | ⟨_ + 3, h⟩ => absurd h (Nat.not_lt.2 (Nat.le_add_left _ _))

class Facts : Prop extends Facts₀ where

variable [Facts]
-- ==== ReferenceIdeal.lean ====
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S128x8192 : Shape := ⟨2, ![128, 8192]⟩

abbrev nBuf : Space → Nat
  | .hbm => 33
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x128, .f32⟩
  | .hbm, ⟨7, _⟩ => ⟨S_, .f32⟩
  | .hbm, ⟨8, _⟩ => ⟨S8192, .f32⟩
  | .hbm, ⟨9, _⟩ => ⟨S1x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S128x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S_, .f32⟩
  | .hbm, ⟨23, _⟩ => ⟨S8192, .f32⟩
  | .hbm, ⟨24, _⟩ => ⟨S_, .f32⟩
  | .hbm, ⟨25, _⟩ => ⟨S8192, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x128_S128x8192_1_0 : S8192x128.Transposes [1, 0] S128x8192
  bcast_S_S8192x8192 : S_.BroadcastsInDim S8192x8192 (![] : Fin 0 → Fin S8192x8192.rank)
  reducesTo_S8192x8192_S8192_d1 : S8192x8192.ReducesTo [1] S8192
  reducesTo_S8192x8192_S8192_d0 : S8192x8192.ReducesTo [0] S8192
  reducesTo_S8192_S_d0 : S8192.ReducesTo [0] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.KernelHand.RunA.lean ====
import proofs.«173679_g9887014716187_cont_9to1c4b_714_26_alg».proof.Proof.Gen.Kernel.Frame
import proofs.«173679_g9887014716187_cont_9to1c4b_714_26_alg».proof.Proof.Gen.Kernel.Skeleton

set_option maxRecDepth 16384

noncomputable section

namespace Cert.KernelHand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The kernel body at the grid's FIRST point (both coordinates zero): every conditional but the last is taken.
    The body zeroes the sum accumulator and the augmented row operand's padding, builds the augmented row operand
    from rows 0..4095 of the first argument, builds the augmented column operand chunk by chunk from the second,
    multiplies chunk by chunk, folds row minima in registers and column minima into their scratch (whose old
    contents the select at this point discards), and adds the clamped row minima's sum to the accumulator. -/

/-- The condition of the body's first conditional (both grid coordinates zero), as the skeleton spells it. -/
abbrev cond1 (i : grid0.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1

set_option maxHeartbeats 4000000 in
/-- What the body's stores leave in the four scratch buffers it writes at the first point, as lists of pieces
    (last store first), WITH the proof that on whole memrefs — the inputs at `x0`, `x1`, the idle output at `xi2`,
    the column-minimum scratch at `xs3` (it is loaded before it is stored), the others at anything — the body runs to
    its return handing back the inputs and the idle output untouched and each written scratch with its pieces
    written. The pieces are the witnesses the run finds. -/
noncomputable def kernelRunA (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S1x1 .f32) (harg4 : arg4.IsWhole) (arg5 : Memref sig .tc .vmem S4096x256 .bf16) (harg5 : arg5.IsWhole) (arg6 : Memref sig .tc .vmem S8192x256 .bf16) (harg6 : arg6.IsWhole) (arg7 : Memref sig .tc .vmem S4096x128 .f32) (harg7 : arg7.IsWhole) (arg8 : Memref sig .tc .vmem S1x8192 .f32) (harg8 : arg8.IsWhole) (arg9 : Memref sig .tc .vmem S1x1 .f32) (harg9 : arg9.IsWhole)
    (hi0 : (i 0).val = 0) (hi1 : (i 1).val = 0)
    (hc1 : cond1 i) (hc2 : k0_cond2 i = 1#1) (hc3 : k0_cond3 i = 1#1) (hc4 : k0_cond4 i = 1#1) (hc5 : k0_cond5 i = 1#1) (hc6 : k0_cond6 i = 1#1) (hc7 : k0_cond7 i = 1#1) (hc8 : k0_cond8 i = 1#1) (hc9 : k0_cond9 i = 1#1) (hc10 : k0_cond10 i = 1#1) (hc11 : k0_cond11 i = 1#1) (hc12 : k0_cond12 i = 1#1) (hc13 : k0_cond13 i = 1#1) (hc14 : k0_cond14 i = 1#1) (hc15 : k0_cond15 i = 1#1) (hc16 : k0_cond16 i = 1#1) (hc17 : k0_cond17 i = 1#1) (hc18 : k0_cond18 i = 1#1) (hc19 : ¬k0_cond19 i = 1#1)
    (x0 : Vec F S8192x128 .f32) (x1 : Vec F S8192x128 .f32) (xs3 : Vec F S1x8192 .f32) :
    Σ' (LS0 : List (View.Piece (Elt F) S4096x256 .bf16)) (LS1 : List (View.Piece (Elt F) S8192x256 .bf16)) (LS3 : List (View.Piece (Elt F) S1x8192 .f32)), { LS4 : List (View.Piece (Elt F) S1x1 .f32) //
      ∀ (xi2 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare xi2
            ∗ (∃ d, owns (c : Thread nD τ) arg5 fullShare d) ∗ (∃ d, owns (c : Thread nD τ) arg6 fullShare d) ∗ (∃ d, owns (c : Thread nD τ) arg7 fullShare d)
            ∗ owns (c : Thread nD τ) arg8 fullShare xs3 ∗ (∃ d, owns (c : Thread nD τ) arg9 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)
                ∗ (∃ d, owns (c : Thread nD τ) arg7 fullShare d)
                ∗ (∃ f, arg8.view.loc (c : Thread nD τ) ↦[arg8.view.set]{fullShare} arg8.view.writes (Elt F) f LS3)
                ∗ (∃ f, arg9.view.loc (c : Thread nD τ) ↦[arg9.view.set]{fullShare} arg9.view.writes (Elt F) f LS4)) -∗ K ⟨⟩))
          ⊢ wp frame (wpE (defs₀ (F := F)) Variants.none c none) E (cc0__chamfer_kernel i arg2 harg2 arg3 harg3 arg4 harg4 arg5 harg5 arg6 harg6 arg7 harg7 arg8 harg8 arg9 harg9) K } := by
  refine ⟨?_, ?_, ?_, ?_, fun xi2 E K => ?run⟩
  case run =>
    simp only [cc0__chamfer_kernel_eq_skeleton]; unfold cc0__chamfer_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, ⟨%ds2, %fs2, -, HS2⟩, ⟨%fs3, %hfs3, HS3⟩, ⟨%ds4, %fs4, -, HS4⟩, Hk⟩
    obtain rfl := harg2.eq_unread hf0; obtain rfl := harg3.eq_unread hf1; obtain rfl := harg4.eq_unread hf2; obtain rfl := harg8.eq_unread hfs3
    sl_exec_parts (disch := assumption)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    isplitl [HS1]; · iexists _; iexact HS1
    isplitl [HS2]
    · iexists _, fs2; isplitr; · ipureintro; rfl
      iexact HS2
    isplitl [HS3]; · iexists _; iexact HS3
    iexists _; iexact HS4

end Cert.KernelHand

end
-- ==== Proof.KernelHand.RunB.lean ====
import proofs.«173679_g9887014716187_cont_9to1c4b_714_26_alg».proof.Proof.KernelHand.RunA

set_option maxRecDepth 16384

noncomputable section

namespace Cert.KernelHand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The kernel body at the grid's SECOND (last) point (first coordinate one): the row operand is rebuilt from rows
    4096..8191 of the first argument over the padding the first point left, the column operand is read as the first
    point left it, the column minima are folded into what the first point left, the clamped row minima's sum is
    added to the accumulator, and the last conditional stores the mean into the output block. -/

set_option maxHeartbeats 4000000 in
/-- What the body's stores leave at the last point, as lists of pieces (last store first): in the output block
    (`L2`), the row operand (`LS0`), the column minima (`LS3`) and the accumulator (`LS4`), each over what the point
    before left there (`xs0`, `xs3`, `xs4`); the column operand (`xs1`) is only read. -/
noncomputable def kernelRunB (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S1x1 .f32) (harg4 : arg4.IsWhole) (arg5 : Memref sig .tc .vmem S4096x256 .bf16) (harg5 : arg5.IsWhole) (arg6 : Memref sig .tc .vmem S8192x256 .bf16) (harg6 : arg6.IsWhole) (arg7 : Memref sig .tc .vmem S4096x128 .f32) (harg7 : arg7.IsWhole) (arg8 : Memref sig .tc .vmem S1x8192 .f32) (harg8 : arg8.IsWhole) (arg9 : Memref sig .tc .vmem S1x1 .f32) (harg9 : arg9.IsWhole)
    (hi0 : (i 0).val = 1) (hi1 : (i 1).val = 0)
    (hc1 : ¬cond1 i) (hc2 : k0_cond2 i = 1#1) (hc3 : ¬k0_cond3 i = 1#1) (hc4 : ¬k0_cond4 i = 1#1) (hc5 : ¬k0_cond5 i = 1#1) (hc6 : ¬k0_cond6 i = 1#1) (hc7 : ¬k0_cond7 i = 1#1) (hc8 : ¬k0_cond8 i = 1#1) (hc9 : ¬k0_cond9 i = 1#1) (hc10 : ¬k0_cond10 i = 1#1) (hc11 : ¬k0_cond11 i = 1#1) (hc12 : ¬k0_cond12 i = 1#1) (hc13 : ¬k0_cond13 i = 1#1) (hc14 : ¬k0_cond14 i = 1#1) (hc15 : ¬k0_cond15 i = 1#1) (hc16 : ¬k0_cond16 i = 1#1) (hc17 : ¬k0_cond17 i = 1#1) (hc18 : ¬k0_cond18 i = 1#1) (hc19 : k0_cond19 i = 1#1)
    (x0 : Vec F S8192x128 .f32) (x1 : Vec F S8192x128 .f32)
    (xs0 : Vec F S4096x256 .bf16) (xs1 : Vec F S8192x256 .bf16) (xs3 : Vec F S1x8192 .f32) (xs4 : Vec F S1x1 .f32) :
    Σ' (L2 : List (View.Piece (Elt F) S1x1 .f32)) (LS0 : List (View.Piece (Elt F) S4096x256 .bf16)) (LS3 : List (View.Piece (Elt F) S1x8192 .f32)), { LS4 : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs0 ∗ owns (c : Thread nD τ) arg6 fullShare xs1 ∗ (∃ d, owns (c : Thread nD τ) arg7 fullShare d)
            ∗ owns (c : Thread nD τ) arg8 fullShare xs3 ∗ owns (c : Thread nD τ) arg9 fullShare xs4
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (arg5.view.loc (c : Thread nD τ) ↦[arg5.view.set]{fullShare} arg5.view.writes (Elt F) (harg5.unread xs0) LS0)
                ∗ owns (c : Thread nD τ) arg6 fullShare xs1
                ∗ (∃ d, owns (c : Thread nD τ) arg7 fullShare d)
                ∗ (∃ f, arg8.view.loc (c : Thread nD τ) ↦[arg8.view.set]{fullShare} arg8.view.writes (Elt F) f LS3)
                ∗ (∃ f, arg9.view.loc (c : Thread nD τ) ↦[arg9.view.set]{fullShare} arg9.view.writes (Elt F) f LS4)) -∗ K ⟨⟩))
          ⊢ wp frame (wpE (defs₀ (F := F)) Variants.none c none) E (cc0__chamfer_kernel i arg2 harg2 arg3 harg3 arg4 harg4 arg5 harg5 arg6 harg6 arg7 harg7 arg8 harg8 arg9 harg9) K } := by
  refine ⟨?_, ?_, ?_, ?_, fun E K => ?run⟩
  case run =>
    simp only [cc0__chamfer_kernel_eq_skeleton]; unfold cc0__chamfer_kernel_skel
    unfold owns
    iintro ⟨⟨%f0, %hf0, H0⟩, ⟨%f1, %hf1, H1⟩, ⟨%d2, %f2, -, H2⟩, ⟨%fs0, %hfs0, HS0⟩, ⟨%fs1, %hfs1, HS1⟩, ⟨%ds2, %fs2, -, HS2⟩, ⟨%fs3, %hfs3, HS3⟩, ⟨%fs4, %hfs4, HS4⟩, Hk⟩
    obtain rfl := harg2.eq_unread hf0; obtain rfl := harg3.eq_unread hf1
    obtain rfl := harg5.eq_unread hfs0; obtain rfl := harg6.eq_unread hfs1
    obtain rfl := harg8.eq_unread hfs3; obtain rfl := harg9.eq_unread hfs4
    sl_exec_parts (disch := assumption)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexact HS0
    isplitl [HS1]
    · iexists _; isplitr; · ipureintro; exact harg6.read_unread _
      iexact HS1
    isplitl [HS2]
    · iexists _, fs2; isplitr; · ipureintro; rfl
      iexact HS2
    isplitl [HS3]; · iexists _; iexact HS3
    iexists _; iexact HS4

end Cert.KernelHand

end
-- ==== Proof.KernelHand.FrameData.lean ====
import proofs.«173679_g9887014716187_cont_9to1c4b_714_26_alg».proof.Proof.KernelHand.RunB

set_option maxRecDepth 16384

noncomputable section

namespace Cert.KernelHand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! What the two runs leave, named: the grid's two points, the memrefs the body is called with there, the runs at
    them, that their pieces cover the buffers they overwrite, the contents read back, and (further below, in the
    module that imports this one) the pipeline's proof data, the body obligation, the frame run and the frame.

    The grid has two points. At the first (case A) the body overwrites the four scratch buffers it uses whole; at the
    second (case B) it reads them back and stores the result. So the region invariant names, between the two points,
    what the first point left in those four buffers, and the result window's block after the second point is what
    case B leaves there over them. Nothing the body computes is transcribed: the contents are the pieces the two
    runs found, read back. -/

variable (m : (ℓ : Loc nD τ sig) → Buf (Elt F) ℓ) (ρ : Dev nD → PrngReg)

/-! ## The two points -/

theorem cA0 : ((grid0.coords t0_0) 0).val = 0 := by decide
theorem cA1 : ((grid0.coords t0_0) 1).val = 0 := by decide
theorem cB0 : ((grid0.coords t0_1) 0).val = 1 := by decide
theorem cB1 : ((grid0.coords t0_1) 1).val = 0 := by decide

theorem hA1 : cond1 (grid0.coords t0_0) := by decide
theorem hA2 : k0_cond2 (grid0.coords t0_0) = 1#1 := by decide
theorem hA3 : k0_cond3 (grid0.coords t0_0) = 1#1 := by decide
theorem hA4 : k0_cond4 (grid0.coords t0_0) = 1#1 := by decide
theorem hA5 : k0_cond5 (grid0.coords t0_0) = 1#1 := by decide
theorem hA6 : k0_cond6 (grid0.coords t0_0) = 1#1 := by decide
theorem hA7 : k0_cond7 (grid0.coords t0_0) = 1#1 := by decide
theorem hA8 : k0_cond8 (grid0.coords t0_0) = 1#1 := by decide
theorem hA9 : k0_cond9 (grid0.coords t0_0) = 1#1 := by decide
theorem hA10 : k0_cond10 (grid0.coords t0_0) = 1#1 := by decide
theorem hA11 : k0_cond11 (grid0.coords t0_0) = 1#1 := by decide
theorem hA12 : k0_cond12 (grid0.coords t0_0) = 1#1 := by decide
theorem hA13 : k0_cond13 (grid0.coords t0_0) = 1#1 := by decide
theorem hA14 : k0_cond14 (grid0.coords t0_0) = 1#1 := by decide
theorem hA15 : k0_cond15 (grid0.coords t0_0) = 1#1 := by decide
theorem hA16 : k0_cond16 (grid0.coords t0_0) = 1#1 := by decide
theorem hA17 : k0_cond17 (grid0.coords t0_0) = 1#1 := by decide
theorem hA18 : k0_cond18 (grid0.coords t0_0) = 1#1 := by decide
theorem hA19 : ¬k0_cond19 (grid0.coords t0_0) = 1#1 := by decide
theorem hB1 : ¬cond1 (grid0.coords t0_1) := by decide
theorem hB2 : k0_cond2 (grid0.coords t0_1) = 1#1 := by decide
theorem hB3 : ¬k0_cond3 (grid0.coords t0_1) = 1#1 := by decide
theorem hB4 : ¬k0_cond4 (grid0.coords t0_1) = 1#1 := by decide
theorem hB5 : ¬k0_cond5 (grid0.coords t0_1) = 1#1 := by decide
theorem hB6 : ¬k0_cond6 (grid0.coords t0_1) = 1#1 := by decide
theorem hB7 : ¬k0_cond7 (grid0.coords t0_1) = 1#1 := by decide
theorem hB8 : ¬k0_cond8 (grid0.coords t0_1) = 1#1 := by decide
theorem hB9 : ¬k0_cond9 (grid0.coords t0_1) = 1#1 := by decide
theorem hB10 : ¬k0_cond10 (grid0.coords t0_1) = 1#1 := by decide
theorem hB11 : ¬k0_cond11 (grid0.coords t0_1) = 1#1 := by decide
theorem hB12 : ¬k0_cond12 (grid0.coords t0_1) = 1#1 := by decide
theorem hB13 : ¬k0_cond13 (grid0.coords t0_1) = 1#1 := by decide
theorem hB14 : ¬k0_cond14 (grid0.coords t0_1) = 1#1 := by decide
theorem hB15 : ¬k0_cond15 (grid0.coords t0_1) = 1#1 := by decide
theorem hB16 : ¬k0_cond16 (grid0.coords t0_1) = 1#1 := by decide
theorem hB17 : ¬k0_cond17 (grid0.coords t0_1) = 1#1 := by decide
theorem hB18 : ¬k0_cond18 (grid0.coords t0_1) = 1#1 := by decide
theorem hB19 : k0_cond19 (grid0.coords t0_1) = 1#1 := by decide

/-- The result window is idle at the first point, and not written back there. -/
theorem idleA_2 : cfg0.idle 2 (grid0.coords t0_0) = true := by decide
theorem noFlushA_2 : (cfg0.win 2).flush t0_0 = false := by decide
/-- It is live at the last point; the input windows are never idle. -/
theorem liveB_2 : cfg0.idle 2 (grid0.coords t0_1) = false := by decide
theorem live_0 (t : Fin cfg0.N) : cfg0.idle 0 (grid0.coords t) = false := rfl
theorem live_1 (t : Fin cfg0.N) : cfg0.idle 1 (grid0.coords t) = false := rfl

/-! ## The memrefs the body is called with -/

abbrev ms0_0 (t : Fin cfg0.N) : Memref sig .tc .vmem S8192x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
abbrev scM0 : Memref sig .tc .vmem S4096x256 .bf16 := Memref.whole cc0_scratch0
abbrev scM1 : Memref sig .tc .vmem S8192x256 .bf16 := Memref.whole cc0_scratch1
abbrev scM2 : Memref sig .tc .vmem S4096x128 .f32 := Memref.whole cc0_scratch2
abbrev scM3 : Memref sig .tc .vmem S1x8192 .f32 := Memref.whole cc0_scratch3
abbrev scM4 : Memref sig .tc .vmem S1x1 .f32 := Memref.whole cc0_scratch4
abbrev VS0 : View sig .tc .vmem S4096x256 .bf16 := scM0.view
abbrev VS1 : View sig .tc .vmem S8192x256 .bf16 := scM1.view
abbrev VS3 : View sig .tc .vmem S1x8192 .f32 := scM3.view
abbrev VS4 : View sig .tc .vmem S1x1 .f32 := scM4.view

/-- The class invariant with the five scratch operands as memrefs owned at some contents. -/
theorem PhiA0_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d) ∗ (∃ d, owns (c : Thread nD τ) scM4 fullShare d)) ∗ (∃ r, prngReg c r)) := by
  unfold Pipeline.ΦA; rw [scopedRest0_eq]; simp only [scM0, scM1, scM2, scM3, scM4, owns_whole]; try rfl

/-! ## The two runs at the two points -/

/-- Case A's run at the first point, on the point's staging memrefs and the scratch operands. -/
abbrev runA (c : Dev nD) (x0 x1 : Vec F S8192x128 .f32) (xs3 : Vec F S1x8192 .f32) :=
  kernelRunA (F := F) c (grid0.coords t0_0) (ms0_0 t0_0) (hs0_0 t0_0) (ms0_1 t0_0) (hs0_1 t0_0) (ms0_2 t0_0) (hs0_2 t0_0) scM0 (Memref.isWhole_whole _) scM1 (Memref.isWhole_whole _) scM2 (Memref.isWhole_whole _) scM3 (Memref.isWhole_whole _) scM4 (Memref.isWhole_whole _) cA0 cA1 hA1 hA2 hA3 hA4 hA5 hA6 hA7 hA8 hA9 hA10 hA11 hA12 hA13 hA14 hA15 hA16 hA17 hA18 hA19 x0 x1 xs3

/-- Case B's run at the last point. -/
abbrev runB (c : Dev nD) (x0 x1 : Vec F S8192x128 .f32) (xs0 : Vec F S4096x256 .bf16) (xs1 : Vec F S8192x256 .bf16) (xs3 : Vec F S1x8192 .f32) (xs4 : Vec F S1x1 .f32) :=
  kernelRunB (F := F) c (grid0.coords t0_1) (ms0_0 t0_1) (hs0_0 t0_1) (ms0_1 t0_1) (hs0_1 t0_1) (ms0_2 t0_1) (hs0_2 t0_1) scM0 (Memref.isWhole_whole _) scM1 (Memref.isWhole_whole _) scM2 (Memref.isWhole_whole _) scM3 (Memref.isWhole_whole _) scM4 (Memref.isWhole_whole _) cB0 cB1 hB1 hB2 hB3 hB4 hB5 hB6 hB7 hB8 hB9 hB10 hB11 hB12 hB13 hB14 hB15 hB16 hB17 hB18 hB19 x0 x1 xs0 xs1 xs3 xs4

/-- What the column-minimum scratch is taken to hold before the first point, where nothing states it: any fixed
    contents will do, since the first point's select discards what it loads from it. -/
def d2Before : Vec F S1x8192 .f32 := VS3.read (Elt F) VS3.junk

/-- Case A's pieces cover each scratch buffer it writes: the row operand's six column bands and the column operand's
    sixteen row chunks of six bands each, cut into single columns, tile their buffers; the column minima's sixteen
    chunks tile theirs; the accumulator's stores are whole. -/
theorem scoverA_0 (c : Dev nD) (x0 x1 : Vec F S8192x128 .f32) (xs3 : Vec F S1x8192 .f32) (y : S4096x256.Idx) :
    ∃ pc ∈ (runA c x0 x1 xs3).1, y ∈ pc.1.set :=
  View.cover_of_tiledBy (runA c x0 x1 xs3).1 ![4096, 1] (by sl_kernel_rfl) y
theorem scoverA_1 (c : Dev nD) (x0 x1 : Vec F S8192x128 .f32) (xs3 : Vec F S1x8192 .f32) (y : S8192x256.Idx) :
    ∃ pc ∈ (runA c x0 x1 xs3).2.1, y ∈ pc.1.set :=
  View.cover_of_tiledBy (runA c x0 x1 xs3).2.1 ![512, 1] (by sl_kernel_rfl) y
theorem scoverA_3 (c : Dev nD) (x0 x1 : Vec F S8192x128 .f32) (xs3 : Vec F S1x8192 .f32) (y : S1x8192.Idx) :
    ∃ pc ∈ (runA c x0 x1 xs3).2.2.1, y ∈ pc.1.set :=
  View.cover_of_tiledL (runA c x0 x1 xs3).2.2.1 S1x512.size (by sl_kernel_rfl) y
theorem scoverA_4 (c : Dev nD) (x0 x1 : Vec F S8192x128 .f32) (xs3 : Vec F S1x8192 .f32) (y : S1x1.Idx) :
    ∃ pc ∈ (runA c x0 x1 xs3).2.2.2.1, y ∈ pc.1.set :=
  View.cover_of_tiledL (runA c x0 x1 xs3).2.2.2.1 S1x1.size (by sl_kernel_rfl) y

/-- What case A leaves in the row operand, the column operand, the column minima and the accumulator: its pieces
    read back. -/
def xbA (c : Dev nD) (x0 x1 : Vec F S8192x128 .f32) : Vec F S4096x256 .bf16 :=
  VS0.read (Elt F) (VS0.writes (Elt F) VS0.junk (runA c x0 x1 d2Before).1)
def ybA (c : Dev nD) (x0 x1 : Vec F S8192x128 .f32) : Vec F S8192x256 .bf16 :=
  VS1.read (Elt F) (VS1.writes (Elt F) VS1.junk (runA c x0 x1 d2Before).2.1)
def d2A (c : Dev nD) (x0 x1 : Vec F S8192x128 .f32) : Vec F S1x8192 .f32 :=
  VS3.read (Elt F) (VS3.writes (Elt F) VS3.junk (runA c x0 x1 d2Before).2.2.1)
def accA (c : Dev nD) (x0 x1 : Vec F S8192x128 .f32) : Vec F S1x1 .f32 :=
  VS4.read (Elt F) (VS4.writes (Elt F) VS4.junk (runA c x0 x1 d2Before).2.2.2.1)

/-- Case B's one store into the result block covers it. -/
theorem coverB_2 (c : Dev nD) (x0 x1 : Vec F S8192x128 .f32) (xs0 : Vec F S4096x256 .bf16) (xs1 : Vec F S8192x256 .bf16) (xs3 : Vec F S1x8192 .f32) (xs4 : Vec F S1x1 .f32) (y : S1x1.Idx) :
    ∃ pc ∈ (runB c x0 x1 xs0 xs1 xs3 xs4).1, y ∈ pc.1.set :=
  View.cover_of_tiledL (runB c x0 x1 xs0 xs1 xs3 xs4).1 S1x1.size (by sl_kernel_rfl) y

/-- What case B leaves in the result block, over what case A left in the scratch buffers. -/
def outB (c : Dev nD) (x0 x1 x0' x1' : Vec F S8192x128 .f32) : Vec F S1x1 .f32 :=
  (ms0_2 t0_1).view.read (Elt F) ((ms0_2 t0_1).view.writes (Elt F) (ms0_2 t0_1).view.junk (runB c x0' x1' (xbA c x0 x1) (ybA c x0 x1) (d2A c x0 x1) (accA c x0 x1)).1)

/-! ## What the first point's pieces do not depend on

The first point loads the column-minimum scratch before storing it, so its run is stated over what that scratch held
(`xs3`); but the select that consumes the loaded value takes its other branch there, so no piece depends on it. -/

theorem runA_LS0_indep (c : Dev nD) (x0 x1 : Vec F S8192x128 .f32) (xs3 xs3' : Vec F S1x8192 .f32) :
    (runA c x0 x1 xs3).1 = (runA c x0 x1 xs3').1 := rfl
theorem runA_LS1_indep (c : Dev nD) (x0 x1 : Vec F S8192x128 .f32) (xs3 xs3' : Vec F S1x8192 .f32) :
    (runA c x0 x1 xs3).2.1 = (runA c x0 x1 xs3').2.1 := rfl
theorem runA_LS4_indep (c : Dev nD) (x0 x1 : Vec F S8192x128 .f32) (xs3 xs3' : Vec F S1x8192 .f32) :
    (runA c x0 x1 xs3).2.2.2.1 = (runA c x0 x1 xs3').2.2.2.1 := rfl
theorem runA_LS3_indep (c : Dev nD) (x0 x1 : Vec F S8192x128 .f32) (xs3 xs3' : Vec F S1x8192 .f32) :
    (runA c x0 x1 xs3).2.2.1 = (runA c x0 x1 xs3').2.2.1 := rfl

end Cert.KernelHand

end
-- ==== Proof.KernelHand.Frame.lean ====
import proofs.«173679_g9887014716187_cont_9to1c4b_714_26_alg».proof.Proof.KernelHand.FrameData

set_option maxRecDepth 16384

noncomputable section

namespace Cert.KernelHand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The pipeline's proof data, the body obligation at the grid's two points, the frame run and the frame, over the
    contents the two runs leave (the module this one imports). -/

variable (m : (ℓ : Loc nD τ sig) → Buf (Elt F) ℓ) (ρ : Dev nD → PrngReg)

/-! ## The region invariant and the proof data -/

/-- The region invariant before position `n`: before the first point and after the last the class's (every scratch
    at anything); between the two points the four carried scratch buffers at what the first point left in them. -/
def PhiS1 (c : Dev nD) : sProp 𝕄 :=
  iprop(iprop(owns (c : Thread nD τ) scM0 fullShare (xbA c (iblk m c 0 t0_0) (iblk m c 1 t0_0)) ∗ owns (c : Thread nD τ) scM1 fullShare (ybA c (iblk m c 0 t0_0) (iblk m c 1 t0_0)) ∗ (∃ d, owns (c : Thread nD τ) scM2 fullShare d) ∗ owns (c : Thread nD τ) scM3 fullShare (d2A c (iblk m c 0 t0_0) (iblk m c 1 t0_0)) ∗ owns (c : Thread nD τ) scM4 fullShare (accA c (iblk m c 0 t0_0) (iblk m c 1 t0_0))) ∗ (∃ r, prngReg c r))

def PhiS (c : Dev nD) (n : ℕ) : sProp 𝕄 := if n = 1 then PhiS1 m c else Pipeline.ΦA spec0 c

theorem PhiS_one (c : Dev nD) : PhiS m c 1 = PhiS1 m c := if_pos rfl

/-- The result block after point `t`: what case B leaves at the last point (a placeholder at the first, where the
    window is idle and not written back). -/
def outAt (c : Dev nD) (t : Fin cfg0.N) : Vec F S1x1 .f32 :=
  outB c (iblk m c 0 t0_0) (iblk m c 1 t0_0) (iblk m c 0 t0_1) (iblk m c 1 t0_1)

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 1600000 in
/-- The body at either point: the staging memrefs hold the input blocks; at the first point the class invariant
    hands the scratch buffers at anything and takes the four carried ones back at case A's contents; at the last point
    the invariant hands those, case B runs over them, and the class invariant takes everything back at anything; the
    result window is idle at the first point and holds case B's block after the last. -/
theorem sound_body (c : Dev nD) (t : Fin cfg0.N) :
    bodyPre m c t ⊢ wp frame (wpE (defs₀ (F := F)) Variants.none c none) Set.univ (bodyAt0 t) (fun _ => bodyPost m c t) := by
  rcases fin_N0 t with rfl | rfl
  · unfold bodyPre bodyPost bodyAt0
    simp only [before0_0, before0_1]
    rw [show (dats m 0 c).owesAt () t0_0.succ = (dats m 0 c).owesAt () t0_0.castSucc from rfl]
    rw [show (dats m 0 c).Φ t0_0.castSucc = Pipeline.ΦA spec0 c from rfl, show (dats m 0 c).Φ t0_0.succ = PhiS m c 1 from rfl]
    rw [show (dats m 0 c).leavesExact 0 t0_0 = owns (c : Thread nD τ) (ms0_0 t0_0) fullShare ((dats m 0 c).after 0 t0_0) from by
      unfold Dat.leavesExact; rw [live_0 t0_0], after0_0]
    rw [show (dats m 0 c).leavesExact 1 t0_0 = owns (c : Thread nD τ) (ms0_1 t0_0) fullShare ((dats m 0 c).after 1 t0_0) from by
      unfold Dat.leavesExact; rw [live_1 t0_0], after0_1]
    rw [Dat.leavesExact_idle (dats m 0 c) 2 t0_0 idleA_2 noFlushA_2]
    rw [PhiS_one]; unfold PhiS1
    rw [PhiA0_eq]
    iintro ⟨⟨⟨HS0, HS1, HS2, ⟨%xs3, HS3⟩, HS4⟩, Hg⟩, Ho, ⟨%e0, H0⟩, ⟨%e1, H1⟩, ⟨%e2, H2⟩⟩
    iapply ((runA c (iblk m c 0 t0_0) (iblk m c 1 t0_0) xs3).2.2.2.2 _ Set.univ _)
    isplitl [H0]; · iexact H0
    isplitl [H1]; · iexact H1
    isplitl [H2]; · iexact H2
    isplitl [HS0]; · iexact HS0
    isplitl [HS1]; · iexact HS1
    isplitl [HS2]; · iexact HS2
    isplitl [HS3]; · iexact HS3
    isplitl [HS4]; · iexact HS4
    iintro ⟨H0, H1, H2, ⟨%es0, HS0⟩, ⟨%es1, HS1⟩, HS2, ⟨%es3, HS3⟩, ⟨%es4, HS4⟩⟩
    isplitl [HS0 HS1 HS2 HS3 HS4 Hg]
    · isplitl [HS0 HS1 HS2 HS3 HS4]
      · isplitl [HS0]
        · unfold owns; iexists _; isplitr
          swap; · iexact HS0
          ipureintro; unfold xbA; rw [runA_LS0_indep c _ _ xs3 d2Before]
          exact View.read_writes_of_cover _ _ _ _ _ (scoverA_0 c _ _ d2Before)
        isplitl [HS1]
        · unfold owns; iexists _; isplitr
          swap; · iexact HS1
          ipureintro; unfold ybA; rw [runA_LS1_indep c _ _ xs3 d2Before]
          exact View.read_writes_of_cover _ _ _ _ _ (scoverA_1 c _ _ d2Before)
        isplitl [HS2]; · iexact HS2
        isplitl [HS3]
        · unfold owns; iexists _; isplitr
          swap; · iexact HS3
          ipureintro; unfold d2A; rw [runA_LS3_indep c _ _ xs3 d2Before]
          exact View.read_writes_of_cover _ _ _ _ _ (scoverA_3 c _ _ d2Before)
        · unfold owns; iexists _; isplitr
          swap; · iexact HS4
          ipureintro; unfold accA; rw [runA_LS4_indep c _ _ xs3 d2Before]
          exact View.read_writes_of_cover _ _ _ _ _ (scoverA_4 c _ _ d2Before)
      iexact Hg
    isplitl [Ho]; · iexact Ho
    isplitl [H0]; · iexact H0
    isplitl [H1]; · iexact H1
    iexists _; iexact H2
  · unfold bodyPre bodyPost bodyAt0
    simp only [before0_0, before0_1]
    rw [show (dats m 0 c).owesAt () t0_1.succ = (dats m 0 c).owesAt () t0_1.castSucc from rfl]
    rw [show (dats m 0 c).Φ t0_1.castSucc = PhiS m c 1 from rfl, show (dats m 0 c).Φ t0_1.succ = Pipeline.ΦA spec0 c from rfl]
    rw [show (dats m 0 c).leavesExact 0 t0_1 = owns (c : Thread nD τ) (ms0_0 t0_1) fullShare ((dats m 0 c).after 0 t0_1) from by
      unfold Dat.leavesExact; rw [live_0 t0_1], after0_0]
    rw [show (dats m 0 c).leavesExact 1 t0_1 = owns (c : Thread nD τ) (ms0_1 t0_1) fullShare ((dats m 0 c).after 1 t0_1) from by
      unfold Dat.leavesExact; rw [live_1 t0_1], after0_1]
    rw [show (dats m 0 c).leavesExact 2 t0_1 = owns (c : Thread nD τ) (ms0_2 t0_1) fullShare ((dats m 0 c).after 2 t0_1) from by
      unfold Dat.leavesExact; rw [liveB_2], after0_2]
    rw [PhiS_one]; unfold PhiS1
    rw [PhiA0_eq]
    iintro ⟨⟨⟨HS0, HS1, HS2, HS3, HS4⟩, Hg⟩, Ho, ⟨%e0, H0⟩, ⟨%e1, H1⟩, ⟨%e2, H2⟩⟩
    iapply ((runB c (iblk m c 0 t0_1) (iblk m c 1 t0_1) (xbA c (iblk m c 0 t0_0) (iblk m c 1 t0_0)) (ybA c (iblk m c 0 t0_0) (iblk m c 1 t0_0)) (d2A c (iblk m c 0 t0_0) (iblk m c 1 t0_0)) (accA c (iblk m c 0 t0_0) (iblk m c 1 t0_0))).2.2.2.2 Set.univ _)
    isplitl [H0]; · iexact H0
    isplitl [H1]; · iexact H1
    isplitl [H2]; · iexists _; iexact H2
    isplitl [HS0]; · iexact HS0
    isplitl [HS1]; · iexact HS1
    isplitl [HS2]; · iexact HS2
    isplitl [HS3]; · iexact HS3
    isplitl [HS4]; · iexact HS4
    iintro ⟨H0, H1, ⟨%e2', H2⟩, HS0, HS1, HS2, ⟨%es3, HS3⟩, ⟨%es4, HS4⟩⟩
    isplitl [HS0 HS1 HS2 HS3 HS4 Hg]
    · isplitl [HS0 HS1 HS2 HS3 HS4]
      · isplitl [HS0]
        · unfold owns; iexists _, _; isplitr; swap; · iexact HS0
          ipureintro; rfl
        isplitl [HS1]; · iexists _; iexact HS1
        isplitl [HS2]; · iexact HS2
        isplitl [HS3]
        · unfold owns; iexists _, _; isplitr; swap; · iexact HS3
          ipureintro; rfl
        · unfold owns; iexists _, _; isplitr; swap; · iexact HS4
          ipureintro; rfl
      iexact Hg
    isplitl [Ho]; · iexact Ho
    isplitl [H0]; · iexact H0
    isplitl [H1]; · iexact H1
    unfold owns; iexists _; isplitr
    swap; · iexact H2
    ipureintro; unfold outAt outB
    exact View.read_writes_of_cover _ _ _ _ _ (coverB_2 c _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point, and the invariant after the last is
    what the launch takes back. -/
theorem hin (c : Dev nD) : Pipeline.ΦA spec0 c ⊢ (dats m 0 c).Φ 0 := by
  rw [show (dats m 0 c).Φ 0 = Pipeline.ΦA spec0 c from rfl]
theorem hout (c : Dev nD) : (dats m 0 c).Φ (Fin.last cfg0.N) ⊢ Pipeline.ΦA spec0 c := by
  rw [show (dats m 0 c).Φ (Fin.last cfg0.N) = Pipeline.ΦA spec0 c from rfl]

/-! ## The run and the frame -/

set_option backward.isDefEq.respectTransparency.types false in
/-- Every weakly fair execution of @main terminates, and every final state has each array of the pipeline at what
    the library computes from the proof data and every other unscoped buffer as the line after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- THE FRAME: the program runs to the end, faults nowhere, and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelHand

end
-- ==== Proof.KernelIdealHand.RunA.lean ====
import proofs.«173679_g9887014716187_cont_9to1c4b_714_26_alg».proof.Proof.Gen.KernelIdeal.Frame
import proofs.«173679_g9887014716187_cont_9to1c4b_714_26_alg».proof.Proof.Gen.KernelIdeal.Skeleton

set_option maxRecDepth 16384

noncomputable section

namespace Cert.KernelIdealHand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The kernel body at the grid's FIRST point (both coordinates zero): every conditional but the last is taken.
    The body zeroes the sum accumulator and the augmented row operand's padding, builds the augmented row operand
    from rows 0..4095 of the first argument, builds the augmented column operand chunk by chunk from the second,
    multiplies chunk by chunk, folds row minima in registers and column minima into their scratch (whose old
    contents the select at this point discards), and adds the clamped row minima's sum to the accumulator. -/

/-- The condition of the body's first conditional (both grid coordinates zero), as the skeleton spells it. -/
abbrev cond1 (i : grid0.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1

set_option maxHeartbeats 4000000 in
/-- What the body's stores leave in the four scratch buffers it writes at the first point, as lists of pieces
    (last store first), WITH the proof that on whole memrefs — the inputs at `x0`, `x1`, the idle output at `xi2`,
    the column-minimum scratch at `xs3` (it is loaded before it is stored), the others at anything — the body runs to
    its return handing back the inputs and the idle output untouched and each written scratch with its pieces
    written. The pieces are the witnesses the run finds. -/
noncomputable def kernelRunA (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S1x1 .f32) (harg4 : arg4.IsWhole) (arg5 : Memref sig .tc .vmem S4096x256 .bf16) (harg5 : arg5.IsWhole) (arg6 : Memref sig .tc .vmem S8192x256 .bf16) (harg6 : arg6.IsWhole) (arg7 : Memref sig .tc .vmem S4096x128 .f32) (harg7 : arg7.IsWhole) (arg8 : Memref sig .tc .vmem S1x8192 .f32) (harg8 : arg8.IsWhole) (arg9 : Memref sig .tc .vmem S1x1 .f32) (harg9 : arg9.IsWhole)
    (hi0 : (i 0).val = 0) (hi1 : (i 1).val = 0)
    (hc1 : cond1 i) (hc2 : k0_cond2 i = 1#1) (hc3 : k0_cond3 i = 1#1) (hc4 : k0_cond4 i = 1#1) (hc5 : k0_cond5 i = 1#1) (hc6 : k0_cond6 i = 1#1) (hc7 : k0_cond7 i = 1#1) (hc8 : k0_cond8 i = 1#1) (hc9 : k0_cond9 i = 1#1) (hc10 : k0_cond10 i = 1#1) (hc11 : k0_cond11 i = 1#1) (hc12 : k0_cond12 i = 1#1) (hc13 : k0_cond13 i = 1#1) (hc14 : k0_cond14 i = 1#1) (hc15 : k0_cond15 i = 1#1) (hc16 : k0_cond16 i = 1#1) (hc17 : k0_cond17 i = 1#1) (hc18 : k0_cond18 i = 1#1) (hc19 : ¬k0_cond19 i = 1#1)
    (x0 : Vec F S8192x128 .f32) (x1 : Vec F S8192x128 .f32) (xs3 : Vec F S1x8192 .f32) :
    Σ' (LS0 : List (View.Piece (Elt F) S4096x256 .bf16)) (LS1 : List (View.Piece (Elt F) S8192x256 .bf16)) (LS3 : List (View.Piece (Elt F) S1x8192 .f32)), { LS4 : List (View.Piece (Elt F) S1x1 .f32) //
      ∀ (xi2 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare xi2
            ∗ (∃ d, owns (c : Thread nD τ) arg5 fullShare d) ∗ (∃ d, owns (c : Thread nD τ) arg6 fullShare d) ∗ (∃ d, owns (c : Thread nD τ) arg7 fullShare d)
            ∗ owns (c : Thread nD τ) arg8 fullShare xs3 ∗ (∃ d, owns (c : Thread nD τ) arg9 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)
                ∗ (∃ d, owns (c : Thread nD τ) arg7 fullShare d)
                ∗ (∃ f, arg8.view.loc (c : Thread nD τ) ↦[arg8.view.set]{fullShare} arg8.view.writes (Elt F) f LS3)
                ∗ (∃ f, arg9.view.loc (c : Thread nD τ) ↦[arg9.view.set]{fullShare} arg9.view.writes (Elt F) f LS4)) -∗ K ⟨⟩))
          ⊢ wp frame (wpE (defs₀ (F := F)) Variants.none c none) E (cc0__chamfer_kernel i arg2 harg2 arg3 harg3 arg4 harg4 arg5 harg5 arg6 harg6 arg7 harg7 arg8 harg8 arg9 harg9) K } := by
  refine ⟨?_, ?_, ?_, ?_, fun xi2 E K => ?run⟩
  case run =>
    simp only [cc0__chamfer_kernel_eq_skeleton]; unfold cc0__chamfer_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, ⟨%ds2, %fs2, -, HS2⟩, ⟨%fs3, %hfs3, HS3⟩, ⟨%ds4, %fs4, -, HS4⟩, Hk⟩
    obtain rfl := harg2.eq_unread hf0; obtain rfl := harg3.eq_unread hf1; obtain rfl := harg4.eq_unread hf2; obtain rfl := harg8.eq_unread hfs3
    sl_exec_parts (disch := assumption)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    isplitl [HS1]; · iexists _; iexact HS1
    isplitl [HS2]
    · iexists _, fs2; isplitr; · ipureintro; rfl
      iexact HS2
    isplitl [HS3]; · iexists _; iexact HS3
    iexists _; iexact HS4

end Cert.KernelIdealHand

end
-- ==== Proof.KernelIdealHand.RunB.lean ====
import proofs.«173679_g9887014716187_cont_9to1c4b_714_26_alg».proof.Proof.KernelIdealHand.RunA

set_option maxRecDepth 16384

noncomputable section

namespace Cert.KernelIdealHand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The kernel body at the grid's SECOND (last) point (first coordinate one): the row operand is rebuilt from rows
    4096..8191 of the first argument over the padding the first point left, the column operand is read as the first
    point left it, the column minima are folded into what the first point left, the clamped row minima's sum is
    added to the accumulator, and the last conditional stores the mean into the output block. -/

set_option maxHeartbeats 4000000 in
/-- What the body's stores leave at the last point, as lists of pieces (last store first): in the output block
    (`L2`), the row operand (`LS0`), the column minima (`LS3`) and the accumulator (`LS4`), each over what the point
    before left there (`xs0`, `xs3`, `xs4`); the column operand (`xs1`) is only read. -/
noncomputable def kernelRunB (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S1x1 .f32) (harg4 : arg4.IsWhole) (arg5 : Memref sig .tc .vmem S4096x256 .bf16) (harg5 : arg5.IsWhole) (arg6 : Memref sig .tc .vmem S8192x256 .bf16) (harg6 : arg6.IsWhole) (arg7 : Memref sig .tc .vmem S4096x128 .f32) (harg7 : arg7.IsWhole) (arg8 : Memref sig .tc .vmem S1x8192 .f32) (harg8 : arg8.IsWhole) (arg9 : Memref sig .tc .vmem S1x1 .f32) (harg9 : arg9.IsWhole)
    (hi0 : (i 0).val = 1) (hi1 : (i 1).val = 0)
    (hc1 : ¬cond1 i) (hc2 : k0_cond2 i = 1#1) (hc3 : ¬k0_cond3 i = 1#1) (hc4 : ¬k0_cond4 i = 1#1) (hc5 : ¬k0_cond5 i = 1#1) (hc6 : ¬k0_cond6 i = 1#1) (hc7 : ¬k0_cond7 i = 1#1) (hc8 : ¬k0_cond8 i = 1#1) (hc9 : ¬k0_cond9 i = 1#1) (hc10 : ¬k0_cond10 i = 1#1) (hc11 : ¬k0_cond11 i = 1#1) (hc12 : ¬k0_cond12 i = 1#1) (hc13 : ¬k0_cond13 i = 1#1) (hc14 : ¬k0_cond14 i = 1#1) (hc15 : ¬k0_cond15 i = 1#1) (hc16 : ¬k0_cond16 i = 1#1) (hc17 : ¬k0_cond17 i = 1#1) (hc18 : ¬k0_cond18 i = 1#1) (hc19 : k0_cond19 i = 1#1)
    (x0 : Vec F S8192x128 .f32) (x1 : Vec F S8192x128 .f32)
    (xs0 : Vec F S4096x256 .bf16) (xs1 : Vec F S8192x256 .bf16) (xs3 : Vec F S1x8192 .f32) (xs4 : Vec F S1x1 .f32) :
    Σ' (L2 : List (View.Piece (Elt F) S1x1 .f32)) (LS0 : List (View.Piece (Elt F) S4096x256 .bf16)) (LS3 : List (View.Piece (Elt F) S1x8192 .f32)), { LS4 : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs0 ∗ owns (c : Thread nD τ) arg6 fullShare xs1 ∗ (∃ d, owns (c : Thread nD τ) arg7 fullShare d)
            ∗ owns (c : Thread nD τ) arg8 fullShare xs3 ∗ owns (c : Thread nD τ) arg9 fullShare xs4
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (arg5.view.loc (c : Thread nD τ) ↦[arg5.view.set]{fullShare} arg5.view.writes (Elt F) (harg5.unread xs0) LS0)
                ∗ owns (c : Thread nD τ) arg6 fullShare xs1
                ∗ (∃ d, owns (c : Thread nD τ) arg7 fullShare d)
                ∗ (∃ f, arg8.view.loc (c : Thread nD τ) ↦[arg8.view.set]{fullShare} arg8.view.writes (Elt F) f LS3)
                ∗ (∃ f, arg9.view.loc (c : Thread nD τ) ↦[arg9.view.set]{fullShare} arg9.view.writes (Elt F) f LS4)) -∗ K ⟨⟩))
          ⊢ wp frame (wpE (defs₀ (F := F)) Variants.none c none) E (cc0__chamfer_kernel i arg2 harg2 arg3 harg3 arg4 harg4 arg5 harg5 arg6 harg6 arg7 harg7 arg8 harg8 arg9 harg9) K } := by
  refine ⟨?_, ?_, ?_, ?_, fun E K => ?run⟩
  case run =>
    simp only [cc0__chamfer_kernel_eq_skeleton]; unfold cc0__chamfer_kernel_skel
    unfold owns
    iintro ⟨⟨%f0, %hf0, H0⟩, ⟨%f1, %hf1, H1⟩, ⟨%d2, %f2, -, H2⟩, ⟨%fs0, %hfs0, HS0⟩, ⟨%fs1, %hfs1, HS1⟩, ⟨%ds2, %fs2, -, HS2⟩, ⟨%fs3, %hfs3, HS3⟩, ⟨%fs4, %hfs4, HS4⟩, Hk⟩
    obtain rfl := harg2.eq_unread hf0; obtain rfl := harg3.eq_unread hf1
    obtain rfl := harg5.eq_unread hfs0; obtain rfl := harg6.eq_unread hfs1
    obtain rfl := harg8.eq_unread hfs3; obtain rfl := harg9.eq_unread hfs4
    sl_exec_parts (disch := assumption)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexact HS0
    isplitl [HS1]
    · iexists _; isplitr; · ipureintro; exact harg6.read_unread _
      iexact HS1
    isplitl [HS2]
    · iexists _, fs2; isplitr; · ipureintro; rfl
      iexact HS2
    isplitl [HS3]; · iexists _; iexact HS3
    iexists _; iexact HS4

end Cert.KernelIdealHand

end
-- ==== Proof.KernelIdealHand.FrameData.lean ====
import proofs.«173679_g9887014716187_cont_9to1c4b_714_26_alg».proof.Proof.KernelIdealHand.RunB

set_option maxRecDepth 16384

noncomputable section

namespace Cert.KernelIdealHand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! What the two runs leave, named: the grid's two points, the memrefs the body is called with there, the runs at
    them, that their pieces cover the buffers they overwrite, the contents read back, and (further below, in the
    module that imports this one) the pipeline's proof data, the body obligation, the frame run and the frame.

    The grid has two points. At the first (case A) the body overwrites the four scratch buffers it uses whole; at the
    second (case B) it reads them back and stores the result. So the region invariant names, between the two points,
    what the first point left in those four buffers, and the result window's block after the second point is what
    case B leaves there over them. Nothing the body computes is transcribed: the contents are the pieces the two
    runs found, read back. -/

variable (m : (ℓ : Loc nD τ sig) → Buf (Elt F) ℓ) (ρ : Dev nD → PrngReg)

/-! ## The two points -/

theorem cA0 : ((grid0.coords t0_0) 0).val = 0 := by decide
theorem cA1 : ((grid0.coords t0_0) 1).val = 0 := by decide
theorem cB0 : ((grid0.coords t0_1) 0).val = 1 := by decide
theorem cB1 : ((grid0.coords t0_1) 1).val = 0 := by decide

theorem hA1 : cond1 (grid0.coords t0_0) := by decide
theorem hA2 : k0_cond2 (grid0.coords t0_0) = 1#1 := by decide
theorem hA3 : k0_cond3 (grid0.coords t0_0) = 1#1 := by decide
theorem hA4 : k0_cond4 (grid0.coords t0_0) = 1#1 := by decide
theorem hA5 : k0_cond5 (grid0.coords t0_0) = 1#1 := by decide
theorem hA6 : k0_cond6 (grid0.coords t0_0) = 1#1 := by decide
theorem hA7 : k0_cond7 (grid0.coords t0_0) = 1#1 := by decide
theorem hA8 : k0_cond8 (grid0.coords t0_0) = 1#1 := by decide
theorem hA9 : k0_cond9 (grid0.coords t0_0) = 1#1 := by decide
theorem hA10 : k0_cond10 (grid0.coords t0_0) = 1#1 := by decide
theorem hA11 : k0_cond11 (grid0.coords t0_0) = 1#1 := by decide
theorem hA12 : k0_cond12 (grid0.coords t0_0) = 1#1 := by decide
theorem hA13 : k0_cond13 (grid0.coords t0_0) = 1#1 := by decide
theorem hA14 : k0_cond14 (grid0.coords t0_0) = 1#1 := by decide
theorem hA15 : k0_cond15 (grid0.coords t0_0) = 1#1 := by decide
theorem hA16 : k0_cond16 (grid0.coords t0_0) = 1#1 := by decide
theorem hA17 : k0_cond17 (grid0.coords t0_0) = 1#1 := by decide
theorem hA18 : k0_cond18 (grid0.coords t0_0) = 1#1 := by decide
theorem hA19 : ¬k0_cond19 (grid0.coords t0_0) = 1#1 := by decide
theorem hB1 : ¬cond1 (grid0.coords t0_1) := by decide
theorem hB2 : k0_cond2 (grid0.coords t0_1) = 1#1 := by decide
theorem hB3 : ¬k0_cond3 (grid0.coords t0_1) = 1#1 := by decide
theorem hB4 : ¬k0_cond4 (grid0.coords t0_1) = 1#1 := by decide
theorem hB5 : ¬k0_cond5 (grid0.coords t0_1) = 1#1 := by decide
theorem hB6 : ¬k0_cond6 (grid0.coords t0_1) = 1#1 := by decide
theorem hB7 : ¬k0_cond7 (grid0.coords t0_1) = 1#1 := by decide
theorem hB8 : ¬k0_cond8 (grid0.coords t0_1) = 1#1 := by decide
theorem hB9 : ¬k0_cond9 (grid0.coords t0_1) = 1#1 := by decide
theorem hB10 : ¬k0_cond10 (grid0.coords t0_1) = 1#1 := by decide
theorem hB11 : ¬k0_cond11 (grid0.coords t0_1) = 1#1 := by decide
theorem hB12 : ¬k0_cond12 (grid0.coords t0_1) = 1#1 := by decide
theorem hB13 : ¬k0_cond13 (grid0.coords t0_1) = 1#1 := by decide
theorem hB14 : ¬k0_cond14 (grid0.coords t0_1) = 1#1 := by decide
theorem hB15 : ¬k0_cond15 (grid0.coords t0_1) = 1#1 := by decide
theorem hB16 : ¬k0_cond16 (grid0.coords t0_1) = 1#1 := by decide
theorem hB17 : ¬k0_cond17 (grid0.coords t0_1) = 1#1 := by decide
theorem hB18 : ¬k0_cond18 (grid0.coords t0_1) = 1#1 := by decide
theorem hB19 : k0_cond19 (grid0.coords t0_1) = 1#1 := by decide

/-- The result window is idle at the first point, and not written back there. -/
theorem idleA_2 : cfg0.idle 2 (grid0.coords t0_0) = true := by decide
theorem noFlushA_2 : (cfg0.win 2).flush t0_0 = false := by decide
/-- It is live at the last point; the input windows are never idle. -/
theorem liveB_2 : cfg0.idle 2 (grid0.coords t0_1) = false := by decide
theorem live_0 (t : Fin cfg0.N) : cfg0.idle 0 (grid0.coords t) = false := rfl
theorem live_1 (t : Fin cfg0.N) : cfg0.idle 1 (grid0.coords t) = false := rfl

/-! ## The memrefs the body is called with -/

abbrev ms0_0 (t : Fin cfg0.N) : Memref sig .tc .vmem S8192x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
abbrev scM0 : Memref sig .tc .vmem S4096x256 .bf16 := Memref.whole cc0_scratch0
abbrev scM1 : Memref sig .tc .vmem S8192x256 .bf16 := Memref.whole cc0_scratch1
abbrev scM2 : Memref sig .tc .vmem S4096x128 .f32 := Memref.whole cc0_scratch2
abbrev scM3 : Memref sig .tc .vmem S1x8192 .f32 := Memref.whole cc0_scratch3
abbrev scM4 : Memref sig .tc .vmem S1x1 .f32 := Memref.whole cc0_scratch4
abbrev VS0 : View sig .tc .vmem S4096x256 .bf16 := scM0.view
abbrev VS1 : View sig .tc .vmem S8192x256 .bf16 := scM1.view
abbrev VS3 : View sig .tc .vmem S1x8192 .f32 := scM3.view
abbrev VS4 : View sig .tc .vmem S1x1 .f32 := scM4.view

/-- The class invariant with the five scratch operands as memrefs owned at some contents. -/
theorem PhiA0_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d) ∗ (∃ d, owns (c : Thread nD τ) scM4 fullShare d)) ∗ (∃ r, prngReg c r)) := by
  unfold Pipeline.ΦA; rw [scopedRest0_eq]; simp only [scM0, scM1, scM2, scM3, scM4, owns_whole]; try rfl

/-! ## The two runs at the two points -/

/-- Case A's run at the first point, on the point's staging memrefs and the scratch operands. -/
abbrev runA (c : Dev nD) (x0 x1 : Vec F S8192x128 .f32) (xs3 : Vec F S1x8192 .f32) :=
  kernelRunA (F := F) c (grid0.coords t0_0) (ms0_0 t0_0) (hs0_0 t0_0) (ms0_1 t0_0) (hs0_1 t0_0) (ms0_2 t0_0) (hs0_2 t0_0) scM0 (Memref.isWhole_whole _) scM1 (Memref.isWhole_whole _) scM2 (Memref.isWhole_whole _) scM3 (Memref.isWhole_whole _) scM4 (Memref.isWhole_whole _) cA0 cA1 hA1 hA2 hA3 hA4 hA5 hA6 hA7 hA8 hA9 hA10 hA11 hA12 hA13 hA14 hA15 hA16 hA17 hA18 hA19 x0 x1 xs3

/-- Case B's run at the last point. -/
abbrev runB (c : Dev nD) (x0 x1 : Vec F S8192x128 .f32) (xs0 : Vec F S4096x256 .bf16) (xs1 : Vec F S8192x256 .bf16) (xs3 : Vec F S1x8192 .f32) (xs4 : Vec F S1x1 .f32) :=
  kernelRunB (F := F) c (grid0.coords t0_1) (ms0_0 t0_1) (hs0_0 t0_1) (ms0_1 t0_1) (hs0_1 t0_1) (ms0_2 t0_1) (hs0_2 t0_1) scM0 (Memref.isWhole_whole _) scM1 (Memref.isWhole_whole _) scM2 (Memref.isWhole_whole _) scM3 (Memref.isWhole_whole _) scM4 (Memref.isWhole_whole _) cB0 cB1 hB1 hB2 hB3 hB4 hB5 hB6 hB7 hB8 hB9 hB10 hB11 hB12 hB13 hB14 hB15 hB16 hB17 hB18 hB19 x0 x1 xs0 xs1 xs3 xs4

/-- What the column-minimum scratch is taken to hold before the first point, where nothing states it: any fixed
    contents will do, since the first point's select discards what it loads from it. -/
def d2Before : Vec F S1x8192 .f32 := VS3.read (Elt F) VS3.junk

/-- Case A's pieces cover each scratch buffer it writes: the row operand's six column bands and the column operand's
    sixteen row chunks of six bands each, cut into single columns, tile their buffers; the column minima's sixteen
    chunks tile theirs; the accumulator's stores are whole. -/
theorem scoverA_0 (c : Dev nD) (x0 x1 : Vec F S8192x128 .f32) (xs3 : Vec F S1x8192 .f32) (y : S4096x256.Idx) :
    ∃ pc ∈ (runA c x0 x1 xs3).1, y ∈ pc.1.set :=
  View.cover_of_tiledBy (runA c x0 x1 xs3).1 ![4096, 1] (by sl_kernel_rfl) y
theorem scoverA_1 (c : Dev nD) (x0 x1 : Vec F S8192x128 .f32) (xs3 : Vec F S1x8192 .f32) (y : S8192x256.Idx) :
    ∃ pc ∈ (runA c x0 x1 xs3).2.1, y ∈ pc.1.set :=
  View.cover_of_tiledBy (runA c x0 x1 xs3).2.1 ![512, 1] (by sl_kernel_rfl) y
theorem scoverA_3 (c : Dev nD) (x0 x1 : Vec F S8192x128 .f32) (xs3 : Vec F S1x8192 .f32) (y : S1x8192.Idx) :
    ∃ pc ∈ (runA c x0 x1 xs3).2.2.1, y ∈ pc.1.set :=
  View.cover_of_tiledL (runA c x0 x1 xs3).2.2.1 S1x512.size (by sl_kernel_rfl) y
theorem scoverA_4 (c : Dev nD) (x0 x1 : Vec F S8192x128 .f32) (xs3 : Vec F S1x8192 .f32) (y : S1x1.Idx) :
    ∃ pc ∈ (runA c x0 x1 xs3).2.2.2.1, y ∈ pc.1.set :=
  View.cover_of_tiledL (runA c x0 x1 xs3).2.2.2.1 S1x1.size (by sl_kernel_rfl) y

/-- What case A leaves in the row operand, the column operand, the column minima and the accumulator: its pieces
    read back. -/
def xbA (c : Dev nD) (x0 x1 : Vec F S8192x128 .f32) : Vec F S4096x256 .bf16 :=
  VS0.read (Elt F) (VS0.writes (Elt F) VS0.junk (runA c x0 x1 d2Before).1)
def ybA (c : Dev nD) (x0 x1 : Vec F S8192x128 .f32) : Vec F S8192x256 .bf16 :=
  VS1.read (Elt F) (VS1.writes (Elt F) VS1.junk (runA c x0 x1 d2Before).2.1)
def d2A (c : Dev nD) (x0 x1 : Vec F S8192x128 .f32) : Vec F S1x8192 .f32 :=
  VS3.read (Elt F) (VS3.writes (Elt F) VS3.junk (runA c x0 x1 d2Before).2.2.1)
def accA (c : Dev nD) (x0 x1 : Vec F S8192x128 .f32) : Vec F S1x1 .f32 :=
  VS4.read (Elt F) (VS4.writes (Elt F) VS4.junk (runA c x0 x1 d2Before).2.2.2.1)

/-- Case B's one store into the result block covers it. -/
theorem coverB_2 (c : Dev nD) (x0 x1 : Vec F S8192x128 .f32) (xs0 : Vec F S4096x256 .bf16) (xs1 : Vec F S8192x256 .bf16) (xs3 : Vec F S1x8192 .f32) (xs4 : Vec F S1x1 .f32) (y : S1x1.Idx) :
    ∃ pc ∈ (runB c x0 x1 xs0 xs1 xs3 xs4).1, y ∈ pc.1.set :=
  View.cover_of_tiledL (runB c x0 x1 xs0 xs1 xs3 xs4).1 S1x1.size (by sl_kernel_rfl) y

/-- What case B leaves in the result block, over what case A left in the scratch buffers. -/
def outB (c : Dev nD) (x0 x1 x0' x1' : Vec F S8192x128 .f32) : Vec F S1x1 .f32 :=
  (ms0_2 t0_1).view.read (Elt F) ((ms0_2 t0_1).view.writes (Elt F) (ms0_2 t0_1).view.junk (runB c x0' x1' (xbA c x0 x1) (ybA c x0 x1) (d2A c x0 x1) (accA c x0 x1)).1)

/-! ## What the first point's pieces do not depend on

The first point loads the column-minimum scratch before storing it, so its run is stated over what that scratch held
(`xs3`); but the select that consumes the loaded value takes its other branch there, so no piece depends on it. -/

theorem runA_LS0_indep (c : Dev nD) (x0 x1 : Vec F S8192x128 .f32) (xs3 xs3' : Vec F S1x8192 .f32) :
    (runA c x0 x1 xs3).1 = (runA c x0 x1 xs3').1 := rfl
theorem runA_LS1_indep (c : Dev nD) (x0 x1 : Vec F S8192x128 .f32) (xs3 xs3' : Vec F S1x8192 .f32) :
    (runA c x0 x1 xs3).2.1 = (runA c x0 x1 xs3').2.1 := rfl
theorem runA_LS4_indep (c : Dev nD) (x0 x1 : Vec F S8192x128 .f32) (xs3 xs3' : Vec F S1x8192 .f32) :
    (runA c x0 x1 xs3).2.2.2.1 = (runA c x0 x1 xs3').2.2.2.1 := rfl
theorem runA_LS3_indep (c : Dev nD) (x0 x1 : Vec F S8192x128 .f32) (xs3 xs3' : Vec F S1x8192 .f32) :
    (runA c x0 x1 xs3).2.2.1 = (runA c x0 x1 xs3').2.2.1 := rfl

end Cert.KernelIdealHand

end
-- ==== Proof.KernelIdealHand.Frame.lean ====
import proofs.«173679_g9887014716187_cont_9to1c4b_714_26_alg».proof.Proof.KernelIdealHand.FrameData

set_option maxRecDepth 16384

noncomputable section

namespace Cert.KernelIdealHand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The pipeline's proof data, the body obligation at the grid's two points, the frame run and the frame, over the
    contents the two runs leave (the module this one imports). -/

variable (m : (ℓ : Loc nD τ sig) → Buf (Elt F) ℓ) (ρ : Dev nD → PrngReg)

/-! ## The region invariant and the proof data -/

/-- The region invariant before position `n`: before the first point and after the last the class's (every scratch
    at anything); between the two points the four carried scratch buffers at what the first point left in them. -/
def PhiS1 (c : Dev nD) : sProp 𝕄 :=
  iprop(iprop(owns (c : Thread nD τ) scM0 fullShare (xbA c (iblk m c 0 t0_0) (iblk m c 1 t0_0)) ∗ owns (c : Thread nD τ) scM1 fullShare (ybA c (iblk m c 0 t0_0) (iblk m c 1 t0_0)) ∗ (∃ d, owns (c : Thread nD τ) scM2 fullShare d) ∗ owns (c : Thread nD τ) scM3 fullShare (d2A c (iblk m c 0 t0_0) (iblk m c 1 t0_0)) ∗ owns (c : Thread nD τ) scM4 fullShare (accA c (iblk m c 0 t0_0) (iblk m c 1 t0_0))) ∗ (∃ r, prngReg c r))

def PhiS (c : Dev nD) (n : ℕ) : sProp 𝕄 := if n = 1 then PhiS1 m c else Pipeline.ΦA spec0 c

theorem PhiS_one (c : Dev nD) : PhiS m c 1 = PhiS1 m c := if_pos rfl

/-- The result block after point `t`: what case B leaves at the last point (a placeholder at the first, where the
    window is idle and not written back). -/
def outAt (c : Dev nD) (t : Fin cfg0.N) : Vec F S1x1 .f32 :=
  outB c (iblk m c 0 t0_0) (iblk m c 1 t0_0) (iblk m c 0 t0_1) (iblk m c 1 t0_1)

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 1600000 in
/-- The body at either point: the staging memrefs hold the input blocks; at the first point the class invariant
    hands the scratch buffers at anything and takes the four carried ones back at case A's contents; at the last point
    the invariant hands those, case B runs over them, and the class invariant takes everything back at anything; the
    result window is idle at the first point and holds case B's block after the last. -/
theorem sound_body (c : Dev nD) (t : Fin cfg0.N) :
    bodyPre m c t ⊢ wp frame (wpE (defs₀ (F := F)) Variants.none c none) Set.univ (bodyAt0 t) (fun _ => bodyPost m c t) := by
  rcases fin_N0 t with rfl | rfl
  · unfold bodyPre bodyPost bodyAt0
    simp only [before0_0, before0_1]
    rw [show (dats m 0 c).owesAt () t0_0.succ = (dats m 0 c).owesAt () t0_0.castSucc from rfl]
    rw [show (dats m 0 c).Φ t0_0.castSucc = Pipeline.ΦA spec0 c from rfl, show (dats m 0 c).Φ t0_0.succ = PhiS m c 1 from rfl]
    rw [show (dats m 0 c).leavesExact 0 t0_0 = owns (c : Thread nD τ) (ms0_0 t0_0) fullShare ((dats m 0 c).after 0 t0_0) from by
      unfold Dat.leavesExact; rw [live_0 t0_0], after0_0]
    rw [show (dats m 0 c).leavesExact 1 t0_0 = owns (c : Thread nD τ) (ms0_1 t0_0) fullShare ((dats m 0 c).after 1 t0_0) from by
      unfold Dat.leavesExact; rw [live_1 t0_0], after0_1]
    rw [Dat.leavesExact_idle (dats m 0 c) 2 t0_0 idleA_2 noFlushA_2]
    rw [PhiS_one]; unfold PhiS1
    rw [PhiA0_eq]
    iintro ⟨⟨⟨HS0, HS1, HS2, ⟨%xs3, HS3⟩, HS4⟩, Hg⟩, Ho, ⟨%e0, H0⟩, ⟨%e1, H1⟩, ⟨%e2, H2⟩⟩
    iapply ((runA c (iblk m c 0 t0_0) (iblk m c 1 t0_0) xs3).2.2.2.2 _ Set.univ _)
    isplitl [H0]; · iexact H0
    isplitl [H1]; · iexact H1
    isplitl [H2]; · iexact H2
    isplitl [HS0]; · iexact HS0
    isplitl [HS1]; · iexact HS1
    isplitl [HS2]; · iexact HS2
    isplitl [HS3]; · iexact HS3
    isplitl [HS4]; · iexact HS4
    iintro ⟨H0, H1, H2, ⟨%es0, HS0⟩, ⟨%es1, HS1⟩, HS2, ⟨%es3, HS3⟩, ⟨%es4, HS4⟩⟩
    isplitl [HS0 HS1 HS2 HS3 HS4 Hg]
    · isplitl [HS0 HS1 HS2 HS3 HS4]
      · isplitl [HS0]
        · unfold owns; iexists _; isplitr
          swap; · iexact HS0
          ipureintro; unfold xbA; rw [runA_LS0_indep c _ _ xs3 d2Before]
          exact View.read_writes_of_cover _ _ _ _ _ (scoverA_0 c _ _ d2Before)
        isplitl [HS1]
        · unfold owns; iexists _; isplitr
          swap; · iexact HS1
          ipureintro; unfold ybA; rw [runA_LS1_indep c _ _ xs3 d2Before]
          exact View.read_writes_of_cover _ _ _ _ _ (scoverA_1 c _ _ d2Before)
        isplitl [HS2]; · iexact HS2
        isplitl [HS3]
        · unfold owns; iexists _; isplitr
          swap; · iexact HS3
          ipureintro; unfold d2A; rw [runA_LS3_indep c _ _ xs3 d2Before]
          exact View.read_writes_of_cover _ _ _ _ _ (scoverA_3 c _ _ d2Before)
        · unfold owns; iexists _; isplitr
          swap; · iexact HS4
          ipureintro; unfold accA; rw [runA_LS4_indep c _ _ xs3 d2Before]
          exact View.read_writes_of_cover _ _ _ _ _ (scoverA_4 c _ _ d2Before)
      iexact Hg
    isplitl [Ho]; · iexact Ho
    isplitl [H0]; · iexact H0
    isplitl [H1]; · iexact H1
    iexists _; iexact H2
  · unfold bodyPre bodyPost bodyAt0
    simp only [before0_0, before0_1]
    rw [show (dats m 0 c).owesAt () t0_1.succ = (dats m 0 c).owesAt () t0_1.castSucc from rfl]
    rw [show (dats m 0 c).Φ t0_1.castSucc = PhiS m c 1 from rfl, show (dats m 0 c).Φ t0_1.succ = Pipeline.ΦA spec0 c from rfl]
    rw [show (dats m 0 c).leavesExact 0 t0_1 = owns (c : Thread nD τ) (ms0_0 t0_1) fullShare ((dats m 0 c).after 0 t0_1) from by
      unfold Dat.leavesExact; rw [live_0 t0_1], after0_0]
    rw [show (dats m 0 c).leavesExact 1 t0_1 = owns (c : Thread nD τ) (ms0_1 t0_1) fullShare ((dats m 0 c).after 1 t0_1) from by
      unfold Dat.leavesExact; rw [live_1 t0_1], after0_1]
    rw [show (dats m 0 c).leavesExact 2 t0_1 = owns (c : Thread nD τ) (ms0_2 t0_1) fullShare ((dats m 0 c).after 2 t0_1) from by
      unfold Dat.leavesExact; rw [liveB_2], after0_2]
    rw [PhiS_one]; unfold PhiS1
    rw [PhiA0_eq]
    iintro ⟨⟨⟨HS0, HS1, HS2, HS3, HS4⟩, Hg⟩, Ho, ⟨%e0, H0⟩, ⟨%e1, H1⟩, ⟨%e2, H2⟩⟩
    iapply ((runB c (iblk m c 0 t0_1) (iblk m c 1 t0_1) (xbA c (iblk m c 0 t0_0) (iblk m c 1 t0_0)) (ybA c (iblk m c 0 t0_0) (iblk m c 1 t0_0)) (d2A c (iblk m c 0 t0_0) (iblk m c 1 t0_0)) (accA c (iblk m c 0 t0_0) (iblk m c 1 t0_0))).2.2.2.2 Set.univ _)
    isplitl [H0]; · iexact H0
    isplitl [H1]; · iexact H1
    isplitl [H2]; · iexists _; iexact H2
    isplitl [HS0]; · iexact HS0
    isplitl [HS1]; · iexact HS1
    isplitl [HS2]; · iexact HS2
    isplitl [HS3]; · iexact HS3
    isplitl [HS4]; · iexact HS4
    iintro ⟨H0, H1, ⟨%e2', H2⟩, HS0, HS1, HS2, ⟨%es3, HS3⟩, ⟨%es4, HS4⟩⟩
    isplitl [HS0 HS1 HS2 HS3 HS4 Hg]
    · isplitl [HS0 HS1 HS2 HS3 HS4]
      · isplitl [HS0]
        · unfold owns; iexists _, _; isplitr; swap; · iexact HS0
          ipureintro; rfl
        isplitl [HS1]; · iexists _; iexact HS1
        isplitl [HS2]; · iexact HS2
        isplitl [HS3]
        · unfold owns; iexists _, _; isplitr; swap; · iexact HS3
          ipureintro; rfl
        · unfold owns; iexists _, _; isplitr; swap; · iexact HS4
          ipureintro; rfl
      iexact Hg
    isplitl [Ho]; · iexact Ho
    isplitl [H0]; · iexact H0
    isplitl [H1]; · iexact H1
    unfold owns; iexists _; isplitr
    swap; · iexact H2
    ipureintro; unfold outAt outB
    exact View.read_writes_of_cover _ _ _ _ _ (coverB_2 c _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point, and the invariant after the last is
    what the launch takes back. -/
theorem hin (c : Dev nD) : Pipeline.ΦA spec0 c ⊢ (dats m 0 c).Φ 0 := by
  rw [show (dats m 0 c).Φ 0 = Pipeline.ΦA spec0 c from rfl]
theorem hout (c : Dev nD) : (dats m 0 c).Φ (Fin.last cfg0.N) ⊢ Pipeline.ΦA spec0 c := by
  rw [show (dats m 0 c).Φ (Fin.last cfg0.N) = Pipeline.ΦA spec0 c from rfl]

/-! ## The run and the frame -/

set_option backward.isDefEq.respectTransparency.types false in
/-- Every weakly fair execution of @main terminates, and every final state has each array of the pipeline at what
    the library computes from the proof data and every other unscoped buffer as the line after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- THE FRAME: the program runs to the end, faults nowhere, and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdealHand

end
-- ==== Proof.KernelIdealHand.ValueTop.lean ====
import proofs.«173679_g9887014716187_cont_9to1c4b_714_26_alg».proof.Proof.KernelIdealHand.Frame
import Idealize.ShloMosaic.Lib.Pipeline.Value
import Idealize.ShloMosaic.Lib.StableHlo.Run
import Idealize.ShloMosaic.Lib.ValueIdx

set_option maxRecDepth 16384

noncomputable section

namespace Cert.KernelIdealHand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! From the frame run to the result: each input window's block is the whole argument array (its one block index is
    zero at both points), the result array after the run is the block the last point wrote back, and the line after
    the region reshapes that 1×1 array to the scalar result. -/

variable (m : (ℓ : Loc nD τ sig) → Buf (Elt F) ℓ) (ρ : Dev nD → PrngReg)

open Idealize.ShloMosaic.ValueIdx

/-- Each input block is the whole input array. -/
theorem iblk_0 (c : Dev nD) (t : Fin cfg0.N) : iblk m c 0 t = m ((c : Thread nD τ).loc main_arg0) := by
  have hz : (fun a => (win0_0.index t) a * main_arg0.ty.shape.size a) = fun _ => 0 := by
    rcases fin_N0 t with rfl | rfl <;> exact funext fun a => by fin_cases a <;> decide
  exact Memref.read_access_unit_zero (Elt F) main_arg0 hz _ _
theorem iblk_1 (c : Dev nD) (t : Fin cfg0.N) : iblk m c 1 t = m ((c : Thread nD τ).loc main_arg1) := by
  have hz : (fun a => (win0_1.index t) a * main_arg1.ty.shape.size a) = fun _ => 0 := by
    rcases fin_N0 t with rfl | rfl <;> exact funext fun a => by fin_cases a <;> decide
  exact Memref.read_access_unit_zero (Elt F) main_arg1 hz _ _

/-- The result array after the run: the one block, written back after the last point only, is what case B left. -/
theorem finalA_out (c : Dev nD) : (dats m 0 c).arrAt 2 cfg0.N = outAt m c t0_1 := by
  rw [show cfg0.N = t0_1.val + 1 from rfl, (dats m 0 c).arrAt_succ 2 t0_1, if_pos (show (cfg0.win 2).flush t0_1 = true from by decide)]
  have hz : (fun a => (win0_2.index t0_1) a * main_call0_v0.ty.shape.size a) = fun _ => 0 := funext fun a => by fin_cases a <;> decide
  refine (Memref.write_access_unit_zero_univ (Elt F) main_call0_v0 hz _ _ _).trans ?_
  exact after0_2 m c t0_1

/-- A 1×1 array has one index. -/
theorem idx11_eq (k : S1x1.Idx) : k = ix2 0 0 := by
  funext d
  match d with
  | ⟨0, h0⟩ => exact Fin.ext (by have h : (k ⟨0, h0⟩).val < 1 := (k ⟨0, h0⟩).isLt; show (k ⟨0, h0⟩).val = 0; omega)
  | ⟨1, h1⟩ => exact Fin.ext (by have h : (k ⟨1, h1⟩).val < 1 := (k ⟨1, h1⟩).isLt; show (k ⟨1, h1⟩).val = 0; omega)

/-- The scalar result after the line that follows the region: the result array's one entry. -/
theorem result_eq (c : Dev nD) :
    Pipeline.afterTail₀ cfgs (dats m) 0 (V0 m) [hostOps1] c main_v0 = fun _ => outAt m c t0_1 (ix2 0 0) := by
  have hw : Pipeline.withArrays (cfgs 0).spec c (V0 m c) (fun w => (dats m 0 c).arrAt w (cfgs 0).N) (Proc.devRef .tc (Pipeline.arrRef spec0 2)) = outAt m c t0_1 :=
    (Pipeline.withArrays_arr spec0 launch0.win.arr_inj c _ _ 2).trans (finalA_out m c)
  unfold Pipeline.afterTail₀
  show StableHlo.after hostOps1 _ (Proc.devRef .tc main_v0) = _
  after_results
  show (fun i => shapeCast S_ (Pipeline.withArrays (cfgs 0).spec c (V0 m c) (fun w => (dats m 0 c).arrAt w (cfgs 0).N) (Proc.devRef .tc (Pipeline.arrRef spec0 2))) shapeCasts_S1x1_S_ i) = _
  rw [hw]
  funext i
  exact congrArg (outAt m c t0_1) (idx11_eq _)

/-- The run with the result named: every weakly fair execution terminates with the scalar result at the one entry of
    the block the last point wrote back, and the arguments unchanged. -/
theorem run_out : θ_run defs (onTc (τ := τ) (main (F := F))) ⟨m, fun _ => 0, ρ⟩ (fun r => ∀ c : Dev nD,
      r.2.mem ((c.tc : Thread nD τ).loc main_v0) = (fun _ => outAt m c t0_1 (ix2 0 0))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_v0 (by decide)).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩) (run_main m ρ)

end Cert.KernelIdealHand

end
-- ==== Proof.Spec.lean ====
import Idealize.ShloMosaic.PureOps.Ideal
import Idealize.ShloMosaic.Lib.ValueIdx
import Mathlib.Order.CompleteLattice.Finset
import Mathlib.Data.EReal.Basic

/-!
  The chamfer distance both programs compute, as one function of the two argument arrays over the extended reals,
  in two arrangements.

  * The reference's: `dist x y i j = (‖xᵢ‖² + ‖yⱼ‖²) − 2 · ⟨xᵢ, yⱼ⟩`, clamped at zero entry by entry, then the row
    minima and the column minima of the clamped matrix, their two sums added and divided by 16384.
  * The kernel's: the unclamped distance as ONE inner product of augmented operands of width 256,
    `x̃ᵢ = [−2·xᵢ, ‖xᵢ‖², ‖xᵢ‖² − ‖xᵢ‖², 1, 1, 0, …]` and `ỹⱼ = [yⱼ, 1, 1, ‖yⱼ‖², ‖yⱼ‖² − ‖yⱼ‖², 0, …]`; minima taken
    first and clamped afterwards.

  Over FINITE entries the two distances agree (the arithmetic of the reals: distributivity, and `v − v = 0`), and the
  clamp `max · 0` is monotone, so it commutes with a minimum.
-/

noncomputable section

namespace Cert.Spec

open Idealize.ShloMosaic Idealize.ShloMosaic.ValueIdx

/-- An 8192 × 128 array of extended reals: what each program's argument holds at the ideal instance. -/
abbrev Arr : Type := (⟨2, ![8192, 128]⟩ : Shape).Idx → EReal

/-- The word both programs divide by: 16384.0 in f32. The same word on both sides, never evaluated. -/
abbrev nTotal : EReal := Ideal.ofBits .f32 0x46800000#32

/-- Squared norm of row `i`. -/
def sq (x : Arr) (i : Fin 8192) : EReal := ∑ k : Fin 128, x (ix2 i k) * x (ix2 i k)

/-- Inner product of row `i` of `x` with row `j` of `y`. -/
def dot (x y : Arr) (i j : Fin 8192) : EReal := ∑ k : Fin 128, x (ix2 i k) * y (ix2 j k)

/-- The squared distance in the reference's arrangement. -/
def dist (x y : Arr) (i j : Fin 8192) : EReal := (sq x i + sq y j) - 2 * dot x y i j

/-- The clamp at zero. -/
def clamp (a : EReal) : EReal := max a 0

/-- Row `i`'s minimum of the clamped distances. -/
def rowMin (x y : Arr) (i : Fin 8192) : EReal := Finset.univ.inf fun j : Fin 8192 => clamp (dist x y i j)

/-- Column `j`'s minimum of the clamped distances. -/
def colMin (x y : Arr) (j : Fin 8192) : EReal := Finset.univ.inf fun i : Fin 8192 => clamp (dist x y i j)

/-- The chamfer distance: the two sums of minima, added, over 16384. -/
def chamfer (x y : Arr) : EReal := Ideal.div ((∑ i : Fin 8192, rowMin x y i) + (∑ j : Fin 8192, colMin x y j)) nTotal

/-! ## The kernel's arrangement -/

/-- Row `r` of row block `b` (rows `4096·b … 4096·b + 4095`). -/
def rowOf (b : Fin 2) (r : Fin 4096) : Fin 8192 := ⟨4096 * b.val + r.val, by have := b.isLt; have := r.isLt; omega⟩

/-- The augmented row operand `x̃`, entry `k` of row `i`. -/
def xAug (x : Arr) (i : Fin 8192) (k : Fin 256) : EReal :=
  if h : k.val < 128 then x (ix2 i ⟨k.val, h⟩) * (-2)
  else if k.val = 128 then sq x i
  else if k.val = 129 then sq x i - sq x i
  else if k.val < 132 then 1
  else 0

/-- The augmented column operand `ỹ`, entry `k` of row `j`. -/
def yAug (y : Arr) (j : Fin 8192) (k : Fin 256) : EReal :=
  if h : k.val < 128 then y (ix2 j ⟨k.val, h⟩)
  else if k.val < 130 then 1
  else if k.val = 130 then sq y j
  else if k.val = 131 then sq y j - sq y j
  else 0

/-- The unclamped squared distance as the kernel's one inner product of width 256. -/
def kdist (x y : Arr) (i j : Fin 8192) : EReal := ∑ k : Fin 256, xAug x i k * yAug y j k

/-- Row `i`'s minimum of the kernel's distances, clamped afterwards. -/
def kRowMin (x y : Arr) (i : Fin 8192) : EReal := clamp (Finset.univ.inf fun j : Fin 8192 => kdist x y i j)

/-- Column `j`'s minimum of the kernel's distances, clamped afterwards. -/
def kColMin (x y : Arr) (j : Fin 8192) : EReal := clamp (Finset.univ.inf fun i : Fin 8192 => kdist x y i j)

/-- The kernel's total: the row sums accumulated block by block from zero, plus the column sum, over 16384. -/
def kChamfer (x y : Arr) : EReal :=
  Ideal.div (((0 + ∑ r : Fin 4096, kRowMin x y (rowOf 0 r)) + ∑ r : Fin 4096, kRowMin x y (rowOf 1 r))
    + ∑ j : Fin 8192, kColMin x y j) nTotal

/-- Every entry is a real number. -/
def Finite (x : Arr) : Prop := ∀ i, ∃ r : ℝ, x i = (r : EReal)

end Cert.Spec

end
-- ==== Proof.Consts.lean ====
/- The floating-point words that the two programs of this certificate print, each read once as the
   extended real it denotes. A word of a binary format with `e` exponent bits and `m` fraction bits splits
   into a sign bit `s`, a biased exponent `E` and a fraction `T`; for `0 < E < 2^e - 1` it denotes
   `(-1)^s · (2^m + T) · 2^(E - bias - m)` with `bias = 2^(e-1) - 1`, for `E = 0` it denotes
   `(-1)^s · T · 2^(1 - bias - m)`, and for `E = 2^e - 1`, `T = 0` it denotes the infinity of sign `s`. -/
import Idealize.ShloMosaic.PureOps.Ideal
import Idealize.ShloMosaic.PureOps.Ideal.Laws

noncomputable section

namespace Cert.Consts

open Idealize.ShloMosaic

/-- Single precision `0x40000000`: `s = 0`, `E = 128`, `T = 0`, so the value is
    `2^23 · 2^(128 - 127 - 23) = 2^23 · 2^(-22) = 2`. -/
theorem ofBits_two : Ideal.ofBits .f32 0x40000000#32 = (2 : EReal) := by
  have hval : Ideal.ofBits .f32 0x40000000#32 = ((2 : ℝ) : EReal) := by
    simp [Ideal.ofBits, Ideal.ieee, -EReal.coe_mul]
    norm_num
  rw [hval]
  rfl

/-- Single precision `0xC0000000`: the same exponent and fraction as `2` with the sign bit set, so the
    value is `-(2^23 · 2^(-22)) = -2`. -/
theorem ofBits_neg_two : Ideal.ofBits .f32 0xC0000000#32 = (-2 : EReal) := by
  have hval : Ideal.ofBits .f32 0xC0000000#32 = ((-2 : ℝ) : EReal) := by
    simp [Ideal.ofBits, Ideal.ieee, -EReal.coe_mul]
    norm_num
  rw [hval]
  rfl

/-- The 16-bit truncated format `0x3F80`: `s = 0`, `E = 127`, `T = 0` with seven fraction bits, so the
    value is `2^7 · 2^(127 - 127 - 7) = 2^7 · 2^(-7) = 1`. -/
theorem ofBits_one_bf16 : Ideal.ofBits .bf16 0x3F80#16 = (1 : EReal) := by
  have hval : Ideal.ofBits .bf16 0x3F80#16 = ((1 : ℝ) : EReal) := by
    simp [Ideal.ofBits, Ideal.ieee, -EReal.coe_mul]
    norm_num
  rw [hval]
  rfl

/-- The 16-bit all-zero word: `E = 0` and `T = 0`, the subnormal branch with a zero significand, hence `0`. -/
theorem ofBits_zero_bf16 : Ideal.ofBits .bf16 0x0000#16 = (0 : EReal) := by
  simp [Ideal.ofBits, Ideal.ieee]

/-- Single precision `0x7F800000`: `s = 0`, `E = 255 = 2^8 - 1`, `T = 0`, the positive infinity. -/
theorem ofBits_inf_f32 : Ideal.ofBits .f32 0x7F800000#32 = (⊤ : EReal) := by
  simp [Ideal.ofBits, Ideal.ieee]

/-- The 32-bit all-zero word: `E = 0` and `T = 0` with twenty-three fraction bits, again the subnormal
    branch with a zero significand, hence `0`. -/
theorem ofBits_zero_f32 : Ideal.ofBits .f32 0x00000000#32 = (0 : EReal) :=
  Ideal.ofBits_zero_f32

end Cert.Consts

end
-- ==== Proof.KernelIdealHand.VPayOperands.lean ====
import proofs.«173679_g9887014716187_cont_9to1c4b_714_26_alg».proof.Proof.Gen.KernelIdeal.Skeleton
import proofs.«173679_g9887014716187_cont_9to1c4b_714_26_alg».proof.Proof.Spec
import proofs.«173679_g9887014716187_cont_9to1c4b_714_26_alg».proof.Proof.Consts
import Idealize.ShloMosaic.Lib.ValueIdx
import Idealize.ShloMosaic.Lib.Pipeline.Value
import Idealize.ShloMosaic.PureOps.Reduce
import Idealize.ShloMosaic.PureOps.Ideal.Laws

/-!
  The augmented operands and their product, entry by entry, over the extended reals.

  The row operand of a 4096-row block `X` has, in row `r`: columns 0…127 the entries `X r k · (−2)`; column 128 the
  squared norm `Σₖ X r k · X r k`; column 129 that norm minus itself; columns 130 and 131 the constant 1; columns
  132…255 the constant 0. The column operand of a 512-row chunk `Y` has, in row `c`: columns 0…127 the entries
  `Y c k`; columns 128 and 129 the constant 1; column 130 the squared norm; column 131 that norm minus itself; columns
  132…255 the constant 0. The product of a row operand `A` (4096 × 256) and a column operand `B` (512 × 256) is, at
  `(r, c)`, the inner product `Σₖ A r k · B c k` over the 256 columns.

  The sixteen chunks' pieces are the same functions. Per chunk, the six pieces of the column operand in the order
  [columns 0…127, column 128 (one), column 129 (one), column 130 (norm), column 131 (norm minus itself), columns 132…255
  (zero)], and the chunk's product:
  chunk  0: [14, 15, 16, 17, 18, 19]   product: 28
  chunk  1: [22, 23, 24, 25, 26, 27]   product: 37
  chunk  2: [31, 32, 33, 34, 35, 36]   product: 49
  chunk  3: [43, 44, 45, 46, 47, 48]   product: 60
  chunk  4: [54, 55, 56, 57, 58, 59]   product: 70
  chunk  5: [64, 65, 66, 67, 68, 69]   product: 81
  chunk  6: [75, 76, 77, 78, 79, 80]   product: 92
  chunk  7: [86, 87, 88, 89, 90, 91]   product: 102
  chunk  8: [96, 97, 98, 99, 100, 101]   product: 114
  chunk  9: [108, 109, 110, 111, 112, 113]   product: 125
  chunk 10: [119, 120, 121, 122, 123, 124]   product: 135
  chunk 11: [129, 130, 131, 132, 133, 134]   product: 147
  chunk 12: [141, 142, 143, 144, 145, 146]   product: 158
  chunk 13: [152, 153, 154, 155, 156, 157]   product: 168
  chunk 14: [162, 163, 164, 165, 166, 167]   product: 181
  chunk 15: [175, 176, 177, 178, 179, 180]   product: 184
  The row operand's pieces in the order [columns 0…127, column 128 (norm), column 129 (norm minus itself), column 130
  (one), column 131 (one), columns 132…255 (zero)]: [7, 8, 9, 10, 11, 4].
-/

set_option maxRecDepth 16384

noncomputable section

namespace Cert.KernelIdealHand.VPay

open Cert.KernelIdeal Cert.KernelIdeal.Gen Idealize.ShloMosaic Idealize.ShloMosaic.ValueIdx

/-! ## A column read off a vector, and the sum of a row's squares -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum over the second axis of the entrywise square of a 4096 × 128 array, at row `r`. -/
theorem sumSq4096_apply (X : FVec Ideal S4096x128 .f32) (r : Fin 4096) :
    multiReduction (F := Ideal) .add [1] S4096 (mulf X X) 0x00000000#32 reduces_S4096x128_S4096 (.inl rfl) rfl (ix1 r)
      = ∑ k : Fin 128, X (ix2 r k) * X (ix2 r k) := by
  refine (Ideal.multiReduction_add_single (mulf X X) _ reduces_S4096x128_S4096 _ _ (ix1 r)).trans ?_
  refine Finset.sum_congr rfl fun k _ => ?_
  have e : reduces_S4096x128_S4096.lift (ix1 r) k = ix2 r k :=
    funext fun c => Fin.ext (by match c with | ⟨0, _⟩ => rfl | ⟨1, _⟩ => rfl)
  rw [e]
  rfl

/-- The sum over the second axis of the entrywise square of a 512 × 128 array, at row `c`. -/
theorem sumSq512_apply (Y : FVec Ideal S512x128 .f32) (c : Fin 512) :
    multiReduction (F := Ideal) .add [1] S512 (mulf Y Y) 0x00000000#32 reduces_S512x128_S512 (.inl rfl) rfl (ix1 c)
      = ∑ k : Fin 128, Y (ix2 c k) * Y (ix2 c k) := by
  refine (Ideal.multiReduction_add_single (mulf Y Y) _ reduces_S512x128_S512 _ _ (ix1 c)).trans ?_
  refine Finset.sum_congr rfl fun k _ => ?_
  have e : reduces_S512x128_S512.lift (ix1 c) k = ix2 c k :=
    funext fun a => Fin.ext (by match a with | ⟨0, _⟩ => rfl | ⟨1, _⟩ => rfl)
  rw [e]
  rfl

/-! ## The row operand -/

/-- The squared norm of row `r`, as a 4096 × 1 column. -/
theorem pay5_apply (X : Vec Ideal S4096x128 .f32) (r : Fin 4096) (u : Fin 1) :
    k0_pay5 (F := Ideal) X (ix2 r u) = ∑ k : Fin 128, X (ix2 r k) * X (ix2 r k) := by
  unfold k0_pay5
  refine (shapeCast_a_a1_apply _ _ r u).trans ?_
  exact sumSq4096_apply X r

/-- Columns 0…127: the entries times −2. -/
theorem pay7_apply (X : Vec Ideal S4096x128 .f32) (r : Fin 4096) (k : Fin 128) :
    k0_pay7 (F := Ideal) X (ix2 r k) = X (ix2 r k) * (-2) := by
  unfold k0_pay7
  refine (congrFun (shapeCast_self _ _) _).trans ?_
  show X (ix2 r k) * Ideal.ofBits .f32 0xC0000000#32 = _
  rw [Cert.Consts.ofBits_neg_two]

/-- Column 128: the squared norm. -/
theorem pay8_apply (X : Vec Ideal S4096x128 .f32) (r : Fin 4096) :
    k0_pay8 (F := Ideal) X (ix2 r 0) = ∑ k : Fin 128, X (ix2 r k) * X (ix2 r k) := by
  unfold k0_pay8
  refine (congrFun (shapeCast_self _ _) _).trans ?_
  exact pay5_apply X r 0

/-- Column 129: the squared norm minus itself. -/
theorem pay9_apply (X : Vec Ideal S4096x128 .f32) (r : Fin 4096) :
    k0_pay9 (F := Ideal) X (ix2 r 0)
      = (∑ k : Fin 128, X (ix2 r k) * X (ix2 r k)) - (∑ k : Fin 128, X (ix2 r k) * X (ix2 r k)) := by
  unfold k0_pay9
  refine (congrFun (shapeCast_self _ _) _).trans ?_
  show k0_pay5 (F := Ideal) X (ix2 r 0) - k0_pay5 (F := Ideal) X (ix2 r 0) = _
  rw [pay5_apply]

/-- Column 130: one. -/
theorem pay10_apply (r : Fin 4096) : k0_pay10 (F := Ideal) (ix2 r 0) = 1 := by
  unfold k0_pay10
  refine (congrFun (shapeCast_self _ _) _).trans ?_
  show Ideal.ofBits .bf16 0x3F80#16 = 1
  exact Cert.Consts.ofBits_one_bf16

/-- Column 131: one. -/
theorem pay11_apply (r : Fin 4096) : k0_pay11 (F := Ideal) (ix2 r 0) = 1 := by
  unfold k0_pay11
  refine (congrFun (shapeCast_self _ _) _).trans ?_
  show Ideal.ofBits .bf16 0x3F80#16 = 1
  exact Cert.Consts.ofBits_one_bf16

/-- Columns 132…255: zero. -/
theorem pay4_apply (r : Fin 4096) (k : Fin 124) : k0_pay4 (F := Ideal) (ix2 r k) = 0 := by
  unfold k0_pay4
  refine (congrFun (shapeCast_self _ _) _).trans ?_
  show Ideal.ofBits .bf16 0x0000#16 = 0
  exact Cert.Consts.ofBits_zero_bf16

/-! ## The column operand, chunk 0 -/

/-- The squared norm of row `c`, as a 512 × 1 column. -/
theorem pay12_apply (Y : Vec Ideal S512x128 .f32) (c : Fin 512) (u : Fin 1) :
    k0_pay12 (F := Ideal) Y (ix2 c u) = ∑ k : Fin 128, Y (ix2 c k) * Y (ix2 c k) := by
  unfold k0_pay12
  refine (shapeCast_a_a1_apply _ _ c u).trans ?_
  exact sumSq512_apply Y c

/-- Columns 0…127: the entries. -/
theorem pay14_apply (Y : Vec Ideal S512x128 .f32) (c : Fin 512) (k : Fin 128) :
    k0_pay14 (F := Ideal) Y (ix2 c k) = Y (ix2 c k) := by
  unfold k0_pay14
  exact congrFun (shapeCast_self _ _) _

/-- Column 128: one. -/
theorem pay15_apply (c : Fin 512) : k0_pay15 (F := Ideal) (ix2 c 0) = 1 := by
  unfold k0_pay15
  refine (congrFun (shapeCast_self _ _) _).trans ?_
  show Ideal.ofBits .bf16 0x3F80#16 = 1
  exact Cert.Consts.ofBits_one_bf16

/-- Column 129: one. -/
theorem pay16_apply (c : Fin 512) : k0_pay16 (F := Ideal) (ix2 c 0) = 1 := by
  unfold k0_pay16
  refine (congrFun (shapeCast_self _ _) _).trans ?_
  show Ideal.ofBits .bf16 0x3F80#16 = 1
  exact Cert.Consts.ofBits_one_bf16

/-- Column 130: the squared norm. -/
theorem pay17_apply (Y : Vec Ideal S512x128 .f32) (c : Fin 512) :
    k0_pay17 (F := Ideal) Y (ix2 c 0) = ∑ k : Fin 128, Y (ix2 c k) * Y (ix2 c k) := by
  unfold k0_pay17
  refine (congrFun (shapeCast_self _ _) _).trans ?_
  exact pay12_apply Y c 0

/-- Column 131: the squared norm minus itself. -/
theorem pay18_apply (Y : Vec Ideal S512x128 .f32) (c : Fin 512) :
    k0_pay18 (F := Ideal) Y (ix2 c 0)
      = (∑ k : Fin 128, Y (ix2 c k) * Y (ix2 c k)) - (∑ k : Fin 128, Y (ix2 c k) * Y (ix2 c k)) := by
  unfold k0_pay18
  refine (congrFun (shapeCast_self _ _) _).trans ?_
  show k0_pay12 (F := Ideal) Y (ix2 c 0) - k0_pay12 (F := Ideal) Y (ix2 c 0) = _
  rw [pay12_apply]

/-- Columns 132…255: zero. -/
theorem pay19_apply (c : Fin 512) (k : Fin 124) : k0_pay19 (F := Ideal) (ix2 c k) = 0 := by
  unfold k0_pay19
  refine (congrFun (shapeCast_self _ _) _).trans ?_
  show Ideal.ofBits .bf16 0x0000#16 = 0
  exact Cert.Consts.ofBits_zero_bf16

/-! ## The other fifteen chunks' pieces are chunk 0's -/

theorem pay22_eq : @k0_pay22 Ideal _ = @k0_pay14 Ideal _ := rfl
theorem pay23_eq : @k0_pay23 Ideal _ = @k0_pay15 Ideal _ := rfl
theorem pay24_eq : @k0_pay24 Ideal _ = @k0_pay16 Ideal _ := rfl
theorem pay25_eq : @k0_pay25 Ideal _ = @k0_pay17 Ideal _ := rfl
theorem pay26_eq : @k0_pay26 Ideal _ = @k0_pay18 Ideal _ := rfl
theorem pay27_eq : @k0_pay27 Ideal _ = @k0_pay19 Ideal _ := rfl
theorem pay31_eq : @k0_pay31 Ideal _ = @k0_pay14 Ideal _ := rfl
theorem pay32_eq : @k0_pay32 Ideal _ = @k0_pay15 Ideal _ := rfl
theorem pay33_eq : @k0_pay33 Ideal _ = @k0_pay16 Ideal _ := rfl
theorem pay34_eq : @k0_pay34 Ideal _ = @k0_pay17 Ideal _ := rfl
theorem pay35_eq : @k0_pay35 Ideal _ = @k0_pay18 Ideal _ := rfl
theorem pay36_eq : @k0_pay36 Ideal _ = @k0_pay19 Ideal _ := rfl
theorem pay43_eq : @k0_pay43 Ideal _ = @k0_pay14 Ideal _ := rfl
theorem pay44_eq : @k0_pay44 Ideal _ = @k0_pay15 Ideal _ := rfl
theorem pay45_eq : @k0_pay45 Ideal _ = @k0_pay16 Ideal _ := rfl
theorem pay46_eq : @k0_pay46 Ideal _ = @k0_pay17 Ideal _ := rfl
theorem pay47_eq : @k0_pay47 Ideal _ = @k0_pay18 Ideal _ := rfl
theorem pay48_eq : @k0_pay48 Ideal _ = @k0_pay19 Ideal _ := rfl
theorem pay54_eq : @k0_pay54 Ideal _ = @k0_pay14 Ideal _ := rfl
theorem pay55_eq : @k0_pay55 Ideal _ = @k0_pay15 Ideal _ := rfl
theorem pay56_eq : @k0_pay56 Ideal _ = @k0_pay16 Ideal _ := rfl
theorem pay57_eq : @k0_pay57 Ideal _ = @k0_pay17 Ideal _ := rfl
theorem pay58_eq : @k0_pay58 Ideal _ = @k0_pay18 Ideal _ := rfl
theorem pay59_eq : @k0_pay59 Ideal _ = @k0_pay19 Ideal _ := rfl
theorem pay64_eq : @k0_pay64 Ideal _ = @k0_pay14 Ideal _ := rfl
theorem pay65_eq : @k0_pay65 Ideal _ = @k0_pay15 Ideal _ := rfl
theorem pay66_eq : @k0_pay66 Ideal _ = @k0_pay16 Ideal _ := rfl
theorem pay67_eq : @k0_pay67 Ideal _ = @k0_pay17 Ideal _ := rfl
theorem pay68_eq : @k0_pay68 Ideal _ = @k0_pay18 Ideal _ := rfl
theorem pay69_eq : @k0_pay69 Ideal _ = @k0_pay19 Ideal _ := rfl
theorem pay75_eq : @k0_pay75 Ideal _ = @k0_pay14 Ideal _ := rfl
theorem pay76_eq : @k0_pay76 Ideal _ = @k0_pay15 Ideal _ := rfl
theorem pay77_eq : @k0_pay77 Ideal _ = @k0_pay16 Ideal _ := rfl
theorem pay78_eq : @k0_pay78 Ideal _ = @k0_pay17 Ideal _ := rfl
theorem pay79_eq : @k0_pay79 Ideal _ = @k0_pay18 Ideal _ := rfl
theorem pay80_eq : @k0_pay80 Ideal _ = @k0_pay19 Ideal _ := rfl
theorem pay86_eq : @k0_pay86 Ideal _ = @k0_pay14 Ideal _ := rfl
theorem pay87_eq : @k0_pay87 Ideal _ = @k0_pay15 Ideal _ := rfl
theorem pay88_eq : @k0_pay88 Ideal _ = @k0_pay16 Ideal _ := rfl
theorem pay89_eq : @k0_pay89 Ideal _ = @k0_pay17 Ideal _ := rfl
theorem pay90_eq : @k0_pay90 Ideal _ = @k0_pay18 Ideal _ := rfl
theorem pay91_eq : @k0_pay91 Ideal _ = @k0_pay19 Ideal _ := rfl
theorem pay96_eq : @k0_pay96 Ideal _ = @k0_pay14 Ideal _ := rfl
theorem pay97_eq : @k0_pay97 Ideal _ = @k0_pay15 Ideal _ := rfl
theorem pay98_eq : @k0_pay98 Ideal _ = @k0_pay16 Ideal _ := rfl
theorem pay99_eq : @k0_pay99 Ideal _ = @k0_pay17 Ideal _ := rfl
theorem pay100_eq : @k0_pay100 Ideal _ = @k0_pay18 Ideal _ := rfl
theorem pay101_eq : @k0_pay101 Ideal _ = @k0_pay19 Ideal _ := rfl
theorem pay108_eq : @k0_pay108 Ideal _ = @k0_pay14 Ideal _ := rfl
theorem pay109_eq : @k0_pay109 Ideal _ = @k0_pay15 Ideal _ := rfl
theorem pay110_eq : @k0_pay110 Ideal _ = @k0_pay16 Ideal _ := rfl
theorem pay111_eq : @k0_pay111 Ideal _ = @k0_pay17 Ideal _ := rfl
theorem pay112_eq : @k0_pay112 Ideal _ = @k0_pay18 Ideal _ := rfl
theorem pay113_eq : @k0_pay113 Ideal _ = @k0_pay19 Ideal _ := rfl
theorem pay119_eq : @k0_pay119 Ideal _ = @k0_pay14 Ideal _ := rfl
theorem pay120_eq : @k0_pay120 Ideal _ = @k0_pay15 Ideal _ := rfl
theorem pay121_eq : @k0_pay121 Ideal _ = @k0_pay16 Ideal _ := rfl
theorem pay122_eq : @k0_pay122 Ideal _ = @k0_pay17 Ideal _ := rfl
theorem pay123_eq : @k0_pay123 Ideal _ = @k0_pay18 Ideal _ := rfl
theorem pay124_eq : @k0_pay124 Ideal _ = @k0_pay19 Ideal _ := rfl
theorem pay129_eq : @k0_pay129 Ideal _ = @k0_pay14 Ideal _ := rfl
theorem pay130_eq : @k0_pay130 Ideal _ = @k0_pay15 Ideal _ := rfl
theorem pay131_eq : @k0_pay131 Ideal _ = @k0_pay16 Ideal _ := rfl
theorem pay132_eq : @k0_pay132 Ideal _ = @k0_pay17 Ideal _ := rfl
theorem pay133_eq : @k0_pay133 Ideal _ = @k0_pay18 Ideal _ := rfl
theorem pay134_eq : @k0_pay134 Ideal _ = @k0_pay19 Ideal _ := rfl
theorem pay141_eq : @k0_pay141 Ideal _ = @k0_pay14 Ideal _ := rfl
theorem pay142_eq : @k0_pay142 Ideal _ = @k0_pay15 Ideal _ := rfl
theorem pay143_eq : @k0_pay143 Ideal _ = @k0_pay16 Ideal _ := rfl
theorem pay144_eq : @k0_pay144 Ideal _ = @k0_pay17 Ideal _ := rfl
theorem pay145_eq : @k0_pay145 Ideal _ = @k0_pay18 Ideal _ := rfl
theorem pay146_eq : @k0_pay146 Ideal _ = @k0_pay19 Ideal _ := rfl
theorem pay152_eq : @k0_pay152 Ideal _ = @k0_pay14 Ideal _ := rfl
theorem pay153_eq : @k0_pay153 Ideal _ = @k0_pay15 Ideal _ := rfl
theorem pay154_eq : @k0_pay154 Ideal _ = @k0_pay16 Ideal _ := rfl
theorem pay155_eq : @k0_pay155 Ideal _ = @k0_pay17 Ideal _ := rfl
theorem pay156_eq : @k0_pay156 Ideal _ = @k0_pay18 Ideal _ := rfl
theorem pay157_eq : @k0_pay157 Ideal _ = @k0_pay19 Ideal _ := rfl
theorem pay162_eq : @k0_pay162 Ideal _ = @k0_pay14 Ideal _ := rfl
theorem pay163_eq : @k0_pay163 Ideal _ = @k0_pay15 Ideal _ := rfl
theorem pay164_eq : @k0_pay164 Ideal _ = @k0_pay16 Ideal _ := rfl
theorem pay165_eq : @k0_pay165 Ideal _ = @k0_pay17 Ideal _ := rfl
theorem pay166_eq : @k0_pay166 Ideal _ = @k0_pay18 Ideal _ := rfl
theorem pay167_eq : @k0_pay167 Ideal _ = @k0_pay19 Ideal _ := rfl
theorem pay175_eq : @k0_pay175 Ideal _ = @k0_pay14 Ideal _ := rfl
theorem pay176_eq : @k0_pay176 Ideal _ = @k0_pay15 Ideal _ := rfl
theorem pay177_eq : @k0_pay177 Ideal _ = @k0_pay16 Ideal _ := rfl
theorem pay178_eq : @k0_pay178 Ideal _ = @k0_pay17 Ideal _ := rfl
theorem pay179_eq : @k0_pay179 Ideal _ = @k0_pay18 Ideal _ := rfl
theorem pay180_eq : @k0_pay180 Ideal _ = @k0_pay19 Ideal _ := rfl

/-! ## The product -/

/-- The left operand's row coordinate is the result's row. -/
theorem lhs_pay28_0 (i : S4096x512.Idx) (q : dot_S4096x256_S512x256_S4096x512_1_1_0_0_n_n.contr.Idx) :
    (dot_S4096x256_S512x256_S4096x512_1_1_0_0_n_n.lhsIdx i q 0).val = (i 0).val := by
  unfold DotDims.lhsIdx
  rw [dif_neg (show ¬(0 : Fin S4096x256.rank) ∈ dot_S4096x256_S512x256_S4096x512_1_1_0_0_n_n.lhsBatch by decide), dif_pos (show (0 : Fin S4096x256.rank) ∈ dot_S4096x256_S512x256_S4096x512_1_1_0_0_n_n.lhsNonContracting by decide)]
  rfl
/-- The left operand's column coordinate is the contraction's. -/
theorem lhs_pay28_1 (i : S4096x512.Idx) (q : dot_S4096x256_S512x256_S4096x512_1_1_0_0_n_n.contr.Idx) :
    (dot_S4096x256_S512x256_S4096x512_1_1_0_0_n_n.lhsIdx i q 1).val = (q ⟨0, by decide⟩).val :=
  dot_S4096x256_S512x256_S4096x512_1_1_0_0_n_n.lhsIdx_val_of_single rfl i q
/-- The right operand's row coordinate is the result's column. -/
theorem rhs_pay28_0 (i : S4096x512.Idx) (q : dot_S4096x256_S512x256_S4096x512_1_1_0_0_n_n.contr.Idx) :
    (dot_S4096x256_S512x256_S4096x512_1_1_0_0_n_n.rhsIdx i q 0).val = (i 1).val := by
  unfold DotDims.rhsIdx
  rw [dif_neg (show ¬(0 : Fin S512x256.rank) ∈ dot_S4096x256_S512x256_S4096x512_1_1_0_0_n_n.rhsBatch by decide), dif_pos (show (0 : Fin S512x256.rank) ∈ dot_S4096x256_S512x256_S4096x512_1_1_0_0_n_n.rhsNonContracting by decide)]
  rfl
/-- The right operand's column coordinate is the contraction's. -/
theorem rhs_pay28_1 (i : S4096x512.Idx) (q : dot_S4096x256_S512x256_S4096x512_1_1_0_0_n_n.contr.Idx) :
    (dot_S4096x256_S512x256_S4096x512_1_1_0_0_n_n.rhsIdx i q 1).val = (q ⟨0, by decide⟩).val :=
  dot_S4096x256_S512x256_S4096x512_1_1_0_0_n_n.rhsIdx_val_of_single rfl i q

/-- The product at `(r, c)`: the inner product of row `r` of the left operand with row `c` of the right. -/
theorem pay28_apply (A : Vec Ideal S4096x256 .bf16) (B : Vec Ideal S512x256 .bf16) (r : Fin 4096) (c : Fin 512) :
    k0_pay28 (F := Ideal) A B (ix2 r c) = ∑ k : Fin 256, A (ix2 r k) * B (ix2 c k) := by
  unfold k0_pay28
  refine (Ideal.matmul_constant_zero_apply (φ₁ := .bf16) (φ₂ := .bf16) dot_S4096x256_S512x256_S4096x512_1_1_0_0_n_n none A B (ix2 r c)).trans ?_
  rw [← Equiv.sum_comp (ValueIdx.contrEquiv1 dot_S4096x256_S512x256_S4096x512_1_1_0_0_n_n 256 rfl rfl).symm]
  refine Finset.sum_congr rfl fun k _ => ?_
  have hk := ValueIdx.contrEquiv1_symm_val dot_S4096x256_S512x256_S4096x512_1_1_0_0_n_n 256 rfl rfl k
  have el : dot_S4096x256_S512x256_S4096x512_1_1_0_0_n_n.lhsIdx (ix2 r c) ((ValueIdx.contrEquiv1 dot_S4096x256_S512x256_S4096x512_1_1_0_0_n_n 256 rfl rfl).symm k) = ix2 r k := funext fun a => Fin.ext (by
    match a with
    | ⟨0, _⟩ => exact lhs_pay28_0 _ _
    | ⟨1, _⟩ => exact (lhs_pay28_1 _ _).trans hk)
  have er : dot_S4096x256_S512x256_S4096x512_1_1_0_0_n_n.rhsIdx (ix2 r c) ((ValueIdx.contrEquiv1 dot_S4096x256_S512x256_S4096x512_1_1_0_0_n_n 256 rfl rfl).symm k) = ix2 c k := funext fun a => Fin.ext (by
    match a with
    | ⟨0, _⟩ => exact rhs_pay28_0 _ _
    | ⟨1, _⟩ => exact (rhs_pay28_1 _ _).trans hk)
  rw [el, er]

theorem pay37_eq : @k0_pay37 Ideal _ = @k0_pay28 Ideal _ := rfl
theorem pay49_eq : @k0_pay49 Ideal _ = @k0_pay28 Ideal _ := rfl
theorem pay60_eq : @k0_pay60 Ideal _ = @k0_pay28 Ideal _ := rfl
theorem pay70_eq : @k0_pay70 Ideal _ = @k0_pay28 Ideal _ := rfl
theorem pay81_eq : @k0_pay81 Ideal _ = @k0_pay28 Ideal _ := rfl
theorem pay92_eq : @k0_pay92 Ideal _ = @k0_pay28 Ideal _ := rfl
theorem pay102_eq : @k0_pay102 Ideal _ = @k0_pay28 Ideal _ := rfl
theorem pay114_eq : @k0_pay114 Ideal _ = @k0_pay28 Ideal _ := rfl
theorem pay125_eq : @k0_pay125 Ideal _ = @k0_pay28 Ideal _ := rfl
theorem pay135_eq : @k0_pay135 Ideal _ = @k0_pay28 Ideal _ := rfl
theorem pay147_eq : @k0_pay147 Ideal _ = @k0_pay28 Ideal _ := rfl
theorem pay158_eq : @k0_pay158 Ideal _ = @k0_pay28 Ideal _ := rfl
theorem pay168_eq : @k0_pay168 Ideal _ = @k0_pay28 Ideal _ := rfl
theorem pay181_eq : @k0_pay181 Ideal _ = @k0_pay28 Ideal _ := rfl
theorem pay184_eq : @k0_pay184 Ideal _ = @k0_pay28 Ideal _ := rfl

end Cert.KernelIdealHand.VPay

end
-- ==== Proof.KernelIdealHand.ValueLoadsX.lean ====
import proofs.«173679_g9887014716187_cont_9to1c4b_714_26_alg».proof.Proof.KernelIdealHand.FrameData
import proofs.«173679_g9887014716187_cont_9to1c4b_714_26_alg».proof.Proof.Spec
import proofs.«173679_g9887014716187_cont_9to1c4b_714_26_alg».proof.Proof.KernelIdealHand.VPayOperands
import Idealize.ShloMosaic.Lib.ValueIdx
import Idealize.ShloMosaic.Lib.Writes
import Idealize.ShloMosaic.Lib.Pipeline.FrameBody
import Idealize.ShloMosaic.Lib.Pipeline.Value

set_option maxRecDepth 16384

noncomputable section

namespace Cert.KernelIdealHand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The augmented ROW operand as the body loads it, at the ideal instance, read at an index: at the first point the
    whole row-operand scratch after its six stores (rows 0..4095 of the first argument); at the last point the same
    scratch after five stores over the padding columns the first point left (rows 4096..8191). Each is the
    specification's augmented row operand. -/

open Idealize.ShloMosaic.ValueIdx

variable (c : Dev nD) (x0 x1 : Vec Ideal S8192x128 .f32)

/-- The row operand the first point loads. -/
def XA : Vec Ideal S4096x256 .bf16 := kernelRunA.sl.v8 (F := Ideal) c (grid0.coords t0_0) (ms0_0 t0_0) (hs0_0 t0_0) scM0 hA2 x0

/-- The row operand the last point loads, over what the row-operand scratch held before (`xs0`). -/
def XB (xs0 : Vec Ideal S4096x256 .bf16) : Vec Ideal S4096x256 .bf16 :=
  kernelRunB.sl.r (F := Ideal) c (grid0.coords t0_1) (ms0_0 t0_1) (hs0_0 t0_1) scM0 (Memref.isWhole_whole _) hB2 x0 xs0

/-! ## The specification's augmented row operand, by column -/

private theorem xAug_lt (x : Cert.Spec.Arr) (i : Fin 8192) (k : Fin 256) (h : k.val < 128) :
    Cert.Spec.xAug x i k = x (ix2 i ⟨k.val, h⟩) * (-2) := by
  unfold Cert.Spec.xAug; rw [dif_pos h]
private theorem xAug_128 (x : Cert.Spec.Arr) (i : Fin 8192) (k : Fin 256) (h : k.val = 128) :
    Cert.Spec.xAug x i k = Cert.Spec.sq x i := by
  unfold Cert.Spec.xAug; rw [dif_neg (by omega), if_pos h]
private theorem xAug_129 (x : Cert.Spec.Arr) (i : Fin 8192) (k : Fin 256) (h : k.val = 129) :
    Cert.Spec.xAug x i k = Cert.Spec.sq x i - Cert.Spec.sq x i := by
  unfold Cert.Spec.xAug; rw [dif_neg (by omega), if_neg (by omega), if_pos h]
private theorem xAug_one (x : Cert.Spec.Arr) (i : Fin 8192) (k : Fin 256) (h : 130 ≤ k.val) (h' : k.val < 132) :
    Cert.Spec.xAug x i k = 1 := by
  unfold Cert.Spec.xAug; rw [dif_neg (by omega), if_neg (by omega), if_neg (by omega), if_pos h']
private theorem xAug_zero (x : Cert.Spec.Arr) (i : Fin 8192) (k : Fin 256) (h : 132 ≤ k.val) :
    Cert.Spec.xAug x i k = 0 := by
  unfold Cert.Spec.xAug; rw [dif_neg (by omega), if_neg (by omega), if_neg (by omega), if_neg (by omega)]

/-- The augmented row operand of row block `b` as ONE function of the scratch buffer's index. -/
private def GX (b : Fin 2) : S4096x256.Idx → Elt Ideal .bf16 := fun y =>
  Cert.Spec.xAug x0 (Cert.Spec.rowOf b ⟨(y 0).val, idx2_lt0 y⟩) ⟨(y 1).val, idx2_lt1 y⟩

private theorem GX_eq (b : Fin 2) (y : S4096x256.Idx) (r : Fin 4096) (k : Fin 256) (h0 : (y 0).val = r.val)
    (h1 : (y 1).val = k.val) : GX x0 b y = Cert.Spec.xAug x0 (Cert.Spec.rowOf b r) k := by
  unfold GX
  have e0 : (⟨(y 0).val, idx2_lt0 y⟩ : Fin 4096) = r := Fin.ext h0
  have e1 : (⟨(y 1).val, idx2_lt1 y⟩ : Fin 256) = k := Fin.ext h1
  rw [e0, e1]

/-! ## The rows the body loads: rows `4096·b …` of the first argument -/

private theorem rows_apply (i : grid0.Coords) (arg2 : Memref sig .tc .vmem S8192x128 .f32) (harg2 : arg2.IsWhole)
    (inb : ∀ a, k0_off1 i a + S4096x128.size a ≤ S8192x128.size a) (b : Fin 2) (hi : (i 0).val = b.val)
    (r : Fin 4096) (k : Fin 128) :
    View.readAt (Elt Ideal) arg2.view (Rect.unit (s := S8192x128) (k0_off1 i) S4096x128.size inb).toLoadRect (harg2.unread x0) (ix2 r k)
      = x0 (ix2 (Cert.Spec.rowOf b r) k) := by
  rw [View.readAt_apply, harg2.read_unread]
  refine congrArg x0 (funext fun a => Fin.ext ?_)
  match a with
  | ⟨0, _⟩ =>
    show k0_off1 i 0 + 1 * r.val = 4096 * b.val + r.val
    rw [k0_off1_eq, hi]; simp
  | ⟨1, _⟩ =>
    show k0_off1 i 1 + 1 * k.val = k.val
    rw [k0_off1_eq]; simp

/-- The squared norm of a loaded row is the specification's. -/
private theorem sq_rows (b : Fin 2) (Xr : Vec Ideal S4096x128 .f32)
    (hX : ∀ r k, Xr (ix2 r k) = x0 (ix2 (Cert.Spec.rowOf b r) k)) (r : Fin 4096) :
    (∑ k : Fin 128, Xr (ix2 r k) * Xr (ix2 r k)) = Cert.Spec.sq x0 (Cert.Spec.rowOf b r) := by
  unfold Cert.Spec.sq
  exact Finset.sum_congr rfl fun k _ => by rw [hX]

/-! ## Each stored piece is a block of that one function -/

/-- A one-column piece at column `j`. -/
private theorem piece_col (b : Fin 2) (j : Nat) (hj : j < 256) (inb : ∀ a, ![0, j] a + S4096x1.size a ≤ S4096x256.size a)
    (w : S4096x1.Idx → Elt Ideal .bf16)
    (hw : ∀ r : Fin 4096, w (ix2 r 0) = Cert.Spec.xAug x0 (Cert.Spec.rowOf b r) ⟨j, hj⟩)
    (x : (Rect.unit (s := S4096x256) ![0, j] S4096x1.size inb).shape.Idx) :
    w x = GX x0 b ((Rect.unit (s := S4096x256) ![0, j] S4096x1.size inb).emb x) := by
  obtain ⟨r, u, rfl⟩ : ∃ (r : Fin 4096) (u : Fin 1), x = ix2 r u := ⟨x 0, x 1, eq_ix2 x⟩
  obtain rfl : u = 0 := Subsingleton.elim _ _
  rw [hw r]
  refine (GX_eq x0 b _ r ⟨j, hj⟩ ?_ ?_).symm
  · show 0 + 1 * r.val = r.val
    omega
  · show j + 1 * 0 = j
    omega

/-- The block piece: columns 0…127. -/
private theorem piece_block (b : Fin 2) (inb : ∀ a, ![0, 0] a + S4096x128.size a ≤ S4096x256.size a)
    (Xr : Vec Ideal S4096x128 .f32) (hX : ∀ r k, Xr (ix2 r k) = x0 (ix2 (Cert.Spec.rowOf b r) k))
    (x : (Rect.unit (s := S4096x256) ![0, 0] S4096x128.size inb).shape.Idx) :
    k0_pay7 (F := Ideal) Xr x = GX x0 b ((Rect.unit (s := S4096x256) ![0, 0] S4096x128.size inb).emb x) := by
  obtain ⟨r, k, rfl⟩ : ∃ (r : Fin 4096) (k : Fin 128), x = ix2 r k := ⟨x 0, x 1, eq_ix2 x⟩
  rw [VPay.pay7_apply, hX]
  refine (Eq.trans (GX_eq x0 b _ r ⟨k.val, by omega⟩ ?_ ?_) (xAug_lt x0 _ _ k.isLt)).symm
  · show 0 + 1 * r.val = r.val
    omega
  · show 0 + 1 * k.val = k.val
    omega

/-- The padding piece: columns 132…255. -/
private theorem piece_zero (b : Fin 2) (inb : ∀ a, ![0, 132] a + S4096x124.size a ≤ S4096x256.size a)
    (x : (Rect.unit (s := S4096x256) ![0, 132] S4096x124.size inb).shape.Idx) :
    k0_pay4 (F := Ideal) x = GX x0 b ((Rect.unit (s := S4096x256) ![0, 132] S4096x124.size inb).emb x) := by
  obtain ⟨r, k, rfl⟩ : ∃ (r : Fin 4096) (k : Fin 124), x = ix2 r k := ⟨x 0, x 1, eq_ix2 x⟩
  rw [VPay.pay4_apply]
  refine (Eq.trans (GX_eq x0 b _ r ⟨132 + k.val, by omega⟩ ?_ ?_) (xAug_zero x0 _ _ (by show 132 ≤ 132 + k.val; omega))).symm
  · show 0 + 1 * r.val = r.val
    omega
  · show 132 + 1 * k.val = 132 + k.val
    omega

/-- The five pieces every point stores (columns 131, 130, 129, 128 and 0…127, last store first) of the rows `Xr`,
    ahead of the earlier stores `T`. -/
private abbrev five (Xr : Vec Ideal S4096x128 .f32) (T : List (View.Piece (Elt Ideal) S4096x256 .bf16)) :
    List (View.Piece (Elt Ideal) S4096x256 .bf16) :=
  ⟨Rect.unit (s := S4096x256) ![0, 131] S4096x1.size inb_S4096x256_S4096x1_0_131, k0_pay11 (F := Ideal)⟩ ::
  ⟨Rect.unit (s := S4096x256) ![0, 130] S4096x1.size inb_S4096x256_S4096x1_0_130, k0_pay10 (F := Ideal)⟩ ::
  ⟨Rect.unit (s := S4096x256) ![0, 129] S4096x1.size inb_S4096x256_S4096x1_0_129, k0_pay9 (F := Ideal) Xr⟩ ::
  ⟨Rect.unit (s := S4096x256) ![0, 128] S4096x1.size inb_S4096x256_S4096x1_0_128, k0_pay8 (F := Ideal) Xr⟩ ::
  ⟨Rect.unit (s := S4096x256) ![0, 0] S4096x128.size inb_S4096x256_S4096x128_0_0, k0_pay7 (F := Ideal) Xr⟩ :: T

/-- The padding piece. -/
private abbrev zeroPiece : View.Piece (Elt Ideal) S4096x256 .bf16 :=
  ⟨Rect.unit (s := S4096x256) ![0, 132] S4096x124.size inb_S4096x256_S4096x124_0_132, k0_pay4 (F := Ideal)⟩

/-- The five pieces are blocks of the one function (and so is the whole list, when the earlier stores are). -/
private theorem pieces5 (b : Fin 2) (Xr : Vec Ideal S4096x128 .f32)
    (hX : ∀ r k, Xr (ix2 r k) = x0 (ix2 (Cert.Spec.rowOf b r) k)) (T : List (View.Piece (Elt Ideal) S4096x256 .bf16))
    (hT : ∀ p ∈ T, ∀ x : p.1.shape.Idx, p.2 x = GX x0 b (p.1.emb x)) :
    ∀ p ∈ five Xr T, ∀ x : p.1.shape.Idx, p.2 x = GX x0 b (p.1.emb x) := by
  intro p hp
  rcases List.mem_cons.mp hp with rfl | hp
  · exact piece_col x0 b 131 (by omega) inb_S4096x256_S4096x1_0_131 (k0_pay11 (F := Ideal)) fun r => by
      rw [VPay.pay11_apply, xAug_one x0 _ _ (by show 130 ≤ 131; omega) (by show 131 < 132; omega)]
  rcases List.mem_cons.mp hp with rfl | hp
  · exact piece_col x0 b 130 (by omega) inb_S4096x256_S4096x1_0_130 (k0_pay10 (F := Ideal)) fun r => by
      rw [VPay.pay10_apply, xAug_one x0 _ _ (by show 130 ≤ 130; omega) (by show 130 < 132; omega)]
  rcases List.mem_cons.mp hp with rfl | hp
  · exact piece_col x0 b 129 (by omega) inb_S4096x256_S4096x1_0_129 (k0_pay9 (F := Ideal) Xr) fun r => by
      rw [VPay.pay9_apply, sq_rows x0 b Xr hX, xAug_129 x0 _ _ rfl]
  rcases List.mem_cons.mp hp with rfl | hp
  · exact piece_col x0 b 128 (by omega) inb_S4096x256_S4096x1_0_128 (k0_pay8 (F := Ideal) Xr) fun r => by
      rw [VPay.pay8_apply, sq_rows x0 b Xr hX, xAug_128 x0 _ _ rfl]
  rcases List.mem_cons.mp hp with rfl | hp
  · exact piece_block x0 b inb_S4096x256_S4096x128_0_0 Xr hX
  · exact hT p hp

/-! ## Which piece holds an index -/

/-- Membership in a band of columns `j … j + sz − 1` over all 4096 rows. -/
private theorem mem_band (y : S4096x256.Idx) (j sz : Nat)
    (inb : ∀ a, ![0, j] a + (![4096, sz] : Fin 2 → Nat) a ≤ S4096x256.size a) :
    y ∈ (Rect.unit (s := S4096x256) ![0, j] ![4096, sz] inb).set ↔ j ≤ (y 1).val ∧ (y 1).val < j + sz := by
  rw [Rect.mem_set_unit, Fin.forall_fin_two]
  have h0 := idx2_lt0 y
  constructor
  · intro h; exact h.2
  · intro h; exact ⟨⟨Nat.zero_le _, by show (y 0).val < 0 + 4096; omega⟩, h⟩

/-- An index of a column below 132 lies in one of the five pieces. -/
private theorem cover5 (Xr : Vec Ideal S4096x128 .f32) (T : List (View.Piece (Elt Ideal) S4096x256 .bf16))
    (y : S4096x256.Idx) (hy : (y 1).val < 132) : ∃ p ∈ five Xr T, y ∈ p.1.set := by
  by_cases h131 : (y 1).val = 131
  · exact ⟨_, List.mem_cons_self, (mem_band y 131 1 inb_S4096x256_S4096x1_0_131).mpr (by omega)⟩
  by_cases h130 : (y 1).val = 130
  · exact ⟨_, List.mem_cons_of_mem _ List.mem_cons_self, (mem_band y 130 1 inb_S4096x256_S4096x1_0_130).mpr (by omega)⟩
  by_cases h129 : (y 1).val = 129
  · exact ⟨_, List.mem_cons_of_mem _ (List.mem_cons_of_mem _ List.mem_cons_self),
      (mem_band y 129 1 inb_S4096x256_S4096x1_0_129).mpr (by omega)⟩
  by_cases h128 : (y 1).val = 128
  · exact ⟨_, List.mem_cons_of_mem _ (List.mem_cons_of_mem _ (List.mem_cons_of_mem _ List.mem_cons_self)),
      (mem_band y 128 1 inb_S4096x256_S4096x1_0_128).mpr (by omega)⟩
  · exact ⟨_, List.mem_cons_of_mem _ (List.mem_cons_of_mem _ (List.mem_cons_of_mem _ (List.mem_cons_of_mem _ List.mem_cons_self))),
      (mem_band y 0 128 inb_S4096x256_S4096x128_0_0).mpr (by omega)⟩

/-- An index of a column from 132 on lies in none of the five pieces. -/
private theorem miss5 (Xr : Vec Ideal S4096x128 .f32) (y : S4096x256.Idx) (hy : 132 ≤ (y 1).val) :
    ∀ p ∈ five Xr [], y ∉ p.1.set := by
  intro p hp
  rcases List.mem_cons.mp hp with rfl | hp
  · exact fun hm => by have := (mem_band y 131 1 inb_S4096x256_S4096x1_0_131).mp hm; omega
  rcases List.mem_cons.mp hp with rfl | hp
  · exact fun hm => by have := (mem_band y 130 1 inb_S4096x256_S4096x1_0_130).mp hm; omega
  rcases List.mem_cons.mp hp with rfl | hp
  · exact fun hm => by have := (mem_band y 129 1 inb_S4096x256_S4096x1_0_129).mp hm; omega
  rcases List.mem_cons.mp hp with rfl | hp
  · exact fun hm => by have := (mem_band y 128 1 inb_S4096x256_S4096x1_0_128).mp hm; omega
  rcases List.mem_cons.mp hp with rfl | hp
  · exact fun hm => by have := (mem_band y 0 128 inb_S4096x256_S4096x128_0_0).mp hm; omega
  · exact absurd hp List.not_mem_nil

/-- The whole-buffer load's box places an index at itself. -/
private theorem whole_idx (inb : ∀ a, ![0, 0] a + S4096x256.size a ≤ S4096x256.size a) (r : Fin 4096) (k : Fin 256) :
    (Rect.unit (s := S4096x256) ![0, 0] S4096x256.size inb).toLoadRect.idx (ix2 r k) = ix2 r k :=
  funext fun a => Fin.ext (by
    match a with
    | ⟨0, _⟩ => show 0 + 1 * r.val = r.val; omega
    | ⟨1, _⟩ => show 0 + 1 * k.val = k.val; omega)

/-- The canon of the first point's six pieces is the one function, everywhere. -/
private theorem canon6 (Xr : Vec Ideal S4096x128 .f32) (hX : ∀ r k, Xr (ix2 r k) = x0 (ix2 (Cert.Spec.rowOf 0 r) k))
    (r : Fin 4096) (k : Fin 256) :
    View.canon (five Xr [zeroPiece]) (ix2 r k) = Cert.Spec.xAug x0 (Cert.Spec.rowOf 0 r) k := by
  refine (View.canon_apply_of_pieces (GX x0 0) (five Xr [zeroPiece]) ?_ (ix2 r k) ?_).trans (GX_eq x0 0 _ r k rfl rfl)
  · refine pieces5 x0 0 Xr hX _ fun p hp => ?_
    obtain rfl := List.mem_singleton.mp hp
    exact piece_zero x0 0 inb_S4096x256_S4096x124_0_132
  · by_cases hk : k.val < 132
    · exact cover5 Xr _ (ix2 r k) hk
    · refine ⟨zeroPiece, ?_, (mem_band (ix2 r k) 132 124 inb_S4096x256_S4096x124_0_132).mpr ⟨by show 132 ≤ k.val; omega, by show k.val < 132 + 124; omega⟩⟩
      exact List.mem_cons_of_mem _ (List.mem_cons_of_mem _ (List.mem_cons_of_mem _ (List.mem_cons_of_mem _ (List.mem_cons_of_mem _ List.mem_cons_self))))

/-- Five pieces written over any contents read the one function on the columns below 132 … -/
private theorem read5_hit (v : View sig .tc .vmem S4096x256 .bf16) (f : v.ty.Contents (Elt Ideal)) (b : Fin 2)
    (Xr : Vec Ideal S4096x128 .f32) (hX : ∀ r k, Xr (ix2 r k) = x0 (ix2 (Cert.Spec.rowOf b r) k))
    (r : Fin 4096) (k : Fin 256) (hk : k.val < 132) :
    v.read (Elt Ideal) (v.writes (Elt Ideal) f (five Xr [])) (ix2 r k) = Cert.Spec.xAug x0 (Cert.Spec.rowOf b r) k := by
  have hc := cover5 Xr [] (ix2 r k) hk
  rw [View.read_writes_apply_eq_canon v f (ix2 r k) (five Xr []) hc]
  exact (View.canon_apply_of_pieces (GX x0 b) (five Xr [])
    (pieces5 x0 b Xr hX [] fun p hp => absurd hp List.not_mem_nil) (ix2 r k) hc).trans (GX_eq x0 b _ r k rfl rfl)

/-- … and the earlier contents on the columns from 132 on. -/
private theorem read5_miss (v : View sig .tc .vmem S4096x256 .bf16) (f : v.ty.Contents (Elt Ideal))
    (Xr : Vec Ideal S4096x128 .f32) (r : Fin 4096) (k : Fin 256) (hk : 132 ≤ k.val) :
    v.read (Elt Ideal) (v.writes (Elt Ideal) f (five Xr [])) (ix2 r k) = v.read (Elt Ideal) f (ix2 r k) :=
  View.read_writes_apply_of_forall_not_mem v f (ix2 r k) (five Xr []) (miss5 Xr (ix2 r k) hk)

theorem XA_apply (r : Fin 4096) (k : Fin 256) : XA c x0 (ix2 r k) = Cert.Spec.xAug x0 (Cert.Spec.rowOf 0 r) k := by
  unfold XA kernelRunA.sl.v8
  rw [View.readCov_eq_canon']
  show View.canon _ ((Rect.unit (s := S4096x256) ![0, 0] S4096x256.size _).toLoadRect.idx (ix2 r k)) = _
  rw [whole_idx]
  unfold kernelRunA.sl.HS0_6
  exact canon6 x0 _ (fun r k => rows_apply x0 _ _ _ _ 0 cA0 r k) r k

/-- What the first point leaves in the row-operand scratch. -/
theorem xbA_apply (r : Fin 4096) (k : Fin 256) : xbA (F := Ideal) c x0 x1 (ix2 r k) = Cert.Spec.xAug x0 (Cert.Spec.rowOf 0 r) k := by
  unfold xbA
  rw [View.read_writes_junk_apply_eq_canon]
  show View.canon (kernelRunA.sl.HS0_6 (F := Ideal) c (grid0.coords t0_0) (ms0_0 t0_0) (hs0_0 t0_0) hA2 x0) (ix2 r k) = _
  unfold kernelRunA.sl.HS0_6
  exact canon6 x0 _ (fun r k => rows_apply x0 _ _ _ _ 0 cA0 r k) r k

/-- The last point's row operand, when the padding columns of what the scratch held are zero. -/
theorem XB_apply (xs0 : Vec Ideal S4096x256 .bf16) (h0 : ∀ (r : Fin 4096) (k : Fin 256), 132 ≤ k.val → xs0 (ix2 r k) = 0)
    (r : Fin 4096) (k : Fin 256) : XB c x0 xs0 (ix2 r k) = Cert.Spec.xAug x0 (Cert.Spec.rowOf 1 r) k := by
  unfold XB kernelRunB.sl.r
  rw [View.readAt_apply, whole_idx]
  unfold kernelRunB.sl.HS0_5
  by_cases hk : k.val < 132
  · exact read5_hit x0 _ _ 1 _ (fun r k => rows_apply x0 (grid0.coords t0_1) (ms0_0 t0_1) (hs0_0 t0_1)
      (k0_off1_inb (grid0.coords t0_1) hB2) 1 cB0 r k) r k hk
  · refine (read5_miss _ _ _ r k (by omega)).trans ?_
    rw [Memref.IsWhole.read_unread, h0 r k (by omega), xAug_zero x0 _ _ (by omega)]

end Cert.KernelIdealHand

end
-- ==== Proof.KernelIdealHand.ValueLoadsY.lean ====
import proofs.«173679_g9887014716187_cont_9to1c4b_714_26_alg».proof.Proof.KernelIdealHand.FrameData
import proofs.«173679_g9887014716187_cont_9to1c4b_714_26_alg».proof.Proof.Spec
import Idealize.ShloMosaic.Lib.ValueIdx
import proofs.«173679_g9887014716187_cont_9to1c4b_714_26_alg».proof.Proof.KernelIdealHand.VPayOperands
import Idealize.ShloMosaic.Lib.Pipeline.Value
import Idealize.ShloMosaic.Lib.Pipeline.FrameBody

set_option maxRecDepth 16384

noncomputable section

namespace Cert.KernelIdealHand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The augmented COLUMN operand as the body loads it, at the ideal instance, read at an index: at the first point its
    sixteen 512-row chunks, each loaded after its own six stores; what the first point leaves in the column-operand
    scratch; and the last point's loads, which are rows of what that scratch holds. Each is the specification's
    augmented column operand at the corresponding rows of the second argument. -/

open Idealize.ShloMosaic.ValueIdx

/-- Column `cc` of chunk `g`: the `(512·g + cc)`-th row of the second argument. -/
def colOf (g : Fin 16) (cc : Fin 512) : Fin 8192 := ⟨512 * g.val + cc.val, by have := g.isLt; have := cc.isLt; omega⟩

variable (c : Dev nD) (x0 x1 : Vec Ideal S8192x128 .f32)

/-- Chunk 0 of the column operand as the first point loads it. -/
def YA0 : Vec Ideal S512x256 .bf16 := kernelRunA.sl.v18 (F := Ideal) c (grid0.coords t0_0) (ms0_1 t0_0) (hs0_1 t0_0) scM1 hA3 hA4 x1
/-- Chunk 1 of the column operand as the first point loads it. -/
def YA1 : Vec Ideal S512x256 .bf16 := kernelRunA.sl.v26 (F := Ideal) c (grid0.coords t0_0) (ms0_1 t0_0) (hs0_1 t0_0) scM1 hA3 hA4 hA5 x1
/-- Chunk 2 of the column operand as the first point loads it. -/
def YA2 : Vec Ideal S512x256 .bf16 := kernelRunA.sl.v52 (F := Ideal) c (grid0.coords t0_0) (ms0_1 t0_0) (hs0_1 t0_0) scM1 hA3 hA4 hA5 hA6 x1
/-- Chunk 3 of the column operand as the first point loads it. -/
def YA3 : Vec Ideal S512x256 .bf16 := kernelRunA.sl.v79 (F := Ideal) c (grid0.coords t0_0) (ms0_1 t0_0) (hs0_1 t0_0) scM1 hA3 hA4 hA5 hA6 hA7 x1
/-- Chunk 4 of the column operand as the first point loads it. -/
def YA4 : Vec Ideal S512x256 .bf16 := kernelRunA.sl.v106 (F := Ideal) c (grid0.coords t0_0) (ms0_1 t0_0) (hs0_1 t0_0) scM1 hA3 hA4 hA5 hA6 hA7 hA8 x1
/-- Chunk 5 of the column operand as the first point loads it. -/
def YA5 : Vec Ideal S512x256 .bf16 := kernelRunA.sl.v133 (F := Ideal) c (grid0.coords t0_0) (ms0_1 t0_0) (hs0_1 t0_0) scM1 hA3 hA4 hA5 hA6 hA7 hA8 hA9 x1
/-- Chunk 6 of the column operand as the first point loads it. -/
def YA6 : Vec Ideal S512x256 .bf16 := kernelRunA.sl.v160 (F := Ideal) c (grid0.coords t0_0) (ms0_1 t0_0) (hs0_1 t0_0) scM1 hA3 hA4 hA5 hA6 hA7 hA8 hA9 hA10 x1
/-- Chunk 7 of the column operand as the first point loads it. -/
def YA7 : Vec Ideal S512x256 .bf16 := kernelRunA.sl.v187 (F := Ideal) c (grid0.coords t0_0) (ms0_1 t0_0) (hs0_1 t0_0) scM1 hA3 hA4 hA5 hA6 hA7 hA8 hA9 hA10 hA11 x1
/-- Chunk 8 of the column operand as the first point loads it. -/
def YA8 : Vec Ideal S512x256 .bf16 := kernelRunA.sl.v214 (F := Ideal) c (grid0.coords t0_0) (ms0_1 t0_0) (hs0_1 t0_0) scM1 hA3 hA4 hA5 hA6 hA7 hA8 hA9 hA10 hA11 hA12 x1
/-- Chunk 9 of the column operand as the first point loads it. -/
def YA9 : Vec Ideal S512x256 .bf16 := kernelRunA.sl.v241 (F := Ideal) c (grid0.coords t0_0) (ms0_1 t0_0) (hs0_1 t0_0) scM1 hA3 hA4 hA5 hA6 hA7 hA8 hA9 hA10 hA11 hA12 hA13 x1
/-- Chunk 10 of the column operand as the first point loads it. -/
def YA10 : Vec Ideal S512x256 .bf16 := kernelRunA.sl.v268 (F := Ideal) c (grid0.coords t0_0) (ms0_1 t0_0) (hs0_1 t0_0) scM1 hA3 hA4 hA5 hA6 hA7 hA8 hA9 hA10 hA11 hA12 hA13 hA14 x1
/-- Chunk 11 of the column operand as the first point loads it. -/
def YA11 : Vec Ideal S512x256 .bf16 := kernelRunA.sl.v295 (F := Ideal) c (grid0.coords t0_0) (ms0_1 t0_0) (hs0_1 t0_0) scM1 hA3 hA4 hA5 hA6 hA7 hA8 hA9 hA10 hA11 hA12 hA13 hA14 hA15 x1
/-- Chunk 12 of the column operand as the first point loads it. -/
def YA12 : Vec Ideal S512x256 .bf16 := kernelRunA.sl.v322 (F := Ideal) c (grid0.coords t0_0) (ms0_1 t0_0) (hs0_1 t0_0) scM1 hA3 hA4 hA5 hA6 hA7 hA8 hA9 hA10 hA11 hA12 hA13 hA14 hA15 hA16 x1
/-- Chunk 13 of the column operand as the first point loads it. -/
def YA13 : Vec Ideal S512x256 .bf16 := kernelRunA.sl.v349 (F := Ideal) c (grid0.coords t0_0) (ms0_1 t0_0) (hs0_1 t0_0) scM1 hA3 hA4 hA5 hA6 hA7 hA8 hA9 hA10 hA11 hA12 hA13 hA14 hA15 hA16 hA17 x1
/-- Chunk 14 of the column operand as the first point loads it. -/
def YA14 : Vec Ideal S512x256 .bf16 := kernelRunA.sl.v376 (F := Ideal) c (grid0.coords t0_0) (ms0_1 t0_0) (hs0_1 t0_0) scM1 hA3 hA4 hA5 hA6 hA7 hA8 hA9 hA10 hA11 hA12 hA13 hA14 hA15 hA16 hA17 hA18 x1
/-- Chunk 15 of the column operand as the first point loads it. -/
def YA15 : Vec Ideal S512x256 .bf16 := kernelRunA.sl.v400 (F := Ideal) c (grid0.coords t0_0) (ms0_1 t0_0) (hs0_1 t0_0) scM1 hA3 hA4 hA5 hA6 hA7 hA8 hA9 hA10 hA11 hA12 hA13 hA14 hA15 hA16 hA17 hA18 x1

/-- Chunk `g` of the column operand as the last point loads it from what the scratch holds (`xs1`): its rows
    `512·g … 512·g + 511`. -/
def YB (g : Fin 16) (xs1 : Vec Ideal S8192x256 .bf16) : Vec Ideal S512x256 .bf16 := fun j => xs1 (ix2 (colOf g (j 0)) (j 1))

/-! ## The specification's column operand, column range by column range -/

/-- Columns 0…127 hold the entries of the row. -/
theorem yAug_lt (y : Cert.Spec.Arr) (j : Fin 8192) (k : Fin 256) (h : k.val < 128) :
    Cert.Spec.yAug y j k = y (ix2 j ⟨k.val, h⟩) := by
  unfold Cert.Spec.yAug; rw [dif_pos h]

/-- Columns 128 and 129 hold one. -/
theorem yAug_one (y : Cert.Spec.Arr) (j : Fin 8192) (k : Fin 256) (h1 : 128 ≤ k.val) (h2 : k.val < 130) :
    Cert.Spec.yAug y j k = 1 := by
  unfold Cert.Spec.yAug; rw [dif_neg (by omega), if_pos h2]

/-- Column 130 holds the squared norm of the row. -/
theorem yAug_130 (y : Cert.Spec.Arr) (j : Fin 8192) (k : Fin 256) (h : k.val = 130) :
    Cert.Spec.yAug y j k = Cert.Spec.sq y j := by
  unfold Cert.Spec.yAug; rw [dif_neg (by omega), if_neg (by omega), if_pos h]

/-- Column 131 holds that norm minus itself. -/
theorem yAug_131 (y : Cert.Spec.Arr) (j : Fin 8192) (k : Fin 256) (h : k.val = 131) :
    Cert.Spec.yAug y j k = Cert.Spec.sq y j - Cert.Spec.sq y j := by
  unfold Cert.Spec.yAug; rw [dif_neg (by omega), if_neg (by omega), if_neg (by omega), if_pos h]

/-- Columns 132…255 hold zero. -/
theorem yAug_ge (y : Cert.Spec.Arr) (j : Fin 8192) (k : Fin 256) (h : 132 ≤ k.val) :
    Cert.Spec.yAug y j k = 0 := by
  unfold Cert.Spec.yAug; rw [dif_neg (by omega), if_neg (by omega), if_neg (by omega), if_neg (by omega)]

/-- The whole 8192 × 256 column operand as ONE function of the scratch buffer's index. -/
def yG (xx : Vec Ideal S8192x128 .f32) : S8192x256.Idx → Elt Ideal .bf16 := fun j => Cert.Spec.yAug xx (j 0) (j 1)

/-- Every piece of a list is a block of that one function: piece `p` at its local index `x` is the function at `x`
    placed in the buffer. -/
def AllG (xx : Vec Ideal S8192x128 .f32) (L : List (View.Piece (Elt Ideal) S8192x256 .bf16)) : Prop :=
  ∀ p ∈ L, ∀ x : p.1.shape.Idx, p.2 x = yG xx (p.1.emb x)

theorem allG_nil (xx : Vec Ideal S8192x128 .f32) : AllG xx [] := fun _ hp => nomatch hp

/-! ## A 512-row chunk of the second argument, loaded -/

/-- Rows `R … R + 511` of the second argument as a load of its staged block reads them: entry `(cc, k)` is the
    argument's entry `(R + cc, k)`. -/
theorem loadRows_apply (m : Memref sig .tc .vmem S8192x128 .f32) (hm : m.IsWhole) (xx : Vec Ideal S8192x128 .f32)
    (R : Nat) (hR : R + 512 ≤ 8192) (off : Fin 2 → Nat) (hoff : off = ![R, 0])
    (inb : ∀ a, off a + S512x128.size a ≤ S8192x128.size a) (cc : Fin 512) (k : Fin 128) :
    View.readAt (Elt Ideal) m.view (Rect.unit (s := S8192x128) off S512x128.size inb).toLoadRect (hm.unread xx) (ix2 cc k)
      = xx (ix2 ⟨R + cc.val, by omega⟩ k) := by
  subst hoff
  rw [View.readAt_eq_ld, Memref.IsWhole.read_unread]
  show xx ((Rect.unit (s := S8192x128) ![R, 0] S512x128.size inb).idx (ix2 cc k)) = _
  refine congrArg xx (funext fun a => Fin.ext ?_)
  match a with
  | ⟨0, _⟩ => show R + 1 * cc.val = R + cc.val; omega
  | ⟨1, _⟩ => show 0 + 1 * k.val = k.val; omega

/-- The squared norm of row `R + cc` of the second argument, from the loaded chunk's row `cc`. -/
theorem sq_of_rows (xx : Vec Ideal S8192x128 .f32) (R : Nat) (hR : R + 512 ≤ 8192) (Y : Vec Ideal S512x128 .f32)
    (hY : ∀ (cc : Fin 512) (k : Fin 128), Y (ix2 cc k) = xx (ix2 ⟨R + cc.val, by omega⟩ k)) (cc : Fin 512) :
    (∑ k : Fin 128, Y (ix2 cc k) * Y (ix2 cc k)) = Cert.Spec.sq xx ⟨R + cc.val, by omega⟩ := by
  unfold Cert.Spec.sq
  exact Finset.sum_congr rfl fun k _ => by rw [hY]

/-- The one function at an index whose two coordinates are `j` and `k`. -/
theorem yG_apply (xx : Vec Ideal S8192x128 .f32) (y : S8192x256.Idx) (j : Fin 8192) (k : Fin 256)
    (h0 : (y 0).val = j.val) (h1 : (y 1).val = k.val) : yG xx y = Cert.Spec.yAug xx j k := by
  have hy : y = ix2 j k := funext fun a => Fin.ext (by
    match a with
    | ⟨0, _⟩ => exact h0
    | ⟨1, _⟩ => exact h1)
  subst hy
  rfl

/-! ## The six pieces of one chunk

A chunk at rows `R … R + 511` is stored as six column bands: columns 0…127 (the entries), 128 and 129 (one), 130 (the
squared norm), 131 (that norm minus itself), 132…255 (zero). Each band, placed at its offset, is a block of the one
function above. -/

/-- Columns 0…127. -/
theorem piece_block (xx : Vec Ideal S8192x128 .f32) (R : Nat) (hR : R + 512 ≤ 8192) (off : Fin 2 → Nat) (hoff : off = ![R, 0])
    (inb : ∀ a, off a + S512x128.size a ≤ S8192x256.size a) (Y : Vec Ideal S512x128 .f32)
    (hY : ∀ (cc : Fin 512) (k : Fin 128), Y (ix2 cc k) = xx (ix2 ⟨R + cc.val, by omega⟩ k))
    (x : (Rect.unit (s := S8192x256) off S512x128.size inb).shape.Idx) :
    k0_pay14 (F := Ideal) Y x = yG xx ((Rect.unit (s := S8192x256) off S512x128.size inb).emb x) := by
  subst hoff
  obtain ⟨cc, k, rfl⟩ : ∃ (cc : Fin 512) (k : Fin 128), x = ix2 cc k := ⟨x 0, x 1, eq_ix2 x⟩
  rw [VPay.pay14_apply, hY,
    yG_apply xx _ ⟨R + cc.val, by omega⟩ ⟨k.val, by omega⟩ (by show R + 1 * cc.val = R + cc.val; omega)
      (by show 0 + 1 * k.val = k.val; omega),
    yAug_lt xx _ _ (by show k.val < 128; omega)]

/-- A single column `col` of the chunk whose payload is `v (R + cc)` in row `cc`, where the specification has
    `v j` in column `col` of row `j`. -/
theorem piece_col (xx : Vec Ideal S8192x128 .f32) (R : Nat) (hR : R + 512 ≤ 8192) (col : Nat) (hcol : col < 256)
    (off : Fin 2 → Nat) (hoff : off = ![R, col]) (inb : ∀ a, off a + S512x1.size a ≤ S8192x256.size a)
    (P : FVec Ideal S512x1 .bf16) (v : Fin 8192 → EReal)
    (hP : ∀ cc : Fin 512, P (ix2 cc 0) = v ⟨R + cc.val, by omega⟩)
    (hv : ∀ j : Fin 8192, Cert.Spec.yAug xx j ⟨col, hcol⟩ = v j)
    (x : (Rect.unit (s := S8192x256) off S512x1.size inb).shape.Idx) :
    P x = yG xx ((Rect.unit (s := S8192x256) off S512x1.size inb).emb x) := by
  subst hoff
  obtain ⟨cc, u, rfl⟩ : ∃ (cc : Fin 512) (u : Fin 1), x = ix2 cc u := ⟨x 0, x 1, eq_ix2 x⟩
  obtain rfl : u = 0 := Subsingleton.elim _ _
  rw [hP, yG_apply xx _ ⟨R + cc.val, by omega⟩ ⟨col, hcol⟩ (by show R + 1 * cc.val = R + cc.val; omega)
    (by show col + 1 * 0 = col; omega), hv]

/-- Columns 132…255. -/
theorem piece_zero (xx : Vec Ideal S8192x128 .f32) (R : Nat) (hR : R + 512 ≤ 8192) (off : Fin 2 → Nat) (hoff : off = ![R, 132])
    (inb : ∀ a, off a + S512x124.size a ≤ S8192x256.size a)
    (x : (Rect.unit (s := S8192x256) off S512x124.size inb).shape.Idx) :
    k0_pay19 (F := Ideal) x = yG xx ((Rect.unit (s := S8192x256) off S512x124.size inb).emb x) := by
  subst hoff
  obtain ⟨cc, k, rfl⟩ : ∃ (cc : Fin 512) (k : Fin 124), x = ix2 cc k := ⟨x 0, x 1, eq_ix2 x⟩
  have hk := k.isLt
  rw [VPay.pay19_apply, yG_apply xx _ ⟨R + cc.val, by omega⟩ ⟨132 + k.val, by omega⟩
    (by show R + 1 * cc.val = R + cc.val; omega) (by show 132 + 1 * k.val = 132 + k.val; omega),
    yAug_ge xx _ _ (by show 132 ≤ 132 + k.val; omega)]

/-- The six pieces of a chunk at rows `R … R + 511`, put in front of a list of blocks of the one function, leave a list
    of blocks of it. The payloads are given as functions equal to the first chunk's; the chunk of the second argument
    they are computed from is the load of its rows `R … R + 511`. -/
theorem allG_chunk (xx : Vec Ideal S8192x128 .f32) (m : Memref sig .tc .vmem S8192x128 .f32) (hm : m.IsWhole)
    (R : Nat) (hR : R + 512 ≤ 8192) (offL off0 off1 off2 off3 off4 off5 : Fin 2 → Nat)
    (hL : offL = ![R, 0]) (h0 : off0 = ![R, 0]) (h1 : off1 = ![R, 128]) (h2 : off2 = ![R, 129]) (h3 : off3 = ![R, 130])
    (h4 : off4 = ![R, 131]) (h5 : off5 = ![R, 132])
    (inbL : ∀ a, offL a + S512x128.size a ≤ S8192x128.size a)
    (inb0 : ∀ a, off0 a + S512x128.size a ≤ S8192x256.size a) (inb1 : ∀ a, off1 a + S512x1.size a ≤ S8192x256.size a)
    (inb2 : ∀ a, off2 a + S512x1.size a ≤ S8192x256.size a) (inb3 : ∀ a, off3 a + S512x1.size a ≤ S8192x256.size a)
    (inb4 : ∀ a, off4 a + S512x1.size a ≤ S8192x256.size a) (inb5 : ∀ a, off5 a + S512x124.size a ≤ S8192x256.size a)
    (P0 : Vec Ideal S512x128 .f32 → FVec Ideal S512x128 .bf16) (P1 P2 : FVec Ideal S512x1 .bf16)
    (P3 P4 : Vec Ideal S512x128 .f32 → FVec Ideal S512x1 .bf16) (P5 : FVec Ideal S512x124 .bf16)
    (e0 : P0 = @k0_pay14 Ideal _) (e1 : P1 = @k0_pay15 Ideal _) (e2 : P2 = @k0_pay16 Ideal _)
    (e3 : P3 = @k0_pay17 Ideal _) (e4 : P4 = @k0_pay18 Ideal _) (e5 : P5 = @k0_pay19 Ideal _)
    (L : List (View.Piece (Elt Ideal) S8192x256 .bf16)) (hLG : AllG xx L) :
    AllG xx
      (⟨Rect.unit (s := S8192x256) off5 S512x124.size inb5, P5⟩
        :: ⟨Rect.unit (s := S8192x256) off4 S512x1.size inb4,
              P4 (View.readAt (Elt Ideal) m.view (Rect.unit (s := S8192x128) offL S512x128.size inbL).toLoadRect (hm.unread xx))⟩
        :: ⟨Rect.unit (s := S8192x256) off3 S512x1.size inb3,
              P3 (View.readAt (Elt Ideal) m.view (Rect.unit (s := S8192x128) offL S512x128.size inbL).toLoadRect (hm.unread xx))⟩
        :: ⟨Rect.unit (s := S8192x256) off2 S512x1.size inb2, P2⟩
        :: ⟨Rect.unit (s := S8192x256) off1 S512x1.size inb1, P1⟩
        :: ⟨Rect.unit (s := S8192x256) off0 S512x128.size inb0,
              P0 (View.readAt (Elt Ideal) m.view (Rect.unit (s := S8192x128) offL S512x128.size inbL).toLoadRect (hm.unread xx))⟩
        :: L) := by
  subst e0 e1 e2 e3 e4 e5
  have hY := loadRows_apply m hm xx R hR offL hL inbL
  have hsq := sq_of_rows xx R hR _ hY
  intro p hp
  rcases List.mem_cons.1 hp with rfl | hp
  · exact piece_zero xx R hR off5 h5 inb5
  rcases List.mem_cons.1 hp with rfl | hp
  · exact piece_col xx R hR 131 (by omega) off4 h4 inb4 _ (fun j => Cert.Spec.sq xx j - Cert.Spec.sq xx j)
      (fun cc => (VPay.pay18_apply _ cc).trans (by rw [hsq cc])) (fun j => yAug_131 xx j _ rfl)
  rcases List.mem_cons.1 hp with rfl | hp
  · exact piece_col xx R hR 130 (by omega) off3 h3 inb3 _ (fun j => Cert.Spec.sq xx j)
      (fun cc => (VPay.pay17_apply _ cc).trans (hsq cc)) (fun j => yAug_130 xx j _ rfl)
  rcases List.mem_cons.1 hp with rfl | hp
  · exact piece_col xx R hR 129 (by omega) off2 h2 inb2 _ (fun _ => 1)
      (fun cc => VPay.pay16_apply cc) (fun j => yAug_one xx j _ (by show 128 ≤ 129; omega) (by show 129 < 130; omega))
  rcases List.mem_cons.1 hp with rfl | hp
  · exact piece_col xx R hR 128 (by omega) off1 h1 inb1 _ (fun _ => 1)
      (fun cc => VPay.pay15_apply cc) (fun j => yAug_one xx j _ (by show 128 ≤ 128; omega) (by show 128 < 130; omega))
  rcases List.mem_cons.1 hp with rfl | hp
  · exact piece_block xx R hR off0 h0 inb0 _ hY
  exact hLG p hp

/-! ## Which piece holds an index -/

/-- Six more pieces in front keep a cover. -/
theorem cover_skip (p1 p2 p3 p4 p5 p6 : View.Piece (Elt Ideal) S8192x256 .bf16) (L : List (View.Piece (Elt Ideal) S8192x256 .bf16))
    (y : S8192x256.Idx) (h : ∃ p ∈ L, y ∈ p.1.set) : ∃ p ∈ p1 :: p2 :: p3 :: p4 :: p5 :: p6 :: L, y ∈ p.1.set := by
  obtain ⟨p, hp, hy⟩ := h
  exact ⟨p, List.mem_cons.2 (Or.inr (List.mem_cons.2 (Or.inr (List.mem_cons.2 (Or.inr (List.mem_cons.2 (Or.inr
    (List.mem_cons.2 (Or.inr (List.mem_cons.2 (Or.inr hp))))))))))), hy⟩

/-- An index in rows `R … R + 511` lies in one of the chunk's six bands: the one its column falls in. -/
theorem cover_chunk (R : Nat) (off0 off1 off2 off3 off4 off5 : Fin 2 → Nat)
    (h0 : off0 = ![R, 0]) (h1 : off1 = ![R, 128]) (h2 : off2 = ![R, 129]) (h3 : off3 = ![R, 130])
    (h4 : off4 = ![R, 131]) (h5 : off5 = ![R, 132])
    (inb0 : ∀ a, off0 a + S512x128.size a ≤ S8192x256.size a) (inb1 : ∀ a, off1 a + S512x1.size a ≤ S8192x256.size a)
    (inb2 : ∀ a, off2 a + S512x1.size a ≤ S8192x256.size a) (inb3 : ∀ a, off3 a + S512x1.size a ≤ S8192x256.size a)
    (inb4 : ∀ a, off4 a + S512x1.size a ≤ S8192x256.size a) (inb5 : ∀ a, off5 a + S512x124.size a ≤ S8192x256.size a)
    (Q0 : (Rect.unit (s := S8192x256) off0 S512x128.size inb0).shape.Idx → Elt Ideal .bf16)
    (Q1 : (Rect.unit (s := S8192x256) off1 S512x1.size inb1).shape.Idx → Elt Ideal .bf16)
    (Q2 : (Rect.unit (s := S8192x256) off2 S512x1.size inb2).shape.Idx → Elt Ideal .bf16)
    (Q3 : (Rect.unit (s := S8192x256) off3 S512x1.size inb3).shape.Idx → Elt Ideal .bf16)
    (Q4 : (Rect.unit (s := S8192x256) off4 S512x1.size inb4).shape.Idx → Elt Ideal .bf16)
    (Q5 : (Rect.unit (s := S8192x256) off5 S512x124.size inb5).shape.Idx → Elt Ideal .bf16)
    (L : List (View.Piece (Elt Ideal) S8192x256 .bf16)) (y : S8192x256.Idx)
    (hy1 : R ≤ (y 0).val) (hy2 : (y 0).val < R + 512) :
    ∃ p ∈ ((⟨Rect.unit (s := S8192x256) off5 S512x124.size inb5, Q5⟩ : View.Piece (Elt Ideal) S8192x256 .bf16)
        :: ⟨Rect.unit (s := S8192x256) off4 S512x1.size inb4, Q4⟩ :: ⟨Rect.unit (s := S8192x256) off3 S512x1.size inb3, Q3⟩
        :: ⟨Rect.unit (s := S8192x256) off2 S512x1.size inb2, Q2⟩ :: ⟨Rect.unit (s := S8192x256) off1 S512x1.size inb1, Q1⟩
        :: ⟨Rect.unit (s := S8192x256) off0 S512x128.size inb0, Q0⟩ :: L), y ∈ p.1.set := by
  subst h0 h1 h2 h3 h4 h5
  have hk : (y 1).val < 256 := (y 1).isLt
  by_cases c5 : 132 ≤ (y 1).val
  · refine ⟨⟨Rect.unit (s := S8192x256) ![R, 132] S512x124.size inb5, Q5⟩, List.mem_cons.2 (Or.inl rfl), (Rect.mem_set_unit (s := S8192x256) (off := ![R, 132]) (size := S512x124.size) (inb := inb5)).2 fun a => ?_⟩
    match a with
    | ⟨0, _⟩ => exact ⟨hy1, hy2⟩
    | ⟨1, _⟩ => exact ⟨c5, by show (y 1).val < 132 + 124; omega⟩
  by_cases c4 : (y 1).val = 131
  · refine ⟨⟨Rect.unit (s := S8192x256) ![R, 131] S512x1.size inb4, Q4⟩, List.mem_cons.2 (Or.inr (List.mem_cons.2 (Or.inl rfl))), (Rect.mem_set_unit (s := S8192x256) (off := ![R, 131]) (size := S512x1.size) (inb := inb4)).2 fun a => ?_⟩
    match a with
    | ⟨0, _⟩ => exact ⟨hy1, hy2⟩
    | ⟨1, _⟩ => exact ⟨by show 131 ≤ (y 1).val; omega, by show (y 1).val < 131 + 1; omega⟩
  by_cases c3 : (y 1).val = 130
  · refine ⟨⟨Rect.unit (s := S8192x256) ![R, 130] S512x1.size inb3, Q3⟩, List.mem_cons.2 (Or.inr (List.mem_cons.2 (Or.inr (List.mem_cons.2 (Or.inl rfl))))), (Rect.mem_set_unit (s := S8192x256) (off := ![R, 130]) (size := S512x1.size) (inb := inb3)).2 fun a => ?_⟩
    match a with
    | ⟨0, _⟩ => exact ⟨hy1, hy2⟩
    | ⟨1, _⟩ => exact ⟨by show 130 ≤ (y 1).val; omega, by show (y 1).val < 130 + 1; omega⟩
  by_cases c2 : (y 1).val = 129
  · refine ⟨⟨Rect.unit (s := S8192x256) ![R, 129] S512x1.size inb2, Q2⟩, List.mem_cons.2 (Or.inr (List.mem_cons.2 (Or.inr (List.mem_cons.2 (Or.inr (List.mem_cons.2 (Or.inl rfl))))))),
      (Rect.mem_set_unit (s := S8192x256) (off := ![R, 129]) (size := S512x1.size) (inb := inb2)).2 fun a => ?_⟩
    match a with
    | ⟨0, _⟩ => exact ⟨hy1, hy2⟩
    | ⟨1, _⟩ => exact ⟨by show 129 ≤ (y 1).val; omega, by show (y 1).val < 129 + 1; omega⟩
  by_cases c1 : (y 1).val = 128
  · refine ⟨⟨Rect.unit (s := S8192x256) ![R, 128] S512x1.size inb1, Q1⟩, List.mem_cons.2 (Or.inr (List.mem_cons.2 (Or.inr (List.mem_cons.2 (Or.inr (List.mem_cons.2 (Or.inr
      (List.mem_cons.2 (Or.inl rfl))))))))), (Rect.mem_set_unit (s := S8192x256) (off := ![R, 128]) (size := S512x1.size) (inb := inb1)).2 fun a => ?_⟩
    match a with
    | ⟨0, _⟩ => exact ⟨hy1, hy2⟩
    | ⟨1, _⟩ => exact ⟨by show 128 ≤ (y 1).val; omega, by show (y 1).val < 128 + 1; omega⟩
  · refine ⟨⟨Rect.unit (s := S8192x256) ![R, 0] S512x128.size inb0, Q0⟩, List.mem_cons.2 (Or.inr (List.mem_cons.2 (Or.inr (List.mem_cons.2 (Or.inr (List.mem_cons.2 (Or.inr
      (List.mem_cons.2 (Or.inr (List.mem_cons.2 (Or.inl rfl))))))))))), (Rect.mem_set_unit (s := S8192x256) (off := ![R, 0]) (size := S512x128.size) (inb := inb0)).2 fun a => ?_⟩
    match a with
    | ⟨0, _⟩ => exact ⟨hy1, hy2⟩
    | ⟨1, _⟩ => exact ⟨by show 0 ≤ (y 1).val; omega, by show (y 1).val < 0 + 128; omega⟩

/-! ## A chunk of the scratch buffer, loaded -/

/-- A load of rows `512·g … 512·g + 511` of the scratch buffer after stores that are all blocks of the one function and
    that cover those rows: entry `(cc, k)` is the specification's column operand at row `512·g + cc`, column `k`. -/
theorem loadChunk_apply (v : View sig .tc .vmem S8192x256 .bf16) (xx : Vec Ideal S8192x128 .f32)
    (L : List (View.Piece (Elt Ideal) S8192x256 .bf16)) (hG : AllG xx L) (g : Fin 16) (off : Fin 2 → Nat)
    (hoff : off = ![512 * g.val, 0]) (inb : ∀ a, off a + S512x256.size a ≤ S8192x256.size a)
    (hcov : ∀ y : S8192x256.Idx, 512 * g.val ≤ (y 0).val → (y 0).val < 512 * g.val + 512 → ∃ p ∈ L, y ∈ p.1.set)
    (cc : Fin 512) (k : Fin 256) :
    v.readCov L (Rect.unit (s := S8192x256) off S512x256.size inb).toLoadRect (ix2 cc k) = Cert.Spec.yAug xx (colOf g cc) k := by
  subst hoff
  rw [View.readCov_eq_canon']
  show View.canon L ((Rect.unit (s := S8192x256) ![512 * g.val, 0] S512x256.size inb).idx (ix2 cc k)) = _
  rw [View.canon_apply_of_pieces (yG xx) L hG _
    (hcov _ (by show 512 * g.val ≤ 512 * g.val + 1 * cc.val; omega) (by show 512 * g.val + 1 * cc.val < 512 * g.val + 512; omega))]
  exact yG_apply xx _ (colOf g cc) k (by show 512 * g.val + 1 * cc.val = 512 * g.val + cc.val; omega)
    (by show 0 + 1 * k.val = k.val; omega)

/-! ## The first point's stores into the column-operand scratch

Chunk `g` (rows `512·g … 512·g + 511`) is stored as its six bands before chunk `g + 1`'s; the list after chunk `g` is
the list after chunk `g − 1` with chunk `g`'s six pieces in front. -/

/-- The offset of the scratch load of chunk `g` at the first point: row `512·g`, column 0. -/
theorem off16A (g : Fin 16) : k0_off16 (grid0.coords t0_0) (BitVec.ofNat 32 (512 * g.val)) = ![512 * g.val, 0] := by
  rw [k0_off16_eq, cA1, Nat.mul_zero, Nat.zero_add]

/-- The same at the last point (its second coordinate is zero too). -/
theorem off16B (g : Fin 16) : k0_off16 (grid0.coords t0_1) (BitVec.ofNat 32 (512 * g.val)) = ![512 * g.val, 0] := by
  rw [k0_off16_eq, cB1, Nat.mul_zero, Nat.zero_add]

/-- After chunks 0 and 1. -/
theorem allG_12 : AllG x1 (kernelRunA.sl.HS1_12 (F := Ideal) c (grid0.coords t0_0) (ms0_1 t0_0) (hs0_1 t0_0) hA3 hA4 x1) := by
  unfold kernelRunA.sl.HS1_12
  exact allG_chunk x1 _ _ 512 (by omega) _ _ _ _ _ _ _ (by rw [k0_off9_eq, cA1]) (by rw [k0_off10_eq, cA1]) (by rw [k0_off11_eq, cA1]) (by rw [k0_off12_eq, cA1]) (by rw [k0_off13_eq, cA1]) (by rw [k0_off14_eq, cA1]) (by rw [k0_off15_eq, cA1]) _ _ _ _ _ _ _ _ _ _ _ _ _ VPay.pay22_eq VPay.pay23_eq VPay.pay24_eq VPay.pay25_eq VPay.pay26_eq VPay.pay27_eq _ (allG_chunk x1 _ _ 0 (by omega) _ _ _ _ _ _ _ (by rw [k0_off2_eq, cA1]) (by rw [k0_off3_eq, cA1]) (by rw [k0_off4_eq, cA1]) (by rw [k0_off5_eq, cA1]) (by rw [k0_off6_eq, cA1]) (by rw [k0_off7_eq, cA1]) (by rw [k0_off8_eq, cA1]) _ _ _ _ _ _ _ _ _ _ _ _ _ rfl rfl rfl rfl rfl rfl _ (allG_nil x1))

/-- After chunks 0…2. -/
theorem allG_18 : AllG x1 (kernelRunA.sl.HS1_18 (F := Ideal) c (grid0.coords t0_0) (ms0_1 t0_0) (hs0_1 t0_0) hA3 hA4 hA5 x1) := by
  unfold kernelRunA.sl.HS1_18
  exact allG_chunk x1 _ _ 1024 (by omega) _ _ _ _ _ _ _ (by rw [k0_off17_eq, cA1]) (by rw [k0_off18_eq, cA1]) (by rw [k0_off19_eq, cA1]) (by rw [k0_off20_eq, cA1]) (by rw [k0_off21_eq, cA1]) (by rw [k0_off22_eq, cA1]) (by rw [k0_off23_eq, cA1]) _ _ _ _ _ _ _ _ _ _ _ _ _ VPay.pay31_eq VPay.pay32_eq VPay.pay33_eq VPay.pay34_eq VPay.pay35_eq VPay.pay36_eq _ (allG_12 c x1)

/-- After chunks 0…3. -/
theorem allG_24 : AllG x1 (kernelRunA.sl.HS1_24 (F := Ideal) c (grid0.coords t0_0) (ms0_1 t0_0) (hs0_1 t0_0) hA3 hA4 hA5 hA6 x1) := by
  unfold kernelRunA.sl.HS1_24
  exact allG_chunk x1 _ _ 1536 (by omega) _ _ _ _ _ _ _ (by rw [k0_off25_eq, cA1]) (by rw [k0_off26_eq, cA1]) (by rw [k0_off27_eq, cA1]) (by rw [k0_off28_eq, cA1]) (by rw [k0_off29_eq, cA1]) (by rw [k0_off30_eq, cA1]) (by rw [k0_off31_eq, cA1]) _ _ _ _ _ _ _ _ _ _ _ _ _ VPay.pay43_eq VPay.pay44_eq VPay.pay45_eq VPay.pay46_eq VPay.pay47_eq VPay.pay48_eq _ (allG_18 c x1)

/-- After chunks 0…4. -/
theorem allG_30 : AllG x1 (kernelRunA.sl.HS1_30 (F := Ideal) c (grid0.coords t0_0) (ms0_1 t0_0) (hs0_1 t0_0) hA3 hA4 hA5 hA6 hA7 x1) := by
  unfold kernelRunA.sl.HS1_30
  exact allG_chunk x1 _ _ 2048 (by omega) _ _ _ _ _ _ _ (by rw [k0_off33_eq, cA1]) (by rw [k0_off34_eq, cA1]) (by rw [k0_off35_eq, cA1]) (by rw [k0_off36_eq, cA1]) (by rw [k0_off37_eq, cA1]) (by rw [k0_off38_eq, cA1]) (by rw [k0_off39_eq, cA1]) _ _ _ _ _ _ _ _ _ _ _ _ _ VPay.pay54_eq VPay.pay55_eq VPay.pay56_eq VPay.pay57_eq VPay.pay58_eq VPay.pay59_eq _ (allG_24 c x1)

/-- After chunks 0…5. -/
theorem allG_36 : AllG x1 (kernelRunA.sl.HS1_36 (F := Ideal) c (grid0.coords t0_0) (ms0_1 t0_0) (hs0_1 t0_0) hA3 hA4 hA5 hA6 hA7 hA8 x1) := by
  unfold kernelRunA.sl.HS1_36
  exact allG_chunk x1 _ _ 2560 (by omega) _ _ _ _ _ _ _ (by rw [k0_off41_eq, cA1]) (by rw [k0_off42_eq, cA1]) (by rw [k0_off43_eq, cA1]) (by rw [k0_off44_eq, cA1]) (by rw [k0_off45_eq, cA1]) (by rw [k0_off46_eq, cA1]) (by rw [k0_off47_eq, cA1]) _ _ _ _ _ _ _ _ _ _ _ _ _ VPay.pay64_eq VPay.pay65_eq VPay.pay66_eq VPay.pay67_eq VPay.pay68_eq VPay.pay69_eq _ (allG_30 c x1)

/-- After chunks 0…6. -/
theorem allG_42 : AllG x1 (kernelRunA.sl.HS1_42 (F := Ideal) c (grid0.coords t0_0) (ms0_1 t0_0) (hs0_1 t0_0) hA3 hA4 hA5 hA6 hA7 hA8 hA9 x1) := by
  unfold kernelRunA.sl.HS1_42
  exact allG_chunk x1 _ _ 3072 (by omega) _ _ _ _ _ _ _ (by rw [k0_off49_eq, cA1]) (by rw [k0_off50_eq, cA1]) (by rw [k0_off51_eq, cA1]) (by rw [k0_off52_eq, cA1]) (by rw [k0_off53_eq, cA1]) (by rw [k0_off54_eq, cA1]) (by rw [k0_off55_eq, cA1]) _ _ _ _ _ _ _ _ _ _ _ _ _ VPay.pay75_eq VPay.pay76_eq VPay.pay77_eq VPay.pay78_eq VPay.pay79_eq VPay.pay80_eq _ (allG_36 c x1)

/-- After chunks 0…7. -/
theorem allG_48 : AllG x1 (kernelRunA.sl.HS1_48 (F := Ideal) c (grid0.coords t0_0) (ms0_1 t0_0) (hs0_1 t0_0) hA3 hA4 hA5 hA6 hA7 hA8 hA9 hA10 x1) := by
  unfold kernelRunA.sl.HS1_48
  exact allG_chunk x1 _ _ 3584 (by omega) _ _ _ _ _ _ _ (by rw [k0_off57_eq, cA1]) (by rw [k0_off58_eq, cA1]) (by rw [k0_off59_eq, cA1]) (by rw [k0_off60_eq, cA1]) (by rw [k0_off61_eq, cA1]) (by rw [k0_off62_eq, cA1]) (by rw [k0_off63_eq, cA1]) _ _ _ _ _ _ _ _ _ _ _ _ _ VPay.pay86_eq VPay.pay87_eq VPay.pay88_eq VPay.pay89_eq VPay.pay90_eq VPay.pay91_eq _ (allG_42 c x1)

/-- After chunks 0…8. -/
theorem allG_54 : AllG x1 (kernelRunA.sl.HS1_54 (F := Ideal) c (grid0.coords t0_0) (ms0_1 t0_0) (hs0_1 t0_0) hA3 hA4 hA5 hA6 hA7 hA8 hA9 hA10 hA11 x1) := by
  unfold kernelRunA.sl.HS1_54
  exact allG_chunk x1 _ _ 4096 (by omega) _ _ _ _ _ _ _ (by rw [k0_off65_eq, cA1]) (by rw [k0_off66_eq, cA1]) (by rw [k0_off67_eq, cA1]) (by rw [k0_off68_eq, cA1]) (by rw [k0_off69_eq, cA1]) (by rw [k0_off70_eq, cA1]) (by rw [k0_off71_eq, cA1]) _ _ _ _ _ _ _ _ _ _ _ _ _ VPay.pay96_eq VPay.pay97_eq VPay.pay98_eq VPay.pay99_eq VPay.pay100_eq VPay.pay101_eq _ (allG_48 c x1)

/-- After chunks 0…9. -/
theorem allG_60 : AllG x1 (kernelRunA.sl.HS1_60 (F := Ideal) c (grid0.coords t0_0) (ms0_1 t0_0) (hs0_1 t0_0) hA3 hA4 hA5 hA6 hA7 hA8 hA9 hA10 hA11 hA12 x1) := by
  unfold kernelRunA.sl.HS1_60
  exact allG_chunk x1 _ _ 4608 (by omega) _ _ _ _ _ _ _ (by rw [k0_off73_eq, cA1]) (by rw [k0_off74_eq, cA1]) (by rw [k0_off75_eq, cA1]) (by rw [k0_off76_eq, cA1]) (by rw [k0_off77_eq, cA1]) (by rw [k0_off78_eq, cA1]) (by rw [k0_off79_eq, cA1]) _ _ _ _ _ _ _ _ _ _ _ _ _ VPay.pay108_eq VPay.pay109_eq VPay.pay110_eq VPay.pay111_eq VPay.pay112_eq VPay.pay113_eq _ (allG_54 c x1)

/-- After chunks 0…10. -/
theorem allG_66 : AllG x1 (kernelRunA.sl.HS1_66 (F := Ideal) c (grid0.coords t0_0) (ms0_1 t0_0) (hs0_1 t0_0) hA3 hA4 hA5 hA6 hA7 hA8 hA9 hA10 hA11 hA12 hA13 x1) := by
  unfold kernelRunA.sl.HS1_66
  exact allG_chunk x1 _ _ 5120 (by omega) _ _ _ _ _ _ _ (by rw [k0_off81_eq, cA1]) (by rw [k0_off82_eq, cA1]) (by rw [k0_off83_eq, cA1]) (by rw [k0_off84_eq, cA1]) (by rw [k0_off85_eq, cA1]) (by rw [k0_off86_eq, cA1]) (by rw [k0_off87_eq, cA1]) _ _ _ _ _ _ _ _ _ _ _ _ _ VPay.pay119_eq VPay.pay120_eq VPay.pay121_eq VPay.pay122_eq VPay.pay123_eq VPay.pay124_eq _ (allG_60 c x1)

/-- After chunks 0…11. -/
theorem allG_72 : AllG x1 (kernelRunA.sl.HS1_72 (F := Ideal) c (grid0.coords t0_0) (ms0_1 t0_0) (hs0_1 t0_0) hA3 hA4 hA5 hA6 hA7 hA8 hA9 hA10 hA11 hA12 hA13 hA14 x1) := by
  unfold kernelRunA.sl.HS1_72
  exact allG_chunk x1 _ _ 5632 (by omega) _ _ _ _ _ _ _ (by rw [k0_off89_eq, cA1]) (by rw [k0_off90_eq, cA1]) (by rw [k0_off91_eq, cA1]) (by rw [k0_off92_eq, cA1]) (by rw [k0_off93_eq, cA1]) (by rw [k0_off94_eq, cA1]) (by rw [k0_off95_eq, cA1]) _ _ _ _ _ _ _ _ _ _ _ _ _ VPay.pay129_eq VPay.pay130_eq VPay.pay131_eq VPay.pay132_eq VPay.pay133_eq VPay.pay134_eq _ (allG_66 c x1)

/-- After chunks 0…12. -/
theorem allG_78 : AllG x1 (kernelRunA.sl.HS1_78 (F := Ideal) c (grid0.coords t0_0) (ms0_1 t0_0) (hs0_1 t0_0) hA3 hA4 hA5 hA6 hA7 hA8 hA9 hA10 hA11 hA12 hA13 hA14 hA15 x1) := by
  unfold kernelRunA.sl.HS1_78
  exact allG_chunk x1 _ _ 6144 (by omega) _ _ _ _ _ _ _ (by rw [k0_off97_eq, cA1]) (by rw [k0_off98_eq, cA1]) (by rw [k0_off99_eq, cA1]) (by rw [k0_off100_eq, cA1]) (by rw [k0_off101_eq, cA1]) (by rw [k0_off102_eq, cA1]) (by rw [k0_off103_eq, cA1]) _ _ _ _ _ _ _ _ _ _ _ _ _ VPay.pay141_eq VPay.pay142_eq VPay.pay143_eq VPay.pay144_eq VPay.pay145_eq VPay.pay146_eq _ (allG_72 c x1)

/-- After chunks 0…13. -/
theorem allG_84 : AllG x1 (kernelRunA.sl.HS1_84 (F := Ideal) c (grid0.coords t0_0) (ms0_1 t0_0) (hs0_1 t0_0) hA3 hA4 hA5 hA6 hA7 hA8 hA9 hA10 hA11 hA12 hA13 hA14 hA15 hA16 x1) := by
  unfold kernelRunA.sl.HS1_84
  exact allG_chunk x1 _ _ 6656 (by omega) _ _ _ _ _ _ _ (by rw [k0_off105_eq, cA1]) (by rw [k0_off106_eq, cA1]) (by rw [k0_off107_eq, cA1]) (by rw [k0_off108_eq, cA1]) (by rw [k0_off109_eq, cA1]) (by rw [k0_off110_eq, cA1]) (by rw [k0_off111_eq, cA1]) _ _ _ _ _ _ _ _ _ _ _ _ _ VPay.pay152_eq VPay.pay153_eq VPay.pay154_eq VPay.pay155_eq VPay.pay156_eq VPay.pay157_eq _ (allG_78 c x1)

/-- After chunks 0…14. -/
theorem allG_90 : AllG x1 (kernelRunA.sl.HS1_90 (F := Ideal) c (grid0.coords t0_0) (ms0_1 t0_0) (hs0_1 t0_0) hA3 hA4 hA5 hA6 hA7 hA8 hA9 hA10 hA11 hA12 hA13 hA14 hA15 hA16 hA17 x1) := by
  unfold kernelRunA.sl.HS1_90
  exact allG_chunk x1 _ _ 7168 (by omega) _ _ _ _ _ _ _ (by rw [k0_off113_eq, cA1]) (by rw [k0_off114_eq, cA1]) (by rw [k0_off115_eq, cA1]) (by rw [k0_off116_eq, cA1]) (by rw [k0_off117_eq, cA1]) (by rw [k0_off118_eq, cA1]) (by rw [k0_off119_eq, cA1]) _ _ _ _ _ _ _ _ _ _ _ _ _ VPay.pay162_eq VPay.pay163_eq VPay.pay164_eq VPay.pay165_eq VPay.pay166_eq VPay.pay167_eq _ (allG_84 c x1)

/-- After chunks 0…15. -/
theorem allG_96 : AllG x1 (kernelRunA.sl.HS1_96 (F := Ideal) c (grid0.coords t0_0) (ms0_1 t0_0) (hs0_1 t0_0) hA3 hA4 hA5 hA6 hA7 hA8 hA9 hA10 hA11 hA12 hA13 hA14 hA15 hA16 hA17 hA18 x1) := by
  unfold kernelRunA.sl.HS1_96
  exact allG_chunk x1 _ _ 7680 (by omega) _ _ _ _ _ _ _ (by rw [k0_off121_eq, cA1]) (by rw [k0_off122_eq, cA1]) (by rw [k0_off123_eq, cA1]) (by rw [k0_off124_eq, cA1]) (by rw [k0_off125_eq, cA1]) (by rw [k0_off126_eq, cA1]) (by rw [k0_off127_eq, cA1]) _ _ _ _ _ _ _ _ _ _ _ _ _ VPay.pay175_eq VPay.pay176_eq VPay.pay177_eq VPay.pay178_eq VPay.pay179_eq VPay.pay180_eq _ (allG_90 c x1)

/-! ## Where a chunk's rows are covered -/

/-- Rows 0…511 are covered by chunk 0's pieces, the last six of the first list. -/
theorem cover_0 (y : S8192x256.Idx) (h1 : 0 ≤ (y 0).val) (h2 : (y 0).val < 0 + 512) : ∃ p ∈ (kernelRunA.sl.HS1_12 (F := Ideal) c (grid0.coords t0_0) (ms0_1 t0_0) (hs0_1 t0_0) hA3 hA4 x1), y ∈ p.1.set := by
  unfold kernelRunA.sl.HS1_12
  exact cover_skip _ _ _ _ _ _ _ y (cover_chunk 0 _ _ _ _ _ _ (by rw [k0_off3_eq, cA1]) (by rw [k0_off4_eq, cA1]) (by rw [k0_off5_eq, cA1]) (by rw [k0_off6_eq, cA1]) (by rw [k0_off7_eq, cA1]) (by rw [k0_off8_eq, cA1]) _ _ _ _ _ _ _ _ _ _ _ _ _ y h1 h2)

/-- Rows 512…1023 are covered by chunk 1's pieces, the first six of the first list. -/
theorem cover_1 (y : S8192x256.Idx) (h1 : 512 ≤ (y 0).val) (h2 : (y 0).val < 512 + 512) : ∃ p ∈ (kernelRunA.sl.HS1_12 (F := Ideal) c (grid0.coords t0_0) (ms0_1 t0_0) (hs0_1 t0_0) hA3 hA4 x1), y ∈ p.1.set := by
  unfold kernelRunA.sl.HS1_12
  exact cover_chunk 512 _ _ _ _ _ _ (by rw [k0_off10_eq, cA1]) (by rw [k0_off11_eq, cA1]) (by rw [k0_off12_eq, cA1]) (by rw [k0_off13_eq, cA1]) (by rw [k0_off14_eq, cA1]) (by rw [k0_off15_eq, cA1]) _ _ _ _ _ _ _ _ _ _ _ _ _ y h1 h2

theorem cover_2 (y : S8192x256.Idx) (h1 : 1024 ≤ (y 0).val) (h2 : (y 0).val < 1024 + 512) : ∃ p ∈ (kernelRunA.sl.HS1_18 (F := Ideal) c (grid0.coords t0_0) (ms0_1 t0_0) (hs0_1 t0_0) hA3 hA4 hA5 x1), y ∈ p.1.set := by
  unfold kernelRunA.sl.HS1_18
  exact cover_chunk 1024 _ _ _ _ _ _ (by rw [k0_off18_eq, cA1]) (by rw [k0_off19_eq, cA1]) (by rw [k0_off20_eq, cA1]) (by rw [k0_off21_eq, cA1]) (by rw [k0_off22_eq, cA1]) (by rw [k0_off23_eq, cA1]) _ _ _ _ _ _ _ _ _ _ _ _ _ y h1 h2

theorem cover_3 (y : S8192x256.Idx) (h1 : 1536 ≤ (y 0).val) (h2 : (y 0).val < 1536 + 512) : ∃ p ∈ (kernelRunA.sl.HS1_24 (F := Ideal) c (grid0.coords t0_0) (ms0_1 t0_0) (hs0_1 t0_0) hA3 hA4 hA5 hA6 x1), y ∈ p.1.set := by
  unfold kernelRunA.sl.HS1_24
  exact cover_chunk 1536 _ _ _ _ _ _ (by rw [k0_off26_eq, cA1]) (by rw [k0_off27_eq, cA1]) (by rw [k0_off28_eq, cA1]) (by rw [k0_off29_eq, cA1]) (by rw [k0_off30_eq, cA1]) (by rw [k0_off31_eq, cA1]) _ _ _ _ _ _ _ _ _ _ _ _ _ y h1 h2

theorem cover_4 (y : S8192x256.Idx) (h1 : 2048 ≤ (y 0).val) (h2 : (y 0).val < 2048 + 512) : ∃ p ∈ (kernelRunA.sl.HS1_30 (F := Ideal) c (grid0.coords t0_0) (ms0_1 t0_0) (hs0_1 t0_0) hA3 hA4 hA5 hA6 hA7 x1), y ∈ p.1.set := by
  unfold kernelRunA.sl.HS1_30
  exact cover_chunk 2048 _ _ _ _ _ _ (by rw [k0_off34_eq, cA1]) (by rw [k0_off35_eq, cA1]) (by rw [k0_off36_eq, cA1]) (by rw [k0_off37_eq, cA1]) (by rw [k0_off38_eq, cA1]) (by rw [k0_off39_eq, cA1]) _ _ _ _ _ _ _ _ _ _ _ _ _ y h1 h2

theorem cover_5 (y : S8192x256.Idx) (h1 : 2560 ≤ (y 0).val) (h2 : (y 0).val < 2560 + 512) : ∃ p ∈ (kernelRunA.sl.HS1_36 (F := Ideal) c (grid0.coords t0_0) (ms0_1 t0_0) (hs0_1 t0_0) hA3 hA4 hA5 hA6 hA7 hA8 x1), y ∈ p.1.set := by
  unfold kernelRunA.sl.HS1_36
  exact cover_chunk 2560 _ _ _ _ _ _ (by rw [k0_off42_eq, cA1]) (by rw [k0_off43_eq, cA1]) (by rw [k0_off44_eq, cA1]) (by rw [k0_off45_eq, cA1]) (by rw [k0_off46_eq, cA1]) (by rw [k0_off47_eq, cA1]) _ _ _ _ _ _ _ _ _ _ _ _ _ y h1 h2

theorem cover_6 (y : S8192x256.Idx) (h1 : 3072 ≤ (y 0).val) (h2 : (y 0).val < 3072 + 512) : ∃ p ∈ (kernelRunA.sl.HS1_42 (F := Ideal) c (grid0.coords t0_0) (ms0_1 t0_0) (hs0_1 t0_0) hA3 hA4 hA5 hA6 hA7 hA8 hA9 x1), y ∈ p.1.set := by
  unfold kernelRunA.sl.HS1_42
  exact cover_chunk 3072 _ _ _ _ _ _ (by rw [k0_off50_eq, cA1]) (by rw [k0_off51_eq, cA1]) (by rw [k0_off52_eq, cA1]) (by rw [k0_off53_eq, cA1]) (by rw [k0_off54_eq, cA1]) (by rw [k0_off55_eq, cA1]) _ _ _ _ _ _ _ _ _ _ _ _ _ y h1 h2

theorem cover_7 (y : S8192x256.Idx) (h1 : 3584 ≤ (y 0).val) (h2 : (y 0).val < 3584 + 512) : ∃ p ∈ (kernelRunA.sl.HS1_48 (F := Ideal) c (grid0.coords t0_0) (ms0_1 t0_0) (hs0_1 t0_0) hA3 hA4 hA5 hA6 hA7 hA8 hA9 hA10 x1), y ∈ p.1.set := by
  unfold kernelRunA.sl.HS1_48
  exact cover_chunk 3584 _ _ _ _ _ _ (by rw [k0_off58_eq, cA1]) (by rw [k0_off59_eq, cA1]) (by rw [k0_off60_eq, cA1]) (by rw [k0_off61_eq, cA1]) (by rw [k0_off62_eq, cA1]) (by rw [k0_off63_eq, cA1]) _ _ _ _ _ _ _ _ _ _ _ _ _ y h1 h2

theorem cover_8 (y : S8192x256.Idx) (h1 : 4096 ≤ (y 0).val) (h2 : (y 0).val < 4096 + 512) : ∃ p ∈ (kernelRunA.sl.HS1_54 (F := Ideal) c (grid0.coords t0_0) (ms0_1 t0_0) (hs0_1 t0_0) hA3 hA4 hA5 hA6 hA7 hA8 hA9 hA10 hA11 x1), y ∈ p.1.set := by
  unfold kernelRunA.sl.HS1_54
  exact cover_chunk 4096 _ _ _ _ _ _ (by rw [k0_off66_eq, cA1]) (by rw [k0_off67_eq, cA1]) (by rw [k0_off68_eq, cA1]) (by rw [k0_off69_eq, cA1]) (by rw [k0_off70_eq, cA1]) (by rw [k0_off71_eq, cA1]) _ _ _ _ _ _ _ _ _ _ _ _ _ y h1 h2

theorem cover_9 (y : S8192x256.Idx) (h1 : 4608 ≤ (y 0).val) (h2 : (y 0).val < 4608 + 512) : ∃ p ∈ (kernelRunA.sl.HS1_60 (F := Ideal) c (grid0.coords t0_0) (ms0_1 t0_0) (hs0_1 t0_0) hA3 hA4 hA5 hA6 hA7 hA8 hA9 hA10 hA11 hA12 x1), y ∈ p.1.set := by
  unfold kernelRunA.sl.HS1_60
  exact cover_chunk 4608 _ _ _ _ _ _ (by rw [k0_off74_eq, cA1]) (by rw [k0_off75_eq, cA1]) (by rw [k0_off76_eq, cA1]) (by rw [k0_off77_eq, cA1]) (by rw [k0_off78_eq, cA1]) (by rw [k0_off79_eq, cA1]) _ _ _ _ _ _ _ _ _ _ _ _ _ y h1 h2

theorem cover_10 (y : S8192x256.Idx) (h1 : 5120 ≤ (y 0).val) (h2 : (y 0).val < 5120 + 512) : ∃ p ∈ (kernelRunA.sl.HS1_66 (F := Ideal) c (grid0.coords t0_0) (ms0_1 t0_0) (hs0_1 t0_0) hA3 hA4 hA5 hA6 hA7 hA8 hA9 hA10 hA11 hA12 hA13 x1), y ∈ p.1.set := by
  unfold kernelRunA.sl.HS1_66
  exact cover_chunk 5120 _ _ _ _ _ _ (by rw [k0_off82_eq, cA1]) (by rw [k0_off83_eq, cA1]) (by rw [k0_off84_eq, cA1]) (by rw [k0_off85_eq, cA1]) (by rw [k0_off86_eq, cA1]) (by rw [k0_off87_eq, cA1]) _ _ _ _ _ _ _ _ _ _ _ _ _ y h1 h2

theorem cover_11 (y : S8192x256.Idx) (h1 : 5632 ≤ (y 0).val) (h2 : (y 0).val < 5632 + 512) : ∃ p ∈ (kernelRunA.sl.HS1_72 (F := Ideal) c (grid0.coords t0_0) (ms0_1 t0_0) (hs0_1 t0_0) hA3 hA4 hA5 hA6 hA7 hA8 hA9 hA10 hA11 hA12 hA13 hA14 x1), y ∈ p.1.set := by
  unfold kernelRunA.sl.HS1_72
  exact cover_chunk 5632 _ _ _ _ _ _ (by rw [k0_off90_eq, cA1]) (by rw [k0_off91_eq, cA1]) (by rw [k0_off92_eq, cA1]) (by rw [k0_off93_eq, cA1]) (by rw [k0_off94_eq, cA1]) (by rw [k0_off95_eq, cA1]) _ _ _ _ _ _ _ _ _ _ _ _ _ y h1 h2

theorem cover_12 (y : S8192x256.Idx) (h1 : 6144 ≤ (y 0).val) (h2 : (y 0).val < 6144 + 512) : ∃ p ∈ (kernelRunA.sl.HS1_78 (F := Ideal) c (grid0.coords t0_0) (ms0_1 t0_0) (hs0_1 t0_0) hA3 hA4 hA5 hA6 hA7 hA8 hA9 hA10 hA11 hA12 hA13 hA14 hA15 x1), y ∈ p.1.set := by
  unfold kernelRunA.sl.HS1_78
  exact cover_chunk 6144 _ _ _ _ _ _ (by rw [k0_off98_eq, cA1]) (by rw [k0_off99_eq, cA1]) (by rw [k0_off100_eq, cA1]) (by rw [k0_off101_eq, cA1]) (by rw [k0_off102_eq, cA1]) (by rw [k0_off103_eq, cA1]) _ _ _ _ _ _ _ _ _ _ _ _ _ y h1 h2

theorem cover_13 (y : S8192x256.Idx) (h1 : 6656 ≤ (y 0).val) (h2 : (y 0).val < 6656 + 512) : ∃ p ∈ (kernelRunA.sl.HS1_84 (F := Ideal) c (grid0.coords t0_0) (ms0_1 t0_0) (hs0_1 t0_0) hA3 hA4 hA5 hA6 hA7 hA8 hA9 hA10 hA11 hA12 hA13 hA14 hA15 hA16 x1), y ∈ p.1.set := by
  unfold kernelRunA.sl.HS1_84
  exact cover_chunk 6656 _ _ _ _ _ _ (by rw [k0_off106_eq, cA1]) (by rw [k0_off107_eq, cA1]) (by rw [k0_off108_eq, cA1]) (by rw [k0_off109_eq, cA1]) (by rw [k0_off110_eq, cA1]) (by rw [k0_off111_eq, cA1]) _ _ _ _ _ _ _ _ _ _ _ _ _ y h1 h2

theorem cover_14 (y : S8192x256.Idx) (h1 : 7168 ≤ (y 0).val) (h2 : (y 0).val < 7168 + 512) : ∃ p ∈ (kernelRunA.sl.HS1_90 (F := Ideal) c (grid0.coords t0_0) (ms0_1 t0_0) (hs0_1 t0_0) hA3 hA4 hA5 hA6 hA7 hA8 hA9 hA10 hA11 hA12 hA13 hA14 hA15 hA16 hA17 x1), y ∈ p.1.set := by
  unfold kernelRunA.sl.HS1_90
  exact cover_chunk 7168 _ _ _ _ _ _ (by rw [k0_off114_eq, cA1]) (by rw [k0_off115_eq, cA1]) (by rw [k0_off116_eq, cA1]) (by rw [k0_off117_eq, cA1]) (by rw [k0_off118_eq, cA1]) (by rw [k0_off119_eq, cA1]) _ _ _ _ _ _ _ _ _ _ _ _ _ y h1 h2

theorem cover_15 (y : S8192x256.Idx) (h1 : 7680 ≤ (y 0).val) (h2 : (y 0).val < 7680 + 512) : ∃ p ∈ (kernelRunA.sl.HS1_96 (F := Ideal) c (grid0.coords t0_0) (ms0_1 t0_0) (hs0_1 t0_0) hA3 hA4 hA5 hA6 hA7 hA8 hA9 hA10 hA11 hA12 hA13 hA14 hA15 hA16 hA17 hA18 x1), y ∈ p.1.set := by
  unfold kernelRunA.sl.HS1_96
  exact cover_chunk 7680 _ _ _ _ _ _ (by rw [k0_off122_eq, cA1]) (by rw [k0_off123_eq, cA1]) (by rw [k0_off124_eq, cA1]) (by rw [k0_off125_eq, cA1]) (by rw [k0_off126_eq, cA1]) (by rw [k0_off127_eq, cA1]) _ _ _ _ _ _ _ _ _ _ _ _ _ y h1 h2

/-! ## The sixteen loads at the first point

Chunk `g` is loaded after chunk `g + 1` has been stored (the last two after all sixteen), so its six pieces sit behind
six more. -/

theorem YA0_apply (cc : Fin 512) (k : Fin 256) : YA0 c x1 (ix2 cc k) = Cert.Spec.yAug x1 (colOf 0 cc) k := by
  unfold YA0 kernelRunA.sl.v18
  exact loadChunk_apply _ x1 _ (allG_12 c x1) 0 _ (off16A 0) _ (fun y h1 h2 => cover_0 c x1 y h1 h2) cc k

theorem YA1_apply (cc : Fin 512) (k : Fin 256) : YA1 c x1 (ix2 cc k) = Cert.Spec.yAug x1 (colOf 1 cc) k := by
  unfold YA1 kernelRunA.sl.v26
  exact loadChunk_apply _ x1 _ (allG_18 c x1) 1 _ (off16A 1) _ (fun y h1 h2 => by unfold kernelRunA.sl.HS1_18; exact cover_skip _ _ _ _ _ _ _ y (cover_1 c x1 y h1 h2)) cc k

theorem YA2_apply (cc : Fin 512) (k : Fin 256) : YA2 c x1 (ix2 cc k) = Cert.Spec.yAug x1 (colOf 2 cc) k := by
  unfold YA2 kernelRunA.sl.v52
  exact loadChunk_apply _ x1 _ (allG_24 c x1) 2 _ (off16A 2) _ (fun y h1 h2 => by unfold kernelRunA.sl.HS1_24; exact cover_skip _ _ _ _ _ _ _ y (cover_2 c x1 y h1 h2)) cc k

theorem YA3_apply (cc : Fin 512) (k : Fin 256) : YA3 c x1 (ix2 cc k) = Cert.Spec.yAug x1 (colOf 3 cc) k := by
  unfold YA3 kernelRunA.sl.v79
  exact loadChunk_apply _ x1 _ (allG_30 c x1) 3 _ (off16A 3) _ (fun y h1 h2 => by unfold kernelRunA.sl.HS1_30; exact cover_skip _ _ _ _ _ _ _ y (cover_3 c x1 y h1 h2)) cc k

theorem YA4_apply (cc : Fin 512) (k : Fin 256) : YA4 c x1 (ix2 cc k) = Cert.Spec.yAug x1 (colOf 4 cc) k := by
  unfold YA4 kernelRunA.sl.v106
  exact loadChunk_apply _ x1 _ (allG_36 c x1) 4 _ (off16A 4) _ (fun y h1 h2 => by unfold kernelRunA.sl.HS1_36; exact cover_skip _ _ _ _ _ _ _ y (cover_4 c x1 y h1 h2)) cc k

theorem YA5_apply (cc : Fin 512) (k : Fin 256) : YA5 c x1 (ix2 cc k) = Cert.Spec.yAug x1 (colOf 5 cc) k := by
  unfold YA5 kernelRunA.sl.v133
  exact loadChunk_apply _ x1 _ (allG_42 c x1) 5 _ (off16A 5) _ (fun y h1 h2 => by unfold kernelRunA.sl.HS1_42; exact cover_skip _ _ _ _ _ _ _ y (cover_5 c x1 y h1 h2)) cc k

theorem YA6_apply (cc : Fin 512) (k : Fin 256) : YA6 c x1 (ix2 cc k) = Cert.Spec.yAug x1 (colOf 6 cc) k := by
  unfold YA6 kernelRunA.sl.v160
  exact loadChunk_apply _ x1 _ (allG_48 c x1) 6 _ (off16A 6) _ (fun y h1 h2 => by unfold kernelRunA.sl.HS1_48; exact cover_skip _ _ _ _ _ _ _ y (cover_6 c x1 y h1 h2)) cc k

theorem YA7_apply (cc : Fin 512) (k : Fin 256) : YA7 c x1 (ix2 cc k) = Cert.Spec.yAug x1 (colOf 7 cc) k := by
  unfold YA7 kernelRunA.sl.v187
  exact loadChunk_apply _ x1 _ (allG_54 c x1) 7 _ (off16A 7) _ (fun y h1 h2 => by unfold kernelRunA.sl.HS1_54; exact cover_skip _ _ _ _ _ _ _ y (cover_7 c x1 y h1 h2)) cc k

theorem YA8_apply (cc : Fin 512) (k : Fin 256) : YA8 c x1 (ix2 cc k) = Cert.Spec.yAug x1 (colOf 8 cc) k := by
  unfold YA8 kernelRunA.sl.v214
  exact loadChunk_apply _ x1 _ (allG_60 c x1) 8 _ (off16A 8) _ (fun y h1 h2 => by unfold kernelRunA.sl.HS1_60; exact cover_skip _ _ _ _ _ _ _ y (cover_8 c x1 y h1 h2)) cc k

theorem YA9_apply (cc : Fin 512) (k : Fin 256) : YA9 c x1 (ix2 cc k) = Cert.Spec.yAug x1 (colOf 9 cc) k := by
  unfold YA9 kernelRunA.sl.v241
  exact loadChunk_apply _ x1 _ (allG_66 c x1) 9 _ (off16A 9) _ (fun y h1 h2 => by unfold kernelRunA.sl.HS1_66; exact cover_skip _ _ _ _ _ _ _ y (cover_9 c x1 y h1 h2)) cc k

theorem YA10_apply (cc : Fin 512) (k : Fin 256) : YA10 c x1 (ix2 cc k) = Cert.Spec.yAug x1 (colOf 10 cc) k := by
  unfold YA10 kernelRunA.sl.v268
  exact loadChunk_apply _ x1 _ (allG_72 c x1) 10 _ (off16A 10) _ (fun y h1 h2 => by unfold kernelRunA.sl.HS1_72; exact cover_skip _ _ _ _ _ _ _ y (cover_10 c x1 y h1 h2)) cc k

theorem YA11_apply (cc : Fin 512) (k : Fin 256) : YA11 c x1 (ix2 cc k) = Cert.Spec.yAug x1 (colOf 11 cc) k := by
  unfold YA11 kernelRunA.sl.v295
  exact loadChunk_apply _ x1 _ (allG_78 c x1) 11 _ (off16A 11) _ (fun y h1 h2 => by unfold kernelRunA.sl.HS1_78; exact cover_skip _ _ _ _ _ _ _ y (cover_11 c x1 y h1 h2)) cc k

theorem YA12_apply (cc : Fin 512) (k : Fin 256) : YA12 c x1 (ix2 cc k) = Cert.Spec.yAug x1 (colOf 12 cc) k := by
  unfold YA12 kernelRunA.sl.v322
  exact loadChunk_apply _ x1 _ (allG_84 c x1) 12 _ (off16A 12) _ (fun y h1 h2 => by unfold kernelRunA.sl.HS1_84; exact cover_skip _ _ _ _ _ _ _ y (cover_12 c x1 y h1 h2)) cc k

theorem YA13_apply (cc : Fin 512) (k : Fin 256) : YA13 c x1 (ix2 cc k) = Cert.Spec.yAug x1 (colOf 13 cc) k := by
  unfold YA13 kernelRunA.sl.v349
  exact loadChunk_apply _ x1 _ (allG_90 c x1) 13 _ (off16A 13) _ (fun y h1 h2 => by unfold kernelRunA.sl.HS1_90; exact cover_skip _ _ _ _ _ _ _ y (cover_13 c x1 y h1 h2)) cc k

theorem YA14_apply (cc : Fin 512) (k : Fin 256) : YA14 c x1 (ix2 cc k) = Cert.Spec.yAug x1 (colOf 14 cc) k := by
  unfold YA14 kernelRunA.sl.v376
  exact loadChunk_apply _ x1 _ (allG_96 c x1) 14 _ (off16A 14) _ (fun y h1 h2 => by unfold kernelRunA.sl.HS1_96; exact cover_skip _ _ _ _ _ _ _ y (cover_14 c x1 y h1 h2)) cc k

theorem YA15_apply (cc : Fin 512) (k : Fin 256) : YA15 c x1 (ix2 cc k) = Cert.Spec.yAug x1 (colOf 15 cc) k := by
  unfold YA15 kernelRunA.sl.v400
  exact loadChunk_apply _ x1 _ (allG_96 c x1) 15 _ (off16A 15) _ (fun y h1 h2 => cover_15 c x1 y h1 h2) cc k

/-- What the first point leaves in the column-operand scratch. -/
theorem ybA_apply (j : Fin 8192) (k : Fin 256) : ybA (F := Ideal) c x0 x1 (ix2 j k) = Cert.Spec.yAug x1 j k := by
  unfold ybA
  rw [View.read_writes_junk_apply_eq_canon]
  refine (View.canon_apply_of_pieces (yG x1) _ (allG_96 c x1) _ (scoverA_1 c x0 x1 d2Before _)).trans ?_
  exact yG_apply x1 _ j k rfl rfl

/-- Rows `512·g … 512·g + 511` of given contents, read through a rectangle at row `512·g`, column 0. -/
theorem ld_rows (xs1 : Vec Ideal S8192x256 .bf16) (g : Fin 16) (off : Fin 2 → Nat) (hoff : off = ![512 * g.val, 0])
    (inb : ∀ a, off a + S512x256.size a ≤ S8192x256.size a) :
    View.ld xs1 (Rect.unit (s := S8192x256) off S512x256.size inb) = YB g xs1 := by
  subst hoff
  funext j
  show xs1 ((Rect.unit (s := S8192x256) ![512 * g.val, 0] S512x256.size inb).idx j) = xs1 (ix2 (colOf g (j 0)) (j 1))
  refine congrArg xs1 (funext fun a => Fin.ext ?_)
  match a with
  | ⟨0, _⟩ => show 512 * g.val + 1 * (j 0).val = 512 * g.val + (j 0).val; omega
  | ⟨1, _⟩ => show 0 + 1 * (j 1).val = (j 1).val; omega

/-- The last point's loads of the column operand are the rows of what the scratch holds. -/
theorem loadYB_eq (g : Fin 16) (xs1 : Vec Ideal S8192x256 .bf16) :
    View.readAt (Elt Ideal) scM1.view (Rect.unit (s := S8192x256) (k0_off16 (grid0.coords t0_1) (BitVec.ofNat 32 (512 * g.val))) S512x256.size (k0_off16_inb (grid0.coords t0_1) g)).toLoadRect ((Memref.isWhole_whole cc0_scratch1 : scM1.IsWhole).unread xs1)
      = YB g xs1 := by
  rw [View.readAt_eq_ld, Memref.IsWhole.read_unread]
  exact ld_rows xs1 g _ (off16B g) _

end Cert.KernelIdealHand

end
-- ==== Proof.KernelIdealHand.ValueProd.lean ====
import proofs.«173679_g9887014716187_cont_9to1c4b_714_26_alg».proof.Proof.KernelIdealHand.ValueLoadsX
import proofs.«173679_g9887014716187_cont_9to1c4b_714_26_alg».proof.Proof.KernelIdealHand.ValueLoadsY
import proofs.«173679_g9887014716187_cont_9to1c4b_714_26_alg».proof.Proof.KernelIdealHand.VPayOperands

set_option maxRecDepth 16384

noncomputable section

namespace Cert.KernelIdealHand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Each chunk's product block, read at an index, is the specification's distance: the product payload is the sum over
    the 256 columns of the row operand's entry times the column operand's entry, and the operands as loaded are the
    specification's augmented operands. -/

open Idealize.ShloMosaic.ValueIdx Cert.KernelIdealHand.VPay

variable (c : Dev nD) (x0 x1 : Vec Ideal S8192x128 .f32)

/-- The product of operands that are the augmented operands at rows `i` and chunk `g` is the distance there. -/
theorem prod_of (A : Vec Ideal S4096x256 .bf16) (B : Vec Ideal S512x256 .bf16) (b : Fin 2) (g : Fin 16)
    (hA : ∀ (r : Fin 4096) (k : Fin 256), A (ix2 r k) = Cert.Spec.xAug x0 (Cert.Spec.rowOf b r) k)
    (hB : ∀ (cc : Fin 512) (k : Fin 256), B (ix2 cc k) = Cert.Spec.yAug x1 (colOf g cc) k)
    (r : Fin 4096) (cc : Fin 512) :
    k0_pay28 (F := Ideal) A B (ix2 r cc) = Cert.Spec.kdist x0 x1 (Cert.Spec.rowOf b r) (colOf g cc) := by
  rw [pay28_apply]
  unfold Cert.Spec.kdist
  exact Finset.sum_congr rfl fun k _ => by rw [hA, hB]

theorem prodA0 (r : Fin 4096) (cc : Fin 512) :
    k0_pay28 (F := Ideal) (XA c x0) (YA0 c x1) (ix2 r cc) = Cert.Spec.kdist x0 x1 (Cert.Spec.rowOf 0 r) (colOf 0 cc) :=
  prod_of x0 x1 _ _ 0 0 (XA_apply c x0) (YA0_apply c x1) r cc
theorem prodA1 (r : Fin 4096) (cc : Fin 512) :
    k0_pay28 (F := Ideal) (XA c x0) (YA1 c x1) (ix2 r cc) = Cert.Spec.kdist x0 x1 (Cert.Spec.rowOf 0 r) (colOf 1 cc) :=
  prod_of x0 x1 _ _ 0 1 (XA_apply c x0) (YA1_apply c x1) r cc
theorem prodA2 (r : Fin 4096) (cc : Fin 512) :
    k0_pay28 (F := Ideal) (XA c x0) (YA2 c x1) (ix2 r cc) = Cert.Spec.kdist x0 x1 (Cert.Spec.rowOf 0 r) (colOf 2 cc) :=
  prod_of x0 x1 _ _ 0 2 (XA_apply c x0) (YA2_apply c x1) r cc
theorem prodA3 (r : Fin 4096) (cc : Fin 512) :
    k0_pay28 (F := Ideal) (XA c x0) (YA3 c x1) (ix2 r cc) = Cert.Spec.kdist x0 x1 (Cert.Spec.rowOf 0 r) (colOf 3 cc) :=
  prod_of x0 x1 _ _ 0 3 (XA_apply c x0) (YA3_apply c x1) r cc
theorem prodA4 (r : Fin 4096) (cc : Fin 512) :
    k0_pay28 (F := Ideal) (XA c x0) (YA4 c x1) (ix2 r cc) = Cert.Spec.kdist x0 x1 (Cert.Spec.rowOf 0 r) (colOf 4 cc) :=
  prod_of x0 x1 _ _ 0 4 (XA_apply c x0) (YA4_apply c x1) r cc
theorem prodA5 (r : Fin 4096) (cc : Fin 512) :
    k0_pay28 (F := Ideal) (XA c x0) (YA5 c x1) (ix2 r cc) = Cert.Spec.kdist x0 x1 (Cert.Spec.rowOf 0 r) (colOf 5 cc) :=
  prod_of x0 x1 _ _ 0 5 (XA_apply c x0) (YA5_apply c x1) r cc
theorem prodA6 (r : Fin 4096) (cc : Fin 512) :
    k0_pay28 (F := Ideal) (XA c x0) (YA6 c x1) (ix2 r cc) = Cert.Spec.kdist x0 x1 (Cert.Spec.rowOf 0 r) (colOf 6 cc) :=
  prod_of x0 x1 _ _ 0 6 (XA_apply c x0) (YA6_apply c x1) r cc
theorem prodA7 (r : Fin 4096) (cc : Fin 512) :
    k0_pay28 (F := Ideal) (XA c x0) (YA7 c x1) (ix2 r cc) = Cert.Spec.kdist x0 x1 (Cert.Spec.rowOf 0 r) (colOf 7 cc) :=
  prod_of x0 x1 _ _ 0 7 (XA_apply c x0) (YA7_apply c x1) r cc
theorem prodA8 (r : Fin 4096) (cc : Fin 512) :
    k0_pay28 (F := Ideal) (XA c x0) (YA8 c x1) (ix2 r cc) = Cert.Spec.kdist x0 x1 (Cert.Spec.rowOf 0 r) (colOf 8 cc) :=
  prod_of x0 x1 _ _ 0 8 (XA_apply c x0) (YA8_apply c x1) r cc
theorem prodA9 (r : Fin 4096) (cc : Fin 512) :
    k0_pay28 (F := Ideal) (XA c x0) (YA9 c x1) (ix2 r cc) = Cert.Spec.kdist x0 x1 (Cert.Spec.rowOf 0 r) (colOf 9 cc) :=
  prod_of x0 x1 _ _ 0 9 (XA_apply c x0) (YA9_apply c x1) r cc
theorem prodA10 (r : Fin 4096) (cc : Fin 512) :
    k0_pay28 (F := Ideal) (XA c x0) (YA10 c x1) (ix2 r cc) = Cert.Spec.kdist x0 x1 (Cert.Spec.rowOf 0 r) (colOf 10 cc) :=
  prod_of x0 x1 _ _ 0 10 (XA_apply c x0) (YA10_apply c x1) r cc
theorem prodA11 (r : Fin 4096) (cc : Fin 512) :
    k0_pay28 (F := Ideal) (XA c x0) (YA11 c x1) (ix2 r cc) = Cert.Spec.kdist x0 x1 (Cert.Spec.rowOf 0 r) (colOf 11 cc) :=
  prod_of x0 x1 _ _ 0 11 (XA_apply c x0) (YA11_apply c x1) r cc
theorem prodA12 (r : Fin 4096) (cc : Fin 512) :
    k0_pay28 (F := Ideal) (XA c x0) (YA12 c x1) (ix2 r cc) = Cert.Spec.kdist x0 x1 (Cert.Spec.rowOf 0 r) (colOf 12 cc) :=
  prod_of x0 x1 _ _ 0 12 (XA_apply c x0) (YA12_apply c x1) r cc
theorem prodA13 (r : Fin 4096) (cc : Fin 512) :
    k0_pay28 (F := Ideal) (XA c x0) (YA13 c x1) (ix2 r cc) = Cert.Spec.kdist x0 x1 (Cert.Spec.rowOf 0 r) (colOf 13 cc) :=
  prod_of x0 x1 _ _ 0 13 (XA_apply c x0) (YA13_apply c x1) r cc
theorem prodA14 (r : Fin 4096) (cc : Fin 512) :
    k0_pay28 (F := Ideal) (XA c x0) (YA14 c x1) (ix2 r cc) = Cert.Spec.kdist x0 x1 (Cert.Spec.rowOf 0 r) (colOf 14 cc) :=
  prod_of x0 x1 _ _ 0 14 (XA_apply c x0) (YA14_apply c x1) r cc
theorem prodA15 (r : Fin 4096) (cc : Fin 512) :
    k0_pay28 (F := Ideal) (XA c x0) (YA15 c x1) (ix2 r cc) = Cert.Spec.kdist x0 x1 (Cert.Spec.rowOf 0 r) (colOf 15 cc) :=
  prod_of x0 x1 _ _ 0 15 (XA_apply c x0) (YA15_apply c x1) r cc

/-- At the last point, over scratch contents whose padding columns are zero (`h0`) and whose column operand is the
    augmented one (`h1`). -/
theorem prodB (g : Fin 16) (xs0 : Vec Ideal S4096x256 .bf16) (xs1 : Vec Ideal S8192x256 .bf16)
    (h0 : ∀ (r : Fin 4096) (k : Fin 256), 132 ≤ k.val → xs0 (ix2 r k) = 0)
    (h1 : ∀ (j : Fin 8192) (k : Fin 256), xs1 (ix2 j k) = Cert.Spec.yAug x1 j k) (r : Fin 4096) (cc : Fin 512) :
    k0_pay28 (F := Ideal) (XB c x0 xs0) (YB g xs1) (ix2 r cc) = Cert.Spec.kdist x0 x1 (Cert.Spec.rowOf 1 r) (colOf g cc) :=
  prod_of x0 x1 _ _ 1 g (XB_apply c x0 xs0 h0) (fun cc k => h1 _ _) r cc

end Cert.KernelIdealHand

end
-- ==== Proof.KernelIdealHand.VPayColMin.lean ====
/- The column minima the kernel keeps, read at an index over the extended reals. For a block `dg` of 4096 × 512
   distances, the column minimum at lane `c` is `inf_r dg(r, c)` over the 4096 rows: a reduction by `min` along the
   row axis that starts from `+∞`, the neutral element of `min`. The stored word is that minimum on the first visit of
   a column block (row-block counter `0`), and otherwise the minimum of the word already there and the new one. -/
import proofs.«173679_g9887014716187_cont_9to1c4b_714_26_alg».proof.Proof.Gen.KernelIdeal.Skeleton
import proofs.«173679_g9887014716187_cont_9to1c4b_714_26_alg».proof.Proof.Spec
import proofs.«173679_g9887014716187_cont_9to1c4b_714_26_alg».proof.Proof.Consts
import Idealize.ShloMosaic.Lib.ValueIdx
import Idealize.ShloMosaic.Lib.ValueLayout
import Idealize.ShloMosaic.PureOps.Ideal.Laws
import Idealize.ShloMosaic.PureOps.Reduce
import Mathlib.Order.CompleteLattice.Finset
import Mathlib.Data.EReal.Basic

set_option maxRecDepth 16384

noncomputable section

namespace Cert.KernelIdealHand.VPay

open Cert.KernelIdeal Cert.KernelIdeal.Gen Idealize.ShloMosaic Idealize.ShloMosaic.ValueIdx

/-- The minimum of column `c` of a 4096 × 512 block over its 4096 rows. -/
def colMin (dg : FVec Ideal S4096x512 .f32) (c : Fin 512) : EReal := Finset.univ.inf fun r : Fin 4096 => dg (ix2 r c)

/-! ## The test "is the row-block counter zero" -/

/-- The counter `0` equals `0`: the test answers `1`. -/
theorem cmpi_zero : Scalar.cmpi .eq (0#32 : BitVec 32) 0#32 = 1#1 := by decide

/-- The counter `1` differs from `0`: the test answers `0`. -/
theorem cmpi_one : Scalar.cmpi .eq (1#32 : BitVec 32) 0#32 = 0#1 := by decide

/-! ## A reduction by `min` along one axis -/

/-- A reduction by `min` along ONE axis, read at a reduced index `j`: the fold of `min`, from the value of the
    starting word, over the coordinates `k` of that axis, of the source at `j` with `k` inserted. (`min` is commutative
    and associative, so the fold over the set of source indices that drop to `j` may be taken along the axis.) -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction (F := Ideal) .minimumf [a] t src acc h hφ hacc j
      = (Finset.univ : Finset (Fin (s.size a))).fold min (FloatOps.ofBits (F := Ideal) φ acc) (src ∘ h.lift j) := by
  rw [multiReduction_minimumf_eq_fold]
  exact h.fold_filter_drop_single _ _ src j

/-- In a 4096 × 512 block reduced along its rows, lane `c` with row `r` inserted is the index `(r, c)`. -/
theorem lift_row (h : S4096x512.Reduces [0] S512) (c : Fin 512) (r : Fin 4096) :
    h.lift (ix1 c) r = (ix2 r c : S4096x512.Idx) := by
  funext d
  match d with
  | ⟨0, _⟩ => rfl
  | ⟨1, _⟩ => rfl

/-- The row reduction by `min` from the word of `+∞`, at lane `c`: the column minimum. A fold of `min` from `+∞` over
    all 4096 rows is the infimum over them, since `+∞` is the top element and `min` is the lattice meet. -/
theorem colReduce_apply (dg : FVec Ideal S4096x512 .f32) (h : S4096x512.Reduces [0] S512) (hφ : FKind.Formats .f32)
    (hacc : (0x7F800000#32 : BitVec 32) = FKind.minimumf.neutral .f32 hφ) (c : Fin 512) :
    multiReduction (F := Ideal) .minimumf [0] S512 dg 0x7F800000#32 h hφ hacc (ix1 c) = colMin dg c := by
  have hfold := multiReduction_minimumf_single dg _ h hφ hacc (ix1 c)
  have htop : FloatOps.ofBits (F := Ideal) .f32 0x7F800000#32 = (⊤ : EReal) := Cert.Consts.ofBits_inf_f32
  rw [htop] at hfold
  refine hfold.trans ?_
  exact congrArg (fun f : Fin 4096 → EReal => Finset.univ.inf f) (funext fun r => congrArg dg (lift_row h c r))

/-- The same reduction reshaped from 512 lanes to 1 × 512: at `(0, c)` it is still the column minimum. -/
theorem colRow_apply (dg : FVec Ideal S4096x512 .f32) (h : S4096x512.Reduces [0] S512) (hφ : FKind.Formats .f32)
    (hacc : (0x7F800000#32 : BitVec 32) = FKind.minimumf.neutral .f32 hφ) (hc : S512.ShapeCasts S1x512) (c : Fin 512) :
    shapeCast S1x512 (multiReduction (F := Ideal) .minimumf [0] S512 dg 0x7F800000#32 h hφ hacc) hc (ix2 (0 : Fin 1) c)
      = colMin dg c :=
  (shapeCast_a_1a_apply _ hc 0 c).trans (colReduce_apply dg h hφ hacc c)

/-! ## The stored word, first chunk -/

/-- On the first visit (counter `0`) the stored word is the column minimum, whatever was there. -/
theorem pay40_zero (dg : FVec Ideal S4096x512 .f32) (cur : Vec Ideal S1x512 .f32) (c : Fin 512) :
    k0_pay40 0#32 dg cur (ix2 (0 : Fin 1) c) = colMin dg c := by
  unfold k0_pay40
  simp only [shapeCast_self, cmpi_zero, select_one]
  exact colRow_apply dg _ _ _ _ c

/-- On a later visit (counter `1`) the stored word is the minimum of the word there and the column minimum. -/
theorem pay40_one (dg : FVec Ideal S4096x512 .f32) (cur : Vec Ideal S1x512 .f32) (c : Fin 512) :
    k0_pay40 1#32 dg cur (ix2 (0 : Fin 1) c) = min (cur (ix2 (0 : Fin 1) c)) (colMin dg c) := by
  unfold k0_pay40
  simp only [shapeCast_self, cmpi_one, select_zero, minimumf_apply]
  exact congrArg (min (cur (ix2 (0 : Fin 1) c))) (colRow_apply dg _ _ _ _ c)

/-! ## The stored word, the other chunks of the same text

Each of these is, as a function, the first chunk's: the same reduction, the same test, the same selection. -/

theorem pay51_eq : @k0_pay51 Ideal _ = @k0_pay40 Ideal _ := rfl

theorem pay51_zero (dg : FVec Ideal S4096x512 .f32) (cur : Vec Ideal S1x512 .f32) (c : Fin 512) :
    k0_pay51 0#32 dg cur (ix2 (0 : Fin 1) c) = colMin dg c := by
  rw [pay51_eq]; exact pay40_zero dg cur c

theorem pay51_one (dg : FVec Ideal S4096x512 .f32) (cur : Vec Ideal S1x512 .f32) (c : Fin 512) :
    k0_pay51 1#32 dg cur (ix2 (0 : Fin 1) c) = min (cur (ix2 (0 : Fin 1) c)) (colMin dg c) := by
  rw [pay51_eq]; exact pay40_one dg cur c

theorem pay61_eq : @k0_pay61 Ideal _ = @k0_pay40 Ideal _ := rfl

theorem pay61_zero (dg : FVec Ideal S4096x512 .f32) (cur : Vec Ideal S1x512 .f32) (c : Fin 512) :
    k0_pay61 0#32 dg cur (ix2 (0 : Fin 1) c) = colMin dg c := by
  rw [pay61_eq]; exact pay40_zero dg cur c

theorem pay61_one (dg : FVec Ideal S4096x512 .f32) (cur : Vec Ideal S1x512 .f32) (c : Fin 512) :
    k0_pay61 1#32 dg cur (ix2 (0 : Fin 1) c) = min (cur (ix2 (0 : Fin 1) c)) (colMin dg c) := by
  rw [pay61_eq]; exact pay40_one dg cur c

theorem pay72_eq : @k0_pay72 Ideal _ = @k0_pay40 Ideal _ := rfl

theorem pay72_zero (dg : FVec Ideal S4096x512 .f32) (cur : Vec Ideal S1x512 .f32) (c : Fin 512) :
    k0_pay72 0#32 dg cur (ix2 (0 : Fin 1) c) = colMin dg c := by
  rw [pay72_eq]; exact pay40_zero dg cur c

theorem pay72_one (dg : FVec Ideal S4096x512 .f32) (cur : Vec Ideal S1x512 .f32) (c : Fin 512) :
    k0_pay72 1#32 dg cur (ix2 (0 : Fin 1) c) = min (cur (ix2 (0 : Fin 1) c)) (colMin dg c) := by
  rw [pay72_eq]; exact pay40_one dg cur c

theorem pay83_eq : @k0_pay83 Ideal _ = @k0_pay40 Ideal _ := rfl

theorem pay83_zero (dg : FVec Ideal S4096x512 .f32) (cur : Vec Ideal S1x512 .f32) (c : Fin 512) :
    k0_pay83 0#32 dg cur (ix2 (0 : Fin 1) c) = colMin dg c := by
  rw [pay83_eq]; exact pay40_zero dg cur c

theorem pay83_one (dg : FVec Ideal S4096x512 .f32) (cur : Vec Ideal S1x512 .f32) (c : Fin 512) :
    k0_pay83 1#32 dg cur (ix2 (0 : Fin 1) c) = min (cur (ix2 (0 : Fin 1) c)) (colMin dg c) := by
  rw [pay83_eq]; exact pay40_one dg cur c

theorem pay93_eq : @k0_pay93 Ideal _ = @k0_pay40 Ideal _ := rfl

theorem pay93_zero (dg : FVec Ideal S4096x512 .f32) (cur : Vec Ideal S1x512 .f32) (c : Fin 512) :
    k0_pay93 0#32 dg cur (ix2 (0 : Fin 1) c) = colMin dg c := by
  rw [pay93_eq]; exact pay40_zero dg cur c

theorem pay93_one (dg : FVec Ideal S4096x512 .f32) (cur : Vec Ideal S1x512 .f32) (c : Fin 512) :
    k0_pay93 1#32 dg cur (ix2 (0 : Fin 1) c) = min (cur (ix2 (0 : Fin 1) c)) (colMin dg c) := by
  rw [pay93_eq]; exact pay40_one dg cur c

theorem pay116_eq : @k0_pay116 Ideal _ = @k0_pay40 Ideal _ := rfl

theorem pay116_zero (dg : FVec Ideal S4096x512 .f32) (cur : Vec Ideal S1x512 .f32) (c : Fin 512) :
    k0_pay116 0#32 dg cur (ix2 (0 : Fin 1) c) = colMin dg c := by
  rw [pay116_eq]; exact pay40_zero dg cur c

theorem pay116_one (dg : FVec Ideal S4096x512 .f32) (cur : Vec Ideal S1x512 .f32) (c : Fin 512) :
    k0_pay116 1#32 dg cur (ix2 (0 : Fin 1) c) = min (cur (ix2 (0 : Fin 1) c)) (colMin dg c) := by
  rw [pay116_eq]; exact pay40_one dg cur c

theorem pay126_eq : @k0_pay126 Ideal _ = @k0_pay40 Ideal _ := rfl

theorem pay126_zero (dg : FVec Ideal S4096x512 .f32) (cur : Vec Ideal S1x512 .f32) (c : Fin 512) :
    k0_pay126 0#32 dg cur (ix2 (0 : Fin 1) c) = colMin dg c := by
  rw [pay126_eq]; exact pay40_zero dg cur c

theorem pay126_one (dg : FVec Ideal S4096x512 .f32) (cur : Vec Ideal S1x512 .f32) (c : Fin 512) :
    k0_pay126 1#32 dg cur (ix2 (0 : Fin 1) c) = min (cur (ix2 (0 : Fin 1) c)) (colMin dg c) := by
  rw [pay126_eq]; exact pay40_one dg cur c

theorem pay149_eq : @k0_pay149 Ideal _ = @k0_pay40 Ideal _ := rfl

theorem pay149_zero (dg : FVec Ideal S4096x512 .f32) (cur : Vec Ideal S1x512 .f32) (c : Fin 512) :
    k0_pay149 0#32 dg cur (ix2 (0 : Fin 1) c) = colMin dg c := by
  rw [pay149_eq]; exact pay40_zero dg cur c

theorem pay149_one (dg : FVec Ideal S4096x512 .f32) (cur : Vec Ideal S1x512 .f32) (c : Fin 512) :
    k0_pay149 1#32 dg cur (ix2 (0 : Fin 1) c) = min (cur (ix2 (0 : Fin 1) c)) (colMin dg c) := by
  rw [pay149_eq]; exact pay40_one dg cur c

theorem pay159_eq : @k0_pay159 Ideal _ = @k0_pay40 Ideal _ := rfl

theorem pay159_zero (dg : FVec Ideal S4096x512 .f32) (cur : Vec Ideal S1x512 .f32) (c : Fin 512) :
    k0_pay159 0#32 dg cur (ix2 (0 : Fin 1) c) = colMin dg c := by
  rw [pay159_eq]; exact pay40_zero dg cur c

theorem pay159_one (dg : FVec Ideal S4096x512 .f32) (cur : Vec Ideal S1x512 .f32) (c : Fin 512) :
    k0_pay159 1#32 dg cur (ix2 (0 : Fin 1) c) = min (cur (ix2 (0 : Fin 1) c)) (colMin dg c) := by
  rw [pay159_eq]; exact pay40_one dg cur c

theorem pay183_eq : @k0_pay183 Ideal _ = @k0_pay40 Ideal _ := rfl

theorem pay183_zero (dg : FVec Ideal S4096x512 .f32) (cur : Vec Ideal S1x512 .f32) (c : Fin 512) :
    k0_pay183 0#32 dg cur (ix2 (0 : Fin 1) c) = colMin dg c := by
  rw [pay183_eq]; exact pay40_zero dg cur c

theorem pay183_one (dg : FVec Ideal S4096x512 .f32) (cur : Vec Ideal S1x512 .f32) (c : Fin 512) :
    k0_pay183 1#32 dg cur (ix2 (0 : Fin 1) c) = min (cur (ix2 (0 : Fin 1) c)) (colMin dg c) := by
  rw [pay183_eq]; exact pay40_one dg cur c

theorem pay186_eq : @k0_pay186 Ideal _ = @k0_pay40 Ideal _ := rfl

theorem pay186_zero (dg : FVec Ideal S4096x512 .f32) (cur : Vec Ideal S1x512 .f32) (c : Fin 512) :
    k0_pay186 0#32 dg cur (ix2 (0 : Fin 1) c) = colMin dg c := by
  rw [pay186_eq]; exact pay40_zero dg cur c

theorem pay186_one (dg : FVec Ideal S4096x512 .f32) (cur : Vec Ideal S1x512 .f32) (c : Fin 512) :
    k0_pay186 1#32 dg cur (ix2 (0 : Fin 1) c) = min (cur (ix2 (0 : Fin 1) c)) (colMin dg c) := by
  rw [pay186_eq]; exact pay40_one dg cur c

theorem pay187_eq : @k0_pay187 Ideal _ = @k0_pay40 Ideal _ := rfl

theorem pay187_zero (dg : FVec Ideal S4096x512 .f32) (cur : Vec Ideal S1x512 .f32) (c : Fin 512) :
    k0_pay187 0#32 dg cur (ix2 (0 : Fin 1) c) = colMin dg c := by
  rw [pay187_eq]; exact pay40_zero dg cur c

theorem pay187_one (dg : FVec Ideal S4096x512 .f32) (cur : Vec Ideal S1x512 .f32) (c : Fin 512) :
    k0_pay187 1#32 dg cur (ix2 (0 : Fin 1) c) = min (cur (ix2 (0 : Fin 1) c)) (colMin dg c) := by
  rw [pay187_eq]; exact pay40_one dg cur c

/-! ## The chunks cut by a part boundary

Here the column minimum of the chunk's product is one value, and the selection between it and the running minimum is
another that takes it as an argument. -/

/-- The column minimum of the product of the row operand `A` with the chunk `B`, at lane `c`. -/
theorem pay104_apply (A : Vec Ideal S4096x256 .bf16) (B : Vec Ideal S512x256 .bf16) (c : Fin 512) :
    k0_pay104 A B (ix2 (0 : Fin 1) c) = colMin (k0_pay92 A B) c := by
  unfold k0_pay104
  exact colRow_apply (k0_pay92 A B) _ _ _ _ c

theorem pay137_apply (A : Vec Ideal S4096x256 .bf16) (B : Vec Ideal S512x256 .bf16) (c : Fin 512) :
    k0_pay137 A B (ix2 (0 : Fin 1) c) = colMin (k0_pay125 A B) c := by
  unfold k0_pay137
  exact colRow_apply (k0_pay125 A B) _ _ _ _ c

theorem pay170_apply (A : Vec Ideal S4096x256 .bf16) (B : Vec Ideal S512x256 .bf16) (c : Fin 512) :
    k0_pay170 A B (ix2 (0 : Fin 1) c) = colMin (k0_pay158 A B) c := by
  unfold k0_pay170
  exact colRow_apply (k0_pay158 A B) _ _ _ _ c

/-- Given the column minimum `cm`: on the first visit the stored word is `cm`. -/
theorem pay105_zero (cm : FVec Ideal S1x512 .f32) (cur : Vec Ideal S1x512 .f32) (c : Fin 512) :
    k0_pay105 0#32 cm cur (ix2 (0 : Fin 1) c) = cm (ix2 (0 : Fin 1) c) := by
  unfold k0_pay105
  simp only [shapeCast_self, cmpi_zero, select_one]

/-- Given the column minimum `cm`: on a later visit the stored word is the minimum of the word there and `cm`. -/
theorem pay105_one (cm : FVec Ideal S1x512 .f32) (cur : Vec Ideal S1x512 .f32) (c : Fin 512) :
    k0_pay105 1#32 cm cur (ix2 (0 : Fin 1) c) = min (cur (ix2 (0 : Fin 1) c)) (cm (ix2 (0 : Fin 1) c)) := by
  unfold k0_pay105
  simp only [shapeCast_self, cmpi_one, select_zero, minimumf_apply]

theorem pay138_eq : @k0_pay138 Ideal _ = @k0_pay105 Ideal _ := rfl

theorem pay138_zero (cm : FVec Ideal S1x512 .f32) (cur : Vec Ideal S1x512 .f32) (c : Fin 512) :
    k0_pay138 0#32 cm cur (ix2 (0 : Fin 1) c) = cm (ix2 (0 : Fin 1) c) := by
  rw [pay138_eq]; exact pay105_zero cm cur c

theorem pay138_one (cm : FVec Ideal S1x512 .f32) (cur : Vec Ideal S1x512 .f32) (c : Fin 512) :
    k0_pay138 1#32 cm cur (ix2 (0 : Fin 1) c) = min (cur (ix2 (0 : Fin 1) c)) (cm (ix2 (0 : Fin 1) c)) := by
  rw [pay138_eq]; exact pay105_one cm cur c

/-- The running minimum: the word there against the column minimum of the chunk's product. -/
theorem pay171_apply (A : Vec Ideal S4096x256 .bf16) (B : Vec Ideal S512x256 .bf16) (cur : Vec Ideal S1x512 .f32) (c : Fin 512) :
    k0_pay171 A B cur (ix2 (0 : Fin 1) c) = min (cur (ix2 (0 : Fin 1) c)) (colMin (k0_pay158 A B) c) := by
  unfold k0_pay171
  simp only [minimumf_apply]
  exact congrArg (min (cur (ix2 (0 : Fin 1) c))) (pay170_apply A B c)

/-- The selection on a given bit: a set bit takes the column minimum `cm`. -/
theorem pay172_one (cm mn : FVec Ideal S1x512 .f32) (c : Fin 512) :
    k0_pay172 cm 1#1 mn (ix2 (0 : Fin 1) c) = cm (ix2 (0 : Fin 1) c) := by
  unfold k0_pay172
  simp only [shapeCast_self, select_one]

/-- The selection on a given bit: a clear bit takes the running minimum `mn`. -/
theorem pay172_zero (cm mn : FVec Ideal S1x512 .f32) (c : Fin 512) :
    k0_pay172 cm 0#1 mn (ix2 (0 : Fin 1) c) = mn (ix2 (0 : Fin 1) c) := by
  unfold k0_pay172
  simp only [shapeCast_self, select_zero]

end Cert.KernelIdealHand.VPay

end
-- ==== Proof.KernelIdealHand.ValueD2A.lean ====
import proofs.«173679_g9887014716187_cont_9to1c4b_714_26_alg».proof.Proof.KernelIdealHand.ValueProd
import proofs.«173679_g9887014716187_cont_9to1c4b_714_26_alg».proof.Proof.KernelIdealHand.VPayColMin

set_option maxRecDepth 16384

noncomputable section

namespace Cert.KernelIdealHand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.KernelIdealHand.VPay

/-! What the first point leaves in the column-minimum scratch, read at an index: the minimum over the point's 4096
    rows of the distance to that column. The scratch is one row of 8192 words written by sixteen stores, chunk `g` at
    columns `512·g … 512·g + 511`. At the first point the row-block counter is zero, so each stored word is the column
    minimum of the chunk's product block whatever the scratch held; the product block is the distance at the point's
    rows and the chunk's columns. So every piece is a block of ONE function of the scratch's index, and the sixteen
    pieces tile the scratch. -/

variable (c : Dev nD) (x0 x1 : Vec Ideal S8192x128 .f32)

/-- The row-block counter at the first point is zero. -/
theorem d2A_counter : BitVec.ofNat 32 ((grid0.coords t0_0) 0).val = 0#32 := by rw [cA0]

/-- A store offset whose closed form is `(second grid coordinate, n)` is `(0, n)` at the first point. -/
theorem d2A_off (f : grid0.Coords → Fin 2 → Nat) (n : Nat) (h : ∀ i : grid0.Coords, f i = ![(i 1).val, n]) :
    f (grid0.coords t0_0) = ![0, n] := by rw [h, cA1]

/-- The column minimum of a block that is the distance at the first point's rows and chunk `g`'s columns. -/
theorem d2A_colMin (g : Fin 16) (dg : FVec Ideal S4096x512 .f32)
    (hdg : ∀ (r : Fin 4096) (cc : Fin 512), dg (ix2 r cc) = Cert.Spec.kdist x0 x1 (Cert.Spec.rowOf 0 r) (colOf g cc))
    (cc : Fin 512) :
    colMin dg cc = Finset.univ.inf fun r : Fin 4096 => Cert.Spec.kdist x0 x1 (Cert.Spec.rowOf 0 r) (colOf g cc) := by
  unfold colMin
  exact Finset.inf_congr rfl fun r _ => hdg r cc

/-- A piece of 512 words at columns `512·g …` of the one-row scratch whose word at lane `cc` is the column minimum at
    column `512·g + cc` is a block of the column-minimum function: the piece's lane `cc` sits at column `512·g + cc`. -/
theorem d2A_piece (g : Fin 16) (off : Fin 2 → Nat) (hoff : off = ![0, 512 * g.val])
    (inb : ∀ a, off a + S1x512.size a ≤ S1x8192.size a) (w : FVec Ideal S1x512 .f32)
    (hw : ∀ cc : Fin 512, w (ix2 (0 : Fin 1) cc)
      = Finset.univ.inf fun r : Fin 4096 => Cert.Spec.kdist x0 x1 (Cert.Spec.rowOf 0 r) (colOf g cc))
    (x : (Rect.unit (s := S1x8192) off S1x512.size inb).shape.Idx) :
    w x = (fun y : S1x8192.Idx => Finset.univ.inf fun r : Fin 4096 => Cert.Spec.kdist x0 x1 (Cert.Spec.rowOf 0 r) (y 1))
      ((Rect.unit (s := S1x8192) off S1x512.size inb).emb x) := by
  subst hoff
  obtain ⟨a, b, rfl⟩ : ∃ (a : Fin 1) (b : Fin 512), x = ix2 a b := ⟨x 0, x 1, eq_ix2 x⟩
  obtain rfl : a = 0 := Subsingleton.elim _ _
  rw [hw b]
  refine Finset.inf_congr rfl fun r _ => congrArg _ (Fin.ext ?_)
  show 512 * g.val + b.val = 512 * g.val + 1 * b.val
  omega

/-- Every piece of the first point's column-minimum stores is a block of the column-minimum function: the row-block
    counter is zero there, so the stored word is the column minimum of the chunk's product block (for three chunks the
    minimum and the selection are separate values), and the product block is the distance. -/
theorem d2A_pieces :
    ∀ p ∈ (runA (F := Ideal) c x0 x1 d2Before).2.2.1, ∀ x : p.1.shape.Idx,
      p.2 x = (fun y : S1x8192.Idx => Finset.univ.inf fun r : Fin 4096 => Cert.Spec.kdist x0 x1 (Cert.Spec.rowOf 0 r) (y 1)) (p.1.emb x) := by
  refine List.forall_mem_cons.mpr ⟨?_, List.forall_mem_cons.mpr ⟨?_, ?_⟩⟩
  · -- chunk 15
    refine d2A_piece x0 x1 15 _ (d2A_off _ _ k0_off130_eq) (k0_off130_inb _) _ fun cc => ?_
    dsimp only
    rw [d2A_counter, pay187_zero]
    refine d2A_colMin x0 x1 15 _ (fun r cc => ?_) cc
    show k0_pay184 (XA c x0) (YA15 c x1) (ix2 r cc) = _
    rw [pay184_eq]; exact prodA15 c x0 x1 r cc
  · -- chunk 14
    refine d2A_piece x0 x1 14 _ (d2A_off _ _ k0_off129_eq) (k0_off129_inb _) _ fun cc => ?_
    dsimp only
    rw [d2A_counter, pay186_zero]
    refine d2A_colMin x0 x1 14 _ (fun r cc => ?_) cc
    show k0_pay181 (XA c x0) (YA14 c x1) (ix2 r cc) = _
    rw [pay181_eq]; exact prodA14 c x0 x1 r cc
  refine List.forall_mem_cons.mpr ⟨?_, List.forall_mem_cons.mpr ⟨?_, ?_⟩⟩
  · -- chunk 13
    refine d2A_piece x0 x1 13 _ (d2A_off _ _ k0_off128_eq) (k0_off128_inb _) _ fun cc => ?_
    dsimp only
    rw [d2A_counter, pay183_zero]
    refine d2A_colMin x0 x1 13 _ (fun r cc => ?_) cc
    show k0_pay168 (XA c x0) (YA13 c x1) (ix2 r cc) = _
    rw [pay168_eq]; exact prodA13 c x0 x1 r cc
  · -- chunk 12: the minimum, the test and the running minimum are separate values; the test answers one
    refine d2A_piece x0 x1 12 _ (d2A_off _ _ k0_off120_eq) (k0_off120_inb _) _ fun cc => ?_
    dsimp only
    have hbit : kernelRunA.sl.v0 (grid0.coords t0_0) = 1#1 := by
      show Scalar.cmpi .eq (BitVec.ofNat 32 ((grid0.coords t0_0) 0).val) 0#32 = 1#1
      rw [d2A_counter]; exact cmpi_zero
    rw [hbit, pay172_one]
    show k0_pay170 (XA c x0) (YA12 c x1) (ix2 (0 : Fin 1) cc) = _
    rw [pay170_apply]
    refine d2A_colMin x0 x1 12 _ (fun r cc => ?_) cc
    rw [pay158_eq]; exact prodA12 c x0 x1 r cc
  refine List.forall_mem_cons.mpr ⟨?_, ?_⟩
  · -- chunk 11
    refine d2A_piece x0 x1 11 _ (d2A_off _ _ k0_off112_eq) (k0_off112_inb _) _ fun cc => ?_
    dsimp only
    rw [d2A_counter, pay159_zero]
    refine d2A_colMin x0 x1 11 _ (fun r cc => ?_) cc
    show k0_pay147 (XA c x0) (YA11 c x1) (ix2 r cc) = _
    rw [pay147_eq]; exact prodA11 c x0 x1 r cc
  refine List.forall_mem_cons.mpr ⟨?_, List.forall_mem_cons.mpr ⟨?_, ?_⟩⟩
  · -- chunk 10
    refine d2A_piece x0 x1 10 _ (d2A_off _ _ k0_off104_eq) (k0_off104_inb _) _ fun cc => ?_
    dsimp only
    rw [d2A_counter, pay149_zero]
    refine d2A_colMin x0 x1 10 _ (fun r cc => ?_) cc
    show k0_pay135 (XA c x0) (YA10 c x1) (ix2 r cc) = _
    rw [pay135_eq]; exact prodA10 c x0 x1 r cc
  · -- chunk 9: the minimum is a separate value
    refine d2A_piece x0 x1 9 _ (d2A_off _ _ k0_off96_eq) (k0_off96_inb _) _ fun cc => ?_
    dsimp only
    rw [d2A_counter, pay138_zero]
    show k0_pay137 (XA c x0) (YA9 c x1) (ix2 (0 : Fin 1) cc) = _
    rw [pay137_apply]
    refine d2A_colMin x0 x1 9 _ (fun r cc => ?_) cc
    rw [pay125_eq]; exact prodA9 c x0 x1 r cc
  refine List.forall_mem_cons.mpr ⟨?_, ?_⟩
  · -- chunk 8
    refine d2A_piece x0 x1 8 _ (d2A_off _ _ k0_off88_eq) (k0_off88_inb _) _ fun cc => ?_
    dsimp only
    rw [d2A_counter, pay126_zero]
    refine d2A_colMin x0 x1 8 _ (fun r cc => ?_) cc
    show k0_pay114 (XA c x0) (YA8 c x1) (ix2 r cc) = _
    rw [pay114_eq]; exact prodA8 c x0 x1 r cc
  refine List.forall_mem_cons.mpr ⟨?_, List.forall_mem_cons.mpr ⟨?_, ?_⟩⟩
  · -- chunk 7
    refine d2A_piece x0 x1 7 _ (d2A_off _ _ k0_off80_eq) (k0_off80_inb _) _ fun cc => ?_
    dsimp only
    rw [d2A_counter, pay116_zero]
    refine d2A_colMin x0 x1 7 _ (fun r cc => ?_) cc
    show k0_pay102 (XA c x0) (YA7 c x1) (ix2 r cc) = _
    rw [pay102_eq]; exact prodA7 c x0 x1 r cc
  · -- chunk 6: the minimum is a separate value
    refine d2A_piece x0 x1 6 _ (d2A_off _ _ k0_off72_eq) (k0_off72_inb _) _ fun cc => ?_
    dsimp only
    rw [d2A_counter, pay105_zero]
    show k0_pay104 (XA c x0) (YA6 c x1) (ix2 (0 : Fin 1) cc) = _
    rw [pay104_apply]
    refine d2A_colMin x0 x1 6 _ (fun r cc => ?_) cc
    rw [pay92_eq]; exact prodA6 c x0 x1 r cc
  refine List.forall_mem_cons.mpr ⟨?_, ?_⟩
  · -- chunk 5
    refine d2A_piece x0 x1 5 _ (d2A_off _ _ k0_off64_eq) (k0_off64_inb _) _ fun cc => ?_
    dsimp only
    rw [d2A_counter, pay93_zero]
    refine d2A_colMin x0 x1 5 _ (fun r cc => ?_) cc
    show k0_pay81 (XA c x0) (YA5 c x1) (ix2 r cc) = _
    rw [pay81_eq]; exact prodA5 c x0 x1 r cc
  refine List.forall_mem_cons.mpr ⟨?_, List.forall_mem_cons.mpr ⟨?_, ?_⟩⟩
  · -- chunk 4
    refine d2A_piece x0 x1 4 _ (d2A_off _ _ k0_off56_eq) (k0_off56_inb _) _ fun cc => ?_
    dsimp only
    rw [d2A_counter, pay83_zero]
    refine d2A_colMin x0 x1 4 _ (fun r cc => ?_) cc
    show k0_pay70 (XA c x0) (YA4 c x1) (ix2 r cc) = _
    rw [pay70_eq]; exact prodA4 c x0 x1 r cc
  · -- chunk 3
    refine d2A_piece x0 x1 3 _ (d2A_off _ _ k0_off48_eq) (k0_off48_inb _) _ fun cc => ?_
    dsimp only
    rw [d2A_counter, pay72_zero]
    refine d2A_colMin x0 x1 3 _ (fun r cc => ?_) cc
    show k0_pay60 (XA c x0) (YA3 c x1) (ix2 r cc) = _
    rw [pay60_eq]; exact prodA3 c x0 x1 r cc
  refine List.forall_mem_cons.mpr ⟨?_, ?_⟩
  · -- chunk 2
    refine d2A_piece x0 x1 2 _ (d2A_off _ _ k0_off40_eq) (k0_off40_inb _) _ fun cc => ?_
    dsimp only
    rw [d2A_counter, pay61_zero]
    refine d2A_colMin x0 x1 2 _ (fun r cc => ?_) cc
    show k0_pay49 (XA c x0) (YA2 c x1) (ix2 r cc) = _
    rw [pay49_eq]; exact prodA2 c x0 x1 r cc
  refine List.forall_mem_cons.mpr ⟨?_, List.forall_mem_cons.mpr ⟨?_, ?_⟩⟩
  · -- chunk 1
    refine d2A_piece x0 x1 1 _ (d2A_off _ _ k0_off32_eq) (k0_off32_inb _) _ fun cc => ?_
    dsimp only
    rw [d2A_counter, pay51_zero]
    refine d2A_colMin x0 x1 1 _ (fun r cc => ?_) cc
    show k0_pay37 (XA c x0) (YA1 c x1) (ix2 r cc) = _
    rw [pay37_eq]; exact prodA1 c x0 x1 r cc
  · -- chunk 0
    refine d2A_piece x0 x1 0 _ (d2A_off _ _ k0_off24_eq) (k0_off24_inb _) _ fun cc => ?_
    dsimp only
    rw [d2A_counter, pay40_zero]
    refine d2A_colMin x0 x1 0 _ (fun r cc => ?_) cc
    exact prodA0 c x0 x1 r cc
  · intro p hp
    exact absurd hp List.not_mem_nil

/-- What the first point leaves in the column-minimum scratch, at column `j`: the minimum over the point's 4096 rows
    of the distance to column `j`. A read of writes over unspecified contents is the overlay of the pieces, the pieces
    are blocks of one function, and they tile the scratch. -/
theorem d2A_apply (j : Fin 8192) :
    d2A (F := Ideal) c x0 x1 (ix2 (0 : Fin 1) j)
      = Finset.univ.inf fun r : Fin 4096 => Cert.Spec.kdist x0 x1 (Cert.Spec.rowOf 0 r) j := by
  unfold d2A
  rw [View.read_writes_junk_apply_eq_canon]
  exact View.canon_apply_of_pieces
    (fun y : S1x8192.Idx => Finset.univ.inf fun r : Fin 4096 => Cert.Spec.kdist x0 x1 (Cert.Spec.rowOf 0 r) (y 1))
    _ (d2A_pieces c x0 x1) (ix2 (0 : Fin 1) j) (scoverA_3 c x0 x1 d2Before _)

end Cert.KernelIdealHand

end
-- ==== Proof.KernelIdealHand.ValueBNames.lean ====
import proofs.«173679_g9887014716187_cont_9to1c4b_714_26_alg».proof.Proof.KernelIdealHand.FrameData
import proofs.«173679_g9887014716187_cont_9to1c4b_714_26_alg».proof.Proof.Spec
import Idealize.ShloMosaic.Lib.ValueIdx

set_option maxRecDepth 16384

noncomputable section

namespace Cert.KernelIdealHand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Names for what the last point's final conditional loads: the whole column-minimum scratch after the point's sixteen
    stores, and the accumulator after the point's store. The result block is the mean formed from these two. -/

open Idealize.ShloMosaic.ValueIdx

variable (c : Dev nD) (x0 : Vec Ideal S8192x128 .f32)
  (xs0 : Vec Ideal S4096x256 .bf16) (xs1 : Vec Ideal S8192x256 .bf16) (xs3 : Vec Ideal S1x8192 .f32) (xs4 : Vec Ideal S1x1 .f32)

/-- The column minima as the last point's final conditional loads them. -/
def D2B : Vec Ideal S1x8192 .f32 :=
  kernelRunB.sl.v460 (F := Ideal) c (grid0.coords t0_1) (ms0_0 t0_1) (hs0_0 t0_1) scM0 (Memref.isWhole_whole _) scM1 (Memref.isWhole_whole _) scM3 (Memref.isWhole_whole _) hB2 x0 xs0 xs1 xs3

/-- The accumulator as the last point's final conditional loads it. -/
def ACCB : Vec Ideal S1x1 .f32 :=
  kernelRunB.sl.v459 (F := Ideal) c (grid0.coords t0_1) (ms0_0 t0_1) (hs0_0 t0_1) scM0 (Memref.isWhole_whole _) scM1 (Memref.isWhole_whole _) scM4 (Memref.isWhole_whole _) hB2 x0 xs0 xs1 xs4

end Cert.KernelIdealHand

end
-- ==== Proof.KernelIdealHand.ValueD2B.lean ====
import proofs.«173679_g9887014716187_cont_9to1c4b_714_26_alg».proof.Proof.KernelIdealHand.ValueProd
import proofs.«173679_g9887014716187_cont_9to1c4b_714_26_alg».proof.Proof.KernelIdealHand.VPayColMin
import proofs.«173679_g9887014716187_cont_9to1c4b_714_26_alg».proof.Proof.KernelIdealHand.ValueBNames
import Idealize.ShloMosaic.Lib.Writes
import Idealize.ShloMosaic.Lib.Pipeline.FrameBody
import Idealize.ShloMosaic.Lib.Pipeline.Value

set_option maxRecDepth 16384

noncomputable section

namespace Cert.KernelIdealHand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The column minima after the last point. The column-minimum buffer holds one word per column `j` of the distance
    matrix. The last point visits the rows 4096…8191 and, chunk by chunk of 512 columns, stores over the word it
    finds, `xs3 (0, j)`, the minimum of that word and the column's minimum over those rows,
    `inf_r kdist x0 x1 (rowOf 1 r) j`. The sixteen chunks tile the 8192 columns, so the buffer read back is that
    one function of the column. -/

open Idealize.ShloMosaic.ValueIdx Cert.KernelIdealHand.VPay

section Chain

variable (c : Dev nD) (x0 x1 : Vec Ideal S8192x128 .f32) (xs0 : Vec Ideal S4096x256 .bf16)
  (xs1 : Vec Ideal S8192x256 .bf16) (xs3 : Vec Ideal S1x8192 .f32)

/-- The word the last point leaves at column `j`. -/
private def TGT (j : Fin 8192) : EReal :=
  min (xs3 (ix2 (0 : Fin 1) j)) (Finset.univ.inf fun r : Fin 4096 => Cert.Spec.kdist x0 x1 (Cert.Spec.rowOf 1 r) j)

/-- The same as ONE function of the buffer's index. -/
private def GD : S1x8192.Idx → Elt Ideal .f32 := fun y => TGT x0 x1 xs3 ⟨(y 1).val, idx2_lt1 y⟩

private theorem GD_at (y : S1x8192.Idx) (j : Fin 8192) (h : (y 1).val = j.val) : GD x0 x1 xs3 y = TGT x0 x1 xs3 j := by
  unfold GD
  have e : (⟨(y 1).val, idx2_lt1 y⟩ : Fin 8192) = j := Fin.ext h
  rw [e]

/-! ## The pieces of a list are blocks of the one function, and cover a range of columns -/

private abbrev PiecesOK (L : List (View.Piece (Elt Ideal) S1x8192 .f32)) : Prop :=
  ∀ p ∈ L, ∀ x : p.1.shape.Idx, p.2 x = GD x0 x1 xs3 (p.1.emb x)

private theorem ok_nil : PiecesOK x0 x1 xs3 [] := fun _ hp => absurd hp List.not_mem_nil

private theorem ok_cons (p : View.Piece (Elt Ideal) S1x8192 .f32) (L : List (View.Piece (Elt Ideal) S1x8192 .f32))
    (hp : ∀ x : p.1.shape.Idx, p.2 x = GD x0 x1 xs3 (p.1.emb x)) (hL : PiecesOK x0 x1 xs3 L) :
    PiecesOK x0 x1 xs3 (p :: L) := by
  intro q hq
  rcases List.mem_cons.mp hq with rfl | hq
  · exact hp
  · exact hL q hq

private abbrev Covers (L : List (View.Piece (Elt Ideal) S1x8192 .f32)) (n : Nat) : Prop :=
  ∀ y : S1x8192.Idx, (y 1).val < n → ∃ p ∈ L, y ∈ p.1.set

private theorem covers_nil : Covers [] 0 := fun _ h => absurd h (Nat.not_lt_zero _)

/-- A chunk stored at columns `lo … lo + 511` extends the covered range by 512 columns. -/
private theorem covers_cons (off : Fin 2 → Nat) (lo : Nat) (inb : ∀ a, off a + S1x512.size a ≤ S1x8192.size a)
    (w : S1x512.Idx → Elt Ideal .f32) (L : List (View.Piece (Elt Ideal) S1x8192 .f32)) (hoff : off = ![0, lo])
    (hL : Covers L lo) : Covers (⟨Rect.unit (s := S1x8192) off S1x512.size inb, w⟩ :: L) (lo + 512) := by
  intro y hy
  by_cases hlt : (y 1).val < lo
  · obtain ⟨p, hp, hm⟩ := hL y hlt
    exact ⟨p, List.mem_cons_of_mem _ hp, hm⟩
  · refine ⟨⟨Rect.unit (s := S1x8192) off S1x512.size inb, w⟩, List.mem_cons_self, ?_⟩
    show y ∈ (Rect.unit (s := S1x8192) off S1x512.size inb).set
    rw [Rect.mem_set_unit]
    intro a
    subst hoff
    match a with
    | ⟨0, _⟩ =>
      have h1' : (y 0).val < 1 := (y 0).isLt
      exact ⟨Nat.zero_le _, by show (y 0).val < 0 + 1; omega⟩
    | ⟨1, _⟩ => exact ⟨by show lo ≤ (y 1).val; omega, by show (y 1).val < lo + 512; omega⟩

/-- A chunk's piece is a block of the one function when its payload at lane `cc` is the word of column `512·g + cc`. -/
private theorem piece_chunk (g : Fin 16) (lo : Nat) (hlo : lo = 512 * g.val) (off : Fin 2 → Nat) (hoff : off = ![0, lo])
    (inb : ∀ a, off a + S1x512.size a ≤ S1x8192.size a) (w : S1x512.Idx → Elt Ideal .f32)
    (hw : ∀ cc : Fin 512, w (ix2 (0 : Fin 1) cc) = TGT x0 x1 xs3 (colOf g cc))
    (x : (Rect.unit (s := S1x8192) off S1x512.size inb).shape.Idx) :
    w x = GD x0 x1 xs3 ((Rect.unit (s := S1x8192) off S1x512.size inb).emb x) := by
  obtain ⟨u, cc, rfl⟩ : ∃ (u : Fin 1) (cc : Fin 512), x = ix2 u cc := ⟨x 0, x 1, eq_ix2 x⟩
  obtain rfl : u = 0 := Subsingleton.elim _ _
  rw [hw cc]
  refine (GD_at x0 x1 xs3 _ (colOf g cc) ?_).symm
  subst hoff
  show lo + 1 * cc.val = 512 * g.val + cc.val
  omega

/-! ## The last point's coordinates -/

/-- At the last point a chunk's store offset is row 0, column `lo`. -/
private theorem offB (off : grid0.Coords → Fin 2 → Nat) (lo : Nat) (h : ∀ i, off i = ![(i 1).val, lo]) :
    off (grid0.coords t0_1) = ![0, lo] := by
  rw [h, cB1]

/-- At the last point the row-block counter is 1 … -/
private theorem hbB : BitVec.ofNat 32 ((grid0.coords t0_1) 0).val = 1#32 := by
  rw [cB0]

/-- … so the test "is the counter zero" answers 0. -/
private theorem hvB : kernelRunB.sl.v0 (grid0.coords t0_1) = 0#1 := by
  unfold kernelRunB.sl.v0
  rw [hbB]
  exact cmpi_one

/-- The word a chunk's load finds: the buffer's word at the chunk's column. -/
private theorem cur_apply (g : Fin 16) (lo : Nat) (hlo : lo = 512 * g.val) (off : Fin 2 → Nat) (hoff : off = ![0, lo])
    (inb : ∀ a, off a + S1x512.size a ≤ S1x8192.size a) (cc : Fin 512) :
    View.readAt (Elt Ideal) scM3.view (Rect.unit (s := S1x8192) off S1x512.size inb).toLoadRect
        ((Memref.isWhole_whole cc0_scratch3 : scM3.IsWhole).unread xs3) (ix2 (0 : Fin 1) cc)
      = xs3 (ix2 (0 : Fin 1) (colOf g cc)) := by
  rw [View.readAt_apply, Memref.IsWhole.read_unread]
  subst hoff
  refine congrArg xs3 (funext fun a => Fin.ext ?_)
  match a with
  | ⟨0, _⟩ => show 0 + 1 * 0 = 0; omega
  | ⟨1, _⟩ => show lo + 1 * cc.val = 512 * g.val + cc.val; omega

/-! ## The column minimum of a chunk's product -/

/-- The column minimum of the product of the last point's row operand with chunk `g` of the column operand is the
    column's minimum of the distances over the rows 4096…8191. -/
private theorem colMinB (h0 : ∀ (r : Fin 4096) (k : Fin 256), 132 ≤ k.val → xs0 (ix2 r k) = 0)
    (h1 : ∀ (j : Fin 8192) (k : Fin 256), xs1 (ix2 j k) = Cert.Spec.yAug x1 j k) (g : Fin 16) (A : Vec Ideal S4096x256 .bf16) (hA : A = XB c x0 xs0)
    (Bm : Vec Ideal S512x256 .bf16) (hB : Bm = YB g xs1)
    (M : Vec Ideal S4096x256 .bf16 → Vec Ideal S512x256 .bf16 → FVec Ideal S4096x512 .f32) (hM : M = @k0_pay28 Ideal _)
    (cc : Fin 512) :
    colMin (M A Bm) cc = Finset.univ.inf fun r : Fin 4096 => Cert.Spec.kdist x0 x1 (Cert.Spec.rowOf 1 r) (colOf g cc) := by
  subst hA hB hM
  unfold colMin
  exact congrArg (Finset.inf Finset.univ) (funext fun r => prodB c x0 x1 g xs0 xs1 h0 h1 r cc)

/-- The stored word of a chunk whose payload is the whole fold. -/
private theorem valA (g : Fin 16)
    (P : BitVec 32 → FVec Ideal S4096x512 .f32 → Vec Ideal S1x512 .f32 → FVec Ideal S1x512 .f32) (hP : P = @k0_pay40 Ideal _)
    (b : BitVec 32) (hb : b = 1#32) (dg : FVec Ideal S4096x512 .f32)
    (hdg : ∀ cc, colMin dg cc = Finset.univ.inf fun r : Fin 4096 => Cert.Spec.kdist x0 x1 (Cert.Spec.rowOf 1 r) (colOf g cc))
    (cur : Vec Ideal S1x512 .f32) (hcur : ∀ cc, cur (ix2 (0 : Fin 1) cc) = xs3 (ix2 (0 : Fin 1) (colOf g cc))) (cc : Fin 512) :
    P b dg cur (ix2 (0 : Fin 1) cc) = TGT x0 x1 xs3 (colOf g cc) := by
  subst hP hb
  rw [pay40_one, hcur, hdg]
  rfl

/-- The stored word of a chunk whose column minimum is computed apart. -/
private theorem valB (g : Fin 16)
    (P : BitVec 32 → FVec Ideal S1x512 .f32 → Vec Ideal S1x512 .f32 → FVec Ideal S1x512 .f32) (hP : P = @k0_pay105 Ideal _)
    (b : BitVec 32) (hb : b = 1#32) (cm : FVec Ideal S1x512 .f32)
    (hcm : ∀ cc, cm (ix2 (0 : Fin 1) cc) = Finset.univ.inf fun r : Fin 4096 => Cert.Spec.kdist x0 x1 (Cert.Spec.rowOf 1 r) (colOf g cc))
    (cur : Vec Ideal S1x512 .f32) (hcur : ∀ cc, cur (ix2 (0 : Fin 1) cc) = xs3 (ix2 (0 : Fin 1) (colOf g cc))) (cc : Fin 512) :
    P b cm cur (ix2 (0 : Fin 1) cc) = TGT x0 x1 xs3 (colOf g cc) := by
  subst hP hb
  rw [pay105_one, hcur, hcm]
  rfl

/-- The running minimum of chunk 12: the word found against the column minimum of the chunk's product. -/
private theorem mnC (h0 : ∀ (r : Fin 4096) (k : Fin 256), 132 ≤ k.val → xs0 (ix2 r k) = 0)
    (h1 : ∀ (j : Fin 8192) (k : Fin 256), xs1 (ix2 j k) = Cert.Spec.yAug x1 j k)
    (A : Vec Ideal S4096x256 .bf16) (hA : A = XB c x0 xs0) (Bm : Vec Ideal S512x256 .bf16) (hB : Bm = YB 12 xs1)
    (cur : Vec Ideal S1x512 .f32) (hcur : ∀ cc, cur (ix2 (0 : Fin 1) cc) = xs3 (ix2 (0 : Fin 1) (colOf 12 cc))) (cc : Fin 512) :
    k0_pay171 (F := Ideal) A Bm cur (ix2 (0 : Fin 1) cc) = TGT x0 x1 xs3 (colOf 12 cc) := by
  rw [pay171_apply, hcur, colMinB c x0 x1 xs0 xs1 h0 h1 12 A hA Bm hB (k0_pay158 (F := Ideal)) pay158_eq cc]
  rfl

/-! ## The sixteen stores, newest first -/

private theorem ok2 (h0 : ∀ (r : Fin 4096) (k : Fin 256), 132 ≤ k.val → xs0 (ix2 r k) = 0)
    (h1 : ∀ (j : Fin 8192) (k : Fin 256), xs1 (ix2 j k) = Cert.Spec.yAug x1 j k) : PiecesOK x0 x1 xs3 (kernelRunB.sl.HS3_2 (F := Ideal) c (grid0.coords t0_1) (ms0_0 t0_1) (hs0_0 t0_1) scM0 (Memref.isWhole_whole _) scM1 (Memref.isWhole_whole _) scM3 (Memref.isWhole_whole _) hB2 x0 xs0 xs1 xs3) := by
  unfold kernelRunB.sl.HS3_2
  exact ok_cons x0 x1 xs3 _ _ (piece_chunk x0 x1 xs3 1 512 rfl (k0_off32 (grid0.coords t0_1)) (offB _ 512 k0_off32_eq) (k0_off32_inb (grid0.coords t0_1)) _ fun cc =>
      valA x0 x1 xs3 1 (k0_pay51 (F := Ideal)) pay51_eq _ hbB _
        (fun cc => colMinB c x0 x1 xs0 xs1 h0 h1 1 _ rfl _ (loadYB_eq 1 xs1) (k0_pay37 (F := Ideal)) pay37_eq cc) _
        (fun cc => cur_apply xs3 1 512 rfl _ (offB _ 512 k0_off32_eq) _ cc) cc) <|
    ok_cons x0 x1 xs3 _ _ (piece_chunk x0 x1 xs3 0 0 rfl (k0_off24 (grid0.coords t0_1)) (offB _ 0 k0_off24_eq) (k0_off24_inb (grid0.coords t0_1)) _ fun cc =>
      valA x0 x1 xs3 0 (k0_pay40 (F := Ideal)) rfl _ hbB _
        (fun cc => colMinB c x0 x1 xs0 xs1 h0 h1 0 _ rfl _ (loadYB_eq 0 xs1) (k0_pay28 (F := Ideal)) rfl cc) _
        (fun cc => cur_apply xs3 0 0 rfl _ (offB _ 0 k0_off24_eq) _ cc) cc) <|
    ok_nil x0 x1 xs3

private theorem cov2 : Covers (kernelRunB.sl.HS3_2 (F := Ideal) c (grid0.coords t0_1) (ms0_0 t0_1) (hs0_0 t0_1) scM0 (Memref.isWhole_whole _) scM1 (Memref.isWhole_whole _) scM3 (Memref.isWhole_whole _) hB2 x0 xs0 xs1 xs3) 1024 := by
  unfold kernelRunB.sl.HS3_2
  exact covers_cons _ 512 _ _ _ (offB _ 512 k0_off32_eq) <|
    covers_cons _ 0 _ _ _ (offB _ 0 k0_off24_eq) <|
    covers_nil

private theorem ok3 (h0 : ∀ (r : Fin 4096) (k : Fin 256), 132 ≤ k.val → xs0 (ix2 r k) = 0)
    (h1 : ∀ (j : Fin 8192) (k : Fin 256), xs1 (ix2 j k) = Cert.Spec.yAug x1 j k) : PiecesOK x0 x1 xs3 (kernelRunB.sl.HS3_3 (F := Ideal) c (grid0.coords t0_1) (ms0_0 t0_1) (hs0_0 t0_1) scM0 (Memref.isWhole_whole _) scM1 (Memref.isWhole_whole _) scM3 (Memref.isWhole_whole _) hB2 x0 xs0 xs1 xs3) := by
  unfold kernelRunB.sl.HS3_3
  exact ok_cons x0 x1 xs3 _ _ (piece_chunk x0 x1 xs3 2 1024 rfl (k0_off40 (grid0.coords t0_1)) (offB _ 1024 k0_off40_eq) (k0_off40_inb (grid0.coords t0_1)) _ fun cc =>
      valA x0 x1 xs3 2 (k0_pay61 (F := Ideal)) pay61_eq _ hbB _
        (fun cc => colMinB c x0 x1 xs0 xs1 h0 h1 2 _ rfl _ (loadYB_eq 2 xs1) (k0_pay49 (F := Ideal)) pay49_eq cc) _
        (fun cc => cur_apply xs3 2 1024 rfl _ (offB _ 1024 k0_off40_eq) _ cc) cc) <|
    ok2 c x0 x1 xs0 xs1 xs3 h0 h1

private theorem cov3 : Covers (kernelRunB.sl.HS3_3 (F := Ideal) c (grid0.coords t0_1) (ms0_0 t0_1) (hs0_0 t0_1) scM0 (Memref.isWhole_whole _) scM1 (Memref.isWhole_whole _) scM3 (Memref.isWhole_whole _) hB2 x0 xs0 xs1 xs3) 1536 := by
  unfold kernelRunB.sl.HS3_3
  exact covers_cons _ 1024 _ _ _ (offB _ 1024 k0_off40_eq) <|
    cov2 c x0 xs0 xs1 xs3

private theorem ok5 (h0 : ∀ (r : Fin 4096) (k : Fin 256), 132 ≤ k.val → xs0 (ix2 r k) = 0)
    (h1 : ∀ (j : Fin 8192) (k : Fin 256), xs1 (ix2 j k) = Cert.Spec.yAug x1 j k) : PiecesOK x0 x1 xs3 (kernelRunB.sl.HS3_5 (F := Ideal) c (grid0.coords t0_1) (ms0_0 t0_1) (hs0_0 t0_1) scM0 (Memref.isWhole_whole _) scM1 (Memref.isWhole_whole _) scM3 (Memref.isWhole_whole _) hB2 x0 xs0 xs1 xs3) := by
  unfold kernelRunB.sl.HS3_5
  exact ok_cons x0 x1 xs3 _ _ (piece_chunk x0 x1 xs3 4 2048 rfl (k0_off56 (grid0.coords t0_1)) (offB _ 2048 k0_off56_eq) (k0_off56_inb (grid0.coords t0_1)) _ fun cc =>
      valA x0 x1 xs3 4 (k0_pay83 (F := Ideal)) pay83_eq _ hbB _
        (fun cc => colMinB c x0 x1 xs0 xs1 h0 h1 4 _ rfl _ (loadYB_eq 4 xs1) (k0_pay70 (F := Ideal)) pay70_eq cc) _
        (fun cc => cur_apply xs3 4 2048 rfl _ (offB _ 2048 k0_off56_eq) _ cc) cc) <|
    ok_cons x0 x1 xs3 _ _ (piece_chunk x0 x1 xs3 3 1536 rfl (k0_off48 (grid0.coords t0_1)) (offB _ 1536 k0_off48_eq) (k0_off48_inb (grid0.coords t0_1)) _ fun cc =>
      valA x0 x1 xs3 3 (k0_pay72 (F := Ideal)) pay72_eq _ hbB _
        (fun cc => colMinB c x0 x1 xs0 xs1 h0 h1 3 _ rfl _ (loadYB_eq 3 xs1) (k0_pay60 (F := Ideal)) pay60_eq cc) _
        (fun cc => cur_apply xs3 3 1536 rfl _ (offB _ 1536 k0_off48_eq) _ cc) cc) <|
    ok3 c x0 x1 xs0 xs1 xs3 h0 h1

private theorem cov5 : Covers (kernelRunB.sl.HS3_5 (F := Ideal) c (grid0.coords t0_1) (ms0_0 t0_1) (hs0_0 t0_1) scM0 (Memref.isWhole_whole _) scM1 (Memref.isWhole_whole _) scM3 (Memref.isWhole_whole _) hB2 x0 xs0 xs1 xs3) 2560 := by
  unfold kernelRunB.sl.HS3_5
  exact covers_cons _ 2048 _ _ _ (offB _ 2048 k0_off56_eq) <|
    covers_cons _ 1536 _ _ _ (offB _ 1536 k0_off48_eq) <|
    cov3 c x0 xs0 xs1 xs3

private theorem ok6 (h0 : ∀ (r : Fin 4096) (k : Fin 256), 132 ≤ k.val → xs0 (ix2 r k) = 0)
    (h1 : ∀ (j : Fin 8192) (k : Fin 256), xs1 (ix2 j k) = Cert.Spec.yAug x1 j k) : PiecesOK x0 x1 xs3 (kernelRunB.sl.HS3_6 (F := Ideal) c (grid0.coords t0_1) (ms0_0 t0_1) (hs0_0 t0_1) scM0 (Memref.isWhole_whole _) scM1 (Memref.isWhole_whole _) scM3 (Memref.isWhole_whole _) hB2 x0 xs0 xs1 xs3) := by
  unfold kernelRunB.sl.HS3_6
  exact ok_cons x0 x1 xs3 _ _ (piece_chunk x0 x1 xs3 5 2560 rfl (k0_off64 (grid0.coords t0_1)) (offB _ 2560 k0_off64_eq) (k0_off64_inb (grid0.coords t0_1)) _ fun cc =>
      valA x0 x1 xs3 5 (k0_pay93 (F := Ideal)) pay93_eq _ hbB _
        (fun cc => colMinB c x0 x1 xs0 xs1 h0 h1 5 _ rfl _ (loadYB_eq 5 xs1) (k0_pay81 (F := Ideal)) pay81_eq cc) _
        (fun cc => cur_apply xs3 5 2560 rfl _ (offB _ 2560 k0_off64_eq) _ cc) cc) <|
    ok5 c x0 x1 xs0 xs1 xs3 h0 h1

private theorem cov6 : Covers (kernelRunB.sl.HS3_6 (F := Ideal) c (grid0.coords t0_1) (ms0_0 t0_1) (hs0_0 t0_1) scM0 (Memref.isWhole_whole _) scM1 (Memref.isWhole_whole _) scM3 (Memref.isWhole_whole _) hB2 x0 xs0 xs1 xs3) 3072 := by
  unfold kernelRunB.sl.HS3_6
  exact covers_cons _ 2560 _ _ _ (offB _ 2560 k0_off64_eq) <|
    cov5 c x0 xs0 xs1 xs3

private theorem ok8 (h0 : ∀ (r : Fin 4096) (k : Fin 256), 132 ≤ k.val → xs0 (ix2 r k) = 0)
    (h1 : ∀ (j : Fin 8192) (k : Fin 256), xs1 (ix2 j k) = Cert.Spec.yAug x1 j k) : PiecesOK x0 x1 xs3 (kernelRunB.sl.HS3_8 (F := Ideal) c (grid0.coords t0_1) (ms0_0 t0_1) (hs0_0 t0_1) scM0 (Memref.isWhole_whole _) scM1 (Memref.isWhole_whole _) scM3 (Memref.isWhole_whole _) hB2 x0 xs0 xs1 xs3) := by
  unfold kernelRunB.sl.HS3_8
  exact ok_cons x0 x1 xs3 _ _ (piece_chunk x0 x1 xs3 7 3584 rfl (k0_off80 (grid0.coords t0_1)) (offB _ 3584 k0_off80_eq) (k0_off80_inb (grid0.coords t0_1)) _ fun cc =>
      valA x0 x1 xs3 7 (k0_pay116 (F := Ideal)) pay116_eq _ hbB _
        (fun cc => colMinB c x0 x1 xs0 xs1 h0 h1 7 _ rfl _ (loadYB_eq 7 xs1) (k0_pay102 (F := Ideal)) pay102_eq cc) _
        (fun cc => cur_apply xs3 7 3584 rfl _ (offB _ 3584 k0_off80_eq) _ cc) cc) <|
    ok_cons x0 x1 xs3 _ _ (piece_chunk x0 x1 xs3 6 3072 rfl (k0_off72 (grid0.coords t0_1)) (offB _ 3072 k0_off72_eq) (k0_off72_inb (grid0.coords t0_1)) _ fun cc =>
      valB x0 x1 xs3 6 (k0_pay105 (F := Ideal)) rfl _ hbB _
        (fun cc => (pay104_apply _ _ cc).trans
          (colMinB c x0 x1 xs0 xs1 h0 h1 6 _ rfl _ (loadYB_eq 6 xs1) (k0_pay92 (F := Ideal)) pay92_eq cc)) _
        (fun cc => cur_apply xs3 6 3072 rfl _ (offB _ 3072 k0_off72_eq) _ cc) cc) <|
    ok6 c x0 x1 xs0 xs1 xs3 h0 h1

private theorem cov8 : Covers (kernelRunB.sl.HS3_8 (F := Ideal) c (grid0.coords t0_1) (ms0_0 t0_1) (hs0_0 t0_1) scM0 (Memref.isWhole_whole _) scM1 (Memref.isWhole_whole _) scM3 (Memref.isWhole_whole _) hB2 x0 xs0 xs1 xs3) 4096 := by
  unfold kernelRunB.sl.HS3_8
  exact covers_cons _ 3584 _ _ _ (offB _ 3584 k0_off80_eq) <|
    covers_cons _ 3072 _ _ _ (offB _ 3072 k0_off72_eq) <|
    cov6 c x0 xs0 xs1 xs3

private theorem ok9 (h0 : ∀ (r : Fin 4096) (k : Fin 256), 132 ≤ k.val → xs0 (ix2 r k) = 0)
    (h1 : ∀ (j : Fin 8192) (k : Fin 256), xs1 (ix2 j k) = Cert.Spec.yAug x1 j k) : PiecesOK x0 x1 xs3 (kernelRunB.sl.HS3_9 (F := Ideal) c (grid0.coords t0_1) (ms0_0 t0_1) (hs0_0 t0_1) scM0 (Memref.isWhole_whole _) scM1 (Memref.isWhole_whole _) scM3 (Memref.isWhole_whole _) hB2 x0 xs0 xs1 xs3) := by
  unfold kernelRunB.sl.HS3_9
  exact ok_cons x0 x1 xs3 _ _ (piece_chunk x0 x1 xs3 8 4096 rfl (k0_off88 (grid0.coords t0_1)) (offB _ 4096 k0_off88_eq) (k0_off88_inb (grid0.coords t0_1)) _ fun cc =>
      valA x0 x1 xs3 8 (k0_pay126 (F := Ideal)) pay126_eq _ hbB _
        (fun cc => colMinB c x0 x1 xs0 xs1 h0 h1 8 _ rfl _ (loadYB_eq 8 xs1) (k0_pay114 (F := Ideal)) pay114_eq cc) _
        (fun cc => cur_apply xs3 8 4096 rfl _ (offB _ 4096 k0_off88_eq) _ cc) cc) <|
    ok8 c x0 x1 xs0 xs1 xs3 h0 h1

private theorem cov9 : Covers (kernelRunB.sl.HS3_9 (F := Ideal) c (grid0.coords t0_1) (ms0_0 t0_1) (hs0_0 t0_1) scM0 (Memref.isWhole_whole _) scM1 (Memref.isWhole_whole _) scM3 (Memref.isWhole_whole _) hB2 x0 xs0 xs1 xs3) 4608 := by
  unfold kernelRunB.sl.HS3_9
  exact covers_cons _ 4096 _ _ _ (offB _ 4096 k0_off88_eq) <|
    cov8 c x0 xs0 xs1 xs3

private theorem ok11 (h0 : ∀ (r : Fin 4096) (k : Fin 256), 132 ≤ k.val → xs0 (ix2 r k) = 0)
    (h1 : ∀ (j : Fin 8192) (k : Fin 256), xs1 (ix2 j k) = Cert.Spec.yAug x1 j k) : PiecesOK x0 x1 xs3 (kernelRunB.sl.HS3_11 (F := Ideal) c (grid0.coords t0_1) (ms0_0 t0_1) (hs0_0 t0_1) scM0 (Memref.isWhole_whole _) scM1 (Memref.isWhole_whole _) scM3 (Memref.isWhole_whole _) hB2 x0 xs0 xs1 xs3) := by
  unfold kernelRunB.sl.HS3_11
  exact ok_cons x0 x1 xs3 _ _ (piece_chunk x0 x1 xs3 10 5120 rfl (k0_off104 (grid0.coords t0_1)) (offB _ 5120 k0_off104_eq) (k0_off104_inb (grid0.coords t0_1)) _ fun cc =>
      valA x0 x1 xs3 10 (k0_pay149 (F := Ideal)) pay149_eq _ hbB _
        (fun cc => colMinB c x0 x1 xs0 xs1 h0 h1 10 _ rfl _ (loadYB_eq 10 xs1) (k0_pay135 (F := Ideal)) pay135_eq cc) _
        (fun cc => cur_apply xs3 10 5120 rfl _ (offB _ 5120 k0_off104_eq) _ cc) cc) <|
    ok_cons x0 x1 xs3 _ _ (piece_chunk x0 x1 xs3 9 4608 rfl (k0_off96 (grid0.coords t0_1)) (offB _ 4608 k0_off96_eq) (k0_off96_inb (grid0.coords t0_1)) _ fun cc =>
      valB x0 x1 xs3 9 (k0_pay138 (F := Ideal)) pay138_eq _ hbB _
        (fun cc => (pay137_apply _ _ cc).trans
          (colMinB c x0 x1 xs0 xs1 h0 h1 9 _ rfl _ (loadYB_eq 9 xs1) (k0_pay125 (F := Ideal)) pay125_eq cc)) _
        (fun cc => cur_apply xs3 9 4608 rfl _ (offB _ 4608 k0_off96_eq) _ cc) cc) <|
    ok9 c x0 x1 xs0 xs1 xs3 h0 h1

private theorem cov11 : Covers (kernelRunB.sl.HS3_11 (F := Ideal) c (grid0.coords t0_1) (ms0_0 t0_1) (hs0_0 t0_1) scM0 (Memref.isWhole_whole _) scM1 (Memref.isWhole_whole _) scM3 (Memref.isWhole_whole _) hB2 x0 xs0 xs1 xs3) 5632 := by
  unfold kernelRunB.sl.HS3_11
  exact covers_cons _ 5120 _ _ _ (offB _ 5120 k0_off104_eq) <|
    covers_cons _ 4608 _ _ _ (offB _ 4608 k0_off96_eq) <|
    cov9 c x0 xs0 xs1 xs3

private theorem ok12 (h0 : ∀ (r : Fin 4096) (k : Fin 256), 132 ≤ k.val → xs0 (ix2 r k) = 0)
    (h1 : ∀ (j : Fin 8192) (k : Fin 256), xs1 (ix2 j k) = Cert.Spec.yAug x1 j k) : PiecesOK x0 x1 xs3 (kernelRunB.sl.HS3_12 (F := Ideal) c (grid0.coords t0_1) (ms0_0 t0_1) (hs0_0 t0_1) scM0 (Memref.isWhole_whole _) scM1 (Memref.isWhole_whole _) scM3 (Memref.isWhole_whole _) hB2 x0 xs0 xs1 xs3) := by
  unfold kernelRunB.sl.HS3_12
  exact ok_cons x0 x1 xs3 _ _ (piece_chunk x0 x1 xs3 11 5632 rfl (k0_off112 (grid0.coords t0_1)) (offB _ 5632 k0_off112_eq) (k0_off112_inb (grid0.coords t0_1)) _ fun cc =>
      valA x0 x1 xs3 11 (k0_pay159 (F := Ideal)) pay159_eq _ hbB _
        (fun cc => colMinB c x0 x1 xs0 xs1 h0 h1 11 _ rfl _ (loadYB_eq 11 xs1) (k0_pay147 (F := Ideal)) pay147_eq cc) _
        (fun cc => cur_apply xs3 11 5632 rfl _ (offB _ 5632 k0_off112_eq) _ cc) cc) <|
    ok11 c x0 x1 xs0 xs1 xs3 h0 h1

private theorem cov12 : Covers (kernelRunB.sl.HS3_12 (F := Ideal) c (grid0.coords t0_1) (ms0_0 t0_1) (hs0_0 t0_1) scM0 (Memref.isWhole_whole _) scM1 (Memref.isWhole_whole _) scM3 (Memref.isWhole_whole _) hB2 x0 xs0 xs1 xs3) 6144 := by
  unfold kernelRunB.sl.HS3_12
  exact covers_cons _ 5632 _ _ _ (offB _ 5632 k0_off112_eq) <|
    cov11 c x0 xs0 xs1 xs3

private theorem ok14 (h0 : ∀ (r : Fin 4096) (k : Fin 256), 132 ≤ k.val → xs0 (ix2 r k) = 0)
    (h1 : ∀ (j : Fin 8192) (k : Fin 256), xs1 (ix2 j k) = Cert.Spec.yAug x1 j k) : PiecesOK x0 x1 xs3 (kernelRunB.sl.HS3_14 (F := Ideal) c (grid0.coords t0_1) (ms0_0 t0_1) (hs0_0 t0_1) scM0 (Memref.isWhole_whole _) scM1 (Memref.isWhole_whole _) scM3 (Memref.isWhole_whole _) hB2 x0 xs0 xs1 xs3) := by
  unfold kernelRunB.sl.HS3_14
  refine ok_cons x0 x1 xs3 _ _ (piece_chunk x0 x1 xs3 13 6656 rfl (k0_off128 (grid0.coords t0_1)) (offB _ 6656 k0_off128_eq) (k0_off128_inb (grid0.coords t0_1)) _ fun cc =>
      valA x0 x1 xs3 13 (k0_pay183 (F := Ideal)) pay183_eq _ hbB _
        (fun cc => colMinB c x0 x1 xs0 xs1 h0 h1 13 _ rfl _ (loadYB_eq 13 xs1) (k0_pay168 (F := Ideal)) pay168_eq cc) _
        (fun cc => cur_apply xs3 13 6656 rfl _ (offB _ 6656 k0_off128_eq) _ cc) cc) <|
    ok_cons x0 x1 xs3 _ _ ?_ (ok12 c x0 x1 xs0 xs1 xs3 h0 h1)
  refine piece_chunk x0 x1 xs3 12 6144 rfl (k0_off120 (grid0.coords t0_1)) (offB _ 6144 k0_off120_eq) (k0_off120_inb (grid0.coords t0_1)) _ fun cc => ?_
  dsimp only
  rw [hvB, pay172_zero]
  unfold kernelRunB.sl.r_25
  exact mnC c x0 x1 xs0 xs1 xs3 h0 h1 _ rfl _ (loadYB_eq 12 xs1) _
    (fun cc => cur_apply xs3 12 6144 rfl _ (offB _ 6144 k0_off120_eq) _ cc) cc

private theorem cov14 : Covers (kernelRunB.sl.HS3_14 (F := Ideal) c (grid0.coords t0_1) (ms0_0 t0_1) (hs0_0 t0_1) scM0 (Memref.isWhole_whole _) scM1 (Memref.isWhole_whole _) scM3 (Memref.isWhole_whole _) hB2 x0 xs0 xs1 xs3) 7168 := by
  unfold kernelRunB.sl.HS3_14
  exact covers_cons _ 6656 _ _ _ (offB _ 6656 k0_off128_eq) <|
    covers_cons _ 6144 _ _ _ (offB _ 6144 k0_off120_eq) <|
    cov12 c x0 xs0 xs1 xs3

private theorem ok16 (h0 : ∀ (r : Fin 4096) (k : Fin 256), 132 ≤ k.val → xs0 (ix2 r k) = 0)
    (h1 : ∀ (j : Fin 8192) (k : Fin 256), xs1 (ix2 j k) = Cert.Spec.yAug x1 j k) : PiecesOK x0 x1 xs3 (kernelRunB.sl.HS3_16 (F := Ideal) c (grid0.coords t0_1) (ms0_0 t0_1) (hs0_0 t0_1) scM0 (Memref.isWhole_whole _) scM1 (Memref.isWhole_whole _) scM3 (Memref.isWhole_whole _) hB2 x0 xs0 xs1 xs3) := by
  unfold kernelRunB.sl.HS3_16
  exact ok_cons x0 x1 xs3 _ _ (piece_chunk x0 x1 xs3 15 7680 rfl (k0_off130 (grid0.coords t0_1)) (offB _ 7680 k0_off130_eq) (k0_off130_inb (grid0.coords t0_1)) _ fun cc =>
      valA x0 x1 xs3 15 (k0_pay187 (F := Ideal)) pay187_eq _ hbB _
        (fun cc => colMinB c x0 x1 xs0 xs1 h0 h1 15 _ rfl _ (loadYB_eq 15 xs1) (k0_pay184 (F := Ideal)) pay184_eq cc) _
        (fun cc => cur_apply xs3 15 7680 rfl _ (offB _ 7680 k0_off130_eq) _ cc) cc) <|
    ok_cons x0 x1 xs3 _ _ (piece_chunk x0 x1 xs3 14 7168 rfl (k0_off129 (grid0.coords t0_1)) (offB _ 7168 k0_off129_eq) (k0_off129_inb (grid0.coords t0_1)) _ fun cc =>
      valA x0 x1 xs3 14 (k0_pay186 (F := Ideal)) pay186_eq _ hbB _
        (fun cc => colMinB c x0 x1 xs0 xs1 h0 h1 14 _ rfl _ (loadYB_eq 14 xs1) (k0_pay181 (F := Ideal)) pay181_eq cc) _
        (fun cc => cur_apply xs3 14 7168 rfl _ (offB _ 7168 k0_off129_eq) _ cc) cc) <|
    ok14 c x0 x1 xs0 xs1 xs3 h0 h1

private theorem cov16 : Covers (kernelRunB.sl.HS3_16 (F := Ideal) c (grid0.coords t0_1) (ms0_0 t0_1) (hs0_0 t0_1) scM0 (Memref.isWhole_whole _) scM1 (Memref.isWhole_whole _) scM3 (Memref.isWhole_whole _) hB2 x0 xs0 xs1 xs3) 8192 := by
  unfold kernelRunB.sl.HS3_16
  exact covers_cons _ 7680 _ _ _ (offB _ 7680 k0_off130_eq) <|
    covers_cons _ 7168 _ _ _ (offB _ 7168 k0_off129_eq) <|
    cov14 c x0 xs0 xs1 xs3

/-- The whole-buffer load's box places an index at itself. -/
private theorem whole_idxD (inb : ∀ a, ![0, 0] a + S1x8192.size a ≤ S1x8192.size a) (j : Fin 8192) :
    (Rect.unit (s := S1x8192) ![0, 0] S1x8192.size inb).toLoadRect.idx (ix2 (0 : Fin 1) j) = ix2 (0 : Fin 1) j :=
  funext fun a => Fin.ext (by
    match a with
    | ⟨0, _⟩ => show 0 + 1 * 0 = 0; omega
    | ⟨1, _⟩ => show 0 + 1 * j.val = j.val; omega)

end Chain

/-- After the last point the column-minimum buffer holds, at column `j`, the minimum of the word it held and the
    column's minimum of the distances over the rows 4096…8191. -/
theorem D2B_apply (c : Dev nD) (x0 x1 : Vec Ideal S8192x128 .f32) (xs0 : Vec Ideal S4096x256 .bf16) (xs1 : Vec Ideal S8192x256 .bf16) (xs3 : Vec Ideal S1x8192 .f32)
    (h0 : ∀ (r : Fin 4096) (k : Fin 256), 132 ≤ k.val → xs0 (ix2 r k) = 0)
    (h1 : ∀ (j : Fin 8192) (k : Fin 256), xs1 (ix2 j k) = Cert.Spec.yAug x1 j k) (j : Fin 8192) :
    D2B c x0 xs0 xs1 xs3 (ix2 0 j) = min (xs3 (ix2 0 j)) (Finset.univ.inf fun r : Fin 4096 => Cert.Spec.kdist x0 x1 (Cert.Spec.rowOf 1 r) j) := by
  unfold D2B kernelRunB.sl.v460
  rw [View.readAt_apply, whole_idxD]
  have hc := cov16 c x0 xs0 xs1 xs3 (ix2 (0 : Fin 1) j) (by show j.val < 8192; exact j.isLt)
  rw [View.read_writes_apply_eq_canon _ _ _ _ hc]
  exact (View.canon_apply_of_pieces (GD x0 x1 xs3) _ (ok16 c x0 x1 xs0 xs1 xs3 h0 h1) _ hc).trans
    (GD_at x0 x1 xs3 _ j rfl)

end Cert.KernelIdealHand

end
-- ==== Proof.KernelIdealHand.VPayRowMin.lean ====
import proofs.«173679_g9887014716187_cont_9to1c4b_714_26_alg».proof.Proof.Gen.KernelIdeal.Skeleton
import proofs.«173679_g9887014716187_cont_9to1c4b_714_26_alg».proof.Proof.Spec
import proofs.«173679_g9887014716187_cont_9to1c4b_714_26_alg».proof.Proof.Consts
import Idealize.ShloMosaic.Lib.ValueIdx
import Idealize.ShloMosaic.Lib.ValueLayout
import Idealize.ShloMosaic.PureOps.Ideal.Laws
import Mathlib.Order.CompleteLattice.Finset
import Mathlib.Data.EReal.Basic

/-!
  The row-minimum side of the chamfer kernel, read entry by entry over the extended reals.

  Every product block is 4096 × 512; the kernel keeps, per row `r` and lane `l < 128`, the minimum of the entries in
  the columns `l`, `128 + l`, `256 + l`, `384 + l` of every block met so far. A minimum is characterised by its lower
  bounds: `z ≤ min a b ↔ z ≤ a ∧ z ≤ b`. Each step of the chain is therefore stated as "`z` is below the step's value at
  `(r, l)` exactly when it is below each of the entries the step folds in". The last step reduces the 128 lanes of a row
  to the row's minimum, clamps it at zero, sums the 4096 clamped minima and adds the sum to the running total.
-/

set_option maxRecDepth 16384

noncomputable section

namespace Cert.KernelIdealHand.VPay

open Cert.KernelIdeal Cert.KernelIdeal.Gen Idealize.ShloMosaic Idealize.ShloMosaic.ValueIdx

/-! ## The four columns a lane meets in a block of width 512 -/

/-- Column `l`. -/
abbrev col0 (l : Fin 128) : Fin 512 := ⟨l.val, by have := l.isLt; omega⟩
/-- Column `128 + l`. -/
abbrev col1 (l : Fin 128) : Fin 512 := ⟨128 + l.val, by have := l.isLt; omega⟩
/-- Column `256 + l`. -/
abbrev col2 (l : Fin 128) : Fin 512 := ⟨256 + l.val, by have := l.isLt; omega⟩
/-- Column `384 + l`. -/
abbrev col3 (l : Fin 128) : Fin 512 := ⟨384 + l.val, by have := l.isLt; omega⟩

/-! ## A 128-wide slice of a block, read at an entry -/

/-- The slice from column 0 reads, at `(r, l)`, the block at `(r, l)`. -/
theorem slice0_apply (dg : FVec Ideal S4096x512 .f32) (r : Fin 4096) (l : Fin 128) :
    extractStridedSlice S4096x128 ![0, 0] dg slices_S4096x512_o0_0_S4096x128 (ix2 r l) = dg (ix2 r (col0 l)) :=
  slice2_axis1_apply 0 dg slices_S4096x512_o0_0_S4096x128 r l (col0 l) (Nat.zero_add _).symm

/-- The slice from column 128 reads, at `(r, l)`, the block at `(r, 128 + l)`. -/
theorem slice1_apply (dg : FVec Ideal S4096x512 .f32) (r : Fin 4096) (l : Fin 128) :
    extractStridedSlice S4096x128 ![0, 128] dg slices_S4096x512_o0_128_S4096x128 (ix2 r l) = dg (ix2 r (col1 l)) :=
  slice2_axis1_apply 128 dg slices_S4096x512_o0_128_S4096x128 r l (col1 l) rfl

/-- The slice from column 256 reads, at `(r, l)`, the block at `(r, 256 + l)`. -/
theorem slice2_apply (dg : FVec Ideal S4096x512 .f32) (r : Fin 4096) (l : Fin 128) :
    extractStridedSlice S4096x128 ![0, 256] dg slices_S4096x512_o0_256_S4096x128 (ix2 r l) = dg (ix2 r (col2 l)) :=
  slice2_axis1_apply 256 dg slices_S4096x512_o0_256_S4096x128 r l (col2 l) rfl

/-- The slice from column 384 reads, at `(r, l)`, the block at `(r, 384 + l)`. -/
theorem slice3_apply (dg : FVec Ideal S4096x512 .f32) (r : Fin 4096) (l : Fin 128) :
    extractStridedSlice S4096x128 ![0, 384] dg slices_S4096x512_o0_384_S4096x128 (ix2 r l) = dg (ix2 r (col3 l)) :=
  slice2_axis1_apply 384 dg slices_S4096x512_o0_384_S4096x128 r l (col3 l) rfl

/-! ## The chain of lane minima -/

/-- The first two slices of the product formed on the spot: the minimum of its columns `l` and `128 + l`. -/
theorem pay38_le_iff (v8 : Vec Ideal S4096x256 .bf16) (v18 : Vec Ideal S512x256 .bf16) (z : EReal) (r : Fin 4096)
    (l : Fin 128) :
    z ≤ k0_pay38 v8 v18 (ix2 r l)
      ↔ z ≤ k0_pay28 v8 v18 (ix2 r (col0 l)) ∧ z ≤ k0_pay28 v8 v18 (ix2 r (col1 l)) := by
  unfold k0_pay38
  simp only [minimumf_apply, slice0_apply, slice1_apply, le_min_iff]

/-- The third slice alone of the same product: its column `256 + l`. -/
theorem pay39_apply (v8 : Vec Ideal S4096x256 .bf16) (v18 : Vec Ideal S512x256 .bf16) (r : Fin 4096) (l : Fin 128) :
    k0_pay39 v8 v18 (ix2 r l) = k0_pay28 v8 v18 (ix2 r (col2 l)) := by
  unfold k0_pay39
  exact slice2_apply _ r l

/-- The same as a lower-bound statement. -/
theorem pay39_le_iff (v8 : Vec Ideal S4096x256 .bf16) (v18 : Vec Ideal S512x256 .bf16) (z : EReal) (r : Fin 4096)
    (l : Fin 128) :
    z ≤ k0_pay39 v8 v18 (ix2 r l) ↔ z ≤ k0_pay28 v8 v18 (ix2 r (col2 l)) := by
  rw [pay39_apply]

/-- The two carried partials `v30` and `v31`, the fourth slice of the block `v19`, then the four slices of the block
    `v27`. -/
theorem pay50_le_iff (v19 v27 : FVec Ideal S4096x512 .f32) (v30 v31 : FVec Ideal S4096x128 .f32) (z : EReal)
    (r : Fin 4096) (l : Fin 128) :
    z ≤ k0_pay50 v19 v27 v30 v31 (ix2 r l)
      ↔ z ≤ v30 (ix2 r l) ∧ z ≤ v31 (ix2 r l) ∧ z ≤ v19 (ix2 r (col3 l))
        ∧ z ≤ v27 (ix2 r (col0 l)) ∧ z ≤ v27 (ix2 r (col1 l)) ∧ z ≤ v27 (ix2 r (col2 l)) ∧ z ≤ v27 (ix2 r (col3 l)) := by
  unfold k0_pay50
  simp only [minimumf_apply, slice0_apply, slice1_apply, slice2_apply, slice3_apply, le_min_iff, and_assoc]

/-- One block folded into the carried partial: the partial, then the block's four slices. -/
theorem pay82_le_iff (v107 : FVec Ideal S4096x512 .f32) (v115 : FVec Ideal S4096x128 .f32) (z : EReal) (r : Fin 4096)
    (l : Fin 128) :
    z ≤ k0_pay82 v107 v115 (ix2 r l)
      ↔ z ≤ v115 (ix2 r l)
        ∧ z ≤ v107 (ix2 r (col0 l)) ∧ z ≤ v107 (ix2 r (col1 l)) ∧ z ≤ v107 (ix2 r (col2 l)) ∧ z ≤ v107 (ix2 r (col3 l)) := by
  unfold k0_pay82
  simp only [minimumf_apply, slice0_apply, slice1_apply, slice2_apply, slice3_apply, le_min_iff, and_assoc]

/-- The three later steps that fold one block are the same function. -/
theorem pay115_eq : @k0_pay115 Ideal _ = @k0_pay82 Ideal _ := rfl
theorem pay148_eq : @k0_pay148 Ideal _ = @k0_pay82 Ideal _ := rfl
theorem pay182_eq : @k0_pay182 Ideal _ = @k0_pay82 Ideal _ := rfl

theorem pay115_le_iff (v188 : FVec Ideal S4096x512 .f32) (v196 : FVec Ideal S4096x128 .f32) (z : EReal) (r : Fin 4096)
    (l : Fin 128) :
    z ≤ k0_pay115 v188 v196 (ix2 r l)
      ↔ z ≤ v196 (ix2 r l)
        ∧ z ≤ v188 (ix2 r (col0 l)) ∧ z ≤ v188 (ix2 r (col1 l)) ∧ z ≤ v188 (ix2 r (col2 l)) ∧ z ≤ v188 (ix2 r (col3 l)) :=
  pay82_le_iff v188 v196 z r l

theorem pay148_le_iff (v269 : FVec Ideal S4096x512 .f32) (v277 : FVec Ideal S4096x128 .f32) (z : EReal) (r : Fin 4096)
    (l : Fin 128) :
    z ≤ k0_pay148 v269 v277 (ix2 r l)
      ↔ z ≤ v277 (ix2 r l)
        ∧ z ≤ v269 (ix2 r (col0 l)) ∧ z ≤ v269 (ix2 r (col1 l)) ∧ z ≤ v269 (ix2 r (col2 l)) ∧ z ≤ v269 (ix2 r (col3 l)) :=
  pay82_le_iff v269 v277 z r l

theorem pay182_le_iff (v350 : FVec Ideal S4096x512 .f32) (v358 : FVec Ideal S4096x128 .f32) (z : EReal) (r : Fin 4096)
    (l : Fin 128) :
    z ≤ k0_pay182 v350 v358 (ix2 r l)
      ↔ z ≤ v358 (ix2 r l)
        ∧ z ≤ v350 (ix2 r (col0 l)) ∧ z ≤ v350 (ix2 r (col1 l)) ∧ z ≤ v350 (ix2 r (col2 l)) ∧ z ≤ v350 (ix2 r (col3 l)) :=
  pay82_le_iff v350 v358 z r l

/-- Two blocks folded into the carried partial, the second one a product formed on the spot: the partial, the first
    block's four slices, the product's four slices. -/
theorem pay71_le_iff (v8 : Vec Ideal S4096x256 .bf16) (v53 : FVec Ideal S4096x512 .f32) (v61 : FVec Ideal S4096x128 .f32)
    (v79 : Vec Ideal S512x256 .bf16) (z : EReal) (r : Fin 4096) (l : Fin 128) :
    z ≤ k0_pay71 v8 v53 v61 v79 (ix2 r l)
      ↔ z ≤ v61 (ix2 r l)
        ∧ z ≤ v53 (ix2 r (col0 l)) ∧ z ≤ v53 (ix2 r (col1 l)) ∧ z ≤ v53 (ix2 r (col2 l)) ∧ z ≤ v53 (ix2 r (col3 l))
        ∧ z ≤ k0_pay60 v8 v79 (ix2 r (col0 l)) ∧ z ≤ k0_pay60 v8 v79 (ix2 r (col1 l))
        ∧ z ≤ k0_pay60 v8 v79 (ix2 r (col2 l)) ∧ z ≤ k0_pay60 v8 v79 (ix2 r (col3 l)) := by
  unfold k0_pay71
  simp only [minimumf_apply, slice0_apply, slice1_apply, slice2_apply, slice3_apply, le_min_iff, and_assoc]

/-- The three later steps of this kind are the same function (their products formed on the spot are the same function of
    the two operands). -/
theorem pay103_eq : @k0_pay103 Ideal _ = @k0_pay71 Ideal _ := rfl
theorem pay136_eq : @k0_pay136 Ideal _ = @k0_pay71 Ideal _ := rfl
theorem pay169_eq : @k0_pay169 Ideal _ = @k0_pay71 Ideal _ := rfl

theorem pay103_le_iff (v8 : Vec Ideal S4096x256 .bf16) (v134 : FVec Ideal S4096x512 .f32)
    (v142 : FVec Ideal S4096x128 .f32) (v160 : Vec Ideal S512x256 .bf16) (z : EReal) (r : Fin 4096) (l : Fin 128) :
    z ≤ k0_pay103 v8 v134 v142 v160 (ix2 r l)
      ↔ z ≤ v142 (ix2 r l)
        ∧ z ≤ v134 (ix2 r (col0 l)) ∧ z ≤ v134 (ix2 r (col1 l)) ∧ z ≤ v134 (ix2 r (col2 l)) ∧ z ≤ v134 (ix2 r (col3 l))
        ∧ z ≤ k0_pay92 v8 v160 (ix2 r (col0 l)) ∧ z ≤ k0_pay92 v8 v160 (ix2 r (col1 l))
        ∧ z ≤ k0_pay92 v8 v160 (ix2 r (col2 l)) ∧ z ≤ k0_pay92 v8 v160 (ix2 r (col3 l)) :=
  pay71_le_iff v8 v134 v142 v160 z r l

theorem pay136_le_iff (v8 : Vec Ideal S4096x256 .bf16) (v215 : FVec Ideal S4096x512 .f32)
    (v223 : FVec Ideal S4096x128 .f32) (v241 : Vec Ideal S512x256 .bf16) (z : EReal) (r : Fin 4096) (l : Fin 128) :
    z ≤ k0_pay136 v8 v215 v223 v241 (ix2 r l)
      ↔ z ≤ v223 (ix2 r l)
        ∧ z ≤ v215 (ix2 r (col0 l)) ∧ z ≤ v215 (ix2 r (col1 l)) ∧ z ≤ v215 (ix2 r (col2 l)) ∧ z ≤ v215 (ix2 r (col3 l))
        ∧ z ≤ k0_pay125 v8 v241 (ix2 r (col0 l)) ∧ z ≤ k0_pay125 v8 v241 (ix2 r (col1 l))
        ∧ z ≤ k0_pay125 v8 v241 (ix2 r (col2 l)) ∧ z ≤ k0_pay125 v8 v241 (ix2 r (col3 l)) :=
  pay71_le_iff v8 v215 v223 v241 z r l

theorem pay169_le_iff (v8 : Vec Ideal S4096x256 .bf16) (v296 : FVec Ideal S4096x512 .f32)
    (v304 : FVec Ideal S4096x128 .f32) (v322 : Vec Ideal S512x256 .bf16) (z : EReal) (r : Fin 4096) (l : Fin 128) :
    z ≤ k0_pay169 v8 v296 v304 v322 (ix2 r l)
      ↔ z ≤ v304 (ix2 r l)
        ∧ z ≤ v296 (ix2 r (col0 l)) ∧ z ≤ v296 (ix2 r (col1 l)) ∧ z ≤ v296 (ix2 r (col2 l)) ∧ z ≤ v296 (ix2 r (col3 l))
        ∧ z ≤ k0_pay158 v8 v322 (ix2 r (col0 l)) ∧ z ≤ k0_pay158 v8 v322 (ix2 r (col1 l))
        ∧ z ≤ k0_pay158 v8 v322 (ix2 r (col2 l)) ∧ z ≤ k0_pay158 v8 v322 (ix2 r (col3 l)) :=
  pay71_le_iff v8 v296 v304 v322 z r l

/-- The first three slices of a product formed on the spot: its columns `l`, `128 + l`, `256 + l`. -/
theorem pay185_le_iff (v8 : Vec Ideal S4096x256 .bf16) (v376 : Vec Ideal S512x256 .bf16) (z : EReal) (r : Fin 4096)
    (l : Fin 128) :
    z ≤ k0_pay185 v8 v376 (ix2 r l)
      ↔ z ≤ k0_pay181 v8 v376 (ix2 r (col0 l)) ∧ z ≤ k0_pay181 v8 v376 (ix2 r (col1 l))
        ∧ z ≤ k0_pay181 v8 v376 (ix2 r (col2 l)) := by
  unfold k0_pay185
  simp only [minimumf_apply, slice0_apply, slice1_apply, slice2_apply, le_min_iff, and_assoc]

/-! ## The casts and reductions of the last steps, read at an entry -/

/-- A vector `[a]` cast to the column `[a, 1]` reads, at `(i, u)`, the vector at `i`. -/
theorem shapeCast_col_apply {a : ℕ} {α : Type} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A one-entry vector cast to `[1, 1, 1]` reads its one entry everywhere. -/
theorem shapeCast_1_111_apply {α : Type} (x : (⟨1, ![1]⟩ : Shape).Idx → α)
    (h : (⟨1, ![1]⟩ : Shape).ShapeCasts ⟨3, ![1, 1, 1]⟩) (j : (⟨3, ![1, 1, 1]⟩ : Shape).Idx) :
    shapeCast ⟨3, ![1, 1, 1]⟩ x h j = x (ix1 (0 : Fin 1)) :=
  shapeCast_apply x h _ _ (by
    have h0 : (j 0).val < 1 := (j 0).isLt
    have h1 : (j 1).val < 1 := (j 1).isLt
    have h2 : (j 2).val < 1 := (j 2).isLt
    rw [Shape.rowMajor_val_three, Shape.rowMajor_val_one]
    show (0 : ℕ) = ((j 0).val * 1 + (j 1).val) * 1 + (j 2).val
    omega)

/-- The indices of a `[1, a, 1]` array are the coordinates of its middle axis … -/
def idxEquiv_1a1 (a : ℕ) : (⟨3, ![1, a, 1]⟩ : Shape).Idx ≃ Fin a where
  toFun i := i 1
  invFun r := ix3 (0 : Fin 1) r (0 : Fin 1)
  left_inv i := by
    have h0 : i 0 = (0 : Fin 1) := Fin.ext (by have h : (i 0).val < 1 := (i 0).isLt; show (i 0).val = 0; omega)
    have h2 : i 2 = (0 : Fin 1) := Fin.ext (by have h : (i 2).val < 1 := (i 2).isLt; show (i 2).val = 0; omega)
    show ix3 (0 : Fin 1) (i 1) (0 : Fin 1) = i
    refine Eq.trans ?_ (eq_ix3 i).symm
    rw [h0, h2]
    rfl
  right_inv _ := rfl

/-- … so a sum over them is the sum over that axis. -/
theorem sum_idx_1a1 {M : Type*} [AddCommMonoid M] {a : ℕ} (f : (⟨3, ![1, a, 1]⟩ : Shape).Idx → M) :
    ∑ i, f i = ∑ r : Fin a, f (ix3 (0 : Fin 1) r (0 : Fin 1)) := by
  rw [← Equiv.sum_comp (idxEquiv_1a1 a).symm f]
  rfl

/-- The indices of a `[1, 1, a]` array are the coordinates of its last axis … -/
def idxEquiv_11a (a : ℕ) : (⟨3, ![1, 1, a]⟩ : Shape).Idx ≃ Fin a where
  toFun i := i 2
  invFun j := ix3 (0 : Fin 1) (0 : Fin 1) j
  left_inv i := by
    have h0 : i 0 = (0 : Fin 1) := Fin.ext (by have h : (i 0).val < 1 := (i 0).isLt; show (i 0).val = 0; omega)
    have h1 : i 1 = (0 : Fin 1) := Fin.ext (by have h : (i 1).val < 1 := (i 1).isLt; show (i 1).val = 0; omega)
    show ix3 (0 : Fin 1) (0 : Fin 1) (i 2) = i
    refine Eq.trans ?_ (eq_ix3 i).symm
    rw [h0, h1]
    rfl
  right_inv _ := rfl

/-- … so a sum over them is the sum over that axis. -/
theorem sum_idx_11a {M : Type*} [AddCommMonoid M] {a : ℕ} (f : (⟨3, ![1, 1, a]⟩ : Shape).Idx → M) :
    ∑ i, f i = ∑ j : Fin a, f (ix3 (0 : Fin 1) (0 : Fin 1) j) := by
  rw [← Equiv.sum_comp (idxEquiv_11a a).symm f]
  rfl

/-- A minimum reduction over one axis is the fold of `min`, from the accumulator's value, over that axis's
    coordinates. -/
theorem minReduction_single {s t : Shape} {φ : FTy} {a : Fin s.rank} (src : FVec Ideal s φ)
    (acc : BitVec φ.bits) (h : s.Reduces [a] t) (hφ : FKind.Formats φ) (hacc : acc = FKind.minimumf.neutral φ hφ)
    (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The minimum over the 128 lanes of row `r`, taken from `+∞`, is the infimum of the row's entries. -/
theorem rowMin_apply (x : FVec Ideal S4096x128 .f32) (r : Fin 4096) :
    multiReduction (F := Ideal) .minimumf [1] S4096 x 0x7F800000#32 reduces_S4096x128_S4096 (.inl rfl) rfl (ix1 r)
      = Finset.univ.inf fun l : Fin 128 => x (ix2 r l) := by
  refine (minReduction_single x 0x7F800000#32 reduces_S4096x128_S4096 (.inl rfl) rfl (ix1 r)).trans ?_
  have hl : (x ∘ reduces_S4096x128_S4096.lift (ix1 r)) = fun l : Fin 128 => x (ix2 r l) := by
    funext l
    exact congrArg x (funext fun c => Fin.ext (by match c with | ⟨0, _⟩ => rfl | ⟨1, _⟩ => rfl))
  rw [hl]
  show Finset.univ.fold min (Ideal.ofBits .f32 0x7F800000#32) _ = _
  rw [Cert.Consts.ofBits_inf_f32]
  rfl

/-! ## The last step: the final lane partial, the row minima, the clamp and the sum -/

/-- The last lane partial at `(r, l)`: the carried partial `v385`, the carried partial `v406` with the fourth slice of the
    block `v377`, then the four slices of the block `v401`. -/
def RP (v377 : FVec Ideal S4096x512 .f32) (v385 : FVec Ideal S4096x128 .f32) (v401 : FVec Ideal S4096x512 .f32)
    (v406 : FVec Ideal S4096x128 .f32) (r : Fin 4096) (l : Fin 128) : EReal :=
  min (min (v385 (ix2 r l)) (min (v406 (ix2 r l)) (v377 (ix2 r (col3 l)))))
    (min (min (min (v401 (ix2 r (col0 l))) (v401 (ix2 r (col1 l)))) (v401 (ix2 r (col2 l)))) (v401 (ix2 r (col3 l))))

/-- Its lower bounds. -/
theorem pay188_rp_le_iff (v377 : FVec Ideal S4096x512 .f32) (v385 : FVec Ideal S4096x128 .f32)
    (v401 : FVec Ideal S4096x512 .f32) (v406 : FVec Ideal S4096x128 .f32) (z : EReal) (r : Fin 4096) (l : Fin 128) :
    z ≤ RP v377 v385 v401 v406 r l
      ↔ z ≤ v385 (ix2 r l) ∧ z ≤ v406 (ix2 r l) ∧ z ≤ v377 (ix2 r (col3 l))
        ∧ z ≤ v401 (ix2 r (col0 l)) ∧ z ≤ v401 (ix2 r (col1 l)) ∧ z ≤ v401 (ix2 r (col2 l)) ∧ z ≤ v401 (ix2 r (col3 l)) := by
  unfold RP
  simp only [le_min_iff, and_assoc]

/-- The result of the last step: the loaded total plus the sum, over the 4096 rows, of the row's minimum over the 128
    lanes of the last partial, clamped at zero. The loaded total is the FIRST summand. -/
theorem pay188_apply (v377 : FVec Ideal S4096x512 .f32) (v385 : FVec Ideal S4096x128 .f32)
    (v401 : FVec Ideal S4096x512 .f32) (v406 : FVec Ideal S4096x128 .f32) (v442 : Vec Ideal S1x1 .f32) :
    k0_pay188 v377 v385 v401 v406 v442 (ix2 0 0)
      = v442 (ix2 0 0) + ∑ r : Fin 4096, max (Finset.univ.inf fun l : Fin 128 => RP v377 v385 v401 v406 r l) 0 := by
  unfold k0_pay188
  dsimp only
  rw [addf_apply, broadcast_apply]
  refine congrArg (fun t => v442 (ix2 0 0) + t) ?_
  unfold extractAt
  refine (shapeCast_1_111_apply _ _ _).trans ?_
  refine (Ideal.multiReduction_add_total _ _ _ (fun b => by match b with | ⟨0, _⟩ => rfl) _ _ _).trans ?_
  refine (sum_idx_1a1 _).trans ?_
  refine Finset.sum_congr rfl fun r _ => ?_
  refine (shapeCast_ab_1ab_apply _ _ 0 r 0).trans ?_
  rw [maximumf_apply, broadcast_apply, Ideal.ofBits_def, Ideal.ofBits_zero_f32]
  refine congrArg (fun t => max t 0) ?_
  refine (shapeCast_col_apply _ _ r 0).trans ?_
  refine (rowMin_apply _ r).trans ?_
  refine congrArg (Finset.inf Finset.univ) (funext fun l => ?_)
  unfold RP
  simp only [minimumf_apply, slice0_apply, slice1_apply, slice2_apply, slice3_apply]

/-! ## The running total: its store, its start, and the final quotient -/

/-- The stored total is the value handed over. -/
theorem pay1_apply (v : FVec Ideal S1x1 .f32) : k0_pay1 v (ix2 0 0) = v (ix2 0 0) := by
  unfold k0_pay1
  exact congrFun (shapeCast_self v _) _

/-- The total starts at zero. -/
theorem pay3_apply : k0_pay3 (F := Ideal) (ix2 0 0) = 0 := by
  unfold k0_pay3
  refine (congrFun (shapeCast_self _ _) _).trans ?_
  exact Ideal.ofBits_zero_f32

/-- The result: the row total plus the sum of the 8192 column minima, each clamped at zero, over 16384. The row total
    is the FIRST summand. -/
theorem pay2_apply (acc : Vec Ideal S1x1 .f32) (d2 : Vec Ideal S1x8192 .f32) :
    k0_pay2 acc d2 (ix2 0 0)
      = Ideal.div (acc (ix2 0 0) + ∑ j : Fin 8192, max (d2 (ix2 0 j)) 0) Cert.Spec.nTotal := by
  unfold k0_pay2
  dsimp only
  rw [divf_apply, addf_apply, broadcast_apply, broadcast_apply, Ideal.ofBits_def, Ideal.ofBits_def,
    Ideal.ofBits_zero_f32]
  refine congrArg (fun t => Ideal.div (acc (ix2 0 0) + t) Cert.Spec.nTotal) ?_
  unfold extractAt
  refine (shapeCast_1_111_apply _ _ _).trans ?_
  refine (Ideal.multiReduction_add_total _ _ _ (fun b => by match b with | ⟨0, _⟩ => rfl) _ _ _).trans ?_
  refine (sum_idx_11a _).trans ?_
  refine Finset.sum_congr rfl fun j _ => ?_
  refine (shapeCast_ab_1ab_apply _ _ 0 0 j).trans ?_
  rw [maximumf_apply, broadcast_apply]

end Cert.KernelIdealHand.VPay

end
-- ==== Proof.KernelIdealHand.RowMinGeneral.lean ====
import proofs.«173679_g9887014716187_cont_9to1c4b_714_26_alg».proof.Proof.KernelIdealHand.ValueLoadsY
import proofs.«173679_g9887014716187_cont_9to1c4b_714_26_alg».proof.Proof.KernelIdealHand.VPayRowMin
import proofs.«173679_g9887014716187_cont_9to1c4b_714_26_alg».proof.Proof.KernelIdealHand.VPayOperands

set_option maxRecDepth 16384

noncomputable section

namespace Cert.KernelIdealHand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! The row minima of a grid point, over abstract operands.

    At a grid point the body multiplies the row operand by each of the sixteen 512-row chunks of the column operand
    and folds every 4096 × 512 product block into one 4096 × 128 array of lane partials: entry `(r, l)` is the minimum
    of the entries of row `r` in the columns `l`, `128 + l`, `256 + l`, `384 + l` of every block. The last step takes
    the minimum over the 128 lanes of each row, clamps it at zero, sums over the rows and adds the sum to the total.

    A minimum is determined by its lower bounds, so the chain is followed as a chain of equivalences
    "`z` is below the partial at `(r, l)` ⟺ `z` is below each entry folded in so far". Every column `j < 8192` is
    column `128·h + l` of chunk `g` for exactly one `(g, h, l)`, so the minimum over the lanes of the final partial
    is the minimum over all 8192 columns. -/

open Idealize.ShloMosaic.ValueIdx Cert.KernelIdealHand.VPay

/-! ## The row minima's chain over abstract operands

The body folds the sixteen product blocks of a grid point into one 4096 × 128 array of lane partials, two chunks at
a time (chunks 0–1, 2–3, then one and two alternately), and the last step folds chunks 14 and 15 in, reduces the 128
lanes of each row, clamps and sums. The chain is stated once over an arbitrary row operand `X` and sixteen column
chunks `Y0 … Y15`; both grid points instantiate it. -/

section Chain

variable (X : Vec Ideal S4096x256 .bf16)
  (Y0 Y1 Y2 Y3 Y4 Y5 Y6 Y7 Y8 Y9 Y10 Y11 Y12 Y13 Y14 Y15 : Vec Ideal S512x256 .bf16)

/-- The lane partials after chunks 0 and 1. -/
def lanePart1 : FVec Ideal S4096x128 .f32 := k0_pay50 (k0_pay28 X Y0) (k0_pay37 X Y1) (k0_pay38 X Y0) (k0_pay39 X Y0)
/-- … after chunks 2 and 3. -/
def lanePart3 : FVec Ideal S4096x128 .f32 := k0_pay71 X (k0_pay49 X Y2) (lanePart1 X Y0 Y1) Y3
/-- … after chunk 4. -/
def lanePart4 : FVec Ideal S4096x128 .f32 := k0_pay82 (k0_pay70 X Y4) (lanePart3 X Y0 Y1 Y2 Y3)
/-- … after chunks 5 and 6. -/
def lanePart6 : FVec Ideal S4096x128 .f32 := k0_pay103 X (k0_pay81 X Y5) (lanePart4 X Y0 Y1 Y2 Y3 Y4) Y6
/-- … after chunk 7. -/
def lanePart7 : FVec Ideal S4096x128 .f32 := k0_pay115 (k0_pay102 X Y7) (lanePart6 X Y0 Y1 Y2 Y3 Y4 Y5 Y6)
/-- … after chunks 8 and 9. -/
def lanePart9 : FVec Ideal S4096x128 .f32 := k0_pay136 X (k0_pay114 X Y8) (lanePart7 X Y0 Y1 Y2 Y3 Y4 Y5 Y6 Y7) Y9
/-- … after chunk 10. -/
def lanePart10 : FVec Ideal S4096x128 .f32 := k0_pay148 (k0_pay135 X Y10) (lanePart9 X Y0 Y1 Y2 Y3 Y4 Y5 Y6 Y7 Y8 Y9)
/-- … after chunks 11 and 12. -/
def lanePart12 : FVec Ideal S4096x128 .f32 := k0_pay169 X (k0_pay147 X Y11) (lanePart10 X Y0 Y1 Y2 Y3 Y4 Y5 Y6 Y7 Y8 Y9 Y10) Y12
/-- … after chunk 13. -/
def lanePart13 : FVec Ideal S4096x128 .f32 := k0_pay182 (k0_pay168 X Y13) (lanePart12 X Y0 Y1 Y2 Y3 Y4 Y5 Y6 Y7 Y8 Y9 Y10 Y11 Y12)

/-- `z` is below the entries of row `r` of a block in the four columns that lane `l` meets. -/
def Below4 (z : EReal) (dg : FVec Ideal S4096x512 .f32) (r : Fin 4096) (l : Fin 128) : Prop :=
  z ≤ dg (ix2 r (col0 l)) ∧ z ≤ dg (ix2 r (col1 l)) ∧ z ≤ dg (ix2 r (col2 l)) ∧ z ≤ dg (ix2 r (col3 l))

variable (z : EReal) (r : Fin 4096) (l : Fin 128)

theorem lanePart1_le_iff :
    z ≤ lanePart1 X Y0 Y1 (ix2 r l) ↔ Below4 z (k0_pay28 X Y0) r l ∧ Below4 z (k0_pay28 X Y1) r l := by
  unfold lanePart1
  rw [pay50_le_iff, pay38_le_iff, pay39_le_iff, pay37_eq]
  simp only [Below4, and_assoc]

theorem lanePart3_le_iff :
    z ≤ lanePart3 X Y0 Y1 Y2 Y3 (ix2 r l)
      ↔ z ≤ lanePart1 X Y0 Y1 (ix2 r l) ∧ Below4 z (k0_pay28 X Y2) r l ∧ Below4 z (k0_pay28 X Y3) r l := by
  unfold lanePart3
  rw [pay71_le_iff, pay49_eq, pay60_eq]
  simp only [Below4, and_assoc]

theorem lanePart4_le_iff :
    z ≤ lanePart4 X Y0 Y1 Y2 Y3 Y4 (ix2 r l) ↔ z ≤ lanePart3 X Y0 Y1 Y2 Y3 (ix2 r l) ∧ Below4 z (k0_pay28 X Y4) r l := by
  unfold lanePart4
  rw [pay82_le_iff, pay70_eq]
  simp only [Below4, and_assoc]

theorem lanePart6_le_iff :
    z ≤ lanePart6 X Y0 Y1 Y2 Y3 Y4 Y5 Y6 (ix2 r l)
      ↔ z ≤ lanePart4 X Y0 Y1 Y2 Y3 Y4 (ix2 r l) ∧ Below4 z (k0_pay28 X Y5) r l ∧ Below4 z (k0_pay28 X Y6) r l := by
  unfold lanePart6
  rw [pay103_le_iff, pay81_eq, pay92_eq]
  simp only [Below4, and_assoc]

theorem lanePart7_le_iff :
    z ≤ lanePart7 X Y0 Y1 Y2 Y3 Y4 Y5 Y6 Y7 (ix2 r l) ↔ z ≤ lanePart6 X Y0 Y1 Y2 Y3 Y4 Y5 Y6 (ix2 r l) ∧ Below4 z (k0_pay28 X Y7) r l := by
  unfold lanePart7
  rw [pay115_le_iff, pay102_eq]
  simp only [Below4, and_assoc]

theorem lanePart9_le_iff :
    z ≤ lanePart9 X Y0 Y1 Y2 Y3 Y4 Y5 Y6 Y7 Y8 Y9 (ix2 r l)
      ↔ z ≤ lanePart7 X Y0 Y1 Y2 Y3 Y4 Y5 Y6 Y7 (ix2 r l) ∧ Below4 z (k0_pay28 X Y8) r l ∧ Below4 z (k0_pay28 X Y9) r l := by
  unfold lanePart9
  rw [pay136_le_iff, pay114_eq, pay125_eq]
  simp only [Below4, and_assoc]

theorem lanePart10_le_iff :
    z ≤ lanePart10 X Y0 Y1 Y2 Y3 Y4 Y5 Y6 Y7 Y8 Y9 Y10 (ix2 r l) ↔ z ≤ lanePart9 X Y0 Y1 Y2 Y3 Y4 Y5 Y6 Y7 Y8 Y9 (ix2 r l) ∧ Below4 z (k0_pay28 X Y10) r l := by
  unfold lanePart10
  rw [pay148_le_iff, pay135_eq]
  simp only [Below4, and_assoc]

theorem lanePart12_le_iff :
    z ≤ lanePart12 X Y0 Y1 Y2 Y3 Y4 Y5 Y6 Y7 Y8 Y9 Y10 Y11 Y12 (ix2 r l)
      ↔ z ≤ lanePart10 X Y0 Y1 Y2 Y3 Y4 Y5 Y6 Y7 Y8 Y9 Y10 (ix2 r l) ∧ Below4 z (k0_pay28 X Y11) r l ∧ Below4 z (k0_pay28 X Y12) r l := by
  unfold lanePart12
  rw [pay169_le_iff, pay147_eq, pay158_eq]
  simp only [Below4, and_assoc]

theorem lanePart13_le_iff :
    z ≤ lanePart13 X Y0 Y1 Y2 Y3 Y4 Y5 Y6 Y7 Y8 Y9 Y10 Y11 Y12 Y13 (ix2 r l) ↔ z ≤ lanePart12 X Y0 Y1 Y2 Y3 Y4 Y5 Y6 Y7 Y8 Y9 Y10 Y11 Y12 (ix2 r l) ∧ Below4 z (k0_pay28 X Y13) r l := by
  unfold lanePart13
  rw [pay182_le_iff, pay168_eq]
  simp only [Below4, and_assoc]

/-- The final lane partial of a row is above `z` exactly when every chunk's entries in the lane's four columns are:
    the sixteen chunks each appear once, each in its four lane groups. -/
theorem finalPart_le_iff :
    z ≤ RP (k0_pay181 X Y14) (lanePart13 X Y0 Y1 Y2 Y3 Y4 Y5 Y6 Y7 Y8 Y9 Y10 Y11 Y12 Y13) (k0_pay184 X Y15) (k0_pay185 X Y14) r l
      ↔ Below4 z (k0_pay28 X Y0) r l
        ∧ Below4 z (k0_pay28 X Y1) r l
        ∧ Below4 z (k0_pay28 X Y2) r l
        ∧ Below4 z (k0_pay28 X Y3) r l
        ∧ Below4 z (k0_pay28 X Y4) r l
        ∧ Below4 z (k0_pay28 X Y5) r l
        ∧ Below4 z (k0_pay28 X Y6) r l
        ∧ Below4 z (k0_pay28 X Y7) r l
        ∧ Below4 z (k0_pay28 X Y8) r l
        ∧ Below4 z (k0_pay28 X Y9) r l
        ∧ Below4 z (k0_pay28 X Y10) r l
        ∧ Below4 z (k0_pay28 X Y11) r l
        ∧ Below4 z (k0_pay28 X Y12) r l
        ∧ Below4 z (k0_pay28 X Y13) r l
        ∧ Below4 z (k0_pay28 X Y14) r l
        ∧ Below4 z (k0_pay28 X Y15) r l := by
  rw [pay188_rp_le_iff, pay185_le_iff, lanePart13_le_iff, lanePart12_le_iff, lanePart10_le_iff, lanePart9_le_iff,
    lanePart7_le_iff, lanePart6_le_iff, lanePart4_le_iff, lanePart3_le_iff, lanePart1_le_iff, pay181_eq, pay184_eq]
  simp only [Below4, and_assoc]

end Chain

/-! ## Lanes and chunks cover the columns -/

/-- A property of the 512 columns of a block that holds in the four columns of every lane holds in every column
    (column `cc` is column `128·h + l` with `h = cc / 128`, `l = cc % 128`). -/
theorem lanes_cover (f : Fin 512 → Prop) (h : ∀ l : Fin 128, f (col0 l) ∧ f (col1 l) ∧ f (col2 l) ∧ f (col3 l)) (cc : Fin 512) :
    f cc := by
  have hl : cc.val % 128 < 128 := Nat.mod_lt _ (by norm_num)
  obtain ⟨h0, h1, h2, h3⟩ := h ⟨cc.val % 128, hl⟩
  have hc := cc.isLt
  rcases (by omega : cc.val / 128 = 0 ∨ cc.val / 128 = 1 ∨ cc.val / 128 = 2 ∨ cc.val / 128 = 3) with e | e | e | e
  · rw [show cc = col0 ⟨cc.val % 128, hl⟩ from Fin.ext (by show cc.val = cc.val % 128; omega)]; exact h0
  · rw [show cc = col1 ⟨cc.val % 128, hl⟩ from Fin.ext (by show cc.val = 128 + cc.val % 128; omega)]; exact h1
  · rw [show cc = col2 ⟨cc.val % 128, hl⟩ from Fin.ext (by show cc.val = 256 + cc.val % 128; omega)]; exact h2
  · rw [show cc = col3 ⟨cc.val % 128, hl⟩ from Fin.ext (by show cc.val = 384 + cc.val % 128; omega)]; exact h3

/-- A property of the 8192 columns that holds at every column of every chunk holds at every column (column `j` is
    column `j % 512` of chunk `j / 512`). -/
theorem chunks_cover (f : Fin 8192 → Prop) (h : ∀ (g : Fin 16) (cc : Fin 512), f (colOf g cc)) (j : Fin 8192) : f j := by
  have hj := j.isLt
  have e : j = colOf ⟨j.val / 512, by omega⟩ ⟨j.val % 512, Nat.mod_lt _ (by norm_num)⟩ :=
    Fin.ext (by show j.val = 512 * (j.val / 512) + j.val % 512; omega)
  rw [e]; exact h _ _

/-- A property of the sixteen chunks, chunk by chunk. -/
theorem forall_fin16 (p : Fin 16 → Prop) :
    (∀ g, p g) ↔ p 0 ∧ p 1 ∧ p 2 ∧ p 3 ∧ p 4 ∧ p 5 ∧ p 6 ∧ p 7 ∧ p 8 ∧ p 9 ∧ p 10 ∧ p 11 ∧ p 12 ∧ p 13 ∧ p 14 ∧ p 15 := by
  constructor
  · intro h; exact ⟨h _, h _, h _, h _, h _, h _, h _, h _, h _, h _, h _, h _, h _, h _, h _, h _⟩
  · rintro ⟨h0, h1, h2, h3, h4, h5, h6, h7, h8, h9, h10, h11, h12, h13, h14, h15⟩ g
    fin_cases g <;> assumption

/-- A block whose row `r` holds the values `kd` at chunk `g`'s columns: `z` is below the block's entries in every
    lane's four columns exactly when it is below `kd` on the whole chunk. -/
theorem below4_forall (z : EReal) (dg : FVec Ideal S4096x512 .f32) (kd : Fin 8192 → EReal) (g : Fin 16) (r : Fin 4096)
    (h : ∀ cc : Fin 512, dg (ix2 r cc) = kd (colOf g cc)) :
    (∀ l, Below4 z dg r l) ↔ ∀ cc : Fin 512, z ≤ kd (colOf g cc) := by
  constructor
  · intro H cc
    refine lanes_cover (fun cc => z ≤ kd (colOf g cc)) (fun l => ?_) cc
    have hl := H l
    unfold Below4 at hl
    rw [h, h, h, h] at hl
    exact hl
  · intro H l
    unfold Below4
    rw [h, h, h, h]
    exact ⟨H _, H _, H _, H _⟩

section RowInf

variable (X : Vec Ideal S4096x256 .bf16)
  (Y0 Y1 Y2 Y3 Y4 Y5 Y6 Y7 Y8 Y9 Y10 Y11 Y12 Y13 Y14 Y15 : Vec Ideal S512x256 .bf16)

/-- When chunk `g`'s product block holds, in row `r`, the values `kd` at the chunk's columns, the minimum over the 128
    lanes of the final lane partial is the minimum of `kd` over all 8192 columns: the two have the same lower bounds. -/
theorem rowInf_chain (kd : Fin 8192 → EReal) (r : Fin 4096)
    (h0 : ∀ cc : Fin 512, k0_pay28 X Y0 (ix2 r cc) = kd (colOf 0 cc))
    (h1 : ∀ cc : Fin 512, k0_pay28 X Y1 (ix2 r cc) = kd (colOf 1 cc))
    (h2 : ∀ cc : Fin 512, k0_pay28 X Y2 (ix2 r cc) = kd (colOf 2 cc))
    (h3 : ∀ cc : Fin 512, k0_pay28 X Y3 (ix2 r cc) = kd (colOf 3 cc))
    (h4 : ∀ cc : Fin 512, k0_pay28 X Y4 (ix2 r cc) = kd (colOf 4 cc))
    (h5 : ∀ cc : Fin 512, k0_pay28 X Y5 (ix2 r cc) = kd (colOf 5 cc))
    (h6 : ∀ cc : Fin 512, k0_pay28 X Y6 (ix2 r cc) = kd (colOf 6 cc))
    (h7 : ∀ cc : Fin 512, k0_pay28 X Y7 (ix2 r cc) = kd (colOf 7 cc))
    (h8 : ∀ cc : Fin 512, k0_pay28 X Y8 (ix2 r cc) = kd (colOf 8 cc))
    (h9 : ∀ cc : Fin 512, k0_pay28 X Y9 (ix2 r cc) = kd (colOf 9 cc))
    (h10 : ∀ cc : Fin 512, k0_pay28 X Y10 (ix2 r cc) = kd (colOf 10 cc))
    (h11 : ∀ cc : Fin 512, k0_pay28 X Y11 (ix2 r cc) = kd (colOf 11 cc))
    (h12 : ∀ cc : Fin 512, k0_pay28 X Y12 (ix2 r cc) = kd (colOf 12 cc))
    (h13 : ∀ cc : Fin 512, k0_pay28 X Y13 (ix2 r cc) = kd (colOf 13 cc))
    (h14 : ∀ cc : Fin 512, k0_pay28 X Y14 (ix2 r cc) = kd (colOf 14 cc))
    (h15 : ∀ cc : Fin 512, k0_pay28 X Y15 (ix2 r cc) = kd (colOf 15 cc)) :
    (Finset.univ.inf fun l : Fin 128 => RP (k0_pay181 X Y14) (lanePart13 X Y0 Y1 Y2 Y3 Y4 Y5 Y6 Y7 Y8 Y9 Y10 Y11 Y12 Y13) (k0_pay184 X Y15) (k0_pay185 X Y14) r l)
      = Finset.univ.inf kd := by
  refine eq_of_forall_le_iff fun z => ?_
  rw [Finset.le_inf_iff, Finset.le_inf_iff]
  simp only [Finset.mem_univ, forall_const, finalPart_le_iff, forall_and]
  rw [below4_forall z _ kd 0 r h0, below4_forall z _ kd 1 r h1, below4_forall z _ kd 2 r h2, below4_forall z _ kd 3 r h3, below4_forall z _ kd 4 r h4, below4_forall z _ kd 5 r h5, below4_forall z _ kd 6 r h6, below4_forall z _ kd 7 r h7, below4_forall z _ kd 8 r h8, below4_forall z _ kd 9 r h9, below4_forall z _ kd 10 r h10, below4_forall z _ kd 11 r h11, below4_forall z _ kd 12 r h12, below4_forall z _ kd 13 r h13, below4_forall z _ kd 14 r h14, below4_forall z _ kd 15 r h15]
  constructor
  · intro H j
    exact chunks_cover (fun j => z ≤ kd j) ((forall_fin16 fun g => ∀ cc : Fin 512, z ≤ kd (colOf g cc)).mpr H) j
  · intro H
    exact (forall_fin16 fun g => ∀ cc : Fin 512, z ≤ kd (colOf g cc)).mp fun g cc => H _

/-- So the accumulator step adds, to the total it loads, the sum over the block's rows of the clamped row minima of
    the specification's distances. -/
theorem acc_chain (x0 x1 : Vec Ideal S8192x128 .f32) (b : Fin 2)
    (h0 : ∀ (r : Fin 4096) (cc : Fin 512), k0_pay28 X Y0 (ix2 r cc) = Cert.Spec.kdist x0 x1 (Cert.Spec.rowOf b r) (colOf 0 cc))
    (h1 : ∀ (r : Fin 4096) (cc : Fin 512), k0_pay28 X Y1 (ix2 r cc) = Cert.Spec.kdist x0 x1 (Cert.Spec.rowOf b r) (colOf 1 cc))
    (h2 : ∀ (r : Fin 4096) (cc : Fin 512), k0_pay28 X Y2 (ix2 r cc) = Cert.Spec.kdist x0 x1 (Cert.Spec.rowOf b r) (colOf 2 cc))
    (h3 : ∀ (r : Fin 4096) (cc : Fin 512), k0_pay28 X Y3 (ix2 r cc) = Cert.Spec.kdist x0 x1 (Cert.Spec.rowOf b r) (colOf 3 cc))
    (h4 : ∀ (r : Fin 4096) (cc : Fin 512), k0_pay28 X Y4 (ix2 r cc) = Cert.Spec.kdist x0 x1 (Cert.Spec.rowOf b r) (colOf 4 cc))
    (h5 : ∀ (r : Fin 4096) (cc : Fin 512), k0_pay28 X Y5 (ix2 r cc) = Cert.Spec.kdist x0 x1 (Cert.Spec.rowOf b r) (colOf 5 cc))
    (h6 : ∀ (r : Fin 4096) (cc : Fin 512), k0_pay28 X Y6 (ix2 r cc) = Cert.Spec.kdist x0 x1 (Cert.Spec.rowOf b r) (colOf 6 cc))
    (h7 : ∀ (r : Fin 4096) (cc : Fin 512), k0_pay28 X Y7 (ix2 r cc) = Cert.Spec.kdist x0 x1 (Cert.Spec.rowOf b r) (colOf 7 cc))
    (h8 : ∀ (r : Fin 4096) (cc : Fin 512), k0_pay28 X Y8 (ix2 r cc) = Cert.Spec.kdist x0 x1 (Cert.Spec.rowOf b r) (colOf 8 cc))
    (h9 : ∀ (r : Fin 4096) (cc : Fin 512), k0_pay28 X Y9 (ix2 r cc) = Cert.Spec.kdist x0 x1 (Cert.Spec.rowOf b r) (colOf 9 cc))
    (h10 : ∀ (r : Fin 4096) (cc : Fin 512), k0_pay28 X Y10 (ix2 r cc) = Cert.Spec.kdist x0 x1 (Cert.Spec.rowOf b r) (colOf 10 cc))
    (h11 : ∀ (r : Fin 4096) (cc : Fin 512), k0_pay28 X Y11 (ix2 r cc) = Cert.Spec.kdist x0 x1 (Cert.Spec.rowOf b r) (colOf 11 cc))
    (h12 : ∀ (r : Fin 4096) (cc : Fin 512), k0_pay28 X Y12 (ix2 r cc) = Cert.Spec.kdist x0 x1 (Cert.Spec.rowOf b r) (colOf 12 cc))
    (h13 : ∀ (r : Fin 4096) (cc : Fin 512), k0_pay28 X Y13 (ix2 r cc) = Cert.Spec.kdist x0 x1 (Cert.Spec.rowOf b r) (colOf 13 cc))
    (h14 : ∀ (r : Fin 4096) (cc : Fin 512), k0_pay28 X Y14 (ix2 r cc) = Cert.Spec.kdist x0 x1 (Cert.Spec.rowOf b r) (colOf 14 cc))
    (h15 : ∀ (r : Fin 4096) (cc : Fin 512), k0_pay28 X Y15 (ix2 r cc) = Cert.Spec.kdist x0 x1 (Cert.Spec.rowOf b r) (colOf 15 cc))
    (v442 : Vec Ideal S1x1 .f32) :
    k0_pay188 (k0_pay181 X Y14) (lanePart13 X Y0 Y1 Y2 Y3 Y4 Y5 Y6 Y7 Y8 Y9 Y10 Y11 Y12 Y13) (k0_pay184 X Y15) (k0_pay185 X Y14) v442 (ix2 0 0)
      = v442 (ix2 0 0) + ∑ r : Fin 4096, Cert.Spec.kRowMin x0 x1 (Cert.Spec.rowOf b r) := by
  rw [pay188_apply]
  refine congrArg (fun t => v442 (ix2 0 0) + t) (Finset.sum_congr rfl fun r _ => ?_)
  unfold Cert.Spec.kRowMin Cert.Spec.clamp
  rw [rowInf_chain X Y0 Y1 Y2 Y3 Y4 Y5 Y6 Y7 Y8 Y9 Y10 Y11 Y12 Y13 Y14 Y15 (fun j => Cert.Spec.kdist x0 x1 (Cert.Spec.rowOf b r) j) r
    (h0 r) (h1 r) (h2 r) (h3 r) (h4 r) (h5 r) (h6 r) (h7 r) (h8 r) (h9 r) (h10 r) (h11 r) (h12 r) (h13 r) (h14 r) (h15 r)]

end RowInf

end Cert.KernelIdealHand

end
-- ==== Proof.KernelIdealHand.ValueAccA.lean ====
import proofs.«173679_g9887014716187_cont_9to1c4b_714_26_alg».proof.Proof.KernelIdealHand.ValueProd
import proofs.«173679_g9887014716187_cont_9to1c4b_714_26_alg».proof.Proof.KernelIdealHand.VPayRowMin
import proofs.«173679_g9887014716187_cont_9to1c4b_714_26_alg».proof.Proof.KernelIdealHand.VPayOperands
import proofs.«173679_g9887014716187_cont_9to1c4b_714_26_alg».proof.Proof.KernelIdealHand.RowMinGeneral
import Idealize.ShloMosaic.Lib.Pipeline.FrameBody
import Idealize.ShloMosaic.Lib.Pipeline.Value

set_option maxRecDepth 16384

noncomputable section

namespace Cert.KernelIdealHand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! The accumulator after the first grid point, read at its one index: the first point zeroes it, then adds the sum
    over rows 0..4095 of the clamped row minima. The last store to it covers it, so what it holds is that store's
    payload; the total the step loads is what the zeroing store left. -/

open Idealize.ShloMosaic.ValueIdx Cert.KernelIdealHand.VPay

variable (c : Dev nD) (x0 x1 : Vec Ideal S8192x128 .f32)

/-- The accumulator after the first point: zero plus the sum of the clamped row minima of rows 0..4095. -/
theorem accA_apply :
    accA (F := Ideal) c x0 x1 (ix2 0 0) = 0 + ∑ r : Fin 4096, Cert.Spec.kRowMin x0 x1 (Cert.Spec.rowOf 0 r) := by
  unfold accA
  rw [View.read_writes_junk_apply_eq_canon]
  have hz : (![0, 0] : Fin S1x1.rank → ℕ) = fun _ => 0 := funext fun a => by fin_cases a <;> rfl
  have e : (runA (F := Ideal) c x0 x1 d2Before).2.2.2.1
      = ⟨Rect.unit ![0, 0] S1x1.size inb_S1x1_S1x1_0_0,
          k0_pay1 (k0_pay188 (k0_pay181 (XA c x0) (YA14 c x1))
            (lanePart13 (XA c x0) (YA0 c x1) (YA1 c x1) (YA2 c x1) (YA3 c x1) (YA4 c x1) (YA5 c x1) (YA6 c x1) (YA7 c x1) (YA8 c x1) (YA9 c x1) (YA10 c x1) (YA11 c x1) (YA12 c x1) (YA13 c x1))
            (k0_pay184 (XA c x0) (YA15 c x1)) (k0_pay185 (XA c x0) (YA14 c x1)) (kernelRunA.sl.v442 c scM4))⟩
        :: kernelRunA.sl.HS4_1 := rfl
  rw [e, View.canon_cons_unit_zero hz, pay1_apply,
    acc_chain (XA c x0) (YA0 c x1) (YA1 c x1) (YA2 c x1) (YA3 c x1) (YA4 c x1) (YA5 c x1) (YA6 c x1) (YA7 c x1) (YA8 c x1) (YA9 c x1) (YA10 c x1) (YA11 c x1) (YA12 c x1) (YA13 c x1) (YA14 c x1) (YA15 c x1) x0 x1 0
      (prodA0 c x0 x1) (prodA1 c x0 x1) (prodA2 c x0 x1) (prodA3 c x0 x1) (prodA4 c x0 x1) (prodA5 c x0 x1) (prodA6 c x0 x1) (prodA7 c x0 x1) (prodA8 c x0 x1) (prodA9 c x0 x1) (prodA10 c x0 x1) (prodA11 c x0 x1) (prodA12 c x0 x1) (prodA13 c x0 x1) (prodA14 c x0 x1) (prodA15 c x0 x1)]
  have ev : kernelRunA.sl.v442 (F := Ideal) c scM4 = k0_pay3 (F := Ideal) :=
    View.readCov_unit_zero (Val := Elt Ideal) scM4.view hz inb_S1x1_S1x1_0_0 (k0_pay3 (F := Ideal))
  rw [ev, pay3_apply]

end Cert.KernelIdealHand

end
-- ==== Proof.KernelIdealHand.ValueAccB.lean ====
import proofs.«173679_g9887014716187_cont_9to1c4b_714_26_alg».proof.Proof.KernelIdealHand.ValueProd
import proofs.«173679_g9887014716187_cont_9to1c4b_714_26_alg».proof.Proof.KernelIdealHand.ValueBNames
import proofs.«173679_g9887014716187_cont_9to1c4b_714_26_alg».proof.Proof.KernelIdealHand.VPayRowMin
import proofs.«173679_g9887014716187_cont_9to1c4b_714_26_alg».proof.Proof.KernelIdealHand.RowMinGeneral
import Idealize.ShloMosaic.Lib.Pipeline.FrameBody
import Idealize.ShloMosaic.Lib.Pipeline.Value

set_option maxRecDepth 16384

noncomputable section

namespace Cert.KernelIdealHand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! The accumulator after the last grid point, read at its one index. The last point loads the running total, adds the
    sum over rows 4096…8191 of the clamped row minima, and stores the result over the whole 1 × 1 buffer; a load of
    that buffer afterwards reads the stored value. The row minima are those of the chain of lane partials over the row
    operand and the sixteen chunks of the column operand the point loads, and each product block of these operands is
    the specification's distance. -/

open Idealize.ShloMosaic.ValueIdx Cert.KernelIdealHand.VPay

/-- Chunk `g` of the column operand as the last point's load spells it: rows `512·g … 512·g + 511` of the scratch. -/
def loadB (xs1 : Vec Ideal S8192x256 .bf16) (g : Fin 16) : Vec Ideal S512x256 .bf16 :=
  View.readAt (Elt Ideal) scM1.view (Rect.unit (s := S8192x256) (k0_off16 (grid0.coords t0_1) (BitVec.ofNat 32 (512 * g.val))) S512x256.size (k0_off16_inb (grid0.coords t0_1) g)).toLoadRect ((Memref.isWhole_whole cc0_scratch1 : scM1.IsWhole).unread xs1)

/-- It is those rows of the contents. -/
theorem loadB_eq (xs1 : Vec Ideal S8192x256 .bf16) (g : Fin 16) : loadB xs1 g = YB g xs1 := loadYB_eq g xs1

/-- The running total as the last point's load spells it. -/
def loadAccB (xs4 : Vec Ideal S1x1 .f32) : Vec Ideal S1x1 .f32 :=
  View.readAt (Elt Ideal) scM4.view (Rect.unit (s := S1x1) ![0, 0] S1x1.size inb_S1x1_S1x1_0_0).toLoadRect ((Memref.isWhole_whole cc0_scratch4 : scM4.IsWhole).unread xs4)

/-- The 1 × 1 buffer's offsets are zero. -/
theorem zero_off11 : (![0, 0] : Fin S1x1.rank → ℕ) = fun _ => 0 := funext fun a => by fin_cases a <;> rfl

/-- A load of the whole 1 × 1 buffer reads its contents. -/
theorem loadAccB_eq (xs4 : Vec Ideal S1x1 .f32) : loadAccB xs4 = xs4 := by
  unfold loadAccB
  rw [View.readAt_eq_ld, Memref.IsWhole.read_unread]
  exact View.ld_unit_zero zero_off11 inb_S1x1_S1x1_0_0 xs4

/-- The accumulator after the last point: the total it loaded plus the sum of the clamped row minima of rows
    4096…8191. -/
theorem ACCB_apply (c : Dev nD) (x0 x1 : Vec Ideal S8192x128 .f32) (xs0 : Vec Ideal S4096x256 .bf16) (xs1 : Vec Ideal S8192x256 .bf16) (xs4 : Vec Ideal S1x1 .f32)
    (h0 : ∀ (r : Fin 4096) (k : Fin 256), 132 ≤ k.val → xs0 (ix2 r k) = 0)
    (h1 : ∀ (j : Fin 8192) (k : Fin 256), xs1 (ix2 j k) = Cert.Spec.yAug x1 j k) :
    ACCB c x0 xs0 xs1 xs4 (ix2 0 0) = xs4 (ix2 0 0) + ∑ r : Fin 4096, Cert.Spec.kRowMin x0 x1 (Cert.Spec.rowOf 1 r) := by
  unfold ACCB kernelRunB.sl.v459 kernelRunB.sl.HS4_1
  rw [View.readCov_unit_zero (Val := Elt Ideal) scM4.view zero_off11 inb_S1x1_S1x1_0_0, pay1_apply]
  have e : kernelRunB.sl.r_30 (F := Ideal) c (grid0.coords t0_1) (ms0_0 t0_1) (hs0_0 t0_1) scM0 (Memref.isWhole_whole _) scM1 (Memref.isWhole_whole _) scM4 (Memref.isWhole_whole _) hB2 x0 xs0 xs1 xs4
      = k0_pay188 (k0_pay181 (XB c x0 xs0) (loadB xs1 14))
          (lanePart13 (XB c x0 xs0) (loadB xs1 0) (loadB xs1 1) (loadB xs1 2) (loadB xs1 3) (loadB xs1 4) (loadB xs1 5) (loadB xs1 6) (loadB xs1 7) (loadB xs1 8) (loadB xs1 9) (loadB xs1 10) (loadB xs1 11) (loadB xs1 12) (loadB xs1 13))
          (k0_pay184 (XB c x0 xs0) (loadB xs1 15)) (k0_pay185 (XB c x0 xs0) (loadB xs1 14)) (loadAccB xs4) := rfl
  rw [e]
  simp only [loadB_eq, loadAccB_eq]
  exact acc_chain (XB c x0 xs0) (YB 0 xs1) (YB 1 xs1) (YB 2 xs1) (YB 3 xs1) (YB 4 xs1) (YB 5 xs1) (YB 6 xs1) (YB 7 xs1) (YB 8 xs1) (YB 9 xs1) (YB 10 xs1) (YB 11 xs1) (YB 12 xs1) (YB 13 xs1) (YB 14 xs1) (YB 15 xs1) x0 x1 1
    (prodB c x0 x1 0 xs0 xs1 h0 h1) (prodB c x0 x1 1 xs0 xs1 h0 h1) (prodB c x0 x1 2 xs0 xs1 h0 h1) (prodB c x0 x1 3 xs0 xs1 h0 h1) (prodB c x0 x1 4 xs0 xs1 h0 h1) (prodB c x0 x1 5 xs0 xs1 h0 h1) (prodB c x0 x1 6 xs0 xs1 h0 h1) (prodB c x0 x1 7 xs0 xs1 h0 h1) (prodB c x0 x1 8 xs0 xs1 h0 h1) (prodB c x0 x1 9 xs0 xs1 h0 h1) (prodB c x0 x1 10 xs0 xs1 h0 h1) (prodB c x0 x1 11 xs0 xs1 h0 h1) (prodB c x0 x1 12 xs0 xs1 h0 h1) (prodB c x0 x1 13 xs0 xs1 h0 h1) (prodB c x0 x1 14 xs0 xs1 h0 h1) (prodB c x0 x1 15 xs0 xs1 h0 h1) xs4

end Cert.KernelIdealHand

end
-- ==== Proof.KernelIdealHand.ValueOutB.lean ====
import proofs.«173679_g9887014716187_cont_9to1c4b_714_26_alg».proof.Proof.KernelIdealHand.ValueBNames
import proofs.«173679_g9887014716187_cont_9to1c4b_714_26_alg».proof.Proof.KernelIdealHand.FrameData
import proofs.«173679_g9887014716187_cont_9to1c4b_714_26_alg».proof.Proof.KernelIdealHand.VPayRowMin
import Idealize.ShloMosaic.Lib.Pipeline.Value

set_option maxRecDepth 16384

noncomputable section

namespace Cert.KernelIdealHand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.KernelIdealHand.VPay

/-! The result block after the last point, read at its one index. The last point's run stores into the result block
    once, through the whole block, the mean formed from the accumulator and the column-minimum scratch as the final
    conditional loads them. So the block read back is that one payload: the accumulator plus the sum of the 8192 column
    minima clamped at zero, over 16384. -/

/-- The offsets `(0, 0)` are the zero offsets. -/
theorem outB_off : (![0, 0] : Fin 2 → Nat) = fun _ => 0 := by
  funext a
  match a with
  | ⟨0, _⟩ => rfl
  | ⟨1, _⟩ => rfl

/-- The result block the last point leaves, at its one index: the accumulator as loaded plus the sum over the columns
    of the loaded column minima clamped at zero, divided by 16384. -/
theorem outB_read (c : Dev nD) (x0 x1 : Vec Ideal S8192x128 .f32) (xs0 : Vec Ideal S4096x256 .bf16)
    (xs1 : Vec Ideal S8192x256 .bf16) (xs3 : Vec Ideal S1x8192 .f32) (xs4 : Vec Ideal S1x1 .f32) :
    (ms0_2 t0_1).view.read (Elt Ideal) ((ms0_2 t0_1).view.writes (Elt Ideal) (ms0_2 t0_1).view.junk
        (runB (F := Ideal) c x0 x1 xs0 xs1 xs3 xs4).1) (ix2 0 0)
      = Ideal.div (ACCB c x0 xs0 xs1 xs4 (ix2 0 0) + ∑ j : Fin 8192, max (D2B c x0 xs0 xs1 xs3 (ix2 0 j)) 0)
          Cert.Spec.nTotal := by
  rw [View.read_writes_junk_apply_eq_canon]
  have hL : (runB (F := Ideal) c x0 x1 xs0 xs1 xs3 xs4).1
      = [⟨Rect.unit ![0, 0] S1x1.size inb_S1x1_S1x1_0_0,
          k0_pay2 (ACCB c x0 xs0 xs1 xs4) (D2B c x0 xs0 xs1 xs3)⟩] := rfl
  rw [hL, View.canon_unit_zero outB_off]
  exact pay2_apply _ _

end Cert.KernelIdealHand

end
-- ==== Proof.SpecAlgebra.lean ====
import proofs.«173679_g9887014716187_cont_9to1c4b_714_26_alg».proof.Proof.Spec
import Mathlib.Data.EReal.Operations
import Mathlib.Data.EReal.Inv
import Mathlib.Algebra.BigOperators.Fin
import Mathlib.Data.Finset.Lattice.Fold
import Mathlib.Tactic.Ring

/-!
  The two arrangements of the chamfer distance agree on arrays of real entries.

  * The width-256 inner product of the augmented operands splits as the first 128 products
    `(xᵢₖ · (−2)) · yⱼₖ`, then `‖xᵢ‖² · 1`, `(‖xᵢ‖² − ‖xᵢ‖²) · 1`, `1 · ‖yⱼ‖²`, `1 · (‖yⱼ‖² − ‖yⱼ‖²)` and 124 products
    `0 · 0`. With every entry real, all of this is arithmetic of the reals carried through the coercion
    into the extended reals, where it equals `(‖xᵢ‖² + ‖yⱼ‖²) − 2 · ⟨xᵢ, yⱼ⟩`.
  * The clamp `max · 0` is monotone and fixes `⊤`, so it commutes with a finite minimum.
  * The 8192 rows are the rows of block 0 followed by the rows of block 1.
-/

noncomputable section

namespace Cert.Spec

open Idealize.ShloMosaic Idealize.ShloMosaic.ValueIdx

/-- The coercion of the reals into the extended reals carries finite sums to finite sums. -/
private theorem coe_sum {ι : Type} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The first 128 entries of the augmented row operand: the row itself, times −2. -/
private theorem xAug_lo (x : Arr) (i : Fin 8192) (k : Fin 128) :
    xAug x i (Fin.castAdd 128 k) = x (ix2 i k) * (-2) := by
  unfold xAug
  rw [dif_pos (show (Fin.castAdd 128 k).val < 128 from k.isLt)]
  rfl

/-- The first 128 entries of the augmented column operand: the row itself. -/
private theorem yAug_lo (y : Arr) (j : Fin 8192) (k : Fin 128) :
    yAug y j (Fin.castAdd 128 k) = y (ix2 j k) := by
  unfold yAug
  rw [dif_pos (show (Fin.castAdd 128 k).val < 128 from k.isLt)]
  rfl

/-- The last 128 products: four that carry the two squared norms, and 124 zeros. -/
private theorem aug_hi (x y : Arr) (i j : Fin 8192) :
    (∑ k : Fin 128, xAug x i (Fin.natAdd 128 k) * yAug y j (Fin.natAdd 128 k))
      = sq x i * 1 + (sq x i - sq x i) * 1 + 1 * sq y j + 1 * (sq y j - sq y j) := by
  have h := Fin.sum_univ_add (a := 4) (b := 124)
    (fun k : Fin (4 + 124) => xAug x i (Fin.natAdd 128 k) * yAug y j (Fin.natAdd 128 k))
  have hz : (∑ k : Fin 124, xAug x i (Fin.natAdd 128 (Fin.natAdd 4 k))
      * yAug y j (Fin.natAdd 128 (Fin.natAdd 4 k))) = 0 := by
    apply Finset.sum_eq_zero
    intro k _
    have hx0 : xAug x i (Fin.natAdd 128 (Fin.natAdd 4 k)) = 0 := by
      unfold xAug
      have hv : (Fin.natAdd 128 (Fin.natAdd 4 k)).val = 128 + (4 + k.val) := rfl
      rw [dif_neg (by rw [hv]; omega), if_neg (by rw [hv]; omega), if_neg (by rw [hv]; omega),
        if_neg (by rw [hv]; omega)]
    rw [hx0, zero_mul]
  refine h.trans ?_
  rw [hz, add_zero, Fin.sum_univ_four]
  simp [xAug, yAug]

/-- The kernel's inner product of width 256, split into its row part and its four norm terms. -/
private theorem kdist_split (x y : Arr) (i j : Fin 8192) :
    kdist x y i j = (∑ k : Fin 128, x (ix2 i k) * (-2) * y (ix2 j k))
      + (sq x i * 1 + (sq x i - sq x i) * 1 + 1 * sq y j + 1 * (sq y j - sq y j)) := by
  unfold kdist
  have h := Fin.sum_univ_add (a := 128) (b := 128)
    (fun k : Fin (128 + 128) => xAug x i k * yAug y j k)
  refine h.trans ?_
  rw [aug_hi]
  exact congrArg (· + _) (Finset.sum_congr rfl (fun k _ => by rw [xAug_lo, yAug_lo]))

theorem kdist_eq_dist (x y : Arr) (hx : Finite x) (hy : Finite y) (i j : Fin 8192) :
    kdist x y i j = dist x y i j := by
  choose a ha using hx
  choose b hb using hy
  have hsx : sq x i = ((∑ k : Fin 128, a (ix2 i k) * a (ix2 i k) : ℝ) : EReal) := by
    unfold sq
    rw [coe_sum]
    exact Finset.sum_congr rfl (fun k _ => by rw [ha, EReal.coe_mul])
  have hsy : sq y j = ((∑ k : Fin 128, b (ix2 j k) * b (ix2 j k) : ℝ) : EReal) := by
    unfold sq
    rw [coe_sum]
    exact Finset.sum_congr rfl (fun k _ => by rw [hb, EReal.coe_mul])
  have hd : dot x y i j = ((∑ k : Fin 128, a (ix2 i k) * b (ix2 j k) : ℝ) : EReal) := by
    unfold dot
    rw [coe_sum]
    exact Finset.sum_congr rfl (fun k _ => by rw [ha, hb, EReal.coe_mul])
  have h2 : (2 : EReal) = ((2 : ℝ) : EReal) := rfl
  have hm2 : (-2 : EReal) = ((-2 : ℝ) : EReal) := rfl
  have h1 : (1 : EReal) = ((1 : ℝ) : EReal) := rfl
  have hlo : (∑ k : Fin 128, x (ix2 i k) * (-2) * y (ix2 j k))
      = ((∑ k : Fin 128, a (ix2 i k) * (-2) * b (ix2 j k) : ℝ) : EReal) := by
    rw [coe_sum]
    exact Finset.sum_congr rfl (fun k _ => by rw [ha, hb, hm2, EReal.coe_mul, EReal.coe_mul])
  rw [kdist_split, hlo]
  unfold dist
  rw [hsx, hsy, hd, h2, h1]
  simp only [← EReal.coe_mul, ← EReal.coe_sub, ← EReal.coe_add]
  rw [EReal.coe_eq_coe_iff]
  have hsum : (∑ k : Fin 128, a (ix2 i k) * (-2) * b (ix2 j k))
      = -2 * ∑ k : Fin 128, a (ix2 i k) * b (ix2 j k) := by
    rw [Finset.mul_sum]
    exact Finset.sum_congr rfl (fun k _ => by ring)
  rw [hsum]
  ring

/-- The clamp at zero is monotone. -/
private theorem clamp_mono : Monotone clamp := fun _ _ h => max_le_max h le_rfl

theorem clamp_inf (f : Fin 8192 → EReal) :
    clamp (Finset.univ.inf f) = Finset.univ.inf fun j => clamp (f j) :=
  Finset.apply_inf_eq_inf_comp_of_linearOrder clamp clamp_mono (max_eq_left le_top)

theorem kRowMin_eq (x y : Arr) (hx : Finite x) (hy : Finite y) (i : Fin 8192) :
    kRowMin x y i = rowMin x y i := by
  unfold kRowMin rowMin
  rw [clamp_inf]
  exact congrArg _ (funext fun j => by rw [kdist_eq_dist x y hx hy])

theorem kColMin_eq (x y : Arr) (hx : Finite x) (hy : Finite y) (j : Fin 8192) :
    kColMin x y j = colMin x y j := by
  unfold kColMin colMin
  rw [clamp_inf]
  exact congrArg _ (funext fun i => by rw [kdist_eq_dist x y hx hy])

theorem sum_rowBlocks (f : Fin 8192 → EReal) :
    (0 + ∑ r : Fin 4096, f (rowOf 0 r)) + ∑ r : Fin 4096, f (rowOf 1 r) = ∑ i : Fin 8192, f i := by
  have h := Fin.sum_univ_add (a := 4096) (b := 4096) (fun k : Fin (4096 + 4096) => f k)
  rw [zero_add]
  refine Eq.trans ?_ h.symm
  have h0 : ∀ r : Fin 4096, rowOf 0 r = Fin.castAdd 4096 r := fun r => Fin.ext (by simp [rowOf])
  have h1 : ∀ r : Fin 4096, rowOf 1 r = Fin.natAdd 4096 r := fun r => Fin.ext (by
    show 4096 * (1 : Fin 2).val + r.val = 4096 + r.val
    rw [show (1 : Fin 2).val = 1 from rfl])
  simp only [h0, h1]

theorem kChamfer_eq (x y : Arr) (hx : Finite x) (hy : Finite y) : kChamfer x y = chamfer x y := by
  unfold kChamfer chamfer
  simp only [kRowMin_eq x y hx hy, kColMin_eq x y hx hy]
  rw [sum_rowBlocks (fun i => rowMin x y i)]

end Cert.Spec

end
-- ==== Proof.KernelIdealHand.ValueFinal.lean ====
import proofs.«173679_g9887014716187_cont_9to1c4b_714_26_alg».proof.Proof.KernelIdealHand.ValueTop
import proofs.«173679_g9887014716187_cont_9to1c4b_714_26_alg».proof.Proof.KernelIdealHand.ValueD2A
import proofs.«173679_g9887014716187_cont_9to1c4b_714_26_alg».proof.Proof.KernelIdealHand.ValueD2B
import proofs.«173679_g9887014716187_cont_9to1c4b_714_26_alg».proof.Proof.KernelIdealHand.ValueAccA
import proofs.«173679_g9887014716187_cont_9to1c4b_714_26_alg».proof.Proof.KernelIdealHand.ValueAccB
import proofs.«173679_g9887014716187_cont_9to1c4b_714_26_alg».proof.Proof.KernelIdealHand.ValueOutB
import proofs.«173679_g9887014716187_cont_9to1c4b_714_26_alg».proof.Proof.SpecAlgebra

set_option maxRecDepth 16384

noncomputable section

namespace Cert.KernelIdealHand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! The kernel's result at the ideal instance is the chamfer distance of its two arguments.

    After the last point the result block holds the mean formed from the accumulator and the column minima as that
    point's final conditional loads them. The accumulator is the first point's total (zero plus the first row block's
    clamped row minima) plus the last point's; each column's minimum is the smaller of the two row blocks' minima, that
    is the minimum over all rows. That is the specification's kernel arrangement, which over finite entries is the
    reference's. -/

open Idealize.ShloMosaic.ValueIdx Cert.Spec

/-- A minimum over all 8192 rows is the smaller of the two row blocks' minima. -/
theorem inf_rowBlocks (f : Fin 8192 → EReal) :
    min (Finset.univ.inf fun r : Fin 4096 => f (rowOf 0 r)) (Finset.univ.inf fun r : Fin 4096 => f (rowOf 1 r)) = Finset.univ.inf f := by
  refine eq_of_forall_le_iff fun z => ?_
  simp only [le_min_iff, Finset.le_inf_iff, Finset.mem_univ, true_implies]
  constructor
  · rintro ⟨hA, hB⟩ i
    by_cases h : i.val < 4096
    · have e : rowOf 0 ⟨i.val, h⟩ = i := Fin.ext (by simp [rowOf])
      exact e ▸ hA ⟨i.val, h⟩
    · have hi := i.isLt
      have e : rowOf 1 ⟨i.val - 4096, by omega⟩ = i := Fin.ext (by simp [rowOf]; omega)
      exact e ▸ hB ⟨i.val - 4096, by omega⟩
  · intro h
    exact ⟨fun r => h _, fun r => h _⟩

/-- The augmented row operand's padding columns are zero. -/
theorem xAug_pad (x : Arr) (i : Fin 8192) (k : Fin 256) (hk : 132 ≤ k.val) : xAug x i k = 0 := by
  unfold xAug
  rw [dif_neg (by omega), if_neg (by omega), if_neg (by omega), if_neg (by omega)]

/-- What the last point leaves in the result block, over what the first point left in the scratch buffers: the
    specification's kernel arrangement. -/
theorem outB_value (c : Dev nD) (x0 x1 : Vec Ideal S8192x128 .f32) :
    outB (F := Ideal) c x0 x1 x0 x1 (ix2 0 0) = kChamfer x0 x1 := by
  have h0 : ∀ (r : Fin 4096) (k : Fin 256), 132 ≤ k.val → xbA (F := Ideal) c x0 x1 (ix2 r k) = 0 := fun r k hk => by
    rw [xbA_apply]; exact xAug_pad _ _ _ hk
  have h1 := ybA_apply c x0 x1
  have hcol : ∀ j : Fin 8192,
      max (D2B c x0 (xbA (F := Ideal) c x0 x1) (ybA (F := Ideal) c x0 x1) (d2A (F := Ideal) c x0 x1) (ix2 0 j)) 0 = kColMin x0 x1 j := fun j => by
    rw [D2B_apply c x0 x1 _ _ _ h0 h1, d2A_apply]
    unfold kColMin clamp
    rw [inf_rowBlocks fun i => kdist x0 x1 i j]
  unfold outB
  rw [outB_read, ACCB_apply c x0 x1 _ _ _ h0 h1, accA_apply]
  simp only [hcol]
  rfl

variable (m : (ℓ : Loc nD τ sig) → Buf (Elt Ideal) ℓ) (ρ : Dev nD → PrngReg)

/-- The run with the result's value: over finite arguments every weakly fair execution terminates with the scalar
    result at the chamfer distance of the two arguments, and the arguments unchanged. -/
theorem run_value (hfin0 : ∀ c : Dev nD, Finite (m ((c.tc : Thread nD τ).loc main_arg0)))
    (hfin1 : ∀ c : Dev nD, Finite (m ((c.tc : Thread nD τ).loc main_arg1))) :
    θ_run defs (onTc (τ := τ) (main (F := Ideal))) ⟨m, fun _ => 0, ρ⟩ (fun r => ∀ c : Dev nD,
      r.2.mem ((c.tc : Thread nD τ).loc main_v0) = (fun _ => chamfer (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (funext fun _ => by
      unfold outAt
      rw [iblk_0, iblk_1, iblk_0, iblk_1, outB_value, kChamfer_eq _ _ (hfin0 c) (hfin1 c)]), (h c).2⟩) (run_out m ρ)

end Cert.KernelIdealHand

end
-- ==== Proof.RefValue.lean ====
import proofs.«173679_g9887014716187_cont_9to1c4b_714_26_alg».proof.Proof.Gen.ReferenceIdeal.Read
import proofs.«173679_g9887014716187_cont_9to1c4b_714_26_alg».proof.Proof.Spec
import Idealize.ShloMosaic.PureOps.Reduce
import Idealize.ShloMosaic.PureOps.Ideal.Laws

/-!
  The reference program's result, read at the extended reals, is the chamfer distance of the specification.

  Stage by stage: the squared norms are `0 + Σₖ xᵢₖ · xᵢₖ` (the zero dropped); their broadcasts to the square matrix
  add to `‖xᵢ‖² + ‖yⱼ‖²`; the contraction against the transposed second argument is `Σₖ xᵢₖ · yⱼₖ`; the word
  `0x40000000` is `2`; the maximum against the zero word is the clamp; a minimum-reduction along one axis
  from the word `0x7F800000 = ⊤` is the finite infimum over that axis's coordinate; the two total sums are
  `0 + Σ` over the 8192 minima; and the last quotient divides by the same word the specification keeps.
-/

noncomputable section

namespace Cert.RefValue

open Cert.ReferenceIdeal Cert.ReferenceIdeal.Gen Cert.ReferenceIdeal.Read Idealize.ShloMosaic
  Idealize.ShloMosaic.ValueIdx Idealize.ShloMosaic.TcCoe Idealize.SL.Sem Idealize.ShloMosaic.StableHlo

/-! ## The words -/

/-- Single precision `0x40000000`: sign 0, exponent 128, fraction 0, so `2^23 · 2^(128 − 127 − 23) = 2`. -/
private theorem ofBits_two : Ideal.ofBits .f32 0x40000000#32 = (2 : EReal) := by
  have hval : Ideal.ofBits .f32 0x40000000#32 = ((2 : ℝ) : EReal) := by
    simp [Ideal.ofBits, Ideal.ieee, -EReal.coe_mul]
    norm_num
  rw [hval]
  rfl

/-- Single precision `0x7F800000`: sign 0, exponent 255, fraction 0, the positive infinity. -/
private theorem ofBits_inf_f32 : Ideal.ofBits .f32 0x7F800000#32 = (⊤ : EReal) := by
  simp [Ideal.ofBits, Ideal.ieee]

/-! ## Sums and minima over index sets -/

/-- A rank-1 index set is its coordinate's range … -/
private def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
private theorem sum_idx1 {n : Nat} (f : (⟨1, ![n]⟩ : Shape).Idx → EReal) :
    ∑ i, f i = ∑ a : Fin n, f (ix1 a) := by
  rw [← Equiv.sum_comp (idxEquiv1 (n := n)).symm f]
  rfl

/-- The fold of the binary minimum from `⊤` over a finite set is the set's infimum. -/
private theorem fold_min_eq_inf {ι : Type} (s : Finset ι) (f : ι → EReal) :
    s.fold (FloatOps.minimumf (F := Ideal) (φ := .f32)) (⊤ : EReal) f = s.inf f := by
  classical
  induction s using Finset.induction_on with
  | empty => rw [Finset.fold_empty, Finset.inf_empty]
  | insert a s ha ih => rw [Finset.fold_insert ha, Finset.inf_insert, ih, Ideal.minimumf_def]

/-- A minimum-reduction of a square matrix along its second axis, from an initial value `⊤`: at row `i` the
    infimum over the columns. -/
private theorem reduceMin_rows (y : S8192x8192.Idx → EReal) (init : S_.Idx → EReal)
    (hinit : init (Shape.Idx.first h_S_) = ⊤) (i : Fin 8192) :
    Host.reduce (FloatOps.minimumf (F := Ideal) (φ := .f32)) y init reducesTo_S8192x8192_S8192_d1 h_S_ (ix1 i)
      = Finset.univ.inf fun j : Fin 8192 => y (ix2 i j) := by
  have hR : S8192x8192.Reduces [1] S8192 := by decide
  rw [Host.reduce_eq_fold_single _ y init reducesTo_S8192x8192_S8192_d1 hR h_S_ (ix1 i), hinit]
  refine (fold_min_eq_inf _ _).trans ?_
  refine congrArg (Finset.inf Finset.univ) (funext fun k : Fin 8192 => ?_)
  refine congrArg y (funext fun c => Fin.ext ?_)
  match c with
  | ⟨0, _⟩ => rfl
  | ⟨1, _⟩ => rfl

/-- A minimum-reduction of a square matrix along its first axis, from an initial value `⊤`: at column `j` the
    infimum over the rows. -/
private theorem reduceMin_cols (y : S8192x8192.Idx → EReal) (init : S_.Idx → EReal)
    (hinit : init (Shape.Idx.first h_S_) = ⊤) (j : Fin 8192) :
    Host.reduce (FloatOps.minimumf (F := Ideal) (φ := .f32)) y init reducesTo_S8192x8192_S8192_d0 h_S_ (ix1 j)
      = Finset.univ.inf fun i : Fin 8192 => y (ix2 i j) := by
  have hR : S8192x8192.Reduces [0] S8192 := by decide
  rw [Host.reduce_eq_fold_single _ y init reducesTo_S8192x8192_S8192_d0 hR h_S_ (ix1 j), hinit]
  refine (fold_min_eq_inf _ _).trans ?_
  refine congrArg (Finset.inf Finset.univ) (funext fun k : Fin 8192 => ?_)
  refine congrArg y (funext fun c => Fin.ext ?_)
  match c with
  | ⟨0, _⟩ => rfl
  | ⟨1, _⟩ => rfl

/-! ## The stages at an index -/

/-- The first argument's squared norms. -/
private theorem v1_at (x0 : (⟨S8192x128, .f32⟩ : BufTy).Contents (Elt Ideal)) (i : Fin 8192) :
    val_main_v1 (F := Ideal) x0 (ix1 i) = Cert.Spec.sq x0 i := by
  rw [val_main_v1_apply, val_main_cst_apply, Ideal.ofBits_def, Ideal.ofBits_zero_f32, zero_add]
  unfold Cert.Spec.sq
  refine Finset.sum_congr rfl fun k _ => ?_
  have e : idx_main_v1 (ix1 i) k = ix2 i k :=
    funext fun a => Fin.ext (by match a with | ⟨0, _⟩ => rfl | ⟨1, _⟩ => rfl)
  rw [val_main_v0_apply, Ideal.mulf_def, e]

/-- The second argument's squared norms. -/
private theorem v4_at (x1 : (⟨S8192x128, .f32⟩ : BufTy).Contents (Elt Ideal)) (j : Fin 8192) :
    val_main_v4 (F := Ideal) x1 (ix1 j) = Cert.Spec.sq x1 j := by
  rw [val_main_v4_apply, val_main_cst_0_apply, Ideal.ofBits_def, Ideal.ofBits_zero_f32, zero_add]
  unfold Cert.Spec.sq
  refine Finset.sum_congr rfl fun k _ => ?_
  have e : idx_main_v4 (ix1 j) k = ix2 j k :=
    funext fun a => Fin.ext (by match a with | ⟨0, _⟩ => rfl | ⟨1, _⟩ => rfl)
  rw [val_main_v3_apply, Ideal.mulf_def, e]

/-- The sum of the two broadcast norms. -/
private theorem v8_at (x0 x1 : (⟨S8192x128, .f32⟩ : BufTy).Contents (Elt Ideal)) (i j : Fin 8192) :
    val_main_v8 (F := Ideal) x0 x1 (ix2 i j) = Cert.Spec.sq x0 i + Cert.Spec.sq x1 j := by
  have e0 : idx_main_v2 (idx_main_v6 (ix2 i j)) = ix1 i :=
    funext fun a => Fin.ext (by match a with | ⟨0, _⟩ => rfl)
  have e1 : idx_main_v5 (idx_main_v7 (ix2 i j)) = ix1 j :=
    funext fun a => Fin.ext (by match a with | ⟨0, _⟩ => rfl)
  rw [val_main_v8_apply, val_main_v6_apply, val_main_v2_apply, val_main_v7_apply, val_main_v5_apply,
    Ideal.addf_def, e0, e1, v1_at, v4_at]

/-- The contraction against the transpose: the inner product of row `i` with row `j`. -/
private theorem v10_at (x0 x1 : (⟨S8192x128, .f32⟩ : BufTy).Contents (Elt Ideal)) (i j : Fin 8192) :
    val_main_v10 (F := Ideal) x0 x1 (ix2 i j) = Cert.Spec.dot x0 x1 i j := by
  rw [val_main_v10_apply]
  unfold Cert.Spec.dot
  refine Finset.sum_congr rfl fun k _ => ?_
  have el : lidx_main_v10 (ix2 i j) k = ix2 i k :=
    funext fun a => Fin.ext (by match a with | ⟨0, _⟩ => rfl | ⟨1, _⟩ => rfl)
  have er : idx_main_v9 (ridx_main_v10 (ix2 i j) k) = ix2 j k :=
    funext fun a => Fin.ext (by match a with | ⟨0, _⟩ => rfl | ⟨1, _⟩ => rfl)
  rw [val_main_v9_apply, el, er]

/-- The clamped squared distance. -/
private theorem v15_at (x0 x1 : (⟨S8192x128, .f32⟩ : BufTy).Contents (Elt Ideal)) (i j : Fin 8192) :
    val_main_v15 (F := Ideal) x0 x1 (ix2 i j) = Cert.Spec.clamp (Cert.Spec.dist x0 x1 i j) := by
  rw [val_main_v15_apply, val_main_v13_apply, val_main_v12_apply, val_main_v11_apply, val_main_cst_1_apply,
    val_main_v14_apply, val_main_cst_2_apply, v8_at, v10_at]
  simp only [Ideal.maximumf_def, Ideal.subf_def, Ideal.mulf_def, Ideal.ofBits_def, ofBits_two, Ideal.ofBits_zero_f32]
  rfl

/-- The row minima. -/
private theorem v16_at (x0 x1 : (⟨S8192x128, .f32⟩ : BufTy).Contents (Elt Ideal)) (i : Fin 8192) :
    val_main_v16 (F := Ideal) x0 x1 (ix1 i) = Cert.Spec.rowMin x0 x1 i := by
  unfold val_main_v16 Cert.Spec.rowMin
  generalize hy : val_main_v15 (F := Ideal) x0 x1 = y
  rw [reduceMin_rows y _ (by rw [val_main_cst_3_apply, Ideal.ofBits_def, ofBits_inf_f32]) i]
  refine congrArg (Finset.inf Finset.univ) (funext fun j => ?_)
  rw [← hy, v15_at]

/-- The column minima. -/
private theorem v17_at (x0 x1 : (⟨S8192x128, .f32⟩ : BufTy).Contents (Elt Ideal)) (j : Fin 8192) :
    val_main_v17 (F := Ideal) x0 x1 (ix1 j) = Cert.Spec.colMin x0 x1 j := by
  unfold val_main_v17 Cert.Spec.colMin
  generalize hy : val_main_v15 (F := Ideal) x0 x1 = y
  rw [reduceMin_cols y _ (by rw [val_main_cst_4_apply, Ideal.ofBits_def, ofBits_inf_f32]) j]
  refine congrArg (Finset.inf Finset.univ) (funext fun i => ?_)
  rw [← hy, v15_at]

/-! ## The result -/

/-- The reference's result, at the extended reals, is the chamfer distance of its two arguments. -/
theorem result_eq (x0 x1 : (⟨Cert.ReferenceIdeal.S8192x128, .f32⟩ : BufTy).Contents (Elt Ideal)) :
    Cert.ReferenceIdeal.Read.val_main_v21 (F := Ideal) x0 x1 = fun _ => Cert.Spec.chamfer x0 x1 := by
  funext i
  rw [val_main_v21_apply, val_main_v20_apply, val_main_v18_apply, val_main_v19_apply, val_main_cst_5_apply,
    val_main_cst_6_apply, val_main_cst_7_apply]
  simp only [Ideal.hostDivf_def, Ideal.addf_def, Ideal.ofBits_def, Ideal.ofBits_zero_f32, zero_add]
  rw [sum_idx1, sum_idx1]
  unfold Cert.Spec.chamfer
  simp only [v16_at, v17_at]

/-- Every weakly fair execution of the reference ends with its result buffer at the chamfer distance of the
    arguments' launch contents, and the arguments unchanged. -/
theorem run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ fun r => ∀ c : Dev Cert.ReferenceIdeal.nD,
      r.2.mem ((c.tc : Thread _ _).loc Cert.ReferenceIdeal.main_v21) = (fun _ => Cert.Spec.chamfer (m ((c.tc : Thread _ _).loc Cert.ReferenceIdeal.main_arg0)) (m ((c.tc : Thread _ _).loc Cert.ReferenceIdeal.main_arg1)))
      ∧ r.2.mem ((c.tc : Thread _ _).loc Cert.ReferenceIdeal.main_arg0) = m ((c.tc : Thread _ _).loc Cert.ReferenceIdeal.main_arg0)
      ∧ r.2.mem ((c.tc : Thread _ _).loc Cert.ReferenceIdeal.main_arg1) = m ((c.tc : Thread _ _).loc Cert.ReferenceIdeal.main_arg1) :=
  (θ_run _ _ _).mono (fun _ h c => ⟨((h c).1.trans (Cert.ReferenceIdeal.Read.val_main_v21_eq _ _)).trans (result_eq _ _), (h c).2⟩)
    (Cert.ReferenceIdeal.Value.run (F := Ideal) m ρ)

end Cert.RefValue

end
-- ==== Proof.Finiteness.lean ====
/- Finiteness of the two argument arrays, read back from the precondition. The precondition is the conjunction,
   over both arrays, of "every entry `x` satisfies `|x| < +∞`", where `|x| = max x (-x)` over the extended reals.
   An extended real is `-∞`, a real number, or `+∞`; at either infinity `max x (-x) = +∞`, which is not strictly
   below `+∞`, so an entry that passes the test is a real number. -/
import proofs.«173679_g9887014716187_cont_9to1c4b_714_26_alg».proof.Defs
import proofs.«173679_g9887014716187_cont_9to1c4b_714_26_alg».proof.Proof.Spec
import proofs.«173679_g9887014716187_cont_9to1c4b_714_26_alg».proof.Proof.Gen.Pre_finite_inputs
import Idealize.ShloMosaic.Lib.ReduceAll
import Idealize.ShloMosaic.Lib.ValueIdx
import Idealize.ShloMosaic.PureOps.Ideal.Laws
import Mathlib.Data.EReal.Basic

noncomputable section

namespace Cert.Finiteness

open Idealize.ShloMosaic Cert.Pre_finite_inputs

/-- The rank-0 shape has exactly one index: the function out of the empty set of axes. -/
instance subsingleton_scalar_idx : Subsingleton S_.Idx := ⟨fun a b => funext fun d => d.elim0⟩

/-- An extended real whose absolute value `max x (-x)` lies strictly below `+∞` is a real number: at `x = -∞` the
    maximum is `max (-∞) (+∞) = +∞`, at `x = +∞` it is `max (+∞) (-∞) = +∞`, and neither is below `+∞`. -/
theorem real_of_abs_lt_top (x : EReal) (h : max x (-x) < ⊤) : ∃ r : ℝ, x = (r : EReal) := by
  induction x using EReal.rec with
  | bot => simp at h
  | coe r => exact ⟨r, rfl⟩
  | top => simp at h

/-- The ordered "less than" test answers `1` exactly when the strict inequality holds. -/
theorem lt_of_cmp_olt (a b : EReal) (h : Ideal.cmp .olt a b = 1#1) : a < b := by
  by_contra hn
  simp [Ideal.cmp, hn] at h

/-- One array: if the conjunction over all entries of `|x| < +∞` is `1`, every entry is a real number. -/
theorem finite_of_all [hP : Facts] (a : Cert.Spec.Arr)
    (h : Host.reduce IntOp.andi
          (cmpf (F := Ideal) .olt (Host.absf (F := Ideal) (φ := .f32) a)
            (broadcastInDim S8192x128 ![] Facts.bcast_S_S8192x128 (constant (F := Ideal) S_ .f32 0x7F800000#32)))
          (constantI S_ 1 1#1) Facts.reducesTo_S8192x128_S_d0_1 Facts.h_S_ ValueIdx.ix0 = 1#1) :
    Cert.Spec.Finite a := by
  intro i
  have hi := Host.reduce_andi_all _ _ _ _ _ h i
  have hlt := lt_of_cmp_olt _ _ hi
  have htop : Ideal.ofBits .f32 0x7F800000#32 = (⊤ : EReal) := by simp [Ideal.ofBits, Ideal.ieee]
  have habs : max (a i) (-(a i)) < ⊤ := by
    rw [← htop]; exact hlt
  exact real_of_abs_lt_top _ habs

/-- The precondition at the extended reals: its single result word is the conjunction of the two arrays' tests, so
    if it is `1` then each test is `1`, and every entry of both arrays is a real number. -/
theorem finite_of_pre [hP : Cert.Pre_finite_inputs.Facts] (a0 a1 : Cert.Spec.Arr)
    (h : Cert.Pre_finite_inputs.fn (F := Ideal) a0 a1 = (fun _ => 1#1)) :
    Cert.Spec.Finite a0 ∧ Cert.Spec.Finite a1 := by
  have h0 := congrFun h ValueIdx.ix0
  dsimp only [Cert.Pre_finite_inputs.fn] at h0
  obtain ⟨hx, hy⟩ := IntOp.andi_eq_one.1 h0
  exact ⟨finite_of_all a0 hx, finite_of_all a1 hy⟩

end Cert.Finiteness

end
-- ==== Proof.lean ====
/- The proof of `Cert.Claim`: the chamfer-distance kernel against its jnp reference.

   The three frames: the kernel's two (word-level and idealized) from the frame run of its one pipeline — proof data
   that name, between the grid's two points, what the first point leaves in the four scratch buffers the kernel carries
   — and the reference's from its run. The ideal pass's seventeen rewrites are all the identity of a bf16 round trip at
   the ideal instance. The two idealized programs compute one number: over finite entries the kernel's augmented inner
   product is the reference's ‖x‖² + ‖y‖² − 2⟨x, y⟩, the clamp at zero commutes with a minimum, and the two block sums
   of row minima add up to the reference's one sum. -/
import proofs.«173679_g9887014716187_cont_9to1c4b_714_26_alg».proof.Defs
import proofs.«173679_g9887014716187_cont_9to1c4b_714_26_alg».proof.Proof.Gen.Kernel
import proofs.«173679_g9887014716187_cont_9to1c4b_714_26_alg».proof.Proof.Gen.KernelIdeal
import proofs.«173679_g9887014716187_cont_9to1c4b_714_26_alg».proof.Proof.Gen.ReferenceIdeal
import proofs.«173679_g9887014716187_cont_9to1c4b_714_26_alg».proof.Proof.Gen.Pre_finite_inputs
import proofs.«173679_g9887014716187_cont_9to1c4b_714_26_alg».proof.Proof.KernelHand.Frame
import proofs.«173679_g9887014716187_cont_9to1c4b_714_26_alg».proof.Proof.KernelIdealHand.ValueFinal
import proofs.«173679_g9887014716187_cont_9to1c4b_714_26_alg».proof.Proof.RefValue
import proofs.«173679_g9887014716187_cont_9to1c4b_714_26_alg».proof.Proof.SpecAlgebra
import proofs.«173679_g9887014716187_cont_9to1c4b_714_26_alg».proof.Proof.Finiteness
import Idealize.ShloMosaic.Adequacy
import Idealize.ShloMosaic.Init

noncomputable section

namespace Cert.Proof

open Idealize.ShloMosaic Idealize.SL.Sem

theorem frame_k : Cert.frame_Kernel := fun m ρ _ => Cert.KernelHand.frame (F := Bits) m ρ

theorem frame_ki : Cert.frame_KernelIdeal := fun m ρ _ => Cert.KernelIdealHand.frame (F := Ideal) m ρ

theorem frame_ri : Cert.frame_ReferenceIdeal := fun m ρ _ =>
  (θ_run Cert.ReferenceIdeal.defs _ _).mono (fun _ h c => (h c).2) (Cert.RefValue.run m ρ)

/-- Each of the ideal pass's seventeen rewrites replaces a widening of a narrowing by its operand: the identity at the
    ideal instance. -/
theorem preserves : Cert.preserves_Kernel_KernelIdeal :=
  ⟨IdealRules.truncf_extf.statement _ .f32 .bf16,
   IdealRules.truncf_extf.statement _ .f32 .bf16,
   IdealRules.truncf_extf.statement _ .f32 .bf16,
   IdealRules.truncf_extf.statement _ .f32 .bf16,
   IdealRules.truncf_extf.statement _ .f32 .bf16,
   IdealRules.truncf_extf.statement _ .f32 .bf16,
   IdealRules.truncf_extf.statement _ .f32 .bf16,
   IdealRules.truncf_extf.statement _ .f32 .bf16,
   IdealRules.truncf_extf.statement _ .f32 .bf16,
   IdealRules.truncf_extf.statement _ .f32 .bf16,
   IdealRules.truncf_extf.statement _ .f32 .bf16,
   IdealRules.truncf_extf.statement _ .f32 .bf16,
   IdealRules.truncf_extf.statement _ .f32 .bf16,
   IdealRules.truncf_extf.statement _ .f32 .bf16,
   IdealRules.truncf_extf.statement _ .f32 .bf16,
   IdealRules.truncf_extf.statement _ .f32 .bf16,
   IdealRules.truncf_extf.statement _ .f32 .bf16⟩

/-- Over finite arguments the idealized kernel ends with its scalar result at the chamfer distance of its arguments,
    and so does the idealized reference; the arguments agree. -/
theorem algebraic : Cert.algebraic_KernelIdeal_ReferenceIdeal := by
  intro m ρ m' ρ' hpre hagree
  have hfin := fun c => Cert.Finiteness.finite_of_pre _ _ (hpre c)
  refine ⟨fun c => fun _ => Cert.Spec.chamfer (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    Cert.KernelIdealHand.run_value m ρ (fun c => (hfin c).1) (fun c => (hfin c).2), ?_⟩
  refine (θ_run Cert.ReferenceIdeal.defs _ _).mono (fun _ h c => ⟨(h c).1.trans ?_, (h c).2⟩) (Cert.RefValue.run m' ρ')
  rw [(hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
